-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![6144, 768]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S768x384 : Shape := ⟨2, ![768, 384]⟩
abbrev S384x768 : Shape := ⟨2, ![384, 768]⟩
abbrev S_ : Shape := ⟨0, ![]⟩

class Facts : Prop where
  bcast_S_S768x384 : S_.BroadcastsInDim S768x384 (![] : Fin 0 → Fin S768x384.rank)
  reducesTo_S768x384_S_d0_1 : S768x384.ReducesTo [0, 1] S_
  h_S_ : 0 < S_.numel
  bcast_S_S384x768 : S_.BroadcastsInDim S384x768 (![] : Fin 0 → Fin S384x768.rank)
  reducesTo_S384x768_S_d0_1 : S384x768.ReducesTo [0, 1] S_

variable [Facts]

def fn {F : FTy → Type} [FloatOps F] (main_arg0 : FVec F S768x384 .f32) (main_arg1 : FVec F S384x768 .f32) : IVec S_ 1 :=
  let main_v0 : FVec F S768x384 .f32 := Host.absf main_arg0
  let main_cst : FVec F S_ .f32 := constant S_ .f32 0x7F800000#32
  let main_v1 : FVec F S768x384 .f32 := broadcastInDim S768x384 ![] bcast_S_S768x384 main_cst
  let main_v2 : IVec S768x384 1 := cmpf .olt main_v0 main_v1
  let main_c : IVec S_ 1 := constantI S_ 1 1#1
  let main_v3 : IVec S_ 1 := (fun x v => Host.reduce IntOp.andi x v reducesTo_S768x384_S_d0_1 h_S_) main_v2 main_c
  let main_v4 : FVec F S384x768 .f32 := Host.absf main_arg1
  let main_cst_0 : FVec F S_ .f32 := constant S_ .f32 0x7F800000#32
  let main_v5 : FVec F S384x768 .f32 := broadcastInDim S384x768 ![] bcast_S_S384x768 main_cst_0
  let main_v6 : IVec S384x768 1 := cmpf .olt main_v4 main_v5
  let main_c_1 : IVec S_ 1 := constantI S_ 1 1#1
  let main_v7 : IVec S_ 1 := (fun x v => Host.reduce IntOp.andi x v reducesTo_S384x768_S_d0_1 h_S_) main_v6 main_c_1
  let main_v8 : IVec S_ 1 := andi main_v3 main_v7
  main_v8
-- ==== Pre_finite_inputs_ReferenceIdeal.lean ====
abbrev S768x6144 : Shape := ⟨2, ![768, 6144]⟩
abbrev S6144x768 : Shape := ⟨2, ![6144, 768]⟩
abbrev S_ : Shape := ⟨0, ![]⟩

class Facts : Prop where
  bcast_S_S768x6144 : S_.BroadcastsInDim S768x6144 (![] : Fin 0 → Fin S768x6144.rank)
  reducesTo_S768x6144_S_d0_1 : S768x6144.ReducesTo [0, 1] S_
  h_S_ : 0 < S_.numel
  bcast_S_S6144x768 : S_.BroadcastsInDim S6144x768 (![] : Fin 0 → Fin S6144x768.rank)
  reducesTo_S6144x768_S_d0_1 : S6144x768.ReducesTo [0, 1] S_

variable [Facts]

def fn {F : FTy → Type} [FloatOps F] (main_arg0 : FVec F S768x6144 .f32) (main_arg1 : FVec F S6144x768 .f32) : IVec S_ 1 :=
  let main_v0 : FVec F S768x6144 .f32 := Host.absf main_arg0
  let main_cst : FVec F S_ .f32 := constant S_ .f32 0x7F800000#32
  let main_v1 : FVec F S768x6144 .f32 := broadcastInDim S768x6144 ![] bcast_S_S768x6144 main_cst
  let main_v2 : IVec S768x6144 1 := cmpf .olt main_v0 main_v1
  let main_c : IVec S_ 1 := constantI S_ 1 1#1
  let main_v3 : IVec S_ 1 := (fun x v => Host.reduce IntOp.andi x v reducesTo_S768x6144_S_d0_1 h_S_) main_v2 main_c
  let main_v4 : FVec F S6144x768 .f32 := Host.absf main_arg1
  let main_cst_0 : FVec F S_ .f32 := constant S_ .f32 0x7F800000#32
  let main_v5 : FVec F S6144x768 .f32 := broadcastInDim S6144x768 ![] bcast_S_S6144x768 main_cst_0
  let main_v6 : IVec S6144x768 1 := cmpf .olt main_v4 main_v5
  let main_c_1 : IVec S_ 1 := constantI S_ 1 1#1
  let main_v7 : IVec S_ 1 := (fun x v => Host.reduce IntOp.andi x v reducesTo_S6144x768_S_d0_1 h_S_) main_v6 main_c_1
  let main_v8 : IVec S_ 1 := andi main_v3 main_v7
  main_v8
-- ==== Kernel.lean ====
abbrev S768x384 : Shape := ⟨2, ![768, 384]⟩
abbrev S384x768 : Shape := ⟨2, ![384, 768]⟩
abbrev S768x768 : Shape := ⟨2, ![768, 768]⟩
abbrev S2x16x24x768 : Shape := ⟨4, ![2, 16, 24, 768]⟩
abbrev S2x16 : Shape := ⟨2, ![2, 16]⟩
abbrev S_ : Shape := ⟨0, ![]⟩
abbrev S1x1 : Shape := ⟨2, ![1, 1]⟩
abbrev S1x1x24x768 : Shape := ⟨4, ![1, 1, 24, 768]⟩
abbrev S24x768 : Shape := ⟨2, ![24, 768]⟩

abbrev nBuf : Space → Nat
  | .hbm => 3
  | .vmem => 6
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .bf16⟩
  | .local _ .vmem, ⟨0, _⟩ => ⟨S768x384, .f32⟩
  | .local _ .vmem, ⟨1, _⟩ => ⟨S384x768, .f32⟩
  | .local _ .vmem, ⟨2, _⟩ => ⟨S768x768, .bf16⟩
  | .local _ .vmem, ⟨3, _⟩ => ⟨S768x768, .bf16⟩
  | .local _ .vmem, ⟨4, _⟩ => ⟨S384x768, .bf16⟩
  | .local _ .vmem, ⟨5, _⟩ => ⟨S2x16x24x768, .bf16⟩
  | _, _ => ⟨S768x384, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_70 : BitVec 32) (c0_i32_72 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v79 : BitVec 32 := Scalar.addi v2 c1_i32_70
  let c16_i32_71 : BitVec 32 := 16#32
  let v80 : BitVec 32 := Scalar.remsi v79 c16_i32_71
  let c48_i32 : BitVec 32 := 48#32
  let v81 : BitVec 32 := Scalar.muli v80 c48_i32
  let v82 : BitVec 32 := Scalar.addi v81 c0_i32_72
  let c0_i32_83 : BitVec 32 := 0#32
  ![v82.toNat, 0]
def k0_dev16 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_70 : BitVec 32 := 1#32
  let v79 : BitVec 32 := Scalar.addi v2 c1_i32_70
  let c16_i32_71 : BitVec 32 := 16#32
  let v80 : BitVec 32 := Scalar.remsi v79 c16_i32_71
  let c1_i32_79 : BitVec 32 := 1#32
  let v83 : BitVec 32 := Scalar.muli v80 c1_i32_79
  let v84 : BitVec 32 := Scalar.addi c0_i32_80 v83
  v84.toNat
def k0_dev17 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_84 : BitVec 32 := 2#32
  let v92 : BitVec 32 := Scalar.addi v2 c2_i32_84
  let c16_i32_85 : BitVec 32 := 16#32
  let v93 : BitVec 32 := Scalar.remsi v92 c16_i32_85
  let c1_i32_94 : BitVec 32 := 1#32
  let v96 : BitVec 32 := Scalar.muli v93 c1_i32_94
  let v97 : BitVec 32 := Scalar.addi c0_i32_95 v96
  v97.toNat
def k0_dev18 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_99 : BitVec 32 := 3#32
  let v105 : BitVec 32 := Scalar.addi v2 c3_i32_99
  let c16_i32_100 : BitVec 32 := 16#32
  let v106 : BitVec 32 := Scalar.remsi v105 c16_i32_100
  let c1_i32_109 : BitVec 32 := 1#32
  let v109 : BitVec 32 := Scalar.muli v106 c1_i32_109
  let v110 : BitVec 32 := Scalar.addi c0_i32_110 v109
  v110.toNat
def k0_dev19 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_114 : BitVec 32 := 4#32
  let v118 : BitVec 32 := Scalar.addi v2 c4_i32_114
  let c16_i32_115 : BitVec 32 := 16#32
  let v119 : BitVec 32 := Scalar.remsi v118 c16_i32_115
  let c1_i32_124 : BitVec 32 := 1#32
  let v122 : BitVec 32 := Scalar.muli v119 c1_i32_124
  let v123 : BitVec 32 := Scalar.addi c0_i32_125 v122
  v123.toNat
def k0_dev20 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_129 : BitVec 32 := 5#32
  let v131 : BitVec 32 := Scalar.addi v2 c5_i32_129
  let c16_i32_130 : BitVec 32 := 16#32
  let v132 : BitVec 32 := Scalar.remsi v131 c16_i32_130
  let c1_i32_139 : BitVec 32 := 1#32
  let v135 : BitVec 32 := Scalar.muli v132 c1_i32_139
  let v136 : BitVec 32 := Scalar.addi c0_i32_140 v135
  v136.toNat
def k0_dev21 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_144 : BitVec 32 := 6#32
  let v144 : BitVec 32 := Scalar.addi v2 c6_i32_144
  let c16_i32_145 : BitVec 32 := 16#32
  let v145 : BitVec 32 := Scalar.remsi v144 c16_i32_145
  let c1_i32_154 : BitVec 32 := 1#32
  let v148 : BitVec 32 := Scalar.muli v145 c1_i32_154
  let v149 : BitVec 32 := Scalar.addi c0_i32_155 v148
  v149.toNat
def k0_dev22 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_159 : BitVec 32 := 7#32
  let v157 : BitVec 32 := Scalar.addi v2 c7_i32_159
  let c16_i32_160 : BitVec 32 := 16#32
  let v158 : BitVec 32 := Scalar.remsi v157 c16_i32_160
  let c1_i32_169 : BitVec 32 := 1#32
  let v161 : BitVec 32 := Scalar.muli v158 c1_i32_169
  let v162 : BitVec 32 := Scalar.addi c0_i32_170 v161
  v162.toNat
def k0_dev23 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_174 : BitVec 32 := 8#32
  let v170 : BitVec 32 := Scalar.addi v2 c8_i32_174
  let c16_i32_175 : BitVec 32 := 16#32
  let v171 : BitVec 32 := Scalar.remsi v170 c16_i32_175
  let c1_i32_184 : BitVec 32 := 1#32
  let v174 : BitVec 32 := Scalar.muli v171 c1_i32_184
  let v175 : BitVec 32 := Scalar.addi c0_i32_185 v174
  v175.toNat
def k0_dev24 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_189 : BitVec 32 := 9#32
  let v183 : BitVec 32 := Scalar.addi v2 c9_i32_189
  let c16_i32_190 : BitVec 32 := 16#32
  let v184 : BitVec 32 := Scalar.remsi v183 c16_i32_190
  let c1_i32_199 : BitVec 32 := 1#32
  let v187 : BitVec 32 := Scalar.muli v184 c1_i32_199
  let v188 : BitVec 32 := Scalar.addi c0_i32_200 v187
  v188.toNat
def k0_dev25 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_204 : BitVec 32 := 10#32
  let v196 : BitVec 32 := Scalar.addi v2 c10_i32_204
  let c16_i32_205 : BitVec 32 := 16#32
  let v197 : BitVec 32 := Scalar.remsi v196 c16_i32_205
  let c1_i32_214 : BitVec 32 := 1#32
  let v200 : BitVec 32 := Scalar.muli v197 c1_i32_214
  let v201 : BitVec 32 := Scalar.addi c0_i32_215 v200
  v201.toNat
def k0_dev26 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_219 : BitVec 32 := 11#32
  let v209 : BitVec 32 := Scalar.addi v2 c11_i32_219
  let c16_i32_220 : BitVec 32 := 16#32
  let v210 : BitVec 32 := Scalar.remsi v209 c16_i32_220
  let c1_i32_229 : BitVec 32 := 1#32
  let v213 : BitVec 32 := Scalar.muli v210 c1_i32_229
  let v214 : BitVec 32 := Scalar.addi c0_i32_230 v213
  v214.toNat
def k0_dev27 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_234 : BitVec 32 := 12#32
  let v222 : BitVec 32 := Scalar.addi v2 c12_i32_234
  let c16_i32_235 : BitVec 32 := 16#32
  let v223 : BitVec 32 := Scalar.remsi v222 c16_i32_235
  let c1_i32_244 : BitVec 32 := 1#32
  let v226 : BitVec 32 := Scalar.muli v223 c1_i32_244
  let v227 : BitVec 32 := Scalar.addi c0_i32_245 v226
  v227.toNat
def k0_dev28 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_249 : BitVec 32 := 13#32
  let v235 : BitVec 32 := Scalar.addi v2 c13_i32_249
  let c16_i32_250 : BitVec 32 := 16#32
  let v236 : BitVec 32 := Scalar.remsi v235 c16_i32_250
  let c1_i32_259 : BitVec 32 := 1#32
  let v239 : BitVec 32 := Scalar.muli v236 c1_i32_259
  let v240 : BitVec 32 := Scalar.addi c0_i32_260 v239
  v240.toNat
def k0_dev29 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_264 : BitVec 32 := 14#32
  let v248 : BitVec 32 := Scalar.addi v2 c14_i32_264
  let c16_i32_265 : BitVec 32 := 16#32
  let v249 : BitVec 32 := Scalar.remsi v248 c16_i32_265
  let c1_i32_274 : BitVec 32 := 1#32
  let v252 : BitVec 32 := Scalar.muli v249 c1_i32_274
  let v253 : BitVec 32 := Scalar.addi c0_i32_275 v252
  v253.toNat
def k0_dev30 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_279 : BitVec 32 := 15#32
  let v261 : BitVec 32 := Scalar.addi v2 c15_i32_279
  let c16_i32_280 : BitVec 32 := 16#32
  let v262 : BitVec 32 := Scalar.remsi v261 c16_i32_280
  let c1_i32_289 : BitVec 32 := 1#32
  let v265 : BitVec 32 := Scalar.muli v262 c1_i32_289
  let v266 : BitVec 32 := Scalar.addi c0_i32_290 v265
  v266.toNat
def k0_dev31 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_294 : BitVec 32 := 1#32
  let v274 : BitVec 32 := Scalar.addi v2 c1_i32_294
  let c16_i32_295 : BitVec 32 := 16#32
  let v275 : BitVec 32 := Scalar.remsi v274 c16_i32_295
  let c1_i32_303 : BitVec 32 := 1#32
  let v278 : BitVec 32 := Scalar.muli v275 c1_i32_303
  let v279 : BitVec 32 := Scalar.addi c0_i32_304 v278
  v279.toNat
def k0_dev32 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_308 : BitVec 32 := 2#32
  let v287 : BitVec 32 := Scalar.addi v2 c2_i32_308
  let c16_i32_309 : BitVec 32 := 16#32
  let v288 : BitVec 32 := Scalar.remsi v287 c16_i32_309
  let c1_i32_318 : BitVec 32 := 1#32
  let v291 : BitVec 32 := Scalar.muli v288 c1_i32_318
  let v292 : BitVec 32 := Scalar.addi c0_i32_319 v291
  v292.toNat
def k0_dev33 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_323 : BitVec 32 := 3#32
  let v300 : BitVec 32 := Scalar.addi v2 c3_i32_323
  let c16_i32_324 : BitVec 32 := 16#32
  let v301 : BitVec 32 := Scalar.remsi v300 c16_i32_324
  let c1_i32_333 : BitVec 32 := 1#32
  let v304 : BitVec 32 := Scalar.muli v301 c1_i32_333
  let v305 : BitVec 32 := Scalar.addi c0_i32_334 v304
  v305.toNat
def k0_dev34 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_338 : BitVec 32 := 4#32
  let v313 : BitVec 32 := Scalar.addi v2 c4_i32_338
  let c16_i32_339 : BitVec 32 := 16#32
  let v314 : BitVec 32 := Scalar.remsi v313 c16_i32_339
  let c1_i32_348 : BitVec 32 := 1#32
  let v317 : BitVec 32 := Scalar.muli v314 c1_i32_348
  let v318 : BitVec 32 := Scalar.addi c0_i32_349 v317
  v318.toNat
def k0_dev35 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_353 : BitVec 32 := 5#32
  let v326 : BitVec 32 := Scalar.addi v2 c5_i32_353
  let c16_i32_354 : BitVec 32 := 16#32
  let v327 : BitVec 32 := Scalar.remsi v326 c16_i32_354
  let c1_i32_363 : BitVec 32 := 1#32
  let v330 : BitVec 32 := Scalar.muli v327 c1_i32_363
  let v331 : BitVec 32 := Scalar.addi c0_i32_364 v330
  v331.toNat
def k0_dev36 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_368 : BitVec 32 := 6#32
  let v339 : BitVec 32 := Scalar.addi v2 c6_i32_368
  let c16_i32_369 : BitVec 32 := 16#32
  let v340 : BitVec 32 := Scalar.remsi v339 c16_i32_369
  let c1_i32_378 : BitVec 32 := 1#32
  let v343 : BitVec 32 := Scalar.muli v340 c1_i32_378
  let v344 : BitVec 32 := Scalar.addi c0_i32_379 v343
  v344.toNat
def k0_dev37 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_383 : BitVec 32 := 7#32
  let v352 : BitVec 32 := Scalar.addi v2 c7_i32_383
  let c16_i32_384 : BitVec 32 := 16#32
  let v353 : BitVec 32 := Scalar.remsi v352 c16_i32_384
  let c1_i32_393 : BitVec 32 := 1#32
  let v356 : BitVec 32 := Scalar.muli v353 c1_i32_393
  let v357 : BitVec 32 := Scalar.addi c0_i32_394 v356
  v357.toNat
def k0_dev38 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_398 : BitVec 32 := 8#32
  let v365 : BitVec 32 := Scalar.addi v2 c8_i32_398
  let c16_i32_399 : BitVec 32 := 16#32
  let v366 : BitVec 32 := Scalar.remsi v365 c16_i32_399
  let c1_i32_408 : BitVec 32 := 1#32
  let v369 : BitVec 32 := Scalar.muli v366 c1_i32_408
  let v370 : BitVec 32 := Scalar.addi c0_i32_409 v369
  v370.toNat
def k0_dev39 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_413 : BitVec 32 := 9#32
  let v378 : BitVec 32 := Scalar.addi v2 c9_i32_413
  let c16_i32_414 : BitVec 32 := 16#32
  let v379 : BitVec 32 := Scalar.remsi v378 c16_i32_414
  let c1_i32_423 : BitVec 32 := 1#32
  let v382 : BitVec 32 := Scalar.muli v379 c1_i32_423
  let v383 : BitVec 32 := Scalar.addi c0_i32_424 v382
  v383.toNat
def k0_dev40 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_428 : BitVec 32 := 10#32
  let v391 : BitVec 32 := Scalar.addi v2 c10_i32_428
  let c16_i32_429 : BitVec 32 := 16#32
  let v392 : BitVec 32 := Scalar.remsi v391 c16_i32_429
  let c1_i32_438 : BitVec 32 := 1#32
  let v395 : BitVec 32 := Scalar.muli v392 c1_i32_438
  let v396 : BitVec 32 := Scalar.addi c0_i32_439 v395
  v396.toNat
def k0_dev41 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_443 : BitVec 32 := 11#32
  let v404 : BitVec 32 := Scalar.addi v2 c11_i32_443
  let c16_i32_444 : BitVec 32 := 16#32
  let v405 : BitVec 32 := Scalar.remsi v404 c16_i32_444
  let c1_i32_453 : BitVec 32 := 1#32
  let v408 : BitVec 32 := Scalar.muli v405 c1_i32_453
  let v409 : BitVec 32 := Scalar.addi c0_i32_454 v408
  v409.toNat
def k0_dev42 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_458 : BitVec 32 := 12#32
  let v417 : BitVec 32 := Scalar.addi v2 c12_i32_458
  let c16_i32_459 : BitVec 32 := 16#32
  let v418 : BitVec 32 := Scalar.remsi v417 c16_i32_459
  let c1_i32_468 : BitVec 32 := 1#32
  let v421 : BitVec 32 := Scalar.muli v418 c1_i32_468
  let v422 : BitVec 32 := Scalar.addi c0_i32_469 v421
  v422.toNat
def k0_dev43 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_473 : BitVec 32 := 13#32
  let v430 : BitVec 32 := Scalar.addi v2 c13_i32_473
  let c16_i32_474 : BitVec 32 := 16#32
  let v431 : BitVec 32 := Scalar.remsi v430 c16_i32_474
  let c1_i32_483 : BitVec 32 := 1#32
  let v434 : BitVec 32 := Scalar.muli v431 c1_i32_483
  let v435 : BitVec 32 := Scalar.addi c0_i32_484 v434
  v435.toNat
def k0_dev44 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_488 : BitVec 32 := 14#32
  let v443 : BitVec 32 := Scalar.addi v2 c14_i32_488
  let c16_i32_489 : BitVec 32 := 16#32
  let v444 : BitVec 32 := Scalar.remsi v443 c16_i32_489
  let c1_i32_498 : BitVec 32 := 1#32
  let v447 : BitVec 32 := Scalar.muli v444 c1_i32_498
  let v448 : BitVec 32 := Scalar.addi c0_i32_499 v447
  v448.toNat
def k0_dev45 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_503 : BitVec 32 := 15#32
  let v456 : BitVec 32 := Scalar.addi v2 c15_i32_503
  let c16_i32_504 : BitVec 32 := 16#32
  let v457 : BitVec 32 := Scalar.remsi v456 c16_i32_504
  let c1_i32_513 : BitVec 32 := 1#32
  let v460 : BitVec 32 := Scalar.muli v457 c1_i32_513
  let v461 : BitVec 32 := Scalar.addi c0_i32_514 v460
  v461.toNat
def k0_off2 (d0 : Dev nD) (c0_i32_519 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32_518 : BitVec 32 := 48#32
  let v469 : BitVec 32 := Scalar.muli v2 c48_i32_518
  let v470 : BitVec 32 := Scalar.addi v469 c0_i32_519
  let v471 : Index := Scalar.indexCast v470
  let c0_520 : Index := 0#32
  ![v471.toNat, 0]
def k0_off3 (d0 : Dev nD) (c0_i32_519 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c48_i32_518 : BitVec 32 := 48#32
  let v469 : BitVec 32 := Scalar.muli v2 c48_i32_518
  let v470 : BitVec 32 := Scalar.addi v469 c0_i32_519
  let c0_i32_740 : BitVec 32 := 0#32
  ![v470.toNat, 0]
def k0_dev46 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_732 : BitVec 32 := 1#32
  let v642 : BitVec 32 := Scalar.addi v2 c1_i32_732
  let c16_i32_733 : BitVec 32 := 16#32
  let v643 : BitVec 32 := Scalar.remsi v642 c16_i32_733
  let c1_i32_738 : BitVec 32 := 1#32
  let v644 : BitVec 32 := Scalar.muli v643 c1_i32_738
  let v645 : BitVec 32 := Scalar.addi c0_i32_739 v644
  v645.toNat
def k0_dev47 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_742 : BitVec 32 := 2#32
  let v652 : BitVec 32 := Scalar.addi v2 c2_i32_742
  let c16_i32_743 : BitVec 32 := 16#32
  let v653 : BitVec 32 := Scalar.remsi v652 c16_i32_743
  let c1_i32_748 : BitVec 32 := 1#32
  let v654 : BitVec 32 := Scalar.muli v653 c1_i32_748
  let v655 : BitVec 32 := Scalar.addi c0_i32_749 v654
  v655.toNat
def k0_dev48 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_752 : BitVec 32 := 3#32
  let v662 : BitVec 32 := Scalar.addi v2 c3_i32_752
  let c16_i32_753 : BitVec 32 := 16#32
  let v663 : BitVec 32 := Scalar.remsi v662 c16_i32_753
  let c1_i32_758 : BitVec 32 := 1#32
  let v664 : BitVec 32 := Scalar.muli v663 c1_i32_758
  let v665 : BitVec 32 := Scalar.addi c0_i32_759 v664
  v665.toNat
def k0_dev49 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_762 : BitVec 32 := 4#32
  let v672 : BitVec 32 := Scalar.addi v2 c4_i32_762
  let c16_i32_763 : BitVec 32 := 16#32
  let v673 : BitVec 32 := Scalar.remsi v672 c16_i32_763
  let c1_i32_768 : BitVec 32 := 1#32
  let v674 : BitVec 32 := Scalar.muli v673 c1_i32_768
  let v675 : BitVec 32 := Scalar.addi c0_i32_769 v674
  v675.toNat
def k0_dev50 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_772 : BitVec 32 := 5#32
  let v682 : BitVec 32 := Scalar.addi v2 c5_i32_772
  let c16_i32_773 : BitVec 32 := 16#32
  let v683 : BitVec 32 := Scalar.remsi v682 c16_i32_773
  let c1_i32_778 : BitVec 32 := 1#32
  let v684 : BitVec 32 := Scalar.muli v683 c1_i32_778
  let v685 : BitVec 32 := Scalar.addi c0_i32_779 v684
  v685.toNat
def k0_dev51 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_782 : BitVec 32 := 6#32
  let v692 : BitVec 32 := Scalar.addi v2 c6_i32_782
  let c16_i32_783 : BitVec 32 := 16#32
  let v693 : BitVec 32 := Scalar.remsi v692 c16_i32_783
  let c1_i32_788 : BitVec 32 := 1#32
  let v694 : BitVec 32 := Scalar.muli v693 c1_i32_788
  let v695 : BitVec 32 := Scalar.addi c0_i32_789 v694
  v695.toNat
def k0_dev52 (d0 : Dev nD) : Nat :=
  let c0_i32_799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_792 : BitVec 32 := 7#32
  let v702 : BitVec 32 := Scalar.addi v2 c7_i32_792
  let c16_i32_793 : BitVec 32 := 16#32
  let v703 : BitVec 32 := Scalar.remsi v702 c16_i32_793
  let c1_i32_798 : BitVec 32 := 1#32
  let v704 : BitVec 32 := Scalar.muli v703 c1_i32_798
  let v705 : BitVec 32 := Scalar.addi c0_i32_799 v704
  v705.toNat
def k0_dev53 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_802 : BitVec 32 := 8#32
  let v712 : BitVec 32 := Scalar.addi v2 c8_i32_802
  let c16_i32_803 : BitVec 32 := 16#32
  let v713 : BitVec 32 := Scalar.remsi v712 c16_i32_803
  let c1_i32_808 : BitVec 32 := 1#32
  let v714 : BitVec 32 := Scalar.muli v713 c1_i32_808
  let v715 : BitVec 32 := Scalar.addi c0_i32_809 v714
  v715.toNat
def k0_dev54 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_812 : BitVec 32 := 9#32
  let v722 : BitVec 32 := Scalar.addi v2 c9_i32_812
  let c16_i32_813 : BitVec 32 := 16#32
  let v723 : BitVec 32 := Scalar.remsi v722 c16_i32_813
  let c1_i32_818 : BitVec 32 := 1#32
  let v724 : BitVec 32 := Scalar.muli v723 c1_i32_818
  let v725 : BitVec 32 := Scalar.addi c0_i32_819 v724
  v725.toNat
def k0_dev55 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_822 : BitVec 32 := 10#32
  let v732 : BitVec 32 := Scalar.addi v2 c10_i32_822
  let c16_i32_823 : BitVec 32 := 16#32
  let v733 : BitVec 32 := Scalar.remsi v732 c16_i32_823
  let c1_i32_828 : BitVec 32 := 1#32
  let v734 : BitVec 32 := Scalar.muli v733 c1_i32_828
  let v735 : BitVec 32 := Scalar.addi c0_i32_829 v734
  v735.toNat
def k0_dev56 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_832 : BitVec 32 := 11#32
  let v742 : BitVec 32 := Scalar.addi v2 c11_i32_832
  let c16_i32_833 : BitVec 32 := 16#32
  let v743 : BitVec 32 := Scalar.remsi v742 c16_i32_833
  let c1_i32_838 : BitVec 32 := 1#32
  let v744 : BitVec 32 := Scalar.muli v743 c1_i32_838
  let v745 : BitVec 32 := Scalar.addi c0_i32_839 v744
  v745.toNat
def k0_dev57 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_842 : BitVec 32 := 12#32
  let v752 : BitVec 32 := Scalar.addi v2 c12_i32_842
  let c16_i32_843 : BitVec 32 := 16#32
  let v753 : BitVec 32 := Scalar.remsi v752 c16_i32_843
  let c1_i32_848 : BitVec 32 := 1#32
  let v754 : BitVec 32 := Scalar.muli v753 c1_i32_848
  let v755 : BitVec 32 := Scalar.addi c0_i32_849 v754
  v755.toNat
def k0_dev58 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_852 : BitVec 32 := 13#32
  let v762 : BitVec 32 := Scalar.addi v2 c13_i32_852
  let c16_i32_853 : BitVec 32 := 16#32
  let v763 : BitVec 32 := Scalar.remsi v762 c16_i32_853
  let c1_i32_858 : BitVec 32 := 1#32
  let v764 : BitVec 32 := Scalar.muli v763 c1_i32_858
  let v765 : BitVec 32 := Scalar.addi c0_i32_859 v764
  v765.toNat
def k0_dev59 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_862 : BitVec 32 := 14#32
  let v772 : BitVec 32 := Scalar.addi v2 c14_i32_862
  let c16_i32_863 : BitVec 32 := 16#32
  let v773 : BitVec 32 := Scalar.remsi v772 c16_i32_863
  let c1_i32_868 : BitVec 32 := 1#32
  let v774 : BitVec 32 := Scalar.muli v773 c1_i32_868
  let v775 : BitVec 32 := Scalar.addi c0_i32_869 v774
  v775.toNat
def k0_dev60 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_872 : BitVec 32 := 15#32
  let v782 : BitVec 32 := Scalar.addi v2 c15_i32_872
  let c16_i32_873 : BitVec 32 := 16#32
  let v783 : BitVec 32 := Scalar.remsi v782 c16_i32_873
  let c1_i32_878 : BitVec 32 := 1#32
  let v784 : BitVec 32 := Scalar.muli v783 c1_i32_878
  let v785 : BitVec 32 := Scalar.addi c0_i32_879 v784
  v785.toNat
def k0_dev61 (d0 : Dev nD) : Nat :=
  let c0_i32_1118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1111 : BitVec 32 := 1#32
  let v965 : BitVec 32 := Scalar.addi v2 c1_i32_1111
  let c16_i32_1112 : BitVec 32 := 16#32
  let v966 : BitVec 32 := Scalar.remsi v965 c16_i32_1112
  let c1_i32_1117 : BitVec 32 := 1#32
  let v967 : BitVec 32 := Scalar.muli v966 c1_i32_1117
  let v968 : BitVec 32 := Scalar.addi c0_i32_1118 v967
  v968.toNat
def k0_dev62 (d0 : Dev nD) : Nat :=
  let c0_i32_1128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1121 : BitVec 32 := 2#32
  let v975 : BitVec 32 := Scalar.addi v2 c2_i32_1121
  let c16_i32_1122 : BitVec 32 := 16#32
  let v976 : BitVec 32 := Scalar.remsi v975 c16_i32_1122
  let c1_i32_1127 : BitVec 32 := 1#32
  let v977 : BitVec 32 := Scalar.muli v976 c1_i32_1127
  let v978 : BitVec 32 := Scalar.addi c0_i32_1128 v977
  v978.toNat
def k0_dev63 (d0 : Dev nD) : Nat :=
  let c0_i32_1138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1131 : BitVec 32 := 3#32
  let v985 : BitVec 32 := Scalar.addi v2 c3_i32_1131
  let c16_i32_1132 : BitVec 32 := 16#32
  let v986 : BitVec 32 := Scalar.remsi v985 c16_i32_1132
  let c1_i32_1137 : BitVec 32 := 1#32
  let v987 : BitVec 32 := Scalar.muli v986 c1_i32_1137
  let v988 : BitVec 32 := Scalar.addi c0_i32_1138 v987
  v988.toNat
def k0_dev64 (d0 : Dev nD) : Nat :=
  let c0_i32_1148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1141 : BitVec 32 := 4#32
  let v995 : BitVec 32 := Scalar.addi v2 c4_i32_1141
  let c16_i32_1142 : BitVec 32 := 16#32
  let v996 : BitVec 32 := Scalar.remsi v995 c16_i32_1142
  let c1_i32_1147 : BitVec 32 := 1#32
  let v997 : BitVec 32 := Scalar.muli v996 c1_i32_1147
  let v998 : BitVec 32 := Scalar.addi c0_i32_1148 v997
  v998.toNat
def k0_dev65 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1151 : BitVec 32 := 5#32
  let v1005 : BitVec 32 := Scalar.addi v2 c5_i32_1151
  let c16_i32_1152 : BitVec 32 := 16#32
  let v1006 : BitVec 32 := Scalar.remsi v1005 c16_i32_1152
  let c1_i32_1157 : BitVec 32 := 1#32
  let v1007 : BitVec 32 := Scalar.muli v1006 c1_i32_1157
  let v1008 : BitVec 32 := Scalar.addi c0_i32_1158 v1007
  v1008.toNat
def k0_dev66 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1161 : BitVec 32 := 6#32
  let v1015 : BitVec 32 := Scalar.addi v2 c6_i32_1161
  let c16_i32_1162 : BitVec 32 := 16#32
  let v1016 : BitVec 32 := Scalar.remsi v1015 c16_i32_1162
  let c1_i32_1167 : BitVec 32 := 1#32
  let v1017 : BitVec 32 := Scalar.muli v1016 c1_i32_1167
  let v1018 : BitVec 32 := Scalar.addi c0_i32_1168 v1017
  v1018.toNat
def k0_dev67 (d0 : Dev nD) : Nat :=
  let c0_i32_1178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1171 : BitVec 32 := 7#32
  let v1025 : BitVec 32 := Scalar.addi v2 c7_i32_1171
  let c16_i32_1172 : BitVec 32 := 16#32
  let v1026 : BitVec 32 := Scalar.remsi v1025 c16_i32_1172
  let c1_i32_1177 : BitVec 32 := 1#32
  let v1027 : BitVec 32 := Scalar.muli v1026 c1_i32_1177
  let v1028 : BitVec 32 := Scalar.addi c0_i32_1178 v1027
  v1028.toNat
def k0_dev68 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1181 : BitVec 32 := 8#32
  let v1035 : BitVec 32 := Scalar.addi v2 c8_i32_1181
  let c16_i32_1182 : BitVec 32 := 16#32
  let v1036 : BitVec 32 := Scalar.remsi v1035 c16_i32_1182
  let c1_i32_1187 : BitVec 32 := 1#32
  let v1037 : BitVec 32 := Scalar.muli v1036 c1_i32_1187
  let v1038 : BitVec 32 := Scalar.addi c0_i32_1188 v1037
  v1038.toNat
def k0_dev69 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1191 : BitVec 32 := 9#32
  let v1045 : BitVec 32 := Scalar.addi v2 c9_i32_1191
  let c16_i32_1192 : BitVec 32 := 16#32
  let v1046 : BitVec 32 := Scalar.remsi v1045 c16_i32_1192
  let c1_i32_1197 : BitVec 32 := 1#32
  let v1047 : BitVec 32 := Scalar.muli v1046 c1_i32_1197
  let v1048 : BitVec 32 := Scalar.addi c0_i32_1198 v1047
  v1048.toNat
def k0_dev70 (d0 : Dev nD) : Nat :=
  let c0_i32_1208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1201 : BitVec 32 := 10#32
  let v1055 : BitVec 32 := Scalar.addi v2 c10_i32_1201
  let c16_i32_1202 : BitVec 32 := 16#32
  let v1056 : BitVec 32 := Scalar.remsi v1055 c16_i32_1202
  let c1_i32_1207 : BitVec 32 := 1#32
  let v1057 : BitVec 32 := Scalar.muli v1056 c1_i32_1207
  let v1058 : BitVec 32 := Scalar.addi c0_i32_1208 v1057
  v1058.toNat
def k0_dev71 (d0 : Dev nD) : Nat :=
  let c0_i32_1218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1211 : BitVec 32 := 11#32
  let v1065 : BitVec 32 := Scalar.addi v2 c11_i32_1211
  let c16_i32_1212 : BitVec 32 := 16#32
  let v1066 : BitVec 32 := Scalar.remsi v1065 c16_i32_1212
  let c1_i32_1217 : BitVec 32 := 1#32
  let v1067 : BitVec 32 := Scalar.muli v1066 c1_i32_1217
  let v1068 : BitVec 32 := Scalar.addi c0_i32_1218 v1067
  v1068.toNat
def k0_dev72 (d0 : Dev nD) : Nat :=
  let c0_i32_1228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1221 : BitVec 32 := 12#32
  let v1075 : BitVec 32 := Scalar.addi v2 c12_i32_1221
  let c16_i32_1222 : BitVec 32 := 16#32
  let v1076 : BitVec 32 := Scalar.remsi v1075 c16_i32_1222
  let c1_i32_1227 : BitVec 32 := 1#32
  let v1077 : BitVec 32 := Scalar.muli v1076 c1_i32_1227
  let v1078 : BitVec 32 := Scalar.addi c0_i32_1228 v1077
  v1078.toNat
def k0_dev73 (d0 : Dev nD) : Nat :=
  let c0_i32_1238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1231 : BitVec 32 := 13#32
  let v1085 : BitVec 32 := Scalar.addi v2 c13_i32_1231
  let c16_i32_1232 : BitVec 32 := 16#32
  let v1086 : BitVec 32 := Scalar.remsi v1085 c16_i32_1232
  let c1_i32_1237 : BitVec 32 := 1#32
  let v1087 : BitVec 32 := Scalar.muli v1086 c1_i32_1237
  let v1088 : BitVec 32 := Scalar.addi c0_i32_1238 v1087
  v1088.toNat
def k0_dev74 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1241 : BitVec 32 := 14#32
  let v1095 : BitVec 32 := Scalar.addi v2 c14_i32_1241
  let c16_i32_1242 : BitVec 32 := 16#32
  let v1096 : BitVec 32 := Scalar.remsi v1095 c16_i32_1242
  let c1_i32_1247 : BitVec 32 := 1#32
  let v1097 : BitVec 32 := Scalar.muli v1096 c1_i32_1247
  let v1098 : BitVec 32 := Scalar.addi c0_i32_1248 v1097
  v1098.toNat
def k0_dev75 (d0 : Dev nD) : Nat :=
  let c0_i32_1258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1251 : BitVec 32 := 15#32
  let v1105 : BitVec 32 := Scalar.addi v2 c15_i32_1251
  let c16_i32_1252 : BitVec 32 := 16#32
  let v1106 : BitVec 32 := Scalar.remsi v1105 c16_i32_1252
  let c1_i32_1257 : BitVec 32 := 1#32
  let v1107 : BitVec 32 := Scalar.muli v1106 c1_i32_1257
  let v1108 : BitVec 32 := Scalar.addi c0_i32_1258 v1107
  v1108.toNat
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S768x384_S768x384_0_0 : ∀ a, (![0, 0] : Fin 2 → Nat) a + S768x384.size a ≤ S768x384.size a
  h_S768x384 : 0 < S768x384.numel
  shapeCasts_S768x384_S768x384 : S768x384.ShapeCasts S768x384
  bitsLt_bf16_f32 : FTy.bits .bf16 < FTy.bits .f32
  inb_S384x768_S384x768_0_0 : ∀ a, (![0, 0] : Fin 2 → Nat) a + S384x768.size a ≤ S384x768.size a
  h_S384x768 : 0 < S384x768.numel
  shapeCasts_S384x768_S384x768 : S384x768.ShapeCasts S384x768
  packedbf16_S384x768_S384x768_0_0 : (Rect.unit (s := S384x768) ![0, 0] S384x768.size inb_S384x768_S384x768_0_0).PackedRows (EltTy.packing .bf16)
  inb_S768x768_S768x768_0_0 : ∀ a, (![0, 0] : Fin 2 → Nat) a + S768x768.size a ≤ S768x768.size a
  h_S768x768 : 0 < S768x768.numel
  shapeCasts_S768x768_S768x768 : S768x768.ShapeCasts S768x768
  packedbf16_S768x768_S768x768_0_0 : (Rect.unit (s := S768x768) ![0, 0] S768x768.size inb_S768x768_S768x768_0_0).PackedRows (EltTy.packing .bf16)
  hamt_15 : (15#32 : BitVec 32).msb = false
  inb_S2x16_S1x1_0_1 : ∀ a, (![0, 1] : Fin 2 → Nat) a + S1x1.size a ≤ S2x16.size a
  squeezes_S1x1_S_ : S1x1.Squeezes S_
  inb_S2x16x24x768_S1x1x24x768_0_1_0_0 : ∀ a, (![0, 1, 0, 0] : Fin 4 → Nat) a + S1x1x24x768.size a ≤ S2x16x24x768.size a
  squeezes_S1x1x24x768_S24x768 : S1x1x24x768.Squeezes S24x768
  wordsbf16_S2x16x24x768_S1x1x24x768_0_1_0_0 : (Rect.unit (s := S2x16x24x768) ![0, 1, 0, 0] S1x1x24x768.size inb_S2x16x24x768_S1x1x24x768_0_1_0_0).WholeWords (EltTy.packing .bf16)
  inb_S2x16_S1x1_0_2 : ∀ a, (![0, 2] : Fin 2 → Nat) a + S1x1.size a ≤ S2x16.size a
  inb_S2x16x24x768_S1x1x24x768_0_2_0_0 : ∀ a, (![0, 2, 0, 0] : Fin 4 → Nat) a + S1x1x24x768.size a ≤ S2x16x24x768.size a
  wordsbf16_S2x16x24x768_S1x1x24x768_0_2_0_0 : (Rect.unit (s := S2x16x24x768) ![0, 2, 0, 0] S1x1x24x768.size inb_S2x16x24x768_S1x1x24x768_0_2_0_0).WholeWords (EltTy.packing .bf16)
  inb_S2x16_S1x1_0_3 : ∀ a, (![0, 3] : Fin 2 → Nat) a + S1x1.size a ≤ S2x16.size a
  inb_S2x16x24x768_S1x1x24x768_0_3_0_0 : ∀ a, (![0, 3, 0, 0] : Fin 4 → Nat) a + S1x1x24x768.size a ≤ S2x16x24x768.size a
  wordsbf16_S2x16x24x768_S1x1x24x768_0_3_0_0 : (Rect.unit (s := S2x16x24x768) ![0, 3, 0, 0] S1x1x24x768.size inb_S2x16x24x768_S1x1x24x768_0_3_0_0).WholeWords (EltTy.packing .bf16)
  inb_S2x16_S1x1_0_4 : ∀ a, (![0, 4] : Fin 2 → Nat) a + S1x1.size a ≤ S2x16.size a
  inb_S2x16x24x768_S1x1x24x768_0_4_0_0 : ∀ a, (![0, 4, 0, 0] : Fin 4 → Nat) a + S1x1x24x768.size a ≤ S2x16x24x768.size a
  wordsbf16_S2x16x24x768_S1x1x24x768_0_4_0_0 : (Rect.unit (s := S2x16x24x768) ![0, 4, 0, 0] S1x1x24x768.size inb_S2x16x24x768_S1x1x24x768_0_4_0_0).WholeWords (EltTy.packing .bf16)
  inb_S2x16_S1x1_0_5 : ∀ a, (![0, 5] : Fin 2 → Nat) a + S1x1.size a ≤ S2x16.size a
  inb_S2x16x24x768_S1x1x24x768_0_5_0_0 : ∀ a, (![0, 5, 0, 0] : Fin 4 → Nat) a + S1x1x24x768.size a ≤ S2x16x24x768.size a
  wordsbf16_S2x16x24x768_S1x1x24x768_0_5_0_0 : (Rect.unit (s := S2x16x24x768) ![0, 5, 0, 0] S1x1x24x768.size inb_S2x16x24x768_S1x1x24x768_0_5_0_0).WholeWords (EltTy.packing .bf16)
  inb_S2x16_S1x1_0_6 : ∀ a, (![0, 6] : Fin 2 → Nat) a + S1x1.size a ≤ S2x16.size a
  inb_S2x16x24x768_S1x1x24x768_0_6_0_0 : ∀ a, (![0, 6, 0, 0] : Fin 4 → Nat) a + S1x1x24x768.size a ≤ S2x16x24x768.size a
  wordsbf16_S2x16x24x768_S1x1x24x768_0_6_0_0 : (Rect.unit (s := S2x16x24x768) ![0, 6, 0, 0] S1x1x24x768.size inb_S2x16x24x768_S1x1x24x768_0_6_0_0).WholeWords (EltTy.packing .bf16)
  inb_S2x16_S1x1_0_7 : ∀ a, (![0, 7] : Fin 2 → Nat) a + S1x1.size a ≤ S2x16.size a
  inb_S2x16x24x768_S1x1x24x768_0_7_0_0 : ∀ a, (![0, 7, 0, 0] : Fin 4 → Nat) a + S1x1x24x768.size a ≤ S2x16x24x768.size a
  wordsbf16_S2x16x24x768_S1x1x24x768_0_7_0_0 : (Rect.unit (s := S2x16x24x768) ![0, 7, 0, 0] S1x1x24x768.size inb_S2x16x24x768_S1x1x24x768_0_7_0_0).WholeWords (EltTy.packing .bf16)
  inb_S2x16_S1x1_0_8 : ∀ a, (![0, 8] : Fin 2 → Nat) a + S1x1.size a ≤ S2x16.size a
  inb_S2x16x24x768_S1x1x24x768_0_8_0_0 : ∀ a, (![0, 8, 0, 0] : Fin 4 → Nat) a + S1x1x24x768.size a ≤ S2x16x24x768.size a
  wordsbf16_S2x16x24x768_S1x1x24x768_0_8_0_0 : (Rect.unit (s := S2x16x24x768) ![0, 8, 0, 0] S1x1x24x768.size inb_S2x16x24x768_S1x1x24x768_0_8_0_0).WholeWords (EltTy.packing .bf16)
  inb_S2x16_S1x1_0_9 : ∀ a, (![0, 9] : Fin 2 → Nat) a + S1x1.size a ≤ S2x16.size a
  inb_S2x16x24x768_S1x1x24x768_0_9_0_0 : ∀ a, (![0, 9, 0, 0] : Fin 4 → Nat) a + S1x1x24x768.size a ≤ S2x16x24x768.size a
  wordsbf16_S2x16x24x768_S1x1x24x768_0_9_0_0 : (Rect.unit (s := S2x16x24x768) ![0, 9, 0, 0] S1x1x24x768.size inb_S2x16x24x768_S1x1x24x768_0_9_0_0).WholeWords (EltTy.packing .bf16)
  inb_S2x16_S1x1_0_10 : ∀ a, (![0, 10] : Fin 2 → Nat) a + S1x1.size a ≤ S2x16.size a
  inb_S2x16x24x768_S1x1x24x768_0_10_0_0 : ∀ a, (![0, 10, 0, 0] : Fin 4 → Nat) a + S1x1x24x768.size a ≤ S2x16x24x768.size a
  wordsbf16_S2x16x24x768_S1x1x24x768_0_10_0_0 : (Rect.unit (s := S2x16x24x768) ![0, 10, 0, 0] S1x1x24x768.size inb_S2x16x24x768_S1x1x24x768_0_10_0_0).WholeWords (EltTy.packing .bf16)
  inb_S2x16_S1x1_0_11 : ∀ a, (![0, 11] : Fin 2 → Nat) a + S1x1.size a ≤ S2x16.size a
  inb_S2x16x24x768_S1x1x24x768_0_11_0_0 : ∀ a, (![0, 11, 0, 0] : Fin 4 → Nat) a + S1x1x24x768.size a ≤ S2x16x24x768.size a
  wordsbf16_S2x16x24x768_S1x1x24x768_0_11_0_0 : (Rect.unit (s := S2x16x24x768) ![0, 11, 0, 0] S1x1x24x768.size inb_S2x16x24x768_S1x1x24x768_0_11_0_0).WholeWords (EltTy.packing .bf16)
  inb_S2x16_S1x1_0_12 : ∀ a, (![0, 12] : Fin 2 → Nat) a + S1x1.size a ≤ S2x16.size a
  inb_S2x16x24x768_S1x1x24x768_0_12_0_0 : ∀ a, (![0, 12, 0, 0] : Fin 4 → Nat) a + S1x1x24x768.size a ≤ S2x16x24x768.size a
  wordsbf16_S2x16x24x768_S1x1x24x768_0_12_0_0 : (Rect.unit (s := S2x16x24x768) ![0, 12, 0, 0] S1x1x24x768.size inb_S2x16x24x768_S1x1x24x768_0_12_0_0).WholeWords (EltTy.packing .bf16)
  inb_S2x16_S1x1_0_13 : ∀ a, (![0, 13] : Fin 2 → Nat) a + S1x1.size a ≤ S2x16.size a
  inb_S2x16x24x768_S1x1x24x768_0_13_0_0 : ∀ a, (![0, 13, 0, 0] : Fin 4 → Nat) a + S1x1x24x768.size a ≤ S2x16x24x768.size a
  wordsbf16_S2x16x24x768_S1x1x24x768_0_13_0_0 : (Rect.unit (s := S2x16x24x768) ![0, 13, 0, 0] S1x1x24x768.size inb_S2x16x24x768_S1x1x24x768_0_13_0_0).WholeWords (EltTy.packing .bf16)
  inb_S2x16_S1x1_0_14 : ∀ a, (![0, 14] : Fin 2 → Nat) a + S1x1.size a ≤ S2x16.size a
  inb_S2x16x24x768_S1x1x24x768_0_14_0_0 : ∀ a, (![0, 14, 0, 0] : Fin 4 → Nat) a + S1x1x24x768.size a ≤ S2x16x24x768.size a
  wordsbf16_S2x16x24x768_S1x1x24x768_0_14_0_0 : (Rect.unit (s := S2x16x24x768) ![0, 14, 0, 0] S1x1x24x768.size inb_S2x16x24x768_S1x1x24x768_0_14_0_0).WholeWords (EltTy.packing .bf16)
  inb_S2x16_S1x1_0_15 : ∀ a, (![0, 15] : Fin 2 → Nat) a + S1x1.size a ≤ S2x16.size a
  inb_S2x16x24x768_S1x1x24x768_0_15_0_0 : ∀ a, (![0, 15, 0, 0] : Fin 4 → Nat) a + S1x1x24x768.size a ≤ S2x16x24x768.size a
  wordsbf16_S2x16x24x768_S1x1x24x768_0_15_0_0 : (Rect.unit (s := S2x16x24x768) ![0, 15, 0, 0] S1x1x24x768.size inb_S2x16x24x768_S1x1x24x768_0_15_0_0).WholeWords (EltTy.packing .bf16)
  inb_S2x16_S1x1_1_1 : ∀ a, (![1, 1] : Fin 2 → Nat) a + S1x1.size a ≤ S2x16.size a
  inb_S2x16x24x768_S1x1x24x768_1_1_0_0 : ∀ a, (![1, 1, 0, 0] : Fin 4 → Nat) a + S1x1x24x768.size a ≤ S2x16x24x768.size a
  wordsbf16_S2x16x24x768_S1x1x24x768_1_1_0_0 : (Rect.unit (s := S2x16x24x768) ![1, 1, 0, 0] S1x1x24x768.size inb_S2x16x24x768_S1x1x24x768_1_1_0_0).WholeWords (EltTy.packing .bf16)
  inb_S2x16_S1x1_1_2 : ∀ a, (![1, 2] : Fin 2 → Nat) a + S1x1.size a ≤ S2x16.size a
  inb_S2x16x24x768_S1x1x24x768_1_2_0_0 : ∀ a, (![1, 2, 0, 0] : Fin 4 → Nat) a + S1x1x24x768.size a ≤ S2x16x24x768.size a
  wordsbf16_S2x16x24x768_S1x1x24x768_1_2_0_0 : (Rect.unit (s := S2x16x24x768) ![1, 2, 0, 0] S1x1x24x768.size inb_S2x16x24x768_S1x1x24x768_1_2_0_0).WholeWords (EltTy.packing .bf16)
  inb_S2x16_S1x1_1_3 : ∀ a, (![1, 3] : Fin 2 → Nat) a + S1x1.size a ≤ S2x16.size a
  inb_S2x16x24x768_S1x1x24x768_1_3_0_0 : ∀ a, (![1, 3, 0, 0] : Fin 4 → Nat) a + S1x1x24x768.size a ≤ S2x16x24x768.size a
  wordsbf16_S2x16x24x768_S1x1x24x768_1_3_0_0 : (Rect.unit (s := S2x16x24x768) ![1, 3, 0, 0] S1x1x24x768.size inb_S2x16x24x768_S1x1x24x768_1_3_0_0).WholeWords (EltTy.packing .bf16)
  inb_S2x16_S1x1_1_4 : ∀ a, (![1, 4] : Fin 2 → Nat) a + S1x1.size a ≤ S2x16.size a
  inb_S2x16x24x768_S1x1x24x768_1_4_0_0 : ∀ a, (![1, 4, 0, 0] : Fin 4 → Nat) a + S1x1x24x768.size a ≤ S2x16x24x768.size a
  wordsbf16_S2x16x24x768_S1x1x24x768_1_4_0_0 : (Rect.unit (s := S2x16x24x768) ![1, 4, 0, 0] S1x1x24x768.size inb_S2x16x24x768_S1x1x24x768_1_4_0_0).WholeWords (EltTy.packing .bf16)
  inb_S2x16_S1x1_1_5 : ∀ a, (![1, 5] : Fin 2 → Nat) a + S1x1.size a ≤ S2x16.size a
  inb_S2x16x24x768_S1x1x24x768_1_5_0_0 : ∀ a, (![1, 5, 0, 0] : Fin 4 → Nat) a + S1x1x24x768.size a ≤ S2x16x24x768.size a
  wordsbf16_S2x16x24x768_S1x1x24x768_1_5_0_0 : (Rect.unit (s := S2x16x24x768) ![1, 5, 0, 0] S1x1x24x768.size inb_S2x16x24x768_S1x1x24x768_1_5_0_0).WholeWords (EltTy.packing .bf16)
  inb_S2x16_S1x1_1_6 : ∀ a, (![1, 6] : Fin 2 → Nat) a + S1x1.size a ≤ S2x16.size a
  inb_S2x16x24x768_S1x1x24x768_1_6_0_0 : ∀ a, (![1, 6, 0, 0] : Fin 4 → Nat) a + S1x1x24x768.size a ≤ S2x16x24x768.size a
  wordsbf16_S2x16x24x768_S1x1x24x768_1_6_0_0 : (Rect.unit (s := S2x16x24x768) ![1, 6, 0, 0] S1x1x24x768.size inb_S2x16x24x768_S1x1x24x768_1_6_0_0).WholeWords (EltTy.packing .bf16)
  inb_S2x16_S1x1_1_7 : ∀ a, (![1, 7] : Fin 2 → Nat) a + S1x1.size a ≤ S2x16.size a
  inb_S2x16x24x768_S1x1x24x768_1_7_0_0 : ∀ a, (![1, 7, 0, 0] : Fin 4 → Nat) a + S1x1x24x768.size a ≤ S2x16x24x768.size a
  wordsbf16_S2x16x24x768_S1x1x24x768_1_7_0_0 : (Rect.unit (s := S2x16x24x768) ![1, 7, 0, 0] S1x1x24x768.size inb_S2x16x24x768_S1x1x24x768_1_7_0_0).WholeWords (EltTy.packing .bf16)
  inb_S2x16_S1x1_1_8 : ∀ a, (![1, 8] : Fin 2 → Nat) a + S1x1.size a ≤ S2x16.size a
  inb_S2x16x24x768_S1x1x24x768_1_8_0_0 : ∀ a, (![1, 8, 0, 0] : Fin 4 → Nat) a + S1x1x24x768.size a ≤ S2x16x24x768.size a
  wordsbf16_S2x16x24x768_S1x1x24x768_1_8_0_0 : (Rect.unit (s := S2x16x24x768) ![1, 8, 0, 0] S1x1x24x768.size inb_S2x16x24x768_S1x1x24x768_1_8_0_0).WholeWords (EltTy.packing .bf16)
  inb_S2x16_S1x1_1_9 : ∀ a, (![1, 9] : Fin 2 → Nat) a + S1x1.size a ≤ S2x16.size a
  inb_S2x16x24x768_S1x1x24x768_1_9_0_0 : ∀ a, (![1, 9, 0, 0] : Fin 4 → Nat) a + S1x1x24x768.size a ≤ S2x16x24x768.size a
  wordsbf16_S2x16x24x768_S1x1x24x768_1_9_0_0 : (Rect.unit (s := S2x16x24x768) ![1, 9, 0, 0] S1x1x24x768.size inb_S2x16x24x768_S1x1x24x768_1_9_0_0).WholeWords (EltTy.packing .bf16)
  inb_S2x16_S1x1_1_10 : ∀ a, (![1, 10] : Fin 2 → Nat) a + S1x1.size a ≤ S2x16.size a
  inb_S2x16x24x768_S1x1x24x768_1_10_0_0 : ∀ a, (![1, 10, 0, 0] : Fin 4 → Nat) a + S1x1x24x768.size a ≤ S2x16x24x768.size a
  wordsbf16_S2x16x24x768_S1x1x24x768_1_10_0_0 : (Rect.unit (s := S2x16x24x768) ![1, 10, 0, 0] S1x1x24x768.size inb_S2x16x24x768_S1x1x24x768_1_10_0_0).WholeWords (EltTy.packing .bf16)
  inb_S2x16_S1x1_1_11 : ∀ a, (![1, 11] : Fin 2 → Nat) a + S1x1.size a ≤ S2x16.size a
  inb_S2x16x24x768_S1x1x24x768_1_11_0_0 : ∀ a, (![1, 11, 0, 0] : Fin 4 → Nat) a + S1x1x24x768.size a ≤ S2x16x24x768.size a
  wordsbf16_S2x16x24x768_S1x1x24x768_1_11_0_0 : (Rect.unit (s := S2x16x24x768) ![1, 11, 0, 0] S1x1x24x768.size inb_S2x16x24x768_S1x1x24x768_1_11_0_0).WholeWords (EltTy.packing .bf16)
  inb_S2x16_S1x1_1_12 : ∀ a, (![1, 12] : Fin 2 → Nat) a + S1x1.size a ≤ S2x16.size a
  inb_S2x16x24x768_S1x1x24x768_1_12_0_0 : ∀ a, (![1, 12, 0, 0] : Fin 4 → Nat) a + S1x1x24x768.size a ≤ S2x16x24x768.size a
  wordsbf16_S2x16x24x768_S1x1x24x768_1_12_0_0 : (Rect.unit (s := S2x16x24x768) ![1, 12, 0, 0] S1x1x24x768.size inb_S2x16x24x768_S1x1x24x768_1_12_0_0).WholeWords (EltTy.packing .bf16)
  inb_S2x16_S1x1_1_13 : ∀ a, (![1, 13] : Fin 2 → Nat) a + S1x1.size a ≤ S2x16.size a
  inb_S2x16x24x768_S1x1x24x768_1_13_0_0 : ∀ a, (![1, 13, 0, 0] : Fin 4 → Nat) a + S1x1x24x768.size a ≤ S2x16x24x768.size a
  wordsbf16_S2x16x24x768_S1x1x24x768_1_13_0_0 : (Rect.unit (s := S2x16x24x768) ![1, 13, 0, 0] S1x1x24x768.size inb_S2x16x24x768_S1x1x24x768_1_13_0_0).WholeWords (EltTy.packing .bf16)
  inb_S2x16_S1x1_1_14 : ∀ a, (![1, 14] : Fin 2 → Nat) a + S1x1.size a ≤ S2x16.size a
  inb_S2x16x24x768_S1x1x24x768_1_14_0_0 : ∀ a, (![1, 14, 0, 0] : Fin 4 → Nat) a + S1x1x24x768.size a ≤ S2x16x24x768.size a
  wordsbf16_S2x16x24x768_S1x1x24x768_1_14_0_0 : (Rect.unit (s := S2x16x24x768) ![1, 14, 0, 0] S1x1x24x768.size inb_S2x16x24x768_S1x1x24x768_1_14_0_0).WholeWords (EltTy.packing .bf16)
  inb_S2x16_S1x1_1_15 : ∀ a, (![1, 15] : Fin 2 → Nat) a + S1x1.size a ≤ S2x16.size a
  inb_S2x16x24x768_S1x1x24x768_1_15_0_0 : ∀ a, (![1, 15, 0, 0] : Fin 4 → Nat) a + S1x1x24x768.size a ≤ S2x16x24x768.size a
  wordsbf16_S2x16x24x768_S1x1x24x768_1_15_0_0 : (Rect.unit (s := S2x16x24x768) ![1, 15, 0, 0] S1x1x24x768.size inb_S2x16x24x768_S1x1x24x768_1_15_0_0).WholeWords (EltTy.packing .bf16)
  h_S24x768 : 0 < S24x768.numel
  h_S1x1x24x768 : 0 < S1x1x24x768.numel
  shapeCasts_S1x1x24x768_S24x768 : S1x1x24x768.ShapeCasts S24x768
  dot_S768x384_S384x768_S768x768_1_0_0_1_n_n_wf : DotDims.WF S768x384 S384x768 S768x768 [1] [0] [0] [1] [] []
  hcc0_scratch3 : 3 + S2x16.numel ≤ 131
  hcc0_scratch4 : 35 + S2x16.numel ≤ 131
  hcc0_scratch5 : 67 + S2x16.numel ≤ 131
  hcc0_scratch6 : 99 + S2x16.numel ≤ 131
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ (r₁ : Fin 15) (r₂ : Fin 2), ∀ a, (k0_off1 d0 (BitVec.ofNat 32 (1 + r₁.val)) (BitVec.ofNat 32 (24 * r₂.val))) a + S24x768.size a ≤ S768x768.size a
  k0_off1_wordsbf16 : ∀ d0 : Dev nD, ∀ (r₁ : Fin 15) (r₂ : Fin 2), (Rect.unit (s := S768x768) (k0_off1 d0 (BitVec.ofNat 32 (1 + r₁.val)) (BitVec.ofNat 32 (24 * r₂.val))) S24x768.size (k0_off1_inb d0 r₁ r₂)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_off2_inb : ∀ d0 : Dev nD, ∀ (r : Fin 2), ∀ a, (k0_off2 d0 (BitVec.ofNat 32 (24 * r.val))) a + S24x768.size a ≤ S768x768.size a
  k0_off2_packedbf16 : ∀ d0 : Dev nD, ∀ (r : Fin 2), (Rect.unit (s := S768x768) (k0_off2 d0 (BitVec.ofNat 32 (24 * r.val))) S24x768.size (k0_off2_inb d0 r)).PackedRows (EltTy.packing .bf16)
  k0_off3_inb : ∀ d0 : Dev nD, ∀ (r : Fin 2), ∀ a, (k0_off3 d0 (BitVec.ofNat 32 (24 * r.val))) a + S24x768.size a ≤ S768x768.size a
  k0_off3_wordsbf16 : ∀ d0 : Dev nD, ∀ (r : Fin 2), (Rect.unit (s := S768x768) (k0_off3 d0 (BitVec.ofNat 32 (24 * r.val))) S24x768.size (k0_off3_inb d0 r)).WholeWords (EltTy.packing .bf16)
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  hstage0_0 : ∀ j, (stage0_0 j).IsWhole
  hstage0_1 : ∀ j, (stage0_1 j).IsWhole
  hstage0_2 : ∀ j, (stage0_2 j).IsWhole

variable [Facts₀]

abbrev cc0_scratch3 : DmaSems sig S2x16 := SemArray.consecutive 3 S2x16 hcc0_scratch3
abbrev cc0_scratch4 : DmaSems sig S2x16 := SemArray.consecutive 35 S2x16 hcc0_scratch4
abbrev cc0_scratch5 : DmaSems sig S2x16 := SemArray.consecutive 67 S2x16 hcc0_scratch5
abbrev cc0_scratch6 : DmaSems sig S2x16 := SemArray.consecutive 99 S2x16 hcc0_scratch6
def dot_S768x384_S384x768_S768x768_1_0_0_1_n_n : DotDims S768x384 S384x768 S768x768 where
  lhsContracting := [1]
  rhsContracting := [0]
  lhsNonContracting := [0]
  rhsNonContracting := [1]
  lhsBatch := []
  rhsBatch := []
  wf := dot_S768x384_S384x768_S768x768_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S768x6144 : Shape := ⟨2, ![768, 6144]⟩
abbrev S6144x768 : Shape := ⟨2, ![6144, 768]⟩
abbrev S768x768 : Shape := ⟨2, ![768, 768]⟩

abbrev nBuf : Space → Nat
  | .hbm => 4
  | .vmem => 0
  | .smem => 0
  | _ => 0

abbrev bufTy : (tb : Table) → Fin (tcTables nBuf tb) → BufTy
  | .hbm, ⟨0, _⟩ => ⟨S768x6144, .f32⟩
  | .hbm, ⟨1, _⟩ => ⟨S6144x768, .f32⟩
  | .hbm, ⟨2, _⟩ => ⟨S768x768, .f32⟩
  | .hbm, ⟨3, _⟩ => ⟨S768x768, .bf16⟩
  | _, _ => ⟨S768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bitsLt_bf16_f32 : FTy.bits .bf16 < FTy.bits .f32
  dot_S768x6144_S6144x768_S768x768_1_0_0_1_n_n_wf : DotDims.WF S768x6144 S6144x768 S768x768 [1] [0] [0] [1] [] []

variable [Facts₀]

def dot_S768x6144_S6144x768_S768x768_1_0_0_1_n_n : DotDims S768x6144 S6144x768 S768x768 where
  lhsContracting := [1]
  rhsContracting := [0]
  lhsNonContracting := [0]
  rhsNonContracting := [1]
  lhsBatch := []
  rhsBatch := []
  wf := dot_S768x6144_S6144x768_S768x768_1_0_0_1_n_n_wf

class Facts : Prop extends Facts₀ where

variable [Facts]
-- ==== Proof.Peer.lean ====
/-
  The ring of sixteen devices: the device j places ahead of c, the device j places behind it, and that the two undo each other.
-/
import proofs.«900888_g7700000000000889_dist_matmul_k_i_m768_n768_k384_v7x_i16_bf16_1_alg».proof.Proof.Gen.KernelIdeal

namespace Cert.KernelIdeal.Geo

open Idealize.ShloMosaic Cert.KernelIdeal

/-- The device j places ahead of c on the ring. -/
def peer (c : Dev nD) (j : Fin 16) : Dev nD := ⟨(c.val + j.val) % 16, Nat.mod_lt _ (by decide)⟩
/-- The device j places behind c on the ring. -/
def frm (c : Dev nD) (j : Fin 16) : Dev nD := ⟨(c.val + 16 - j.val) % 16, Nat.mod_lt _ (by decide)⟩
/-- The offset that leads back: sixteen minus j, on the ring. -/
def neg (j : Fin 16) : Fin 16 := ⟨(16 - j.val) % 16, Nat.mod_lt _ (by decide)⟩

theorem peer_frm (c : Dev nD) (j : Fin 16) : peer (frm c j) j = c := by revert c j; decide
theorem frm_peer (c : Dev nD) (j : Fin 16) : frm (peer c j) j = c := by revert c j; decide
theorem peer_zero (c : Dev nD) : peer c 0 = c := by revert c; decide
theorem frm_zero (c : Dev nD) : frm c 0 = c := by revert c; decide
theorem peer_ne_self (c : Dev nD) (j : Fin 16) (hj : j ≠ 0) : peer c j ≠ c := by revert c j; decide
theorem frm_ne_self (c : Dev nD) (j : Fin 16) (hj : j ≠ 0) : frm c j ≠ c := by revert c j; decide
theorem peer_injective (c : Dev nD) : Function.Injective (peer c) := by revert c; decide
theorem frm_injective (c : Dev nD) : Function.Injective (frm c) := by revert c; decide
theorem frm_eq_peer_neg (c : Dev nD) (j : Fin 16) : frm c j = peer c (neg j) := by revert c j; decide
theorem peer_peer_neg (c : Dev nD) (j : Fin 16) : peer (peer c j) (neg j) = c := by revert c j; decide
theorem neg_neg (j : Fin 16) : neg (neg j) = j := by revert j; decide
theorem neg_ne_zero (j : Fin 16) (hj : j ≠ 0) : neg j ≠ 0 := by revert j; decide

end Cert.KernelIdeal.Geo
-- ==== Proof.Geo.lean ====
/-
  The closed forms of the device chains and of the row offsets over the ring of sixteen devices.
  Each device chain is the device J places ahead of c on the ring, (c + J) mod 16, J = 1..15: the
  fifteen entry signals (N = 1..15, J = N), the fifteen slice copies of the reduction for the lower
  half of a chunk (N = 16..30, J = N - 15) and for the upper half (N = 31..45, J = N - 30), the
  fifteen copies that spread the reduced lower half (N = 46..60, J = N - 45) and the reduced upper
  half (N = 61..75, J = N - 60). A chunk is 48 rows, device d's chunk starts at row 48 d, and its
  half h (h = 0, 1) is the 24 rows from 48 d + 24 h: the source slice of the copy to the device j
  ahead is that device's half, the rows accumulated and the rows spread are c's own half.
-/
import proofs.«900888_g7700000000000889_dist_matmul_k_i_m768_n768_k384_v7x_i16_bf16_1_alg».proof.Proof.Peer

namespace Cert.KernelIdeal.Geo

open Idealize.ShloMosaic Cert.KernelIdeal

/-! ## The device chains: (c + J) mod 16 -/

-- python3 scratch/gen_geo_devs.py proof/Proof/Gen/KernelIdeal.lean   (from the unit directory)
theorem dev1_eq (c : Dev nD) : (⟨k0_dev1 c, Gen.k0_dev1_lt c⟩ : Dev nD) = peer c 1 := Fin.ext (Gen.k0_dev1_eq c)
theorem dev2_eq (c : Dev nD) : (⟨k0_dev2 c, Gen.k0_dev2_lt c⟩ : Dev nD) = peer c 2 := Fin.ext (Gen.k0_dev2_eq c)
theorem dev3_eq (c : Dev nD) : (⟨k0_dev3 c, Gen.k0_dev3_lt c⟩ : Dev nD) = peer c 3 := Fin.ext (Gen.k0_dev3_eq c)
theorem dev4_eq (c : Dev nD) : (⟨k0_dev4 c, Gen.k0_dev4_lt c⟩ : Dev nD) = peer c 4 := Fin.ext (Gen.k0_dev4_eq c)
theorem dev5_eq (c : Dev nD) : (⟨k0_dev5 c, Gen.k0_dev5_lt c⟩ : Dev nD) = peer c 5 := Fin.ext (Gen.k0_dev5_eq c)
theorem dev6_eq (c : Dev nD) : (⟨k0_dev6 c, Gen.k0_dev6_lt c⟩ : Dev nD) = peer c 6 := Fin.ext (Gen.k0_dev6_eq c)
theorem dev7_eq (c : Dev nD) : (⟨k0_dev7 c, Gen.k0_dev7_lt c⟩ : Dev nD) = peer c 7 := Fin.ext (Gen.k0_dev7_eq c)
theorem dev8_eq (c : Dev nD) : (⟨k0_dev8 c, Gen.k0_dev8_lt c⟩ : Dev nD) = peer c 8 := Fin.ext (Gen.k0_dev8_eq c)
theorem dev9_eq (c : Dev nD) : (⟨k0_dev9 c, Gen.k0_dev9_lt c⟩ : Dev nD) = peer c 9 := Fin.ext (Gen.k0_dev9_eq c)
theorem dev10_eq (c : Dev nD) : (⟨k0_dev10 c, Gen.k0_dev10_lt c⟩ : Dev nD) = peer c 10 := Fin.ext (Gen.k0_dev10_eq c)
theorem dev11_eq (c : Dev nD) : (⟨k0_dev11 c, Gen.k0_dev11_lt c⟩ : Dev nD) = peer c 11 := Fin.ext (Gen.k0_dev11_eq c)
theorem dev12_eq (c : Dev nD) : (⟨k0_dev12 c, Gen.k0_dev12_lt c⟩ : Dev nD) = peer c 12 := Fin.ext (Gen.k0_dev12_eq c)
theorem dev13_eq (c : Dev nD) : (⟨k0_dev13 c, Gen.k0_dev13_lt c⟩ : Dev nD) = peer c 13 := Fin.ext (Gen.k0_dev13_eq c)
theorem dev14_eq (c : Dev nD) : (⟨k0_dev14 c, Gen.k0_dev14_lt c⟩ : Dev nD) = peer c 14 := Fin.ext (Gen.k0_dev14_eq c)
theorem dev15_eq (c : Dev nD) : (⟨k0_dev15 c, Gen.k0_dev15_lt c⟩ : Dev nD) = peer c 15 := Fin.ext (Gen.k0_dev15_eq c)
theorem dev16_eq (c : Dev nD) : (⟨k0_dev16 c, Gen.k0_dev16_lt c⟩ : Dev nD) = peer c 1 := Fin.ext (Gen.k0_dev16_eq c)
theorem dev17_eq (c : Dev nD) : (⟨k0_dev17 c, Gen.k0_dev17_lt c⟩ : Dev nD) = peer c 2 := Fin.ext (Gen.k0_dev17_eq c)
theorem dev18_eq (c : Dev nD) : (⟨k0_dev18 c, Gen.k0_dev18_lt c⟩ : Dev nD) = peer c 3 := Fin.ext (Gen.k0_dev18_eq c)
theorem dev19_eq (c : Dev nD) : (⟨k0_dev19 c, Gen.k0_dev19_lt c⟩ : Dev nD) = peer c 4 := Fin.ext (Gen.k0_dev19_eq c)
theorem dev20_eq (c : Dev nD) : (⟨k0_dev20 c, Gen.k0_dev20_lt c⟩ : Dev nD) = peer c 5 := Fin.ext (Gen.k0_dev20_eq c)
theorem dev21_eq (c : Dev nD) : (⟨k0_dev21 c, Gen.k0_dev21_lt c⟩ : Dev nD) = peer c 6 := Fin.ext (Gen.k0_dev21_eq c)
theorem dev22_eq (c : Dev nD) : (⟨k0_dev22 c, Gen.k0_dev22_lt c⟩ : Dev nD) = peer c 7 := Fin.ext (Gen.k0_dev22_eq c)
theorem dev23_eq (c : Dev nD) : (⟨k0_dev23 c, Gen.k0_dev23_lt c⟩ : Dev nD) = peer c 8 := Fin.ext (Gen.k0_dev23_eq c)
theorem dev24_eq (c : Dev nD) : (⟨k0_dev24 c, Gen.k0_dev24_lt c⟩ : Dev nD) = peer c 9 := Fin.ext (Gen.k0_dev24_eq c)
theorem dev25_eq (c : Dev nD) : (⟨k0_dev25 c, Gen.k0_dev25_lt c⟩ : Dev nD) = peer c 10 := Fin.ext (Gen.k0_dev25_eq c)
theorem dev26_eq (c : Dev nD) : (⟨k0_dev26 c, Gen.k0_dev26_lt c⟩ : Dev nD) = peer c 11 := Fin.ext (Gen.k0_dev26_eq c)
theorem dev27_eq (c : Dev nD) : (⟨k0_dev27 c, Gen.k0_dev27_lt c⟩ : Dev nD) = peer c 12 := Fin.ext (Gen.k0_dev27_eq c)
theorem dev28_eq (c : Dev nD) : (⟨k0_dev28 c, Gen.k0_dev28_lt c⟩ : Dev nD) = peer c 13 := Fin.ext (Gen.k0_dev28_eq c)
theorem dev29_eq (c : Dev nD) : (⟨k0_dev29 c, Gen.k0_dev29_lt c⟩ : Dev nD) = peer c 14 := Fin.ext (Gen.k0_dev29_eq c)
theorem dev30_eq (c : Dev nD) : (⟨k0_dev30 c, Gen.k0_dev30_lt c⟩ : Dev nD) = peer c 15 := Fin.ext (Gen.k0_dev30_eq c)
theorem dev31_eq (c : Dev nD) : (⟨k0_dev31 c, Gen.k0_dev31_lt c⟩ : Dev nD) = peer c 1 := Fin.ext (Gen.k0_dev31_eq c)
theorem dev32_eq (c : Dev nD) : (⟨k0_dev32 c, Gen.k0_dev32_lt c⟩ : Dev nD) = peer c 2 := Fin.ext (Gen.k0_dev32_eq c)
theorem dev33_eq (c : Dev nD) : (⟨k0_dev33 c, Gen.k0_dev33_lt c⟩ : Dev nD) = peer c 3 := Fin.ext (Gen.k0_dev33_eq c)
theorem dev34_eq (c : Dev nD) : (⟨k0_dev34 c, Gen.k0_dev34_lt c⟩ : Dev nD) = peer c 4 := Fin.ext (Gen.k0_dev34_eq c)
theorem dev35_eq (c : Dev nD) : (⟨k0_dev35 c, Gen.k0_dev35_lt c⟩ : Dev nD) = peer c 5 := Fin.ext (Gen.k0_dev35_eq c)
theorem dev36_eq (c : Dev nD) : (⟨k0_dev36 c, Gen.k0_dev36_lt c⟩ : Dev nD) = peer c 6 := Fin.ext (Gen.k0_dev36_eq c)
theorem dev37_eq (c : Dev nD) : (⟨k0_dev37 c, Gen.k0_dev37_lt c⟩ : Dev nD) = peer c 7 := Fin.ext (Gen.k0_dev37_eq c)
theorem dev38_eq (c : Dev nD) : (⟨k0_dev38 c, Gen.k0_dev38_lt c⟩ : Dev nD) = peer c 8 := Fin.ext (Gen.k0_dev38_eq c)
theorem dev39_eq (c : Dev nD) : (⟨k0_dev39 c, Gen.k0_dev39_lt c⟩ : Dev nD) = peer c 9 := Fin.ext (Gen.k0_dev39_eq c)
theorem dev40_eq (c : Dev nD) : (⟨k0_dev40 c, Gen.k0_dev40_lt c⟩ : Dev nD) = peer c 10 := Fin.ext (Gen.k0_dev40_eq c)
theorem dev41_eq (c : Dev nD) : (⟨k0_dev41 c, Gen.k0_dev41_lt c⟩ : Dev nD) = peer c 11 := Fin.ext (Gen.k0_dev41_eq c)
theorem dev42_eq (c : Dev nD) : (⟨k0_dev42 c, Gen.k0_dev42_lt c⟩ : Dev nD) = peer c 12 := Fin.ext (Gen.k0_dev42_eq c)
theorem dev43_eq (c : Dev nD) : (⟨k0_dev43 c, Gen.k0_dev43_lt c⟩ : Dev nD) = peer c 13 := Fin.ext (Gen.k0_dev43_eq c)
theorem dev44_eq (c : Dev nD) : (⟨k0_dev44 c, Gen.k0_dev44_lt c⟩ : Dev nD) = peer c 14 := Fin.ext (Gen.k0_dev44_eq c)
theorem dev45_eq (c : Dev nD) : (⟨k0_dev45 c, Gen.k0_dev45_lt c⟩ : Dev nD) = peer c 15 := Fin.ext (Gen.k0_dev45_eq c)
theorem dev46_eq (c : Dev nD) : (⟨k0_dev46 c, Gen.k0_dev46_lt c⟩ : Dev nD) = peer c 1 := Fin.ext (Gen.k0_dev46_eq c)
theorem dev47_eq (c : Dev nD) : (⟨k0_dev47 c, Gen.k0_dev47_lt c⟩ : Dev nD) = peer c 2 := Fin.ext (Gen.k0_dev47_eq c)
theorem dev48_eq (c : Dev nD) : (⟨k0_dev48 c, Gen.k0_dev48_lt c⟩ : Dev nD) = peer c 3 := Fin.ext (Gen.k0_dev48_eq c)
theorem dev49_eq (c : Dev nD) : (⟨k0_dev49 c, Gen.k0_dev49_lt c⟩ : Dev nD) = peer c 4 := Fin.ext (Gen.k0_dev49_eq c)
theorem dev50_eq (c : Dev nD) : (⟨k0_dev50 c, Gen.k0_dev50_lt c⟩ : Dev nD) = peer c 5 := Fin.ext (Gen.k0_dev50_eq c)
theorem dev51_eq (c : Dev nD) : (⟨k0_dev51 c, Gen.k0_dev51_lt c⟩ : Dev nD) = peer c 6 := Fin.ext (Gen.k0_dev51_eq c)
theorem dev52_eq (c : Dev nD) : (⟨k0_dev52 c, Gen.k0_dev52_lt c⟩ : Dev nD) = peer c 7 := Fin.ext (Gen.k0_dev52_eq c)
theorem dev53_eq (c : Dev nD) : (⟨k0_dev53 c, Gen.k0_dev53_lt c⟩ : Dev nD) = peer c 8 := Fin.ext (Gen.k0_dev53_eq c)
theorem dev54_eq (c : Dev nD) : (⟨k0_dev54 c, Gen.k0_dev54_lt c⟩ : Dev nD) = peer c 9 := Fin.ext (Gen.k0_dev54_eq c)
theorem dev55_eq (c : Dev nD) : (⟨k0_dev55 c, Gen.k0_dev55_lt c⟩ : Dev nD) = peer c 10 := Fin.ext (Gen.k0_dev55_eq c)
theorem dev56_eq (c : Dev nD) : (⟨k0_dev56 c, Gen.k0_dev56_lt c⟩ : Dev nD) = peer c 11 := Fin.ext (Gen.k0_dev56_eq c)
theorem dev57_eq (c : Dev nD) : (⟨k0_dev57 c, Gen.k0_dev57_lt c⟩ : Dev nD) = peer c 12 := Fin.ext (Gen.k0_dev57_eq c)
theorem dev58_eq (c : Dev nD) : (⟨k0_dev58 c, Gen.k0_dev58_lt c⟩ : Dev nD) = peer c 13 := Fin.ext (Gen.k0_dev58_eq c)
theorem dev59_eq (c : Dev nD) : (⟨k0_dev59 c, Gen.k0_dev59_lt c⟩ : Dev nD) = peer c 14 := Fin.ext (Gen.k0_dev59_eq c)
theorem dev60_eq (c : Dev nD) : (⟨k0_dev60 c, Gen.k0_dev60_lt c⟩ : Dev nD) = peer c 15 := Fin.ext (Gen.k0_dev60_eq c)
theorem dev61_eq (c : Dev nD) : (⟨k0_dev61 c, Gen.k0_dev61_lt c⟩ : Dev nD) = peer c 1 := Fin.ext (Gen.k0_dev61_eq c)
theorem dev62_eq (c : Dev nD) : (⟨k0_dev62 c, Gen.k0_dev62_lt c⟩ : Dev nD) = peer c 2 := Fin.ext (Gen.k0_dev62_eq c)
theorem dev63_eq (c : Dev nD) : (⟨k0_dev63 c, Gen.k0_dev63_lt c⟩ : Dev nD) = peer c 3 := Fin.ext (Gen.k0_dev63_eq c)
theorem dev64_eq (c : Dev nD) : (⟨k0_dev64 c, Gen.k0_dev64_lt c⟩ : Dev nD) = peer c 4 := Fin.ext (Gen.k0_dev64_eq c)
theorem dev65_eq (c : Dev nD) : (⟨k0_dev65 c, Gen.k0_dev65_lt c⟩ : Dev nD) = peer c 5 := Fin.ext (Gen.k0_dev65_eq c)
theorem dev66_eq (c : Dev nD) : (⟨k0_dev66 c, Gen.k0_dev66_lt c⟩ : Dev nD) = peer c 6 := Fin.ext (Gen.k0_dev66_eq c)
theorem dev67_eq (c : Dev nD) : (⟨k0_dev67 c, Gen.k0_dev67_lt c⟩ : Dev nD) = peer c 7 := Fin.ext (Gen.k0_dev67_eq c)
theorem dev68_eq (c : Dev nD) : (⟨k0_dev68 c, Gen.k0_dev68_lt c⟩ : Dev nD) = peer c 8 := Fin.ext (Gen.k0_dev68_eq c)
theorem dev69_eq (c : Dev nD) : (⟨k0_dev69 c, Gen.k0_dev69_lt c⟩ : Dev nD) = peer c 9 := Fin.ext (Gen.k0_dev69_eq c)
theorem dev70_eq (c : Dev nD) : (⟨k0_dev70 c, Gen.k0_dev70_lt c⟩ : Dev nD) = peer c 10 := Fin.ext (Gen.k0_dev70_eq c)
theorem dev71_eq (c : Dev nD) : (⟨k0_dev71 c, Gen.k0_dev71_lt c⟩ : Dev nD) = peer c 11 := Fin.ext (Gen.k0_dev71_eq c)
theorem dev72_eq (c : Dev nD) : (⟨k0_dev72 c, Gen.k0_dev72_lt c⟩ : Dev nD) = peer c 12 := Fin.ext (Gen.k0_dev72_eq c)
theorem dev73_eq (c : Dev nD) : (⟨k0_dev73 c, Gen.k0_dev73_lt c⟩ : Dev nD) = peer c 13 := Fin.ext (Gen.k0_dev73_eq c)
theorem dev74_eq (c : Dev nD) : (⟨k0_dev74 c, Gen.k0_dev74_lt c⟩ : Dev nD) = peer c 14 := Fin.ext (Gen.k0_dev74_eq c)
theorem dev75_eq (c : Dev nD) : (⟨k0_dev75 c, Gen.k0_dev75_lt c⟩ : Dev nD) = peer c 15 := Fin.ext (Gen.k0_dev75_eq c)

/-! ## The row offsets: 48 · device + 24 · half, column 0 -/

/-- The source rows of the copy to the device (1 + j) ahead: that device's half h. -/
theorem off1_eq (c : Dev nD) (j : Fin 15) (h : Fin 2) :
    k0_off1 c (BitVec.ofNat 32 (1 + j.val)) (BitVec.ofNat 32 (24 * h.val))
      = ![(peer c ⟨1 + j.val, by omega⟩).val * 48 + 24 * h.val, 0] := by
  rw [Gen.k0_off1_eq c j h]
  have e : 48 * ((c.val + j.val + 1) % 16) = (peer c ⟨1 + j.val, by omega⟩).val * 48 := by
    show 48 * ((c.val + j.val + 1) % 16) = ((c.val + (1 + j.val)) % 16) * 48
    rw [Nat.mul_comm, Nat.add_assoc, Nat.add_comm j.val 1]
  rw [e]

/-- The rows accumulated and stored: c's own half h. -/
theorem off2_eq (c : Dev nD) (h : Fin 2) :
    k0_off2 c (BitVec.ofNat 32 (24 * h.val)) = ![c.val * 48 + 24 * h.val, 0] := by
  rw [Gen.k0_off2_eq c h, Nat.mul_comm 48 c.val]

/-- The rows spread to every other device: c's own half h, at both ends of the copy. -/
theorem off3_eq (c : Dev nD) (h : Fin 2) :
    k0_off3 c (BitVec.ofNat 32 (24 * h.val)) = ![c.val * 48 + 24 * h.val, 0] := by
  rw [Gen.k0_off3_eq c h, Nat.mul_comm 48 c.val]

/-! ## The same as plain numbers: first coordinate, column, and the range of rows -/

theorem off1_row (c : Dev nD) (j : Fin 15) (h : Fin 2) :
    k0_off1 c (BitVec.ofNat 32 (1 + j.val)) (BitVec.ofNat 32 (24 * h.val)) 0
      = (peer c ⟨1 + j.val, by omega⟩).val * 48 + 24 * h.val := by
  rw [off1_eq]; rfl
theorem off1_col (c : Dev nD) (j : Fin 15) (h : Fin 2) :
    k0_off1 c (BitVec.ofNat 32 (1 + j.val)) (BitVec.ofNat 32 (24 * h.val)) 1 = 0 := by
  rw [off1_eq]; rfl
theorem off2_row (c : Dev nD) (h : Fin 2) :
    k0_off2 c (BitVec.ofNat 32 (24 * h.val)) 0 = c.val * 48 + 24 * h.val := by
  rw [off2_eq]; rfl
theorem off2_col (c : Dev nD) (h : Fin 2) : k0_off2 c (BitVec.ofNat 32 (24 * h.val)) 1 = 0 := by
  rw [off2_eq]; rfl
theorem off3_row (c : Dev nD) (h : Fin 2) :
    k0_off3 c (BitVec.ofNat 32 (24 * h.val)) 0 = c.val * 48 + 24 * h.val := by
  rw [off3_eq]; rfl
theorem off3_col (c : Dev nD) (h : Fin 2) : k0_off3 c (BitVec.ofNat 32 (24 * h.val)) 1 = 0 := by
  rw [off3_eq]; rfl

/-- The 24 rows of half h of device d's chunk lie inside the 768 rows. -/
theorem row_add_le (d : Dev nD) (h : Fin 2) : d.val * 48 + 24 * h.val + 24 ≤ 768 := by
  have hd : d.val < 16 := d.isLt
  have hh : h.val < 2 := h.isLt
  omega

theorem row_lt (d : Dev nD) (h : Fin 2) : d.val * 48 + 24 * h.val < 768 := by
  have := row_add_le d h; omega

/-- The first row determines the device and the half. -/
theorem row_inj (d d' : Dev nD) (h h' : Fin 2)
    (e : d.val * 48 + 24 * h.val = d'.val * 48 + 24 * h'.val) : d = d' ∧ h = h' := by
  have hh : h.val < 2 := h.isLt
  have hh' : h'.val < 2 := h'.isLt
  exact ⟨Fin.ext (by omega), Fin.ext (by omega)⟩

/-- Two different (device, half) pairs own disjoint ranges of 24 rows. -/
theorem rows_disjoint (d d' : Dev nD) (h h' : Fin 2) (ne : ¬ (d = d' ∧ h = h')) :
    d.val * 48 + 24 * h.val + 24 ≤ d'.val * 48 + 24 * h'.val
      ∨ d'.val * 48 + 24 * h'.val + 24 ≤ d.val * 48 + 24 * h.val := by
  have hh : h.val < 2 := h.isLt
  have hh' : h'.val < 2 := h'.isLt
  by_cases hd : d.val = d'.val
  · have hne : h.val ≠ h'.val := fun e => ne ⟨Fin.ext hd, Fin.ext e⟩
    omega
  · omega

end Cert.KernelIdeal.Geo
-- ==== Proof.Vals.lean ====
/-
  What each device's buffers hold, as functions of the launch memory: a device's blocks of the two matrices, its
  partial product, the rows of the partial products that land in a device's receive slots, the sum a device forms
  for each half of its rows, and the whole result every device ends with.
-/
import proofs.«900888_g7700000000000889_dist_matmul_k_i_m768_n768_k384_v7x_i16_bf16_1_alg».proof.Proof.Gen.KernelIdeal.Skeleton
import proofs.«900888_g7700000000000889_dist_matmul_k_i_m768_n768_k384_v7x_i16_bf16_1_alg».proof.Proof.Gen.KernelIdeal.Launch
import proofs.«900888_g7700000000000889_dist_matmul_k_i_m768_n768_k384_v7x_i16_bf16_1_alg».proof.Proof.Peer
import Idealize.ShloMosaic.Lib.ValueIdx

noncomputable section

namespace Cert.KernelIdeal.Vals

open Idealize.ShloMosaic Idealize.ShloMosaic.TcCoe Idealize.ShloMosaic.ValueIdx
open Cert.KernelIdeal Cert.KernelIdeal.Gen Cert.KernelIdeal.Geo

variable {F : FTy → Type} [FloatOps F]
variable (m : (ℓ : Loc nD τ sig) → Buf (Elt F) ℓ)

/-- The ring offset of copy number r (r = 0 .. 14): one more than r. -/
def off (r : Fin 15) : Fin 16 := ⟨1 + r.val, by omega⟩

/-- Device c's block of the left matrix and of the right matrix, as its staging buffers hold them. -/
def aV (c : Dev nD) : Vec F S768x384 .f32 := (win0_0.blk t0_0).view.read (Elt F) (m ((c : Thread nD τ).loc main_arg0))
def bV (c : Dev nD) : Vec F S384x768 .f32 := (win0_1.blk t0_0).view.read (Elt F) (m ((c : Thread nD τ).loc main_arg1))

/-- Device c's partial product: its block of the left matrix times its block of the right one. -/
def pbV (c : Dev nD) : FVec F S768x768 .bf16 := k0_pay3 (k0_pay2 (aV m c) (k0_pay1 (bV m c)))

/-- Row y of half h of the rows that belong to device s, as an index of the whole 768 x 768 array. -/
def rowIx (s : Dev nD) (h : Fin 2) (y : S24x768.Idx) : S768x768.Idx :=
  ix2 (⟨s.val * 48 + 24 * h.val + (y 0).val, by have h0 : (y 0).val < 24 := (y 0).isLt; have hs : s.val < 16 := s.isLt; have hh : h.val < 2 := h.isLt; show _ < 768; omega⟩ : Fin 768) (⟨(y 1).val, (y 1).isLt⟩ : Fin 768)

/-- Half h of device d's own rows of its own partial product. -/
def ownRows (d : Dev nD) (h : Fin 2) : Vec F S24x768 .bf16 := fun y => pbV m d (rowIx d h y)

/-- What receive slot (h, 1 + r) of device d holds once it has landed: half h of d's rows of the partial product of
    the device 1 + r places behind d. -/
def landed (d : Dev nD) (h : Fin 2) (r : Fin 15) : Vec F S1x1x24x768 .bf16 :=
  fun z => pbV m (frm d (off r)) (rowIx d h (ix2 (⟨(z 2).val, (z 2).isLt⟩ : Fin 24) (⟨(z 3).val, (z 3).isLt⟩ : Fin 768)))

/-- The sum the body forms for the first half: the own rows, then the fifteen received pieces one after the other. -/
def acc0 (x0 : Vec F S24x768 .bf16) (l : Fin 15 → Vec F S1x1x24x768 .bf16) : FVec F S24x768 .bf16 :=
  k0_pay12 (k0_pay11 (k0_pay10 (k0_pay9 (k0_pay8 (k0_pay6 (k0_pay5 (k0_pay4 x0) (l 0) (l 1)) (l 2) (l 3)) (k0_pay7 (l 4)) (l 5) (l 6))
    (l 7) (l 8)) (l 9) (l 10)) (l 11) (l 12)) (l 13) (l 14)

/-- The same for the second half. -/
def acc1 (x0 : Vec F S24x768 .bf16) (l : Fin 15 → Vec F S1x1x24x768 .bf16) : FVec F S24x768 .bf16 :=
  k0_pay21 (k0_pay20 (k0_pay19 (k0_pay17 (k0_pay16 (k0_pay15 (k0_pay14 (k0_pay13 x0) (l 0) (l 1)) (l 2) (l 3)) (l 4) (l 5)) (l 6) (l 7))
    (k0_pay18 (l 8)) (l 9) (l 10)) (l 11) (l 12)) (l 13) (l 14)

/-- Half h of device d's rows of the result, as d computes it. -/
def chunkV (d : Dev nD) (h : Fin 2) : FVec F S24x768 .bf16 :=
  if h = 0 then acc0 (ownRows m d 0) (landed m d 0) else acc1 (ownRows m d 1) (landed m d 1)

/-- The whole result: rows 48 s + 24 h .. 48 s + 24 h + 23 are half h of device s's rows. -/
def outFull : S768x768.Idx → Elt F (.bf16) := fun i =>
  chunkV m (⟨(i 0).val / 48, by have h0 : (i 0).val < 768 := (i 0).isLt; show _ < 16; omega⟩ : Dev nD)
    (⟨(i 0).val % 48 / 24, by omega⟩ : Fin 2)
    (ix2 (⟨(i 0).val % 24, by omega⟩ : Fin 24) (⟨(i 1).val, (i 1).isLt⟩ : Fin 768))

/-- What device d's receive buffer holds once every slot has landed (slot (h, 0) is never written: there it names
    the own rows, a value nothing reads). -/
def rsFull (d : Dev nD) : S2x16x24x768.Idx → Elt F (.bf16) := fun z =>
  pbV m (frm d (⟨(z 1).val, (z 1).isLt⟩ : Fin 16)) (rowIx d (⟨(z 0).val, (z 0).isLt⟩ : Fin 2)
    (ix2 (⟨(z 2).val, (z 2).isLt⟩ : Fin 24) (⟨(z 3).val, (z 3).isLt⟩ : Fin 768)))

end Cert.KernelIdeal.Vals

end
-- ==== Proof.Views.lean ====
/-
  The buffers of one device and the pieces of them the protocol moves: the thirty-two receive slots, the thirty-two
  blocks of twenty-four rows of a 768 x 768 buffer (half h of the rows that belong to device s), as memory views
  spelt the way the body spells them and as plain sets of indices.
-/
import proofs.«900888_g7700000000000889_dist_matmul_k_i_m768_n768_k384_v7x_i16_bf16_1_alg».proof.Proof.Gen.KernelIdeal.Skeleton
import proofs.«900888_g7700000000000889_dist_matmul_k_i_m768_n768_k384_v7x_i16_bf16_1_alg».proof.Proof.Geo
import proofs.«900888_g7700000000000889_dist_matmul_k_i_m768_n768_k384_v7x_i16_bf16_1_alg».proof.Proof.Vals

noncomputable section

namespace Cert.KernelIdeal.Pr

open Cert.KernelIdeal Cert.KernelIdeal.Gen Cert.KernelIdeal.Geo Cert.KernelIdeal.Vals
open Idealize.ShloMosaic Idealize.ShloMosaic.TcCoe

/-! ## The buffers -/

abbrev aM : Memref sig .tc .vmem S768x384 .f32 := Memref.whole cc0_stg0_0
abbrev bM : Memref sig .tc .vmem S384x768 .f32 := Memref.whole cc0_stg1_0
abbrev oM : Memref sig .tc .vmem S768x768 .bf16 := Memref.whole cc0_stg2_0
abbrev pbM : Memref sig .tc .vmem S768x768 .bf16 := Memref.whole cc0_scratch0
abbrev bbM : Memref sig .tc .vmem S384x768 .bf16 := Memref.whole cc0_scratch1
abbrev rsM : Memref sig .tc .vmem S2x16x24x768 .bf16 := Memref.whole cc0_scratch2

/-! ## The views, as the body spells them -/

theorem slot_inb (h : Fin 2) (j : Fin 16) : ∀ a, (![h.val, j.val, 0, 0] : Fin 4 → Nat) a + S1x1x24x768.size a ≤ S2x16x24x768.size a := by
  revert h j; decide

/-- Receive slot (h, j): one 24 x 768 piece of the receive buffer. -/
abbrev slotV (h : Fin 2) (j : Fin 16) : Memref sig .tc .vmem S24x768 .bf16 :=
  (rsM.slice (Rect.unit (s := S2x16x24x768) ![h.val, j.val, 0, 0] S1x1x24x768.size (slot_inb h j)) (fun _ => rfl)).squeeze S24x768 squeezes_S1x1x24x768_S24x768

/-- Half h of the rows that belong to device s, in the 768 x 768 buffer M: as the all-gather's copies spell them, -/
abbrev rowsV (M : Memref sig .tc .vmem S768x768 .bf16) (s : Dev nD) (h : Fin 2) : Memref sig .tc .vmem S24x768 .bf16 :=
  M.slice (Rect.unit (s := S768x768) (k0_off3 s (BitVec.ofNat 32 (24 * h.val))) S24x768.size (k0_off3_inb s h)) (fun _ => rfl)

/-- as the own-row load and store spell them (the rectangle alone: they go through the whole buffer), -/
abbrev ownRect (s : Dev nD) (h : Fin 2) : Rect S768x768 :=
  Rect.unit (s := S768x768) (k0_off2 s (BitVec.ofNat 32 (24 * h.val))) S24x768.size (k0_off2_inb s h)

/-- and the source of device c's reduce-scatter copy number r: the rows of the device 1 + r places ahead, in c's partial product. -/
abbrev srcV (c : Dev nD) (r : Fin 15) (h : Fin 2) : Memref sig .tc .vmem S24x768 .bf16 :=
  pbM.slice (Rect.unit (s := S768x768) (k0_off1 c (BitVec.ofNat 32 (1 + r.val)) (BitVec.ofNat 32 (24 * h.val))) S24x768.size (k0_off1_inb c r h)) (fun _ => rfl)

/-! ## The same pieces as sets of indices -/

/-- The indices of half h of device s's rows. -/
def rowsSet (s : Dev nD) (h : Fin 2) : Finset S768x768.Idx :=
  Finset.univ.filter fun i => s.val * 48 + 24 * h.val ≤ (i 0).val ∧ (i 0).val < s.val * 48 + 24 * h.val + 24

/-- The indices of receive slot (h, j). -/
def slotSet (h : Fin 2) (j : Fin 16) : Finset S2x16x24x768.Idx :=
  Finset.univ.filter fun z => (z 0).val = h.val ∧ (z 1).val = j.val

end Cert.KernelIdeal.Pr

end
-- ==== Proof.Sched.lean ====
/-
  The cross-device protocol as a schedule of rounds. Every semaphore of the kernel has ONE round. A device's barrier
  semaphore is credited one unit by each of the fifteen other devices; the unit from the device j places ahead carries
  what a copy TO that device needs: its two receive slots number j, its two row blocks of the result that belong to
  the signalled device, and that the four cells those copies credit are open. A receive cell of the reduce-scatter
  carries the slot at the sender's partial product's rows, a receive cell of the all-gather the rows at the result;
  a send cell gives the copy's source back.
-/
import proofs.«900888_g7700000000000889_dist_matmul_k_i_m768_n768_k384_v7x_i16_bf16_1_alg».proof.Proof.Gen.KernelIdeal.Skeleton
import proofs.«900888_g7700000000000889_dist_matmul_k_i_m768_n768_k384_v7x_i16_bf16_1_alg».proof.Proof.Gen.KernelIdeal.Launch
import proofs.«900888_g7700000000000889_dist_matmul_k_i_m768_n768_k384_v7x_i16_bf16_1_alg».proof.Proof.Geo
import proofs.«900888_g7700000000000889_dist_matmul_k_i_m768_n768_k384_v7x_i16_bf16_1_alg».proof.Proof.Vals
import proofs.«900888_g7700000000000889_dist_matmul_k_i_m768_n768_k384_v7x_i16_bf16_1_alg».proof.Proof.Views
import Idealize.ShloMosaic.Lib.Pipeline.Launch
import Idealize.ShloMosaic.Lib.Pipeline.Kit
import Idealize.ShloMosaic.Lib.Tactic

noncomputable section

namespace Cert.KernelIdeal.Pr

open Cert.KernelIdeal Cert.KernelIdeal.Gen Cert.KernelIdeal.Geo Cert.KernelIdeal.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties Unit) and the protocol's (duties: a ring offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

abbrev barS : Sem sig := (SemArray.scalar (sig.barrier 0 rfl) : Sems sig S_).sem

theorem sem_inb (h : Fin 2) (j : Fin 16) : ∀ a, (![h.val, j.val] : Fin 2 → Nat) a + S1x1.size a ≤ S2x16.size a := by
  revert h j; decide

/-- Semaphore (h, j) of one of the four arrays of thirty-two, as the body names it: the slice, squeezed. -/
abbrev semAt (A : DmaSems sig S2x16) (h : Fin 2) (j : Fin 16) : DmaSem sig :=
  ((A.slice (Rect.unit (s := S2x16) ![h.val, j.val] S1x1.size (sem_inb h j))).squeeze S_ squeezes_S1x1_S_).sem

abbrev rsS (h : Fin 2) (j : Fin 16) : SemLoc sig := .dma (semAt cc0_scratch3 h j)
abbrev rsR (h : Fin 2) (j : Fin 16) : SemLoc sig := .dma (semAt cc0_scratch4 h j)
abbrev agS (h : Fin 2) (j : Fin 16) : SemLoc sig := .dma (semAt cc0_scratch5 h j)
abbrev agR (h : Fin 2) (j : Fin 16) : SemLoc sig := .dma (semAt cc0_scratch6 h j)
abbrev cel (c : Dev nD) (s : SemLoc sig) : GSem nD τ sig := ((c : Thread nD τ), s)

theorem semAt3 (h : Fin 2) (j : Fin 16) : (semAt cc0_scratch3 h j).val = 3 + 16 * h.val + j.val := by revert h j; decide
theorem semAt4 (h : Fin 2) (j : Fin 16) : (semAt cc0_scratch4 h j).val = 35 + 16 * h.val + j.val := by revert h j; decide
theorem semAt5 (h : Fin 2) (j : Fin 16) : (semAt cc0_scratch5 h j).val = 67 + 16 * h.val + j.val := by revert h j; decide
theorem semAt6 (h : Fin 2) (j : Fin 16) : (semAt cc0_scratch6 h j).val = 99 + 16 * h.val + j.val := by revert h j; decide

/-! ## What the protocol hands over -/

/-- Receive slot (h, j) of device d at contents f; -/
def slotPts (d : Dev nD) (h : Fin 2) (j : Fin 16) (f : Buf (Elt F) ((slotV h j).view.loc (d : Thread nD τ))) : sProp 𝕄 :=
  (slotV h j).view.loc (d : Thread nD τ) ↦[(slotV h j).view.set]{fullShare} f
/-- half h of device s's rows in device d's result buffer at contents f; -/
def outPts (d s : Dev nD) (h : Fin 2) (q : PosShare TreeShare) (f : Buf (Elt F) ((rowsV oM s h).view.loc (d : Thread nD τ))) : sProp 𝕄 :=
  (rowsV oM s h).view.loc (d : Thread nD τ) ↦[(rowsV oM s h).view.set]{q} f
/-- the source of device c's reduce-scatter copy number r of half h: rows of its partial product. -/
def srcPts (c : Dev nD) (r : Fin 15) (h : Fin 2) : sProp 𝕄 :=
  (srcV c r h).view.loc (c : Thread nD τ) ↦[(srcV c r h).view.set]{fullShare} (pbV m c)

/-- What the device j places ahead of c hands c with its unit on c's barrier: its two receive slots number j, the two
    halves of c's rows in its result buffer, and that the four cells c's copies to it will credit are open. -/
def barPay (c : Dev nD) (j : Fin 16) : sProp 𝕄 :=
  iprop((∃ f, slotPts (peer c j) 0 j f) ∗ (∃ f, slotPts (peer c j) 1 j f)
    ∗ (∃ f, outPts (peer c j) c 0 fullShare f) ∗ (∃ f, outPts (peer c j) c 1 fullShare f)
    ∗ reached ER (cel (peer c j) (rsR 0 j)) 0 ∗ reached ER (cel (peer c j) (rsR 1 j)) 0
    ∗ reached ER (cel (peer c j) (agR 0 j)) 0 ∗ reached ER (cel (peer c j) (agR 1 j)) 0)

/-- A landed reduce-scatter slot: the sender's rows. -/
def rsRPay (d : Dev nD) (h : Fin 2) (j : Fin 16) : sProp 𝕄 := slotPts d h j (rsFull m d)
/-- A landed all-gather block: the result's rows of the device j places behind. -/
def agRPay (d : Dev nD) (h : Fin 2) (j : Fin 16) : sProp 𝕄 := outPts d (frm d j) h fullShare (outFull m)

/-- A reduce-scatter copy's source back, whole; an all-gather copy's source back, at the share lent to it. -/
def rsSPay (c : Dev nD) (h : Fin 2) (j : Fin 16) : sProp 𝕄 :=
  if hj : j = 0 then iprop(emp) else srcPts m c ⟨j.val - 1, by have := j.isLt; have : j.val ≠ 0 := fun h0 => hj (Fin.ext h0); omega⟩ h
def agSPay (shr : Fin 16 → PosShare TreeShare) (c : Dev nD) (h : Fin 2) (j : Fin 16) : sProp 𝕄 := outPts c c h (shr j) (outFull m)

/-! ## The schedule -/

/-- Which of the kernel's semaphores a location is: the barrier, or one of the four arrays of thirty-two. -/
inductive Kind | bar | rsS | rsR | agS | agR | other
deriving DecidableEq

def kindOf : SemLoc sig → Kind
  | .reg s => if s = barS then .bar else .other
  | .dma q => if 3 ≤ q.val ∧ q.val < 35 then .rsS else if 35 ≤ q.val ∧ q.val < 67 then .rsR
      else if 67 ≤ q.val ∧ q.val < 99 then .agS else if 99 ≤ q.val ∧ q.val < 131 then .agR else .other
/-- Its half and its ring offset, for a semaphore of the four arrays. -/
def hOf : SemLoc sig → Fin 2
  | .reg _ => 0
  | .dma q => ⟨(q.val - 3) / 16 % 2, Nat.mod_lt _ (by decide)⟩
def jOf : SemLoc sig → Fin 16
  | .reg _ => 0
  | .dma q => ⟨(q.val - 3) % 16, Nat.mod_lt _ (by decide)⟩

/-- The credit of one 24 x 768 piece landing in the receive buffer, and in the result buffer. -/
abbrev NS : ℕ := (slotV 0 1).view.dmaCredit
abbrev NO : ℕ := (rowsV oM 0 0).view.dmaCredit
theorem NS_pos : 0 < NS := View.dmaCredit_pos _ (by decide)
theorem NO_pos : 0 < NO := View.dmaCredit_pos _ (by decide)

variable (shr : Fin 16 → PosShare TreeShare)

/-- One round, round 0. The barrier cell: fifteen duties of one unit, duty j paid by the device j places ahead. A cell
    (h, j), j ≠ 0, of the four arrays: one duty (named 0) of the piece's credit; the cells (h, 0) are never used. -/
def Rd : Rounds.Schedule (GSem nD τ sig) (Fin 16) 𝕄 where
  duties g r :=
    if r = 0 ∧ g.1.2 = .tc then
      (match kindOf g.2 with
        | .bar => Finset.univ.erase 0
        | .other => ∅
        | _ => if jOf g.2 = 0 then ∅ else {0})
    else ∅
  unitless _ := False
  amount g _ _ := match kindOf g.2 with
    | .bar => 1
    | .rsS => NS
    | .rsR => NS
    | .agS => NO
    | .agR => NO
    | .other => 1
  payload g _ d := match kindOf g.2 with
    | .bar => barPay g.1.1 d
    | .rsS => rsSPay m g.1.1 (hOf g.2) (jOf g.2)
    | .rsR => rsRPay m g.1.1 (hOf g.2) (jOf g.2)
    | .agS => agSPay m shr g.1.1 (hOf g.2) (jOf g.2)
    | .agR => agRPay m g.1.1 (hOf g.2) (jOf g.2)
    | .other => iprop(emp)
  amount_pos g _ _ _ := by
    cases kindOf g.2 <;> first | exact Nat.one_pos | exact NS_pos | exact NO_pos

/-! ## The schedule's tables, cell by cell -/

section Tables
variable (c : Dev nD) (h : Fin 2) (j : Fin 16)

theorem kind_bar : kindOf (.reg barS) = Kind.bar := by decide
theorem kind_rsS : kindOf (rsS h j) = .rsS := by revert h j; decide
theorem kind_rsR : kindOf (rsR h j) = .rsR := by revert h j; decide
theorem kind_agS : kindOf (agS h j) = .agS := by revert h j; decide
theorem kind_agR : kindOf (agR h j) = .agR := by revert h j; decide
theorem hOf_rsS : hOf (rsS h j) = h := by revert h j; decide
theorem hOf_rsR : hOf (rsR h j) = h := by revert h j; decide
theorem hOf_agS : hOf (agS h j) = h := by revert h j; decide
theorem hOf_agR : hOf (agR h j) = h := by revert h j; decide
theorem jOf_rsS : jOf (rsS h j) = j := by revert h j; decide
theorem jOf_rsR : jOf (rsR h j) = j := by revert h j; decide
theorem jOf_agS : jOf (agS h j) = j := by revert h j; decide
theorem jOf_agR : jOf (agR h j) = j := by revert h j; decide

theorem duties_bar : (Rd (F := F) m shr).duties (cel c (.reg barS)) 0 = Finset.univ.erase 0 := by
  dsimp only [Rd]; rw [if_pos ⟨rfl, rfl⟩, kind_bar]
theorem duties_rsS (hj : j ≠ 0) : (Rd (F := F) m shr).duties (cel c (rsS h j)) 0 = {0} := by
  dsimp only [Rd]; rw [if_pos ⟨rfl, rfl⟩, kind_rsS, jOf_rsS, if_neg hj]
theorem duties_rsR (hj : j ≠ 0) : (Rd (F := F) m shr).duties (cel c (rsR h j)) 0 = {0} := by
  dsimp only [Rd]; rw [if_pos ⟨rfl, rfl⟩, kind_rsR, jOf_rsR, if_neg hj]
theorem duties_agS (hj : j ≠ 0) : (Rd (F := F) m shr).duties (cel c (agS h j)) 0 = {0} := by
  dsimp only [Rd]; rw [if_pos ⟨rfl, rfl⟩, kind_agS, jOf_agS, if_neg hj]
theorem duties_agR (hj : j ≠ 0) : (Rd (F := F) m shr).duties (cel c (agR h j)) 0 = {0} := by
  dsimp only [Rd]; rw [if_pos ⟨rfl, rfl⟩, kind_agR, jOf_agR, if_neg hj]
theorem duties_later (g : GSem nD τ sig) : ∀ r, 1 ≤ r → (Rd (F := F) m shr).duties g r = ∅ :=
  fun r hr => by dsimp only [Rd]; rw [if_neg fun h => by omega]

theorem amount_bar (d : Fin 16) : (Rd (F := F) m shr).amount (cel c (.reg barS)) 0 d = 1 := by dsimp only [Rd]; rw [kind_bar]
theorem amount_rsS (d : Fin 16) : (Rd (F := F) m shr).amount (cel c (rsS h j)) 0 d = NS := by dsimp only [Rd]; rw [kind_rsS]
theorem amount_rsR (d : Fin 16) : (Rd (F := F) m shr).amount (cel c (rsR h j)) 0 d = NS := by dsimp only [Rd]; rw [kind_rsR]
theorem amount_agS (d : Fin 16) : (Rd (F := F) m shr).amount (cel c (agS h j)) 0 d = NO := by dsimp only [Rd]; rw [kind_agS]
theorem amount_agR (d : Fin 16) : (Rd (F := F) m shr).amount (cel c (agR h j)) 0 d = NO := by dsimp only [Rd]; rw [kind_agR]

theorem expect_bar : (Rd (F := F) m shr).expect (cel c (.reg barS)) 0 = 15 := by
  unfold Schedule.expect Schedule.amountOf
  rw [duties_bar, Finset.sum_congr rfl fun d _ => amount_bar m shr c d, Finset.sum_const, smul_eq_mul, mul_one]
  decide
theorem expect_rsS (hj : j ≠ 0) : (Rd (F := F) m shr).expect (cel c (rsS h j)) 0 = NS := by
  unfold Schedule.expect Schedule.amountOf; rw [duties_rsS m shr c h j hj, Finset.sum_singleton, amount_rsS]
theorem expect_rsR (hj : j ≠ 0) : (Rd (F := F) m shr).expect (cel c (rsR h j)) 0 = NS := by
  unfold Schedule.expect Schedule.amountOf; rw [duties_rsR m shr c h j hj, Finset.sum_singleton, amount_rsR]
theorem expect_agS (hj : j ≠ 0) : (Rd (F := F) m shr).expect (cel c (agS h j)) 0 = NO := by
  unfold Schedule.expect Schedule.amountOf; rw [duties_agS m shr c h j hj, Finset.sum_singleton, amount_agS]
theorem expect_agR (hj : j ≠ 0) : (Rd (F := F) m shr).expect (cel c (agR h j)) 0 = NO := by
  unfold Schedule.expect Schedule.amountOf; rw [duties_agR m shr c h j hj, Finset.sum_singleton, amount_agR]

theorem payload_bar (d : Fin 16) : (Rd (F := F) m shr).payload (cel c (.reg barS)) 0 d = barPay c d := by dsimp only [Rd]; rw [kind_bar]
theorem payload_rsS (d : Fin 16) : (Rd (F := F) m shr).payload (cel c (rsS h j)) 0 d = rsSPay m c h j := by
  dsimp only [Rd]; rw [kind_rsS, hOf_rsS, jOf_rsS]
theorem payload_rsR (d : Fin 16) : (Rd (F := F) m shr).payload (cel c (rsR h j)) 0 d = rsRPay m c h j := by
  dsimp only [Rd]; rw [kind_rsR, hOf_rsR, jOf_rsR]
theorem payload_agS (d : Fin 16) : (Rd (F := F) m shr).payload (cel c (agS h j)) 0 d = agSPay m shr c h j := by
  dsimp only [Rd]; rw [kind_agS, hOf_agS, jOf_agS]
theorem payload_agR (d : Fin 16) : (Rd (F := F) m shr).payload (cel c (agR h j)) 0 d = agRPay m c h j := by
  dsimp only [Rd]; rw [kind_agR, hOf_agR, jOf_agR]

end Tables

end Cert.KernelIdeal.Pr

end
-- ==== Proof.Proto.lean ====
/-
  What a device's body starts from and ends with: the cells' invariants it opens, its positions on its own cells,
  the tokens of the duties it pays, the credit for what the others owe it; what it owes at launch, summed in the
  order it pays; the levels; and the pipeline's proof data.
-/
import proofs.«900888_g7700000000000889_dist_matmul_k_i_m768_n768_k384_v7x_i16_bf16_1_alg».proof.Proof.Sched

noncomputable section

namespace Cert.KernelIdeal.Pr

open Cert.KernelIdeal Cert.KernelIdeal.Gen Cert.KernelIdeal.Geo Cert.KernelIdeal.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (shr : Fin 16 → PosShare TreeShare)

/-- A half and a copy number: the index of one copy of one of the two collectives. -/
abbrev HR : Type := Fin 2 × Fin 15

/-! ## What a device owes at launch, in the order it pays -/

/-- The barrier units still owed from signal number k on; -/
def owedBar (c : Dev nD) (k : ℕ) : CellTallies nD τ sig Unit :=
  ∑ r ∈ Finset.univ.filter (fun r : Fin 15 => k ≤ r.val), tallyAt (cel (peer c (off r)) (.reg barS)) () 1
/-- the reduce-scatter credits still owed from copy number k (k = 15 h + r) on; -/
def owedRS (c : Dev nD) (k : ℕ) : CellTallies nD τ sig Unit :=
  ∑ p ∈ Finset.univ.filter (fun p : HR => k ≤ 15 * p.1.val + p.2.val), tallyAt (cel (peer c (off p.2)) (rsR p.1 (off p.2))) () NS
/-- the all-gather credits still owed from copy number k on. -/
def owedAG (c : Dev nD) (k : ℕ) : CellTallies nD τ sig Unit :=
  ∑ p ∈ Finset.univ.filter (fun p : HR => k ≤ 15 * p.1.val + p.2.val), tallyAt (cel (peer c (off p.2)) (agR p.1 (off p.2))) () NO

/-- All a device owes at launch: a unit on every other device's barrier, the credit of every copy it will send. -/
def O₀ (c : Dev nD) : CellTallies nD τ sig Unit := owedAG c 0 + owedRS c 0 + owedBar c 0

/-! ## The levels: barrier cells below reduce-scatter receive cells below all-gather receive cells -/

def L (g : GSem nD τ sig) : Finset Unit := if g.1.2 = .tc then {()} else ∅
def lv (g : GSem nD τ sig) (_ : Unit) : ℕ := match kindOf g.2 with
  | .bar => 1
  | .rsR => 2
  | .agR => 3
  | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

variable (K : GSem nD τ sig → ℕ)

/-- The invariants of the cells device c touches: its own, the other devices' barriers, and the receive cells of
    the devices it copies to. -/
def invs (c : Dev nD) : sProp 𝕄 :=
  iprop(cellInv ER (Rd m shr) (K (cel c (.reg barS))) (cel c (.reg barS))
    ∗ (bigSep Finset.univ fun p : HR => iprop(
          cellInv ER (Rd m shr) (K (cel c (rsS p.1 (off p.2)))) (cel c (rsS p.1 (off p.2)))
        ∗ cellInv ER (Rd m shr) (K (cel c (rsR p.1 (off p.2)))) (cel c (rsR p.1 (off p.2)))
        ∗ cellInv ER (Rd m shr) (K (cel c (agS p.1 (off p.2)))) (cel c (agS p.1 (off p.2)))
        ∗ cellInv ER (Rd m shr) (K (cel c (agR p.1 (off p.2)))) (cel c (agR p.1 (off p.2)))))
    ∗ (bigSep Finset.univ fun r : Fin 15 => cellInv ER (Rd m shr) (K (cel (peer c (off r)) (.reg barS))) (cel (peer c (off r)) (.reg barS)))
    ∗ (bigSep Finset.univ fun p : HR => iprop(
          cellInv ER (Rd m shr) (K (cel (peer c (off p.2)) (rsR p.1 (off p.2)))) (cel (peer c (off p.2)) (rsR p.1 (off p.2)))
        ∗ cellInv ER (Rd m shr) (K (cel (peer c (off p.2)) (agR p.1 (off p.2)))) (cel (peer c (off p.2)) (agR p.1 (off p.2))))))

instance invs_persistent (c : Dev nD) : BI.Persistent (invs m shr K c) := by unfold invs; infer_instance

/-- Its positions: round 0 of each of its own cells, nothing taken. -/
def poss (c : Dev nD) : sProp 𝕄 :=
  iprop(atPos ER (cel c (.reg barS)) 0 ∅ 0
    ∗ bigSep Finset.univ fun p : HR => iprop(
          atPos ER (cel c (rsS p.1 (off p.2))) 0 ∅ 0 ∗ atPos ER (cel c (rsR p.1 (off p.2))) 0 ∅ 0
        ∗ atPos ER (cel c (agS p.1 (off p.2))) 0 ∅ 0 ∗ atPos ER (cel c (agR p.1 (off p.2))) 0 ∅ 0))

/-- That round 0 is open on every cell it pays or hands word of: its own and the addressed ones. -/
def opens (c : Dev nD) : sProp 𝕄 :=
  iprop((bigSep Finset.univ fun p : HR => iprop(
          reached ER (cel c (rsS p.1 (off p.2))) 0 ∗ reached ER (cel c (rsR p.1 (off p.2))) 0
        ∗ reached ER (cel c (agS p.1 (off p.2))) 0 ∗ reached ER (cel c (agR p.1 (off p.2))) 0))
    ∗ (bigSep Finset.univ fun r : Fin 15 => reached ER (cel (peer c (off r)) (.reg barS)) 0))

instance opens_persistent (c : Dev nD) : BI.Persistent (opens (F := F) c) := by unfold opens; infer_instance

/-- The tokens of the duties it pays: on each other device's barrier the duty that names it, on the addressed receive
    cells and on its own send cells the one duty. -/
def toks (c : Dev nD) : sProp 𝕄 :=
  iprop((bigSep Finset.univ fun r : Fin 15 => dutyTok ER (cel (peer c (off r)) (.reg barS)) 0 (neg (off r)))
    ∗ bigSep Finset.univ fun p : HR => iprop(
          dutyTok ER (cel (peer c (off p.2)) (rsR p.1 (off p.2))) 0 0 ∗ dutyTok ER (cel (peer c (off p.2)) (agR p.1 (off p.2))) 0 0
        ∗ dutyTok ER (cel c (rsS p.1 (off p.2))) 0 0 ∗ dutyTok ER (cel c (agS p.1 (off p.2))) 0 0))

def ghost (c : Dev nD) : sProp 𝕄 := iprop(invs m shr K c ∗ poss c ∗ opens c ∗ toks c)

/-- The credit for what the others owe its cells: fifteen units on its barrier, one piece on every receive cell. -/
def creds (c : Dev nD) : sProp 𝕄 :=
  iprop(cred (tallyAt (cel c (.reg barS)) () 15)
    ∗ bigSep Finset.univ fun p : HR => iprop(cred (tallyAt (cel c (rsR p.1 (off p.2))) () NS) ∗ cred (tallyAt (cel c (agR p.1 (off p.2))) () NO)))

/-- The eight semaphores (h, 0) nothing uses: at zero throughout. -/
def idle (c : Dev nD) : sProp 𝕄 :=
  bigSep Finset.univ fun h : Fin 2 => iprop(semVal (cel c (rsS h 0)) 0 ∗ semVal (cel c (rsR h 0)) 0 ∗ semVal (cel c (agS h 0)) 0 ∗ semVal (cel c (agR h 0)) 0)

/-- What the body starts from beside its buffers. -/
def start (c : Dev nD) : sProp 𝕄 := iprop((∃ K, ghost m shr K c) ∗ creds c ∗ idle c ∗ levAts L lv)

/-- The three scratch buffers, whole, at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Every one of the hundred and twenty-eight own semaphores back at zero. -/
def semsZero (c : Dev nD) : sProp 𝕄 :=
  iprop(idle c ∗ bigSep Finset.univ fun p : HR => iprop(
      semVal (cel c (rsS p.1 (off p.2))) 0 ∗ semVal (cel c (rsR p.1 (off p.2))) 0 ∗ semVal (cel c (agS p.1 (off p.2))) 0 ∗ semVal (cel c (agR p.1 (off p.2))) 0))

def Φ₀ (c : Dev nD) : sProp 𝕄 := iprop(start m shr c ∗ scratches c)
def Φ₁ (c : Dev nD) : sProp 𝕄 := iprop(scratches c ∗ semsZero c)

/-- The pipeline's proof data: the two inputs stay as fetched, the result's staging buffer ends at the whole result. -/
def dats (_ : Fin 1) (c : Dev nD) : Dat τ (Elt F) Unit ℕ UU ℕ cfg0 c where
  A w := m ((cfg0.win w).arr.view.loc (c : Thread nD τ))
  after w _ := match w with
    | ⟨0, _⟩ => aV m c
    | ⟨1, _⟩ => bV m c
    | ⟨2, _⟩ => outFull m
  Φ t := match t with
    | ⟨0, _⟩ => Φ₀ m shr c
    | ⟨_ + 1, _⟩ => Φ₁ c
  q _ := fullShare
  owed t := match t with
    | ⟨0, _⟩ => O₀ c
    | ⟨_ + 1, _⟩ => 0

end Cert.KernelIdeal.Pr

end
-- ==== Proof.Plumb.lean ====
/-
  Cutting a device's buffers into the pieces the protocol moves: a points-to over a union of pairwise
  disjoint index sets is the separating product of the points-tos over the sets; the index sets of the
  views (a block of twenty-four rows, a receive slot) in closed form; the thirty-two row blocks partition
  a 768 x 768 buffer and the thirty-two slots partition the receive buffer; the full share cut into
  fifteen shares.
-/
import proofs.«900888_g7700000000000889_dist_matmul_k_i_m768_n768_k384_v7x_i16_bf16_1_alg».proof.Proof.Views
import Idealize.ShloMosaic.Rules.PointsTo

noncomputable section

namespace Cert.KernelIdeal.Pr

open Cert.KernelIdeal Cert.KernelIdeal.Gen Cert.KernelIdeal.Geo Cert.KernelIdeal.Vals
open Idealize.ShloMosaic Idealize.ShloMosaic.TcCoe
open Idealize.SL
open Idealize.SL.RA Idealize.SL.Sem
open Idealize.SL.BI (sProp bigSep bigSep_insert bigSep_mono bigSep_empty bigSep_congr bigSep_map)
open scoped Idealize.SL.BI
open Idealize.SL.BI.BIBase Idealize.SL.BI.Laws

variable {F : FTy → Type} [FloatOps F]

/-! ## A points-to over a disjoint union -/

section Generic
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {q : PosShare TreeShare} {f : Buf Val ℓ}

/-- Along a finite family of pairwise disjoint index sets. -/
theorem pointsTo_biUnion {α : Type} [DecidableEq α] (S : Finset α) (I : α → Finset (Idx ℓ))
    (hd : ∀ a ∈ S, ∀ b ∈ S, a ≠ b → Disjoint (I a) (I b)) :
    (ℓ ↦[S.biUnion I]{q} f : sProp 𝕄) ⊣⊢ bigSep S (fun a => ℓ ↦[I a]{q} f) :=
  BiEntails.of_eq (Idealize.ShloMosaic.pointsTo_biUnion S I hd)

/-- A whole buffer along a finite family of pairwise disjoint index sets that covers every index. -/
theorem pointsTo_cover {α : Type} [Fintype α] [DecidableEq α] (K : α → Finset (Idx ℓ))
    (hc : ∀ i : Idx ℓ, ∃ a, i ∈ K a)
    (hd : ∀ a b : α, a ≠ b → Disjoint (K a) (K b)) :
    (ℓ ↦{q} f : sProp 𝕄) ⊣⊢ bigSep Finset.univ (fun a => ℓ ↦[K a]{q} f) := by
  have e : (Finset.univ : Finset (Idx ℓ)) = Finset.univ.biUnion K := by
    ext i
    simp only [Finset.mem_univ, Finset.mem_biUnion, true_and, true_iff]
    exact hc i
  rw [e]
  exact pointsTo_biUnion Finset.univ K fun a _ b _ h => hd a b h

end Generic

/-! ## The index sets of the views -/

/-- A rectangle of twenty-four whole rows of the 768 x 768 shape from row R: its indices. -/
theorem unit_rows_set (off : Fin 2 → Nat) (inb : ∀ a, off a + S24x768.size a ≤ S768x768.size a) (R : Nat)
    (h0 : off 0 = R) (h1 : off 1 = 0) :
    (Rect.unit (s := S768x768) off S24x768.size inb).set
      = Finset.univ.filter fun i : S768x768.Idx => R ≤ (i 0).val ∧ (i 0).val < R + 24 := by
  ext i
  rw [Rect.mem_set_unit]
  simp only [Finset.mem_filter, Finset.mem_univ, true_and]
  have c1 : (i 1).val < 768 := (i 1).isLt
  constructor
  · intro H
    have a : off 0 ≤ (i 0).val ∧ (i 0).val < off 0 + 24 := H 0
    omega
  · intro H
    refine Fin.forall_fin_two.mpr ⟨?_, ?_⟩
    · show off 0 ≤ (i 0).val ∧ (i 0).val < off 0 + 24
      omega
    · show off 1 ≤ (i 1).val ∧ (i 1).val < off 1 + 768
      omega

theorem rowsSet_eq (s : Dev nD) (h : Fin 2) :
    rowsSet s h = Finset.univ.filter fun i : S768x768.Idx =>
      s.val * 48 + 24 * h.val ≤ (i 0).val ∧ (i 0).val < s.val * 48 + 24 * h.val + 24 := rfl

/-- Half h of device s's rows, through the result's staging buffer, -/
theorem rowsV_set_oM (s : Dev nD) (h : Fin 2) : (rowsV oM s h).view.set = rowsSet s h :=
  (View.set_slice_whole cc0_stg2_0 _).trans (unit_rows_set _ _ _ (Geo.off3_row s h) (Geo.off3_col s h))

/-- and through the partial product's buffer. -/
theorem rowsV_set_pbM (s : Dev nD) (h : Fin 2) : (rowsV pbM s h).view.set = rowsSet s h :=
  (View.set_slice_whole cc0_scratch0 _).trans (unit_rows_set _ _ _ (Geo.off3_row s h) (Geo.off3_col s h))

/-- What a load or a store through the own-row rectangle touches, on either buffer. -/
theorem ownRect_set (s : Dev nD) (h : Fin 2) : (ownRect s h).set = rowsSet s h :=
  unit_rows_set _ _ _ (Geo.off2_row s h) (Geo.off2_col s h)

theorem ownRect_set_oM (s : Dev nD) (h : Fin 2) : (oM.access (ownRect s h)).set = rowsSet s h :=
  (View.set_slice_whole cc0_stg2_0 _).trans (ownRect_set s h)

theorem ownRect_set_pbM (s : Dev nD) (h : Fin 2) : (pbM.access (ownRect s h)).set = rowsSet s h :=
  (View.set_slice_whole cc0_scratch0 _).trans (ownRect_set s h)

/-- The source of device c's copy number r: the rows of the device 1 + r places ahead. -/
theorem srcV_set (c : Dev nD) (r : Fin 15) (h : Fin 2) : (srcV c r h).view.set = rowsSet (peer c (off r)) h :=
  (View.set_slice_whole cc0_scratch0 _).trans (unit_rows_set _ _ _ (Geo.off1_row c r h) (Geo.off1_col c r h))

/-- The rectangle of receive slot (h, j): its indices. -/
theorem unit_slot_set (h : Fin 2) (j : Fin 16) :
    (Rect.unit (s := S2x16x24x768) ![h.val, j.val, 0, 0] S1x1x24x768.size (slot_inb h j)).set = slotSet h j := by
  ext z
  rw [Rect.mem_set_unit]
  simp only [slotSet, Finset.mem_filter, Finset.mem_univ, true_and]
  have c2 : (z 2).val < 24 := (z 2).isLt
  have c3 : (z 3).val < 768 := (z 3).isLt
  constructor
  · intro H
    have a0 : h.val ≤ (z 0).val ∧ (z 0).val < h.val + 1 := H 0
    have a1 : j.val ≤ (z 1).val ∧ (z 1).val < j.val + 1 := H 1
    omega
  · intro H
    refine Fin.forall_fin_succ.mpr ⟨?_, Fin.forall_fin_succ.mpr ⟨?_, Fin.forall_fin_two.mpr ⟨?_, ?_⟩⟩⟩
    · show h.val ≤ (z 0).val ∧ (z 0).val < h.val + 1
      omega
    · show j.val ≤ (z 1).val ∧ (z 1).val < j.val + 1
      omega
    · show 0 ≤ (z 2).val ∧ (z 2).val < 0 + 24
      omega
    · show 0 ≤ (z 3).val ∧ (z 3).val < 0 + 768
      omega

/-- Receive slot (h, j). -/
theorem slotV_set (h : Fin 2) (j : Fin 16) : (slotV h j).view.set = slotSet h j :=
  (View.set_reshape _ _).trans ((View.set_slice_whole cc0_scratch2 _).trans (unit_slot_set h j))

/-! ## The row blocks partition the 768 x 768 indices, the slots partition the receive buffer's -/

theorem mem_rowsSet {s : Dev nD} {h : Fin 2} {i : S768x768.Idx} :
    i ∈ rowsSet s h ↔ s.val * 48 + 24 * h.val ≤ (i 0).val ∧ (i 0).val < s.val * 48 + 24 * h.val + 24 := by
  simp only [rowsSet, Finset.mem_filter, Finset.mem_univ, true_and]

theorem mem_slotSet {h : Fin 2} {j : Fin 16} {z : S2x16x24x768.Idx} :
    z ∈ slotSet h j ↔ (z 0).val = h.val ∧ (z 1).val = j.val := by
  simp only [slotSet, Finset.mem_filter, Finset.mem_univ, true_and]

/-- Every index lies in the row block of the device and half its row names. -/
theorem rows_cover_mem (i : S768x768.Idx) : ∃ p : Dev nD × Fin 2, i ∈ rowsSet p.1 p.2 := by
  have h0 : (i 0).val < 768 := (i 0).isLt
  refine ⟨(⟨(i 0).val / 48, by show _ < 16; omega⟩, ⟨(i 0).val % 48 / 24, by omega⟩), mem_rowsSet.mpr ?_⟩
  show (i 0).val / 48 * 48 + 24 * ((i 0).val % 48 / 24) ≤ (i 0).val ∧ (i 0).val < (i 0).val / 48 * 48 + 24 * ((i 0).val % 48 / 24) + 24
  omega

theorem rows_cover :
    (Finset.univ : Finset S768x768.Idx) = (Finset.univ : Finset (Dev nD × Fin 2)).biUnion (fun p => rowsSet p.1 p.2) := by
  ext i
  simp only [Finset.mem_univ, Finset.mem_biUnion, true_and, true_iff]
  exact rows_cover_mem i

theorem rows_disjoint (p p' : Dev nD × Fin 2) (h : p ≠ p') : Disjoint (rowsSet p.1 p.2) (rowsSet p'.1 p'.2) := by
  refine Finset.disjoint_left.mpr fun i hi hi' => ?_
  have a := mem_rowsSet.mp hi
  have b := mem_rowsSet.mp hi'
  have c := Geo.rows_disjoint p.1 p'.1 p.2 p'.2 (fun e => h (Prod.ext e.1 e.2))
  omega

/-- Every index of the receive buffer lies in the slot its first two coordinates name. -/
theorem slots_cover_mem (z : S2x16x24x768.Idx) : ∃ p : Fin 2 × Fin 16, z ∈ slotSet p.1 p.2 :=
  ⟨(⟨(z 0).val, (z 0).isLt⟩, ⟨(z 1).val, (z 1).isLt⟩), mem_slotSet.mpr ⟨rfl, rfl⟩⟩

theorem slots_cover :
    (Finset.univ : Finset S2x16x24x768.Idx) = (Finset.univ : Finset (Fin 2 × Fin 16)).biUnion (fun p => slotSet p.1 p.2) := by
  ext z
  simp only [Finset.mem_univ, Finset.mem_biUnion, true_and, true_iff]
  exact slots_cover_mem z

theorem slots_disjoint (p p' : Fin 2 × Fin 16) (h : p ≠ p') : Disjoint (slotSet p.1 p.2) (slotSet p'.1 p'.2) := by
  refine Finset.disjoint_left.mpr fun z hz hz' => ?_
  have a := mem_slotSet.mp hz
  have b := mem_slotSet.mp hz'
  exact h (Prod.ext (Fin.ext (a.1.symm.trans b.1)) (Fin.ext (a.2.symm.trans b.2)))

section Whole
variable {Ix : Type} [DecidableEq Ix]
variable {Val : EltTy → Type} {Name : Type} [DecidableEq Name]
variable {U : Type} [URA U]
variable {Lvl : Type}
local notation "𝕄" => MT nD τ sig Ix Val Name U Lvl

variable {q : PosShare TreeShare}

/-- A whole 768 x 768 buffer of device d (the result's staging buffer) is its thirty-two row blocks. -/
theorem whole_rows_oM (d : Dev nD) (f : Buf Val ((d : Thread nD τ).loc cc0_stg2_0)) :
    (((d : Thread nD τ).loc cc0_stg2_0) ↦{q} f : sProp 𝕄)
      ⊣⊢ bigSep Finset.univ (fun p : Dev nD × Fin 2 => ((d : Thread nD τ).loc cc0_stg2_0) ↦[rowsSet p.1 p.2]{q} f) :=
  pointsTo_cover (ℓ := (d : Thread nD τ).loc cc0_stg2_0) (q := q) (f := f) (α := Dev nD × Fin 2)
    (fun p : Dev nD × Fin 2 => rowsSet p.1 p.2) rows_cover_mem rows_disjoint

/-- The same for the partial product's buffer. -/
theorem whole_rows_pbM (d : Dev nD) (f : Buf Val ((d : Thread nD τ).loc cc0_scratch0)) :
    (((d : Thread nD τ).loc cc0_scratch0) ↦{q} f : sProp 𝕄)
      ⊣⊢ bigSep Finset.univ (fun p : Dev nD × Fin 2 => ((d : Thread nD τ).loc cc0_scratch0) ↦[rowsSet p.1 p.2]{q} f) :=
  pointsTo_cover (ℓ := (d : Thread nD τ).loc cc0_scratch0) (q := q) (f := f) (α := Dev nD × Fin 2)
    (fun p : Dev nD × Fin 2 => rowsSet p.1 p.2) rows_cover_mem rows_disjoint

/-- The receive buffer of device d is its thirty-two slots. -/
theorem whole_slots (d : Dev nD) (f : Buf Val ((d : Thread nD τ).loc cc0_scratch2)) :
    (((d : Thread nD τ).loc cc0_scratch2) ↦{q} f : sProp 𝕄)
      ⊣⊢ bigSep Finset.univ (fun p : Fin 2 × Fin 16 => ((d : Thread nD τ).loc cc0_scratch2) ↦[slotSet p.1 p.2]{q} f) :=
  pointsTo_cover (ℓ := (d : Thread nD τ).loc cc0_scratch2) (q := q) (f := f) (α := Fin 2 × Fin 16)
    (fun p : Fin 2 × Fin 16 => slotSet p.1 p.2) slots_cover_mem slots_disjoint

end Whole

/-! ## The full share in fifteen -/

/-- A share cut in n + 1: its left half, then the left half of what remains, and so on; the last is what remains. -/
def shrFrom : (n : Nat) → PosShare TreeShare → Fin (n + 1) → PosShare TreeShare
  | 0, q, _ => q
  | n + 1, q, r => Fin.cases q.left (shrFrom n q.right) r

/-- The fifteen shares the full share is cut into. -/
def shr : Fin 15 → PosShare TreeShare := shrFrom 14 fullShare

section Shares
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {I : Finset (Idx ℓ)} {f : Buf Val ℓ}

theorem bigSep_fin_succ {M : Type _} [URA M] (n : Nat) (Φ : Fin (n + 1) → sProp M) :
    bigSep Finset.univ Φ = iprop(Φ 0 ∗ bigSep Finset.univ (fun r : Fin n => Φ r.succ)) := by
  rw [Fin.univ_succ, Finset.cons_eq_insert, bigSep_insert (by simp)]
  congr 1
  exact bigSep_map ⟨Fin.succ, Fin.succ_injective n⟩

theorem pointsTo_shrFrom (n : Nat) (q : PosShare TreeShare) :
    (ℓ ↦[I]{q} f : sProp 𝕄) ⊣⊢ bigSep Finset.univ (fun r : Fin (n + 1) => ℓ ↦[I]{shrFrom n q r} f) := by
  induction n generalizing q with
  | zero =>
    rw [BI.bigSep_univ_of_subsingleton (0 : Fin 1)]
    exact .rfl
  | succ n ih =>
    rw [bigSep_fin_succ]
    refine (pointsTo_share (PosShare.mem_left_op_right q)).trans ?_
    rw [BI.equiv_iff.mp ⟨(ih q.right).1, (ih q.right).2⟩]
    exact .rfl

theorem pointsTo_shr :
    (ℓ ↦[I]{fullShare} f : sProp 𝕄) ⊣⊢ bigSep Finset.univ (fun r : Fin 15 => ℓ ↦[I]{shr r} f) :=
  pointsTo_shrFrom 14 fullShare

end Shares

end Cert.KernelIdeal.Pr

end
-- ==== Proof.Shares.lean ====
/-
  The shares at which a device lends its own rows of the result to its fifteen all-gather copies: copy 1 + r gets
  share number r of a cut of the whole into fifteen.
-/
import proofs.«900888_g7700000000000889_dist_matmul_k_i_m768_n768_k384_v7x_i16_bf16_1_alg».proof.Proof.Plumb

noncomputable section

namespace Cert.KernelIdeal.Pr

open Cert.KernelIdeal Cert.KernelIdeal.Vals
open Idealize.ShloMosaic Idealize.SL.RA

/-- The share lent to the all-gather copy with ring offset j (offset 0 names no copy). -/
def shrF : Fin 16 → PosShare TreeShare := fun j => if h : j = 0 then fullShare else shr ⟨j.val - 1, by have := j.isLt; have : j.val ≠ 0 := fun h0 => h (Fin.ext h0); omega⟩

theorem shrF_off (r : Fin 15) : shrF (off r) = shr r := by
  unfold shrF
  rw [dif_neg (fun h0 => by have := congrArg Fin.val h0; simp [off] at this)]
  congr 1
  exact Fin.ext (by simp [off])

end Cert.KernelIdeal.Pr

end
-- ==== Proof.Launch.lean ====
/-
  The launch. With every device's body proved, the program's run follows by one application of the pipeline
  library's launch theorem for devices that owe units at launch and meet on the runtime's barrier semaphore. The
  kernel's own hundred and twenty-eight DMA semaphores and the barrier semaphore of every device are taken at
  zero under one update: the invariants of the cells in use are allocated, the eight semaphores nothing uses stay
  at zero, and the duty tokens minted on a device's cells are dealt round the ring to the devices that pay them.
  What the other devices owe a device's cells at launch is its credit. The pipeline's waits on its staging cells
  sit at level 0, below every cell a device owes. The final arrays are read off the pipeline's proof data: the
  inputs as launched, the result the one block written back at the one point.
-/
import proofs.«900888_g7700000000000889_dist_matmul_k_i_m768_n768_k384_v7x_i16_bf16_1_alg».proof.Proof.Proto
import proofs.«900888_g7700000000000889_dist_matmul_k_i_m768_n768_k384_v7x_i16_bf16_1_alg».proof.Proof.Shares
import proofs.«900888_g7700000000000889_dist_matmul_k_i_m768_n768_k384_v7x_i16_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Pr

open Cert.KernelIdeal Cert.KernelIdeal.Gen Cert.KernelIdeal.Geo Cert.KernelIdeal.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The kernel's own semaphores: four arrays of thirty-two -/

/-- Semaphore (h, j) of array a: the reduce-scatter's send and receive arrays, then the all-gather's. -/
def semK (a : Fin 4) (h : Fin 2) (j : Fin 16) : SemLoc sig := match a with
  | 0 => rsS h j
  | 1 => rsR h j
  | 2 => agS h j
  | 3 => agR h j

abbrev OK : Type := Fin 4 × Fin 2 × Fin 16
abbrev osem : OK → SemLoc sig := fun k => semK k.1 k.2.1 k.2.2

/-- The number of a DMA semaphore (0 for a regular one): array a's semaphore (h, j) is number 3 + 32 a + 16 h + j. -/
def semNo : SemLoc sig → ℕ
  | .reg _ => 0
  | .dma q => q.val

theorem semNo_semK (a : Fin 4) (h : Fin 2) (j : Fin 16) : semNo (semK a h j) = 3 + 32 * a.val + 16 * h.val + j.val := by
  revert a h j; decide

theorem semK_ne_bar (a : Fin 4) (h : Fin 2) (j : Fin 16) : semK a h j ≠ .reg barS := by
  revert a h j; decide

theorem semK_inj {a a' : Fin 4} {h h' : Fin 2} {j j' : Fin 16} (e : semK a h j = semK a' h' j') : a = a' ∧ h = h' ∧ j = j' := by
  have e' := congrArg semNo e
  rw [semNo_semK, semNo_semK] at e'
  have := h.isLt; have := h'.isLt; have := j.isLt; have := j'.isLt
  exact ⟨Fin.ext (by omega), Fin.ext (by omega), Fin.ext (by omega)⟩

theorem off_inj {r r' : Fin 15} (e : off r = off r') : r = r' := by
  have e' : 1 + r.val = 1 + r'.val := congrArg Fin.val e
  exact Fin.ext (by omega)

theorem ownSemFacts : Pipeline.OwnSemFacts cfg0.spec osem :=
  ⟨fun ⟨a, h, j⟩ => by revert a h j; decide,
   fun ⟨a, h, j⟩ ⟨a', h', j'⟩ e => by obtain ⟨ha, hh, hj⟩ := semK_inj e; exact Prod.ext ha (Prod.ext hh hj),
   fun ⟨a, h, j⟩ w s => by revert a h j w s; decide⟩

theorem share_eq (c : Dev nD) (w : Fin cfg0.W) : (dats m shrF 0 c).share w = fullShare := by unfold Dat.share; split <;> rfl

/-! ## The protocol's cells and the tokens minted on them -/

/-- A device's cells in use: its barrier cell, and cell (h, 1 + r) of each of the four arrays. -/
abbrev CK : Type := Unit ⊕ (Fin 4 × HR)
def csem : CK → SemLoc sig
  | .inl _ => .reg barS
  | .inr ap => semK ap.1 ap.2.1 (off ap.2.2)
abbrev kcell (ck : Dev nD × CK) : GSem nD τ sig := cel ck.1 (csem ck.2)

theorem kcell_injective : Function.Injective (kcell : Dev nD × CK → GSem nD τ sig) := by
  rintro ⟨c, k⟩ ⟨c', k'⟩ e
  have h1 : c = c' := by have := congrArg (fun g : GSem nD τ sig => g.1.1) e; exact this
  subst h1
  have h2 : csem k = csem k' := congrArg Prod.snd e
  rcases k with u | ⟨a, h, r⟩ <;> rcases k' with u' | ⟨a', h', r'⟩
  · rfl
  · exact absurd h2.symm (semK_ne_bar _ _ _)
  · exact absurd h2 (semK_ne_bar _ _ _)
  · obtain ⟨ha, hh, hr⟩ : a = a' ∧ h = h' ∧ off r = off r' := semK_inj h2
    rw [ha, hh, off_inj hr]
def ringCells : Finset (GSem nD τ sig) := Finset.univ.map ⟨kcell, kcell_injective⟩

/-- The duties of a device's cells: on its barrier cell the fifteen offsets 1 + r, on each cell of the arrays the one duty. -/
abbrev TK : Type := Fin 15 ⊕ (Fin 4 × HR)
def tokOf (cj : Dev nD × TK) : GSem nD τ sig × ℕ × Fin 16 := match cj.2 with
  | .inl r => (cel cj.1 (.reg barS), 0, off r)
  | .inr ap => (cel cj.1 (semK ap.1 ap.2.1 (off ap.2.2)), 0, 0)
theorem tokOf_injective : Function.Injective (tokOf : Dev nD × TK → GSem nD τ sig × ℕ × Fin 16) := by
  rintro ⟨c, t⟩ ⟨c', t'⟩ e
  have h1 : c = c' := by
    have := congrArg (fun x : GSem nD τ sig × ℕ × Fin 16 => x.1.1.1) e
    rcases t with r | ap <;> rcases t' with r' | ap' <;> exact this
  subst h1
  rcases t with r | ⟨a, h, r⟩ <;> rcases t' with r' | ⟨a', h', r'⟩
  · have h3 : off r = off r' := congrArg (fun x : GSem nD τ sig × ℕ × Fin 16 => x.2.2) e
    rw [off_inj h3]
  · have h2 : (SemLoc.reg barS : SemLoc sig) = semK a' h' (off r') := congrArg (fun x : GSem nD τ sig × ℕ × Fin 16 => x.1.2) e
    exact absurd h2.symm (semK_ne_bar _ _ _)
  · have h2 : semK a h (off r) = (SemLoc.reg barS : SemLoc sig) := congrArg (fun x : GSem nD τ sig × ℕ × Fin 16 => x.1.2) e
    exact absurd h2 (semK_ne_bar _ _ _)
  · have h2 : semK a h (off r) = semK a' h' (off r') := congrArg (fun x : GSem nD τ sig × ℕ × Fin 16 => x.1.2) e
    obtain ⟨ha, hh, hr⟩ := semK_inj h2
    rw [ha, hh, off_inj hr]
def ringToks : Finset (GSem nD τ sig × ℕ × Fin 16) := Finset.univ.map ⟨tokOf, tokOf_injective⟩

/-! ## Every payload of the schedule may be stored in an invariant: points-tos and round facts -/

instance slotPts_storable (d : Dev nD) (h : Fin 2) (j : Fin 16) (f : Buf (Elt F) ((slotV h j).view.loc (d : Thread nD τ))) :
    BI.Storable (upEmb : UEmb _ 𝕄) (slotPts (F := F) d h j f) := by unfold slotPts; infer_instance
instance outPts_storable (d s : Dev nD) (h : Fin 2) (q : PosShare TreeShare) (f : Buf (Elt F) ((rowsV oM s h).view.loc (d : Thread nD τ))) :
    BI.Storable (upEmb : UEmb _ 𝕄) (outPts (F := F) d s h q f) := by unfold outPts; infer_instance
instance srcPts_storable (c : Dev nD) (r : Fin 15) (h : Fin 2) :
    BI.Storable (upEmb : UEmb _ 𝕄) (srcPts m c r h) := by unfold srcPts; infer_instance
instance barPay_storable (c : Dev nD) (j : Fin 16) : BI.Storable (upEmb : UEmb _ 𝕄) (barPay (F := F) c j) := by
  unfold barPay; infer_instance
instance rsSPay_storable (c : Dev nD) (h : Fin 2) (j : Fin 16) : BI.Storable (upEmb : UEmb _ 𝕄) (rsSPay m c h j) := by
  unfold rsSPay; split <;> infer_instance
instance rsRPay_storable (d : Dev nD) (h : Fin 2) (j : Fin 16) : BI.Storable (upEmb : UEmb _ 𝕄) (rsRPay m d h j) := by
  unfold rsRPay; infer_instance
instance agRPay_storable (d : Dev nD) (h : Fin 2) (j : Fin 16) : BI.Storable (upEmb : UEmb _ 𝕄) (agRPay m d h j) := by
  unfold agRPay; infer_instance
instance agSPay_storable (shr : Fin 16 → PosShare TreeShare) (c : Dev nD) (h : Fin 2) (j : Fin 16) :
    BI.Storable (upEmb : UEmb _ 𝕄) (agSPay m shr c h j) := by unfold agSPay; infer_instance

instance Rd_payload_storable (shr : Fin 16 → PosShare TreeShare) (g : GSem nD τ sig) (r : ℕ) (d : Fin 16) :
    BI.Storable (upEmb : UEmb _ 𝕄) ((Rd (F := F) m shr).payload g r d) := by
  dsimp only [Rd]
  split <;> infer_instance

/-! ## Products over the semaphores, regrouped -/

/-- Cell (h, j) of each of the four arrays under a predicate of the semaphore. -/
def quad (Φ : SemLoc sig → sProp 𝕄) (h : Fin 2) (j : Fin 16) : sProp 𝕄 :=
  iprop(Φ (rsS h j) ∗ Φ (rsR h j) ∗ Φ (agS h j) ∗ Φ (agR h j))

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Sixteen offsets: offset 0, then the fifteen offsets 1 + r. -/
theorem bigSep_sixteen (Φ : Fin 16 → sProp 𝕄) : bigSep Finset.univ Φ = iprop(Φ 0 ∗ bigSep Finset.univ fun r : Fin 15 => Φ (off r)) := by
  rw [bigSep_fin_succ 15 Φ]
  congr 1

omit [FloatOps F] in
/-- Array by array over the cells in use is (half, copy) by (half, copy) over the four cells. -/
theorem bigSep_dma (Φ : SemLoc sig → sProp 𝕄) :
    bigSep Finset.univ (fun ap : Fin 4 × HR => Φ (semK ap.1 ap.2.1 (off ap.2.2))) = bigSep Finset.univ fun p : HR => quad Φ p.1 (off p.2) := by
  rw [bigSep_univ_equiv (Equiv.prodComm HR (Fin 4)) (fun ap : Fin 4 × HR => Φ (semK ap.1 ap.2.1 (off ap.2.2))), bigSep_univ_prod]
  exact bigSep_congr fun p _ => by rw [bigSep_fin4]; rfl

omit [FloatOps F] in
/-- A device's cells in use: its barrier cell, then the four cells of every (half, copy). -/
theorem bigSep_csem (Φ : SemLoc sig → sProp 𝕄) :
    bigSep Finset.univ (fun k : CK => Φ (csem k)) = iprop(Φ (.reg barS) ∗ bigSep Finset.univ fun p : HR => quad Φ p.1 (off p.2)) := by
  rw [bigSep_univ_sum, bigSep_univ_of_subsingleton (), ← bigSep_dma Φ]
  rfl

omit [FloatOps F] in
/-- All hundred and twenty-eight: the eight cells (h, 0), then the four cells of every (half, copy). -/
theorem bigSep_osem (Φ : SemLoc sig → sProp 𝕄) :
    bigSep Finset.univ (fun k : OK => Φ (osem k))
      = iprop((bigSep Finset.univ fun h : Fin 2 => quad Φ h 0) ∗ bigSep Finset.univ fun p : HR => quad Φ p.1 (off p.2)) := by
  have e1 : bigSep Finset.univ (fun k : OK => Φ (osem k)) = bigSep Finset.univ fun hj : Fin 2 × Fin 16 => quad Φ hj.1 hj.2 := by
    rw [bigSep_univ_equiv (Equiv.prodComm (Fin 2 × Fin 16) (Fin 4)) (fun k : OK => Φ (osem k)), bigSep_univ_prod]
    exact bigSep_congr fun hj _ => by rw [bigSep_fin4]; rfl
  rw [e1, bigSep_univ_prod (fun hj : Fin 2 × Fin 16 => quad Φ hj.1 hj.2),
    bigSep_congr (s := Finset.univ) (fun (h : Fin 2) _ => bigSep_sixteen (fun j => quad Φ h j)), bigSep_sep',
    ← bigSep_univ_prod (fun p : HR => quad Φ p.1 (off p.2))]

omit [FloatOps F] in
/-- The kernel's own semaphores at zero are all of them at zero, as the body leaves them. -/
theorem ownSems0_eq (c : Dev nD) :
    (Pipeline.ownSems0 (Ix := Unit) (Name := ℕ) (U := UU) (Lvl := ℕ) (Val := Elt F) (τ := τ) osem c : sProp 𝕄) = semsZero c := by
  unfold Pipeline.ownSems0
  rw [bigSep_osem (fun s => semVal (cel c s) 0)]
  rfl

omit [FloatOps F] in
/-- the barrier semaphore the launch's one unscoped semaphore. -/
theorem unscopedSems0_eq (c : Dev nD) : (unscopedSems0 c : sProp 𝕄) = semVal (cel c (.reg barS)) 0 := by
  unfold unscopedSems0; rw [bigSep_eq_bigSepL_of_eq [SemLoc.reg barS] (by decide) (by decide)]; rfl

/-- The launch element: the pipeline's at its staging cells beside the protocol's at its cells. -/
def u₀ : UU :=
  (initOf (Pipeline.cells cfgs cellOf_inj) (Pipeline.launchToks cfgs cellOf_inj), initOf ringCells ringToks)

/-- The tokens minted on device c's own cells. -/
def mint (c : Dev nD) : sProp 𝕄 :=
  iprop((bigSep Finset.univ fun r : Fin 15 => dutyTok ER (cel c (.reg barS)) 0 (off r))
    ∗ bigSep Finset.univ fun ap : Fin 4 × HR => dutyTok ER (cel c (semK ap.1 ap.2.1 (off ap.2.2))) 0 0)

/-- What the launch element deals device c: its cells' round states, its positions, round 0 open, its cells' tokens. -/
def G (c : Dev nD) : sProp 𝕄 :=
  iprop((bigSep Finset.univ fun k : CK => roundState ER (Rd m shrF) (kcell (c, k)) 0)
    ∗ (bigSep Finset.univ fun k : CK => iprop(atPos ER (kcell (c, k)) 0 ∅ 0 ∗ reached ER (kcell (c, k)) 0)) ∗ mint c)

/-- What the global step makes of it: the ghost state the body starts from, and the eight idle semaphores at zero. -/
def G' (c : Dev nD) : sProp 𝕄 := iprop((∃ K, ghost m shrF K c) ∗ idle c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]
    exact bigSep_congr fun c _ => by unfold mint; rw [bigSep_univ_sum]; rfl
  iintro HX
  imod (Rounds.fund ER (Rd m shrF) ringCells ringToks) $$ HX with ⟨Hst, Hr, Hat, Htok⟩
  imodintro
  ihave Hst' := (Entails.of_eq (hX fun g => roundState ER (Rd m shrF) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the cells' invariants allocated, the tokens dealt round the ring -/

omit [FloatOps F] in
/-- A device's semaphores at zero: those of its cells in use, and the eight idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => (semVal (kcell (c, k)) 0 : sProp 𝕄)) ∗ idle c) := by
  have e : (bigSep Finset.univ fun k : CK => (semVal (kcell (c, k)) 0 : sProp 𝕄))
      = iprop(semVal (cel c (.reg barS)) 0 ∗ bigSep Finset.univ fun p : HR => quad (fun s => semVal (cel c s) 0) p.1 (off p.2)) :=
    bigSep_csem (fun s => semVal (cel c s) 0)
  rw [ownSems0_eq, unscopedSems0_eq, e]
  unfold semsZero
  iintro ⟨⟨Hi, Hq⟩, Hb⟩
  isplitr [Hi]
  · isplitl [Hb]; · iexact Hb
    iexact Hq
  · iexact Hi

/-- One device: its cells' counters at zero and their round states make their invariants, at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m shrF) κ (kcell (c, k))))
          ∗ idle c ∗ (bigSep Finset.univ fun k : CK => iprop(atPos ER (kcell (c, k)) 0 ∅ 0 ∗ reached ER (kcell (c, k)) 0)) ∗ mint c) := by
  unfold G
  iintro ⟨Hos, Hus, Hst, Hat, Htok⟩
  ihave Hv := (sems0_eq (F := F) c) $$ [Hos Hus]
  · isplitl [Hos] <;> iassumption
  icases Hv with ⟨Hv, Hi⟩
  imod (show iprop((bigSep Finset.univ fun k : CK => semVal (kcell (c, k)) 0) ∗ bigSep Finset.univ fun k : CK => roundState ER (Rd m shrF) (kcell (c, k)) 0)
      ⊢ (|={Set.univ}=> bigSep Finset.univ fun k : CK => iprop(∃ κ : ℕ, cellInv ER (Rd m shrF) κ (kcell (c, k))) : sProp 𝕄) from by
        rw [← bigSep_sep']
        exact (bigSep_mono fun k _ => (Rounds.body_intro ER (Rd m shrF) (kcell (c, k))).trans inv_alloc).trans (bigSep_fupd _ _)) $$ [Hv Hst] with Hinv
  · isplitl [Hv] <;> iassumption
  imodintro
  isplitl [Hinv]; · iexact Hinv
  isplitl [Hi]; · iexact Hi
  isplitl [Hat]; · iexact Hat
  iexact Htok

/-- A cell's invariant at the name the table K gives the cell. -/
abbrev ci (K : GSem nD τ sig → ℕ) (g : GSem nD τ sig) : sProp 𝕄 := cellInv ER (Rd m shrF) (K g) g

/-- What every device may keep a copy of: every cell's invariant, and that round 0 of every cell is open. -/
def records (K : GSem nD τ sig → ℕ) : sProp 𝕄 :=
  iprop((bigSep Finset.univ fun ck : Dev nD × CK => ci m K (kcell ck))
    ∗ bigSep Finset.univ fun ck : Dev nD × CK => reached ER (kcell ck) 0)

instance records_persistent (K : GSem nD τ sig → ℕ) : BI.Persistent (records m K) := by unfold records; infer_instance

theorem inv_at (K : GSem nD τ sig → ℕ) (ck : Dev nD × CK) : records m K ⊢ ci m K (kcell ck) :=
  (show records m K ⊢ (bigSep Finset.univ fun ck : Dev nD × CK => ci m K (kcell ck)) from by
    unfold records; iintro ⟨H, -⟩; iexact H).trans (bigSep_elim (Finset.mem_univ ck))

theorem reached_at (K : GSem nD τ sig → ℕ) (ck : Dev nD × CK) : records m K ⊢ reached ER (kcell ck) 0 :=
  (show records m K ⊢ (bigSep Finset.univ fun ck : Dev nD × CK => (reached ER (kcell ck) 0 : sProp 𝕄)) from by
    unfold records; iintro ⟨-, H⟩; iexact H).trans (bigSep_elim (Finset.mem_univ ck))

/-- The invariants a device's body opens: its own cells', every other device's barrier cell's, and the receive cells'
    of the devices it copies to. -/
theorem invs_intro (K : GSem nD τ sig → ℕ) (c : Dev nD) : records m K ⊢ invs m shrF K c := by
  have h1 : records m K ⊢ bigSep Finset.univ fun p : HR => iprop(
        ci m K (cel c (rsS p.1 (off p.2))) ∗ ci m K (cel c (rsR p.1 (off p.2))) ∗ ci m K (cel c (agS p.1 (off p.2))) ∗ ci m K (cel c (agR p.1 (off p.2)))) :=
    bigSep_intro_persistent fun p _ => by
      iintro #H
      isplitr; · iapply (inv_at m K (c, .inr (0, p))); iexact H
      isplitr; · iapply (inv_at m K (c, .inr (1, p))); iexact H
      isplitr; · iapply (inv_at m K (c, .inr (2, p))); iexact H
      iapply (inv_at m K (c, .inr (3, p))); iexact H
  have h2 : records m K ⊢ bigSep Finset.univ fun r : Fin 15 => ci m K (cel (peer c (off r)) (.reg barS)) :=
    bigSep_intro_persistent fun r _ => inv_at m K (peer c (off r), .inl ())
  have h3 : records m K ⊢ bigSep Finset.univ fun p : HR => iprop(
        ci m K (cel (peer c (off p.2)) (rsR p.1 (off p.2))) ∗ ci m K (cel (peer c (off p.2)) (agR p.1 (off p.2)))) :=
    bigSep_intro_persistent fun p _ => by
      iintro #H
      isplitr; · iapply (inv_at m K (peer c (off p.2), .inr (1, p))); iexact H
      iapply (inv_at m K (peer c (off p.2), .inr (3, p))); iexact H
  unfold invs
  iintro #H
  isplitr; · iapply (inv_at m K (c, .inl ())); iexact H
  isplitr; · iapply h1; iexact H
  isplitr; · iapply h2; iexact H
  iapply h3; iexact H

/-- Round 0 open on a device's own cells of the four arrays and on every other device's barrier cell. -/
theorem opens_intro (K : GSem nD τ sig → ℕ) (c : Dev nD) : records m K ⊢ opens (F := F) c := by
  have h1 : records m K ⊢ bigSep Finset.univ fun p : HR => iprop(
        reached ER (cel c (rsS p.1 (off p.2))) 0 ∗ reached ER (cel c (rsR p.1 (off p.2))) 0
        ∗ reached ER (cel c (agS p.1 (off p.2))) 0 ∗ reached ER (cel c (agR p.1 (off p.2))) 0) :=
    bigSep_intro_persistent fun p _ => by
      iintro #H
      isplitr; · iapply (reached_at m K (c, .inr (0, p))); iexact H
      isplitr; · iapply (reached_at m K (c, .inr (1, p))); iexact H
      isplitr; · iapply (reached_at m K (c, .inr (2, p))); iexact H
      iapply (reached_at m K (c, .inr (3, p))); iexact H
  have h2 : records m K ⊢ bigSep Finset.univ fun r : Fin 15 => reached ER (cel (peer c (off r)) (.reg barS)) 0 :=
    bigSep_intro_persistent fun r _ => reached_at m K (peer c (off r), .inl ())
  unfold opens
  iintro #H
  isplitr; · iapply h1; iexact H
  iapply h2; iexact H

/-- What stays with one device: its idle semaphores, its positions, the tokens of the duties it pays. -/
def linear (c : Dev nD) : sProp 𝕄 :=
  iprop(idle c ∗ (bigSep Finset.univ fun k : CK => atPos ER (kcell (c, k)) 0 ∅ 0) ∗ toks c)

omit [FloatOps F] in
theorem poss_eq (c : Dev nD) : (bigSep Finset.univ fun k : CK => (atPos ER (kcell (c, k)) 0 ∅ 0 : sProp 𝕄)) = poss c :=
  (bigSep_csem (fun s => atPos ER (cel c s) 0 ∅ 0)).trans rfl

theorem ghost_intro (K : GSem nD τ sig → ℕ) (c : Dev nD) : iprop(records m K ∗ linear c) ⊢ G' m c := by
  unfold linear G' ghost
  rw [poss_eq]
  iintro ⟨#HR, Hi, Hat, Htok⟩
  isplitr [Hi]
  · iexists K
    isplitr; · iapply (invs_intro m K c); iexact HR
    isplitl [Hat]; · iexact Hat
    isplitr; · iapply (opens_intro m K c); iexact HR
    iexact Htok
  · iexact Hi

/-- The device j places ahead, as a bijection of the devices. -/
def ring (j : Fin 16) : Dev nD ≃ Dev nD := ⟨fun c => peer c j, fun d => frm d j, fun c => frm_peer c j, fun d => peer_frm d j⟩

/-- Copy number r's offset leads back by the offset of copy number 14 - r. -/
def negr (r : Fin 15) : Fin 15 := ⟨14 - r.val, by omega⟩
theorem off_negr (r : Fin 15) : off (negr r) = neg (off r) := by revert r; decide
theorem negr_negr (r : Fin 15) : negr (negr r) = r := by revert r; decide
def negE : Fin 15 ≃ Fin 15 := ⟨negr, negr, negr_negr, negr_negr⟩

omit [FloatOps F] in
/-- A product over (device, half and copy) taken at the device the copy goes to instead. -/
theorem around_HR (Φ : Dev nD → HR → sProp 𝕄) :
    (bigSep Finset.univ fun c : Dev nD => bigSep Finset.univ fun p : HR => Φ c p)
      = bigSep Finset.univ fun c : Dev nD => bigSep Finset.univ fun p : HR => Φ (peer c (off p.2)) p := by
  rw [bigSep_univ_comm, bigSep_congr (s := Finset.univ) (fun (p : HR) _ => bigSep_univ_equiv (ring (off p.2)) (fun c : Dev nD => Φ c p)), bigSep_univ_comm]
  rfl

omit [FloatOps F] in
/-- A product over (device, nonzero offset) taken at the device that far ahead and the offset that leads back. -/
theorem around_bar (Φ : Dev nD → Fin 16 → sProp 𝕄) :
    (bigSep Finset.univ fun c : Dev nD => bigSep Finset.univ fun r : Fin 15 => Φ c (off r))
      = bigSep Finset.univ fun c : Dev nD => bigSep Finset.univ fun r : Fin 15 => Φ (peer c (off r)) (neg (off r)) := by
  have e1 : (bigSep Finset.univ fun c : Dev nD => bigSep Finset.univ fun r : Fin 15 => Φ c (off r))
      = bigSep Finset.univ fun c : Dev nD => bigSep Finset.univ fun r : Fin 15 => Φ c (neg (off r)) :=
    bigSep_congr fun c _ => (bigSep_univ_equiv negE (fun r : Fin 15 => Φ c (off r))).trans
      (bigSep_congr fun r _ => by rw [show negE r = negr r from rfl, off_negr])
  rw [e1, bigSep_univ_comm, bigSep_congr (s := Finset.univ) (fun (r : Fin 15) _ => bigSep_univ_equiv (ring (off r)) (fun c : Dev nD => Φ c (neg (off r)))), bigSep_univ_comm]
  rfl

omit [FloatOps F] in
/-- The tokens minted on the devices' own cells are the tokens of the duties the devices pay: a barrier's token for the
    offset 1 + r goes to the device that far behind, a receive cell's token to the device that copies into it. -/
theorem toks_around : (bigSep Finset.univ fun c : Dev nD => (mint c : sProp 𝕄)) ⊢ bigSep Finset.univ fun c : Dev nD => toks c := by
  have hm (c : Dev nD) : (mint c : sProp 𝕄) = iprop((bigSep Finset.univ fun r : Fin 15 => dutyTok ER (cel c (.reg barS)) 0 (off r))
      ∗ bigSep Finset.univ fun p : HR => quad (fun s => dutyTok ER (cel c s) 0 0) p.1 (off p.2)) := by
    unfold mint; rw [bigSep_dma (fun s => dutyTok ER (cel c s) 0 0)]
  rw [bigSep_congr (s := Finset.univ) (fun (c : Dev nD) _ => hm c)]
  unfold toks quad
  simp only [bigSep_sep']
  rw [around_bar (fun c j => dutyTok ER (cel c (.reg barS)) 0 j),
    around_HR (fun c p => dutyTok ER (cel c (rsR p.1 (off p.2))) 0 0),
    around_HR (fun c p => dutyTok ER (cel c (agR p.1 (off p.2))) 0 0)]
  iintro ⟨Hb, HS, HR, HAS, HAR⟩
  isplitl [Hb]; · iexact Hb
  isplitl [HR]; · iexact HR
  isplitl [HAR]; · iexact HAR
  isplitl [HS]; · iexact HS
  iexact HAS

theorem regroup :
    (bigSep Finset.univ fun c : Dev nD => iprop((bigSep Finset.univ fun k : CK => iprop(∃ κ : ℕ, cellInv ER (Rd m shrF) κ (kcell (c, k))))
          ∗ idle c ∗ (bigSep Finset.univ fun k : CK => iprop(atPos ER (kcell (c, k)) 0 ∅ 0 ∗ reached ER (kcell (c, k)) 0)) ∗ mint c) : sProp 𝕄)
      ⊢ bigSep Finset.univ (G' m) := by
  rw [bigSep_sep', bigSep_sep', bigSep_sep', ← bigSep_univ_prod (fun ck : Dev nD × CK => iprop(∃ κ : ℕ, cellInv ER (Rd m shrF) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, Hidle, ⟨Hat, #HR⟩, Htok⟩
  ihave HK := (BI.bigSep_exists_pi Finset.univ (fun (ck : Dev nD × CK) (κ : ℕ) => (cellInv ER (Rd m shrF) κ (kcell ck) : sProp 𝕄))) $$ HI
  icases HK with ⟨%K', #HI⟩
  have hK : ∀ ck, Function.extend kcell K' 0 (kcell ck) = K' ck := fun ck => kcell_injective.extend_apply K' 0 ck
  have hI : (bigSep Finset.univ fun ck : Dev nD × CK => (cellInv ER (Rd m shrF) (K' ck) (kcell ck) : sProp 𝕄))
      = bigSep Finset.univ fun ck : Dev nD × CK => ci m (Function.extend kcell K' 0) (kcell ck) :=
    bigSep_congr fun ck _ => by rw [ci, hK]
  ihave Htk := (toks_around (F := F)) $$ Htok
  iapply (bigSep_with_persistent (R := records m (Function.extend kcell K' 0)) fun c _ => ghost_intro m (Function.extend kcell K' 0) c)
  isplitr
  · unfold records; isplitl
    · iapply (Entails.of_eq hI); iexact HI
    · iexact HR
  · iapply ((Entails.of_eq (bigSep_sep' Finset.univ (fun c : Dev nD => idle c) (fun c : Dev nD => iprop((bigSep Finset.univ fun k : CK => (atPos ER (kcell (c, k)) 0 ∅ 0 : sProp 𝕄)) ∗ toks c))).symm).trans
      (bigSep_mono fun c _ => show _ ⊢ linear c from Entails.refl _))
    isplitl [Hidle]; · iexact Hidle
    iapply (Entails.of_eq (bigSep_sep' Finset.univ (fun c : Dev nD => bigSep Finset.univ fun k : CK => (atPos ER (kcell (c, k)) 0 ∅ 0 : sProp 𝕄)) (fun c : Dev nD => toks c)).symm)
    isplitl [Hat]; · iexact Hat
    iexact Htk

/-- The global step: own and barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the other devices owe a device's cells -/

omit [FloatOps F] in
/-- Fifteen single units on one cell are one tally of fifteen. -/
theorem sum15_tallyAt (g : GSem nD τ sig) : (∑ _r : Fin 15, (tallyAt g () 1 : CellTallies nD τ sig Unit)) = tallyAt g () 15 := by
  funext g'
  refine Finsupp.ext fun u => ?_
  rw [Finset.sum_apply, Finsupp.finsetSum_apply, Finset.sum_congr rfl (fun _ _ => tallyAt_apply g () 1 g' u), Finset.sum_const,
    Finset.card_univ, Fintype.card_fin, smul_eq_mul, tallyAt_apply]
  by_cases hp : g' = g ∧ u = ()
  · rw [if_pos hp, if_pos hp]
  · rw [if_neg hp, if_neg hp]

omit [FloatOps F] in
theorem filter15 : Finset.univ.filter (fun r : Fin 15 => 0 ≤ r.val) = Finset.univ := Finset.filter_true_of_mem fun _ _ => Nat.zero_le _
omit [FloatOps F] in
theorem filterHR : Finset.univ.filter (fun p : HR => 0 ≤ 15 * p.1.val + p.2.val) = Finset.univ := Finset.filter_true_of_mem fun _ _ => Nat.zero_le _

omit [FloatOps F] in
/-- Each device owing a unit to the barrier cell of every device ahead of it, a device's barrier cell is owed fifteen; each
    owing a piece to the receive cell number 1 + r of the device 1 + r ahead, a device's receive cells are each owed a piece. -/
theorem creds_intro (c : Dev nD) : (Pipeline.launchCred O₀ c : sProp 𝕄) ⊢ creds c := by
  have hO : (O₀ : Dev nD → CellTallies nD τ sig Unit) = fun d => (owedAG d 0 + owedRS d 0) + owedBar d 0 := rfl
  have hbar : (Pipeline.launchCred (fun d => owedBar d 0) c : sProp 𝕄) ⊢ cred (tallyAt (cel c (.reg barS)) () 15) := by
    unfold owedBar
    rw [filter15, Pipeline.launchCred_sum]
    refine (bigSep_mono fun r _ => Pipeline.launchCred_tallyAt (.reg barS) (fun d => peer d (off r)) (fun d => frm d (off r))
      (fun d => peer_frm d (off r)) (fun d => frm_peer d (off r)) () 1 c).trans ?_
    rw [← Pipeline.cred_finsetSum, sum15_tallyAt]
    exact Entails.refl _
  have hrs : (Pipeline.launchCred (fun d => owedRS d 0) c : sProp 𝕄) ⊢ bigSep Finset.univ fun p : HR => cred (tallyAt (cel c (rsR p.1 (off p.2))) () NS) := by
    unfold owedRS
    rw [filterHR, Pipeline.launchCred_sum]
    exact bigSep_mono fun p _ => Pipeline.launchCred_tallyAt (rsR p.1 (off p.2)) (fun d => peer d (off p.2)) (fun d => frm d (off p.2))
      (fun d => peer_frm d (off p.2)) (fun d => frm_peer d (off p.2)) () NS c
  have hag : (Pipeline.launchCred (fun d => owedAG d 0) c : sProp 𝕄) ⊢ bigSep Finset.univ fun p : HR => cred (tallyAt (cel c (agR p.1 (off p.2))) () NO) := by
    unfold owedAG
    rw [filterHR, Pipeline.launchCred_sum]
    exact bigSep_mono fun p _ => Pipeline.launchCred_tallyAt (agR p.1 (off p.2)) (fun d => peer d (off p.2)) (fun d => frm d (off p.2))
      (fun d => peer_frm d (off p.2)) (fun d => frm_peer d (off p.2)) () NO c
  rw [hO, Pipeline.launchCred_add, Pipeline.launchCred_add]
  unfold creds
  rw [bigSep_sep']
  iintro ⟨⟨Hag, Hrs⟩, Hbar⟩
  isplitl [Hbar]; · iapply hbar; iexact Hbar
  isplitl [Hrs]
  · iapply hrs; iexact Hrs
  · iapply hag; iexact Hag

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m shrF c ∗ emp) := by
  iintro ⟨-, Hlev, Hcr, -, HG⟩
  ihave Hc := (creds_intro (F := F) c) $$ Hcr
  unfold G'
  icases HG with ⟨Hg, Hi⟩
  imodintro
  unfold start
  isplitl
  · isplitl [Hg]; · iexact Hg
    isplitl [Hc]; · iexact Hc
    isplitl [Hi]; · iexact Hi
    iexact Hlev
  · iempintro

theorem phi0_intro (c : Dev nD) :
    iprop(start m shrF c ∗ Pipeline.prefHeld Pipeline.Prefetch.none c (fun _ => fullShare.right) (fun k => k.elim0) ∗ Pipeline.scopedRest cfg0.spec c)
      ⊢ (dats m shrF 0 c).Φ 0 := by
  rw [show (dats m shrF 0 c).Φ 0 = Φ₀ m shrF c from rfl, scopedRest0_eq]
  unfold Φ₀ scratches
  iintro ⟨Hs, -, Hr⟩
  isplitl [Hs]; · iexact Hs
  iexact Hr

theorem phi1_exit (c : Dev nD) :
    (dats m shrF 0 c).Φ (Fin.last cfg0.N) ⊢ iprop(emp ∗ Pipeline.ownSems0 osem c ∗ Pipeline.scopedRest cfg0.spec c) := by
  rw [show (dats m shrF 0 c).Φ (Fin.last cfg0.N) = Φ₁ c from rfl, scopedRest0_eq, ownSems0_eq]
  unfold Φ₁ scratches
  iintro ⟨Hr, Hz⟩
  isplitr; · iempintro
  isplitl [Hz]; · iexact Hz
  iexact Hr

/-- Every cell a device owes at launch sits at level 1 or above: a barrier cell, or a receive cell of one of the collectives. -/
theorem owed₀_pos {c : Dev nD} {g : GSem nD τ sig} {u : Unit} (h : 0 < O₀ c g u) : g.1.2 = .tc ∧ 1 ≤ lv g u := by
  unfold O₀ at h
  rcases Pipeline.add_pos_cases h with h | h
  · rcases Pipeline.add_pos_cases h with h | h
    · unfold owedAG at h
      obtain ⟨p, _, hp⟩ := Pipeline.sum_pos_exists h
      obtain ⟨rfl, _⟩ := Pipeline.tallyAt_pos hp
      refine ⟨rfl, ?_⟩
      dsimp only [lv]; rw [kind_agR]; decide
    · unfold owedRS at h
      obtain ⟨p, _, hp⟩ := Pipeline.sum_pos_exists h
      obtain ⟨rfl, _⟩ := Pipeline.tallyAt_pos hp
      refine ⟨rfl, ?_⟩
      dsimp only [lv]; rw [kind_rsR]; decide
  · unfold owedBar at h
    obtain ⟨r, _, hr⟩ := Pipeline.sum_pos_exists h
    obtain ⟨rfl, _⟩ := Pipeline.tallyAt_pos hr
    refine ⟨rfl, ?_⟩
    dsimp only [lv]; rw [kind_bar]

omit [FloatOps F] in
/-- A wait on a cell of level 0 is allowed whether the device still owes all it owes at launch or nothing. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L := L) (lev := lv) (by rw [L_tc]; exact Finset.mem_singleton_self _) fun g u hg => ?_
    obtain ⟨htc, hlv⟩ := owed₀_pos hg
    refine ⟨by unfold L; rw [if_pos htc]; exact Finset.mem_singleton_self _, ?_⟩
    rw [hq]; exact hlv
  · rw [MayWait_zero]; iintro -; iempintro

theorem waits (c : Dev nD) : (levAts L lv : sProp 𝕄) ⊢ Pipeline.cellsWaits cfgs (dats m shrF) () 0 c :=
  Pipeline.cellsWaits_intro cfgs (dats m shrF) () 0 c fun w s t =>
    mayWait_stage c _ (by fin_cases w <;> fin_cases s <;> (dsimp only [lv]; decide)) _ (by
      rcases t with ⟨_ | _, ht⟩
      · exact Or.inl rfl
      · exact Or.inr rfl)

/-! ## The final arrays -/

theorem final_out (c : Dev nD) : (dats m shrF 0 c).arrAt 2 cfg0.N = outFull m := by
  have h := (dats (F := F) m shrF 0 c).arrAt_succ 2 t0_0
  rw [flush0_2 t0_0, if_pos rfl] at h
  refine Eq.trans (show (dats m shrF 0 c).arrAt 2 cfg0.N = (dats m shrF 0 c).arrAt 2 (t0_0.val + 1) from rfl) (h.trans ?_)
  exact Memref.write_access_unit_zero_univ (Elt F) main_v1 (funext fun a => Nat.zero_mul _) _ _ _
theorem final_in0 (c : Dev nD) : (dats m shrF 0 c).arrAt 0 cfg0.N = m ((c : Thread nD τ).loc main_arg0) :=
  (dats (F := F) m shrF 0 c).arrAt_in 0 rfl _
theorem final_in1 (c : Dev nD) : (dats m shrF 0 c).arrAt 1 cfg0.N = m ((c : Thread nD τ).loc main_arg1) :=
  (dats (F := F) m shrF 0 c).arrAt_in 1 rfl _

/-! ## The run -/

set_option maxRecDepth 8000 in
/-- At the compiled mesh of sixteen devices, for any float values, from any memory with zero counters: every weakly
    fair execution of @main terminates, and every final state has each device's result array at the whole result
    and its two argument arrays unchanged. -/
theorem run_main (hbody : ∀ c : Dev nD, BodyObligation (dats (F := F) m shrF 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = outFull m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m shrF) () cellOf_inj (0 : Fin 1)
    winFacts0.to₀ ownSemFacts (Pipeline.PreFacts.none _) EP defs₀ Variants.none m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m shrF) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 2).trans (final_out m c), ((h c).1 0).trans (final_in0 m c), ((h c).1 1).trans (final_in1 m c)⟩)

/-- info: 'Cert.KernelIdeal.Pr.run_main' depends on axioms: [propext, Classical.choice, Quot.sound] -/
#guard_msgs in #print axioms run_main

end Cert.KernelIdeal.Pr

end
-- ==== Proof.Bits.Peer.lean ====
/-
  The ring of sixteen devices: the device j places ahead of c, the device j places behind it, and that the two undo each other.
-/
import proofs.«900888_g7700000000000889_dist_matmul_k_i_m768_n768_k384_v7x_i16_bf16_1_alg».proof.Proof.Gen.Kernel

namespace Cert.Kernel.Geo

open Idealize.ShloMosaic Cert.Kernel

/-- The device j places ahead of c on the ring. -/
def peer (c : Dev nD) (j : Fin 16) : Dev nD := ⟨(c.val + j.val) % 16, Nat.mod_lt _ (by decide)⟩
/-- The device j places behind c on the ring. -/
def frm (c : Dev nD) (j : Fin 16) : Dev nD := ⟨(c.val + 16 - j.val) % 16, Nat.mod_lt _ (by decide)⟩
/-- The offset that leads back: sixteen minus j, on the ring. -/
def neg (j : Fin 16) : Fin 16 := ⟨(16 - j.val) % 16, Nat.mod_lt _ (by decide)⟩

theorem peer_frm (c : Dev nD) (j : Fin 16) : peer (frm c j) j = c := by revert c j; decide
theorem frm_peer (c : Dev nD) (j : Fin 16) : frm (peer c j) j = c := by revert c j; decide
theorem peer_zero (c : Dev nD) : peer c 0 = c := by revert c; decide
theorem frm_zero (c : Dev nD) : frm c 0 = c := by revert c; decide
theorem peer_ne_self (c : Dev nD) (j : Fin 16) (hj : j ≠ 0) : peer c j ≠ c := by revert c j; decide
theorem frm_ne_self (c : Dev nD) (j : Fin 16) (hj : j ≠ 0) : frm c j ≠ c := by revert c j; decide
theorem peer_injective (c : Dev nD) : Function.Injective (peer c) := by revert c; decide
theorem frm_injective (c : Dev nD) : Function.Injective (frm c) := by revert c; decide
theorem frm_eq_peer_neg (c : Dev nD) (j : Fin 16) : frm c j = peer c (neg j) := by revert c j; decide
theorem peer_peer_neg (c : Dev nD) (j : Fin 16) : peer (peer c j) (neg j) = c := by revert c j; decide
theorem neg_neg (j : Fin 16) : neg (neg j) = j := by revert j; decide
theorem neg_ne_zero (j : Fin 16) (hj : j ≠ 0) : neg j ≠ 0 := by revert j; decide

end Cert.Kernel.Geo
-- ==== Proof.Bits.Geo.lean ====
/-
  The closed forms of the device chains and of the row offsets over the ring of sixteen devices.
  Each device chain is the device J places ahead of c on the ring, (c + J) mod 16, J = 1..15: the
  fifteen entry signals (N = 1..15, J = N), the fifteen slice copies of the reduction for the lower
  half of a chunk (N = 16..30, J = N - 15) and for the upper half (N = 31..45, J = N - 30), the
  fifteen copies that spread the reduced lower half (N = 46..60, J = N - 45) and the reduced upper
  half (N = 61..75, J = N - 60). A chunk is 48 rows, device d's chunk starts at row 48 d, and its
  half h (h = 0, 1) is the 24 rows from 48 d + 24 h: the source slice of the copy to the device j
  ahead is that device's half, the rows accumulated and the rows spread are c's own half.
-/
import proofs.«900888_g7700000000000889_dist_matmul_k_i_m768_n768_k384_v7x_i16_bf16_1_alg».proof.Proof.Bits.Peer

namespace Cert.Kernel.Geo

open Idealize.ShloMosaic Cert.Kernel

/-! ## The device chains: (c + J) mod 16 -/

-- python3 scratch/gen_geo_devs.py proof/Proof/Gen/Kernel.lean   (from the unit directory)
theorem dev1_eq (c : Dev nD) : (⟨k0_dev1 c, Gen.k0_dev1_lt c⟩ : Dev nD) = peer c 1 := Fin.ext (Gen.k0_dev1_eq c)
theorem dev2_eq (c : Dev nD) : (⟨k0_dev2 c, Gen.k0_dev2_lt c⟩ : Dev nD) = peer c 2 := Fin.ext (Gen.k0_dev2_eq c)
theorem dev3_eq (c : Dev nD) : (⟨k0_dev3 c, Gen.k0_dev3_lt c⟩ : Dev nD) = peer c 3 := Fin.ext (Gen.k0_dev3_eq c)
theorem dev4_eq (c : Dev nD) : (⟨k0_dev4 c, Gen.k0_dev4_lt c⟩ : Dev nD) = peer c 4 := Fin.ext (Gen.k0_dev4_eq c)
theorem dev5_eq (c : Dev nD) : (⟨k0_dev5 c, Gen.k0_dev5_lt c⟩ : Dev nD) = peer c 5 := Fin.ext (Gen.k0_dev5_eq c)
theorem dev6_eq (c : Dev nD) : (⟨k0_dev6 c, Gen.k0_dev6_lt c⟩ : Dev nD) = peer c 6 := Fin.ext (Gen.k0_dev6_eq c)
theorem dev7_eq (c : Dev nD) : (⟨k0_dev7 c, Gen.k0_dev7_lt c⟩ : Dev nD) = peer c 7 := Fin.ext (Gen.k0_dev7_eq c)
theorem dev8_eq (c : Dev nD) : (⟨k0_dev8 c, Gen.k0_dev8_lt c⟩ : Dev nD) = peer c 8 := Fin.ext (Gen.k0_dev8_eq c)
theorem dev9_eq (c : Dev nD) : (⟨k0_dev9 c, Gen.k0_dev9_lt c⟩ : Dev nD) = peer c 9 := Fin.ext (Gen.k0_dev9_eq c)
theorem dev10_eq (c : Dev nD) : (⟨k0_dev10 c, Gen.k0_dev10_lt c⟩ : Dev nD) = peer c 10 := Fin.ext (Gen.k0_dev10_eq c)
theorem dev11_eq (c : Dev nD) : (⟨k0_dev11 c, Gen.k0_dev11_lt c⟩ : Dev nD) = peer c 11 := Fin.ext (Gen.k0_dev11_eq c)
theorem dev12_eq (c : Dev nD) : (⟨k0_dev12 c, Gen.k0_dev12_lt c⟩ : Dev nD) = peer c 12 := Fin.ext (Gen.k0_dev12_eq c)
theorem dev13_eq (c : Dev nD) : (⟨k0_dev13 c, Gen.k0_dev13_lt c⟩ : Dev nD) = peer c 13 := Fin.ext (Gen.k0_dev13_eq c)
theorem dev14_eq (c : Dev nD) : (⟨k0_dev14 c, Gen.k0_dev14_lt c⟩ : Dev nD) = peer c 14 := Fin.ext (Gen.k0_dev14_eq c)
theorem dev15_eq (c : Dev nD) : (⟨k0_dev15 c, Gen.k0_dev15_lt c⟩ : Dev nD) = peer c 15 := Fin.ext (Gen.k0_dev15_eq c)
theorem dev16_eq (c : Dev nD) : (⟨k0_dev16 c, Gen.k0_dev16_lt c⟩ : Dev nD) = peer c 1 := Fin.ext (Gen.k0_dev16_eq c)
theorem dev17_eq (c : Dev nD) : (⟨k0_dev17 c, Gen.k0_dev17_lt c⟩ : Dev nD) = peer c 2 := Fin.ext (Gen.k0_dev17_eq c)
theorem dev18_eq (c : Dev nD) : (⟨k0_dev18 c, Gen.k0_dev18_lt c⟩ : Dev nD) = peer c 3 := Fin.ext (Gen.k0_dev18_eq c)
theorem dev19_eq (c : Dev nD) : (⟨k0_dev19 c, Gen.k0_dev19_lt c⟩ : Dev nD) = peer c 4 := Fin.ext (Gen.k0_dev19_eq c)
theorem dev20_eq (c : Dev nD) : (⟨k0_dev20 c, Gen.k0_dev20_lt c⟩ : Dev nD) = peer c 5 := Fin.ext (Gen.k0_dev20_eq c)
theorem dev21_eq (c : Dev nD) : (⟨k0_dev21 c, Gen.k0_dev21_lt c⟩ : Dev nD) = peer c 6 := Fin.ext (Gen.k0_dev21_eq c)
theorem dev22_eq (c : Dev nD) : (⟨k0_dev22 c, Gen.k0_dev22_lt c⟩ : Dev nD) = peer c 7 := Fin.ext (Gen.k0_dev22_eq c)
theorem dev23_eq (c : Dev nD) : (⟨k0_dev23 c, Gen.k0_dev23_lt c⟩ : Dev nD) = peer c 8 := Fin.ext (Gen.k0_dev23_eq c)
theorem dev24_eq (c : Dev nD) : (⟨k0_dev24 c, Gen.k0_dev24_lt c⟩ : Dev nD) = peer c 9 := Fin.ext (Gen.k0_dev24_eq c)
theorem dev25_eq (c : Dev nD) : (⟨k0_dev25 c, Gen.k0_dev25_lt c⟩ : Dev nD) = peer c 10 := Fin.ext (Gen.k0_dev25_eq c)
theorem dev26_eq (c : Dev nD) : (⟨k0_dev26 c, Gen.k0_dev26_lt c⟩ : Dev nD) = peer c 11 := Fin.ext (Gen.k0_dev26_eq c)
theorem dev27_eq (c : Dev nD) : (⟨k0_dev27 c, Gen.k0_dev27_lt c⟩ : Dev nD) = peer c 12 := Fin.ext (Gen.k0_dev27_eq c)
theorem dev28_eq (c : Dev nD) : (⟨k0_dev28 c, Gen.k0_dev28_lt c⟩ : Dev nD) = peer c 13 := Fin.ext (Gen.k0_dev28_eq c)
theorem dev29_eq (c : Dev nD) : (⟨k0_dev29 c, Gen.k0_dev29_lt c⟩ : Dev nD) = peer c 14 := Fin.ext (Gen.k0_dev29_eq c)
theorem dev30_eq (c : Dev nD) : (⟨k0_dev30 c, Gen.k0_dev30_lt c⟩ : Dev nD) = peer c 15 := Fin.ext (Gen.k0_dev30_eq c)
theorem dev31_eq (c : Dev nD) : (⟨k0_dev31 c, Gen.k0_dev31_lt c⟩ : Dev nD) = peer c 1 := Fin.ext (Gen.k0_dev31_eq c)
theorem dev32_eq (c : Dev nD) : (⟨k0_dev32 c, Gen.k0_dev32_lt c⟩ : Dev nD) = peer c 2 := Fin.ext (Gen.k0_dev32_eq c)
theorem dev33_eq (c : Dev nD) : (⟨k0_dev33 c, Gen.k0_dev33_lt c⟩ : Dev nD) = peer c 3 := Fin.ext (Gen.k0_dev33_eq c)
theorem dev34_eq (c : Dev nD) : (⟨k0_dev34 c, Gen.k0_dev34_lt c⟩ : Dev nD) = peer c 4 := Fin.ext (Gen.k0_dev34_eq c)
theorem dev35_eq (c : Dev nD) : (⟨k0_dev35 c, Gen.k0_dev35_lt c⟩ : Dev nD) = peer c 5 := Fin.ext (Gen.k0_dev35_eq c)
theorem dev36_eq (c : Dev nD) : (⟨k0_dev36 c, Gen.k0_dev36_lt c⟩ : Dev nD) = peer c 6 := Fin.ext (Gen.k0_dev36_eq c)
theorem dev37_eq (c : Dev nD) : (⟨k0_dev37 c, Gen.k0_dev37_lt c⟩ : Dev nD) = peer c 7 := Fin.ext (Gen.k0_dev37_eq c)
theorem dev38_eq (c : Dev nD) : (⟨k0_dev38 c, Gen.k0_dev38_lt c⟩ : Dev nD) = peer c 8 := Fin.ext (Gen.k0_dev38_eq c)
theorem dev39_eq (c : Dev nD) : (⟨k0_dev39 c, Gen.k0_dev39_lt c⟩ : Dev nD) = peer c 9 := Fin.ext (Gen.k0_dev39_eq c)
theorem dev40_eq (c : Dev nD) : (⟨k0_dev40 c, Gen.k0_dev40_lt c⟩ : Dev nD) = peer c 10 := Fin.ext (Gen.k0_dev40_eq c)
theorem dev41_eq (c : Dev nD) : (⟨k0_dev41 c, Gen.k0_dev41_lt c⟩ : Dev nD) = peer c 11 := Fin.ext (Gen.k0_dev41_eq c)
theorem dev42_eq (c : Dev nD) : (⟨k0_dev42 c, Gen.k0_dev42_lt c⟩ : Dev nD) = peer c 12 := Fin.ext (Gen.k0_dev42_eq c)
theorem dev43_eq (c : Dev nD) : (⟨k0_dev43 c, Gen.k0_dev43_lt c⟩ : Dev nD) = peer c 13 := Fin.ext (Gen.k0_dev43_eq c)
theorem dev44_eq (c : Dev nD) : (⟨k0_dev44 c, Gen.k0_dev44_lt c⟩ : Dev nD) = peer c 14 := Fin.ext (Gen.k0_dev44_eq c)
theorem dev45_eq (c : Dev nD) : (⟨k0_dev45 c, Gen.k0_dev45_lt c⟩ : Dev nD) = peer c 15 := Fin.ext (Gen.k0_dev45_eq c)
theorem dev46_eq (c : Dev nD) : (⟨k0_dev46 c, Gen.k0_dev46_lt c⟩ : Dev nD) = peer c 1 := Fin.ext (Gen.k0_dev46_eq c)
theorem dev47_eq (c : Dev nD) : (⟨k0_dev47 c, Gen.k0_dev47_lt c⟩ : Dev nD) = peer c 2 := Fin.ext (Gen.k0_dev47_eq c)
theorem dev48_eq (c : Dev nD) : (⟨k0_dev48 c, Gen.k0_dev48_lt c⟩ : Dev nD) = peer c 3 := Fin.ext (Gen.k0_dev48_eq c)
theorem dev49_eq (c : Dev nD) : (⟨k0_dev49 c, Gen.k0_dev49_lt c⟩ : Dev nD) = peer c 4 := Fin.ext (Gen.k0_dev49_eq c)
theorem dev50_eq (c : Dev nD) : (⟨k0_dev50 c, Gen.k0_dev50_lt c⟩ : Dev nD) = peer c 5 := Fin.ext (Gen.k0_dev50_eq c)
theorem dev51_eq (c : Dev nD) : (⟨k0_dev51 c, Gen.k0_dev51_lt c⟩ : Dev nD) = peer c 6 := Fin.ext (Gen.k0_dev51_eq c)
theorem dev52_eq (c : Dev nD) : (⟨k0_dev52 c, Gen.k0_dev52_lt c⟩ : Dev nD) = peer c 7 := Fin.ext (Gen.k0_dev52_eq c)
theorem dev53_eq (c : Dev nD) : (⟨k0_dev53 c, Gen.k0_dev53_lt c⟩ : Dev nD) = peer c 8 := Fin.ext (Gen.k0_dev53_eq c)
theorem dev54_eq (c : Dev nD) : (⟨k0_dev54 c, Gen.k0_dev54_lt c⟩ : Dev nD) = peer c 9 := Fin.ext (Gen.k0_dev54_eq c)
theorem dev55_eq (c : Dev nD) : (⟨k0_dev55 c, Gen.k0_dev55_lt c⟩ : Dev nD) = peer c 10 := Fin.ext (Gen.k0_dev55_eq c)
theorem dev56_eq (c : Dev nD) : (⟨k0_dev56 c, Gen.k0_dev56_lt c⟩ : Dev nD) = peer c 11 := Fin.ext (Gen.k0_dev56_eq c)
theorem dev57_eq (c : Dev nD) : (⟨k0_dev57 c, Gen.k0_dev57_lt c⟩ : Dev nD) = peer c 12 := Fin.ext (Gen.k0_dev57_eq c)
theorem dev58_eq (c : Dev nD) : (⟨k0_dev58 c, Gen.k0_dev58_lt c⟩ : Dev nD) = peer c 13 := Fin.ext (Gen.k0_dev58_eq c)
theorem dev59_eq (c : Dev nD) : (⟨k0_dev59 c, Gen.k0_dev59_lt c⟩ : Dev nD) = peer c 14 := Fin.ext (Gen.k0_dev59_eq c)
theorem dev60_eq (c : Dev nD) : (⟨k0_dev60 c, Gen.k0_dev60_lt c⟩ : Dev nD) = peer c 15 := Fin.ext (Gen.k0_dev60_eq c)
theorem dev61_eq (c : Dev nD) : (⟨k0_dev61 c, Gen.k0_dev61_lt c⟩ : Dev nD) = peer c 1 := Fin.ext (Gen.k0_dev61_eq c)
theorem dev62_eq (c : Dev nD) : (⟨k0_dev62 c, Gen.k0_dev62_lt c⟩ : Dev nD) = peer c 2 := Fin.ext (Gen.k0_dev62_eq c)
theorem dev63_eq (c : Dev nD) : (⟨k0_dev63 c, Gen.k0_dev63_lt c⟩ : Dev nD) = peer c 3 := Fin.ext (Gen.k0_dev63_eq c)
theorem dev64_eq (c : Dev nD) : (⟨k0_dev64 c, Gen.k0_dev64_lt c⟩ : Dev nD) = peer c 4 := Fin.ext (Gen.k0_dev64_eq c)
theorem dev65_eq (c : Dev nD) : (⟨k0_dev65 c, Gen.k0_dev65_lt c⟩ : Dev nD) = peer c 5 := Fin.ext (Gen.k0_dev65_eq c)
theorem dev66_eq (c : Dev nD) : (⟨k0_dev66 c, Gen.k0_dev66_lt c⟩ : Dev nD) = peer c 6 := Fin.ext (Gen.k0_dev66_eq c)
theorem dev67_eq (c : Dev nD) : (⟨k0_dev67 c, Gen.k0_dev67_lt c⟩ : Dev nD) = peer c 7 := Fin.ext (Gen.k0_dev67_eq c)
theorem dev68_eq (c : Dev nD) : (⟨k0_dev68 c, Gen.k0_dev68_lt c⟩ : Dev nD) = peer c 8 := Fin.ext (Gen.k0_dev68_eq c)
theorem dev69_eq (c : Dev nD) : (⟨k0_dev69 c, Gen.k0_dev69_lt c⟩ : Dev nD) = peer c 9 := Fin.ext (Gen.k0_dev69_eq c)
theorem dev70_eq (c : Dev nD) : (⟨k0_dev70 c, Gen.k0_dev70_lt c⟩ : Dev nD) = peer c 10 := Fin.ext (Gen.k0_dev70_eq c)
theorem dev71_eq (c : Dev nD) : (⟨k0_dev71 c, Gen.k0_dev71_lt c⟩ : Dev nD) = peer c 11 := Fin.ext (Gen.k0_dev71_eq c)
theorem dev72_eq (c : Dev nD) : (⟨k0_dev72 c, Gen.k0_dev72_lt c⟩ : Dev nD) = peer c 12 := Fin.ext (Gen.k0_dev72_eq c)
theorem dev73_eq (c : Dev nD) : (⟨k0_dev73 c, Gen.k0_dev73_lt c⟩ : Dev nD) = peer c 13 := Fin.ext (Gen.k0_dev73_eq c)
theorem dev74_eq (c : Dev nD) : (⟨k0_dev74 c, Gen.k0_dev74_lt c⟩ : Dev nD) = peer c 14 := Fin.ext (Gen.k0_dev74_eq c)
theorem dev75_eq (c : Dev nD) : (⟨k0_dev75 c, Gen.k0_dev75_lt c⟩ : Dev nD) = peer c 15 := Fin.ext (Gen.k0_dev75_eq c)

/-! ## The row offsets: 48 · device + 24 · half, column 0 -/

/-- The source rows of the copy to the device (1 + j) ahead: that device's half h. -/
theorem off1_eq (c : Dev nD) (j : Fin 15) (h : Fin 2) :
    k0_off1 c (BitVec.ofNat 32 (1 + j.val)) (BitVec.ofNat 32 (24 * h.val))
      = ![(peer c ⟨1 + j.val, by omega⟩).val * 48 + 24 * h.val, 0] := by
  rw [Gen.k0_off1_eq c j h]
  have e : 48 * ((c.val + j.val + 1) % 16) = (peer c ⟨1 + j.val, by omega⟩).val * 48 := by
    show 48 * ((c.val + j.val + 1) % 16) = ((c.val + (1 + j.val)) % 16) * 48
    rw [Nat.mul_comm, Nat.add_assoc, Nat.add_comm j.val 1]
  rw [e]

/-- The rows accumulated and stored: c's own half h. -/
theorem off2_eq (c : Dev nD) (h : Fin 2) :
    k0_off2 c (BitVec.ofNat 32 (24 * h.val)) = ![c.val * 48 + 24 * h.val, 0] := by
  rw [Gen.k0_off2_eq c h, Nat.mul_comm 48 c.val]

/-- The rows spread to every other device: c's own half h, at both ends of the copy. -/
theorem off3_eq (c : Dev nD) (h : Fin 2) :
    k0_off3 c (BitVec.ofNat 32 (24 * h.val)) = ![c.val * 48 + 24 * h.val, 0] := by
  rw [Gen.k0_off3_eq c h, Nat.mul_comm 48 c.val]

/-! ## The same as plain numbers: first coordinate, column, and the range of rows -/

theorem off1_row (c : Dev nD) (j : Fin 15) (h : Fin 2) :
    k0_off1 c (BitVec.ofNat 32 (1 + j.val)) (BitVec.ofNat 32 (24 * h.val)) 0
      = (peer c ⟨1 + j.val, by omega⟩).val * 48 + 24 * h.val := by
  rw [off1_eq]; rfl
theorem off1_col (c : Dev nD) (j : Fin 15) (h : Fin 2) :
    k0_off1 c (BitVec.ofNat 32 (1 + j.val)) (BitVec.ofNat 32 (24 * h.val)) 1 = 0 := by
  rw [off1_eq]; rfl
theorem off2_row (c : Dev nD) (h : Fin 2) :
    k0_off2 c (BitVec.ofNat 32 (24 * h.val)) 0 = c.val * 48 + 24 * h.val := by
  rw [off2_eq]; rfl
theorem off2_col (c : Dev nD) (h : Fin 2) : k0_off2 c (BitVec.ofNat 32 (24 * h.val)) 1 = 0 := by
  rw [off2_eq]; rfl
theorem off3_row (c : Dev nD) (h : Fin 2) :
    k0_off3 c (BitVec.ofNat 32 (24 * h.val)) 0 = c.val * 48 + 24 * h.val := by
  rw [off3_eq]; rfl
theorem off3_col (c : Dev nD) (h : Fin 2) : k0_off3 c (BitVec.ofNat 32 (24 * h.val)) 1 = 0 := by
  rw [off3_eq]; rfl

/-- The 24 rows of half h of device d's chunk lie inside the 768 rows. -/
theorem row_add_le (d : Dev nD) (h : Fin 2) : d.val * 48 + 24 * h.val + 24 ≤ 768 := by
  have hd : d.val < 16 := d.isLt
  have hh : h.val < 2 := h.isLt
  omega

theorem row_lt (d : Dev nD) (h : Fin 2) : d.val * 48 + 24 * h.val < 768 := by
  have := row_add_le d h; omega

/-- The first row determines the device and the half. -/
theorem row_inj (d d' : Dev nD) (h h' : Fin 2)
    (e : d.val * 48 + 24 * h.val = d'.val * 48 + 24 * h'.val) : d = d' ∧ h = h' := by
  have hh : h.val < 2 := h.isLt
  have hh' : h'.val < 2 := h'.isLt
  exact ⟨Fin.ext (by omega), Fin.ext (by omega)⟩

/-- Two different (device, half) pairs own disjoint ranges of 24 rows. -/
theorem rows_disjoint (d d' : Dev nD) (h h' : Fin 2) (ne : ¬ (d = d' ∧ h = h')) :
    d.val * 48 + 24 * h.val + 24 ≤ d'.val * 48 + 24 * h'.val
      ∨ d'.val * 48 + 24 * h'.val + 24 ≤ d.val * 48 + 24 * h.val := by
  have hh : h.val < 2 := h.isLt
  have hh' : h'.val < 2 := h'.isLt
  by_cases hd : d.val = d'.val
  · have hne : h.val ≠ h'.val := fun e => ne ⟨Fin.ext hd, Fin.ext e⟩
    omega
  · omega

end Cert.Kernel.Geo
-- ==== Proof.Bits.Vals.lean ====
/-
  What each device's buffers hold, as functions of the launch memory: a device's blocks of the two matrices, its
  partial product, the rows of the partial products that land in a device's receive slots, the sum a device forms
  for each half of its rows, and the whole result every device ends with.
-/
import proofs.«900888_g7700000000000889_dist_matmul_k_i_m768_n768_k384_v7x_i16_bf16_1_alg».proof.Proof.Gen.Kernel.Skeleton
import proofs.«900888_g7700000000000889_dist_matmul_k_i_m768_n768_k384_v7x_i16_bf16_1_alg».proof.Proof.Gen.Kernel.Launch
import proofs.«900888_g7700000000000889_dist_matmul_k_i_m768_n768_k384_v7x_i16_bf16_1_alg».proof.Proof.Bits.Peer
import Idealize.ShloMosaic.Lib.ValueIdx

noncomputable section

namespace Cert.Kernel.Vals

open Idealize.ShloMosaic Idealize.ShloMosaic.TcCoe Idealize.ShloMosaic.ValueIdx
open Cert.Kernel Cert.Kernel.Gen Cert.Kernel.Geo

variable {F : FTy → Type} [FloatOps F]
variable (m : (ℓ : Loc nD τ sig) → Buf (Elt F) ℓ)

/-- The ring offset of copy number r (r = 0 .. 14): one more than r. -/
def off (r : Fin 15) : Fin 16 := ⟨1 + r.val, by omega⟩

/-- Device c's block of the left matrix and of the right matrix, as its staging buffers hold them. -/
def aV (c : Dev nD) : Vec F S768x384 .f32 := (win0_0.blk t0_0).view.read (Elt F) (m ((c : Thread nD τ).loc main_arg0))
def bV (c : Dev nD) : Vec F S384x768 .f32 := (win0_1.blk t0_0).view.read (Elt F) (m ((c : Thread nD τ).loc main_arg1))

/-- Device c's partial product: its block of the left matrix times its block of the right one. -/
def pbV (c : Dev nD) : FVec F S768x768 .bf16 := k0_pay3 (k0_pay2 (aV m c) (k0_pay1 (bV m c)))

/-- Row y of half h of the rows that belong to device s, as an index of the whole 768 x 768 array. -/
def rowIx (s : Dev nD) (h : Fin 2) (y : S24x768.Idx) : S768x768.Idx :=
  ix2 (⟨s.val * 48 + 24 * h.val + (y 0).val, by have h0 : (y 0).val < 24 := (y 0).isLt; have hs : s.val < 16 := s.isLt; have hh : h.val < 2 := h.isLt; show _ < 768; omega⟩ : Fin 768) (⟨(y 1).val, (y 1).isLt⟩ : Fin 768)

/-- Half h of device d's own rows of its own partial product. -/
def ownRows (d : Dev nD) (h : Fin 2) : Vec F S24x768 .bf16 := fun y => pbV m d (rowIx d h y)

/-- What receive slot (h, 1 + r) of device d holds once it has landed: half h of d's rows of the partial product of
    the device 1 + r places behind d. -/
def landed (d : Dev nD) (h : Fin 2) (r : Fin 15) : Vec F S1x1x24x768 .bf16 :=
  fun z => pbV m (frm d (off r)) (rowIx d h (ix2 (⟨(z 2).val, (z 2).isLt⟩ : Fin 24) (⟨(z 3).val, (z 3).isLt⟩ : Fin 768)))

/-- The sum the body forms for the first half: the own rows, then the fifteen received pieces one after the other. -/
def acc0 (x0 : Vec F S24x768 .bf16) (l : Fin 15 → Vec F S1x1x24x768 .bf16) : FVec F S24x768 .bf16 :=
  k0_pay12 (k0_pay11 (k0_pay10 (k0_pay9 (k0_pay8 (k0_pay6 (k0_pay5 (k0_pay4 x0) (l 0) (l 1)) (l 2) (l 3)) (k0_pay7 (l 4)) (l 5) (l 6))
    (l 7) (l 8)) (l 9) (l 10)) (l 11) (l 12)) (l 13) (l 14)

/-- The same for the second half. -/
def acc1 (x0 : Vec F S24x768 .bf16) (l : Fin 15 → Vec F S1x1x24x768 .bf16) : FVec F S24x768 .bf16 :=
  k0_pay21 (k0_pay20 (k0_pay19 (k0_pay17 (k0_pay16 (k0_pay15 (k0_pay14 (k0_pay13 x0) (l 0) (l 1)) (l 2) (l 3)) (l 4) (l 5)) (l 6) (l 7))
    (k0_pay18 (l 8)) (l 9) (l 10)) (l 11) (l 12)) (l 13) (l 14)

/-- Half h of device d's rows of the result, as d computes it. -/
def chunkV (d : Dev nD) (h : Fin 2) : FVec F S24x768 .bf16 :=
  if h = 0 then acc0 (ownRows m d 0) (landed m d 0) else acc1 (ownRows m d 1) (landed m d 1)

/-- The whole result: rows 48 s + 24 h .. 48 s + 24 h + 23 are half h of device s's rows. -/
def outFull : S768x768.Idx → Elt F (.bf16) := fun i =>
  chunkV m (⟨(i 0).val / 48, by have h0 : (i 0).val < 768 := (i 0).isLt; show _ < 16; omega⟩ : Dev nD)
    (⟨(i 0).val % 48 / 24, by omega⟩ : Fin 2)
    (ix2 (⟨(i 0).val % 24, by omega⟩ : Fin 24) (⟨(i 1).val, (i 1).isLt⟩ : Fin 768))

/-- What device d's receive buffer holds once every slot has landed (slot (h, 0) is never written: there it names
    the own rows, a value nothing reads). -/
def rsFull (d : Dev nD) : S2x16x24x768.Idx → Elt F (.bf16) := fun z =>
  pbV m (frm d (⟨(z 1).val, (z 1).isLt⟩ : Fin 16)) (rowIx d (⟨(z 0).val, (z 0).isLt⟩ : Fin 2)
    (ix2 (⟨(z 2).val, (z 2).isLt⟩ : Fin 24) (⟨(z 3).val, (z 3).isLt⟩ : Fin 768)))

end Cert.Kernel.Vals

end
-- ==== Proof.Bits.Views.lean ====
/-
  The buffers of one device and the pieces of them the protocol moves: the thirty-two receive slots, the thirty-two
  blocks of twenty-four rows of a 768 x 768 buffer (half h of the rows that belong to device s), as memory views
  spelt the way the body spells them and as plain sets of indices.
-/
import proofs.«900888_g7700000000000889_dist_matmul_k_i_m768_n768_k384_v7x_i16_bf16_1_alg».proof.Proof.Gen.Kernel.Skeleton
import proofs.«900888_g7700000000000889_dist_matmul_k_i_m768_n768_k384_v7x_i16_bf16_1_alg».proof.Proof.Bits.Geo
import proofs.«900888_g7700000000000889_dist_matmul_k_i_m768_n768_k384_v7x_i16_bf16_1_alg».proof.Proof.Bits.Vals

noncomputable section

namespace Cert.Kernel.Pr

open Cert.Kernel Cert.Kernel.Gen Cert.Kernel.Geo Cert.Kernel.Vals
open Idealize.ShloMosaic Idealize.ShloMosaic.TcCoe

/-! ## The buffers -/

abbrev aM : Memref sig .tc .vmem S768x384 .f32 := Memref.whole cc0_stg0_0
abbrev bM : Memref sig .tc .vmem S384x768 .f32 := Memref.whole cc0_stg1_0
abbrev oM : Memref sig .tc .vmem S768x768 .bf16 := Memref.whole cc0_stg2_0
abbrev pbM : Memref sig .tc .vmem S768x768 .bf16 := Memref.whole cc0_scratch0
abbrev bbM : Memref sig .tc .vmem S384x768 .bf16 := Memref.whole cc0_scratch1
abbrev rsM : Memref sig .tc .vmem S2x16x24x768 .bf16 := Memref.whole cc0_scratch2

/-! ## The views, as the body spells them -/

theorem slot_inb (h : Fin 2) (j : Fin 16) : ∀ a, (![h.val, j.val, 0, 0] : Fin 4 → Nat) a + S1x1x24x768.size a ≤ S2x16x24x768.size a := by
  revert h j; decide

/-- Receive slot (h, j): one 24 x 768 piece of the receive buffer. -/
abbrev slotV (h : Fin 2) (j : Fin 16) : Memref sig .tc .vmem S24x768 .bf16 :=
  (rsM.slice (Rect.unit (s := S2x16x24x768) ![h.val, j.val, 0, 0] S1x1x24x768.size (slot_inb h j)) (fun _ => rfl)).squeeze S24x768 squeezes_S1x1x24x768_S24x768

/-- Half h of the rows that belong to device s, in the 768 x 768 buffer M: as the all-gather's copies spell them, -/
abbrev rowsV (M : Memref sig .tc .vmem S768x768 .bf16) (s : Dev nD) (h : Fin 2) : Memref sig .tc .vmem S24x768 .bf16 :=
  M.slice (Rect.unit (s := S768x768) (k0_off3 s (BitVec.ofNat 32 (24 * h.val))) S24x768.size (k0_off3_inb s h)) (fun _ => rfl)

/-- as the own-row load and store spell them (the rectangle alone: they go through the whole buffer), -/
abbrev ownRect (s : Dev nD) (h : Fin 2) : Rect S768x768 :=
  Rect.unit (s := S768x768) (k0_off2 s (BitVec.ofNat 32 (24 * h.val))) S24x768.size (k0_off2_inb s h)

/-- and the source of device c's reduce-scatter copy number r: the rows of the device 1 + r places ahead, in c's partial product. -/
abbrev srcV (c : Dev nD) (r : Fin 15) (h : Fin 2) : Memref sig .tc .vmem S24x768 .bf16 :=
  pbM.slice (Rect.unit (s := S768x768) (k0_off1 c (BitVec.ofNat 32 (1 + r.val)) (BitVec.ofNat 32 (24 * h.val))) S24x768.size (k0_off1_inb c r h)) (fun _ => rfl)

/-! ## The same pieces as sets of indices -/

/-- The indices of half h of device s's rows. -/
def rowsSet (s : Dev nD) (h : Fin 2) : Finset S768x768.Idx :=
  Finset.univ.filter fun i => s.val * 48 + 24 * h.val ≤ (i 0).val ∧ (i 0).val < s.val * 48 + 24 * h.val + 24

/-- The indices of receive slot (h, j). -/
def slotSet (h : Fin 2) (j : Fin 16) : Finset S2x16x24x768.Idx :=
  Finset.univ.filter fun z => (z 0).val = h.val ∧ (z 1).val = j.val

end Cert.Kernel.Pr

end
-- ==== Proof.Bits.Sched.lean ====
/-
  The cross-device protocol as a schedule of rounds. Every semaphore of the kernel has ONE round. A device's barrier
  semaphore is credited one unit by each of the fifteen other devices; the unit from the device j places ahead carries
  what a copy TO that device needs: its two receive slots number j, its two row blocks of the result that belong to
  the signalled device, and that the four cells those copies credit are open. A receive cell of the reduce-scatter
  carries the slot at the sender's partial product's rows, a receive cell of the all-gather the rows at the result;
  a send cell gives the copy's source back.
-/
import proofs.«900888_g7700000000000889_dist_matmul_k_i_m768_n768_k384_v7x_i16_bf16_1_alg».proof.Proof.Gen.Kernel.Skeleton
import proofs.«900888_g7700000000000889_dist_matmul_k_i_m768_n768_k384_v7x_i16_bf16_1_alg».proof.Proof.Gen.Kernel.Launch
import proofs.«900888_g7700000000000889_dist_matmul_k_i_m768_n768_k384_v7x_i16_bf16_1_alg».proof.Proof.Bits.Geo
import proofs.«900888_g7700000000000889_dist_matmul_k_i_m768_n768_k384_v7x_i16_bf16_1_alg».proof.Proof.Bits.Vals
import proofs.«900888_g7700000000000889_dist_matmul_k_i_m768_n768_k384_v7x_i16_bf16_1_alg».proof.Proof.Bits.Views
import Idealize.ShloMosaic.Lib.Pipeline.Launch
import Idealize.ShloMosaic.Lib.Pipeline.Kit
import Idealize.ShloMosaic.Lib.Tactic

noncomputable section

namespace Cert.Kernel.Pr

open Cert.Kernel Cert.Kernel.Gen Cert.Kernel.Geo Cert.Kernel.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties Unit) and the protocol's (duties: a ring offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

abbrev barS : Sem sig := (SemArray.scalar (sig.barrier 0 rfl) : Sems sig S_).sem

theorem sem_inb (h : Fin 2) (j : Fin 16) : ∀ a, (![h.val, j.val] : Fin 2 → Nat) a + S1x1.size a ≤ S2x16.size a := by
  revert h j; decide

/-- Semaphore (h, j) of one of the four arrays of thirty-two, as the body names it: the slice, squeezed. -/
abbrev semAt (A : DmaSems sig S2x16) (h : Fin 2) (j : Fin 16) : DmaSem sig :=
  ((A.slice (Rect.unit (s := S2x16) ![h.val, j.val] S1x1.size (sem_inb h j))).squeeze S_ squeezes_S1x1_S_).sem

abbrev rsS (h : Fin 2) (j : Fin 16) : SemLoc sig := .dma (semAt cc0_scratch3 h j)
abbrev rsR (h : Fin 2) (j : Fin 16) : SemLoc sig := .dma (semAt cc0_scratch4 h j)
abbrev agS (h : Fin 2) (j : Fin 16) : SemLoc sig := .dma (semAt cc0_scratch5 h j)
abbrev agR (h : Fin 2) (j : Fin 16) : SemLoc sig := .dma (semAt cc0_scratch6 h j)
abbrev cel (c : Dev nD) (s : SemLoc sig) : GSem nD τ sig := ((c : Thread nD τ), s)

theorem semAt3 (h : Fin 2) (j : Fin 16) : (semAt cc0_scratch3 h j).val = 3 + 16 * h.val + j.val := by revert h j; decide
theorem semAt4 (h : Fin 2) (j : Fin 16) : (semAt cc0_scratch4 h j).val = 35 + 16 * h.val + j.val := by revert h j; decide
theorem semAt5 (h : Fin 2) (j : Fin 16) : (semAt cc0_scratch5 h j).val = 67 + 16 * h.val + j.val := by revert h j; decide
theorem semAt6 (h : Fin 2) (j : Fin 16) : (semAt cc0_scratch6 h j).val = 99 + 16 * h.val + j.val := by revert h j; decide

/-! ## What the protocol hands over -/

/-- Receive slot (h, j) of device d at contents f; -/
def slotPts (d : Dev nD) (h : Fin 2) (j : Fin 16) (f : Buf (Elt F) ((slotV h j).view.loc (d : Thread nD τ))) : sProp 𝕄 :=
  (slotV h j).view.loc (d : Thread nD τ) ↦[(slotV h j).view.set]{fullShare} f
/-- half h of device s's rows in device d's result buffer at contents f; -/
def outPts (d s : Dev nD) (h : Fin 2) (q : PosShare TreeShare) (f : Buf (Elt F) ((rowsV oM s h).view.loc (d : Thread nD τ))) : sProp 𝕄 :=
  (rowsV oM s h).view.loc (d : Thread nD τ) ↦[(rowsV oM s h).view.set]{q} f
/-- the source of device c's reduce-scatter copy number r of half h: rows of its partial product. -/
def srcPts (c : Dev nD) (r : Fin 15) (h : Fin 2) : sProp 𝕄 :=
  (srcV c r h).view.loc (c : Thread nD τ) ↦[(srcV c r h).view.set]{fullShare} (pbV m c)

/-- What the device j places ahead of c hands c with its unit on c's barrier: its two receive slots number j, the two
    halves of c's rows in its result buffer, and that the four cells c's copies to it will credit are open. -/
def barPay (c : Dev nD) (j : Fin 16) : sProp 𝕄 :=
  iprop((∃ f, slotPts (peer c j) 0 j f) ∗ (∃ f, slotPts (peer c j) 1 j f)
    ∗ (∃ f, outPts (peer c j) c 0 fullShare f) ∗ (∃ f, outPts (peer c j) c 1 fullShare f)
    ∗ reached ER (cel (peer c j) (rsR 0 j)) 0 ∗ reached ER (cel (peer c j) (rsR 1 j)) 0
    ∗ reached ER (cel (peer c j) (agR 0 j)) 0 ∗ reached ER (cel (peer c j) (agR 1 j)) 0)

/-- A landed reduce-scatter slot: the sender's rows. -/
def rsRPay (d : Dev nD) (h : Fin 2) (j : Fin 16) : sProp 𝕄 := slotPts d h j (rsFull m d)
/-- A landed all-gather block: the result's rows of the device j places behind. -/
def agRPay (d : Dev nD) (h : Fin 2) (j : Fin 16) : sProp 𝕄 := outPts d (frm d j) h fullShare (outFull m)

/-- A reduce-scatter copy's source back, whole; an all-gather copy's source back, at the share lent to it. -/
def rsSPay (c : Dev nD) (h : Fin 2) (j : Fin 16) : sProp 𝕄 :=
  if hj : j = 0 then iprop(emp) else srcPts m c ⟨j.val - 1, by have := j.isLt; have : j.val ≠ 0 := fun h0 => hj (Fin.ext h0); omega⟩ h
def agSPay (shr : Fin 16 → PosShare TreeShare) (c : Dev nD) (h : Fin 2) (j : Fin 16) : sProp 𝕄 := outPts c c h (shr j) (outFull m)

/-! ## The schedule -/

/-- Which of the kernel's semaphores a location is: the barrier, or one of the four arrays of thirty-two. -/
inductive Kind | bar | rsS | rsR | agS | agR | other
deriving DecidableEq

def kindOf : SemLoc sig → Kind
  | .reg s => if s = barS then .bar else .other
  | .dma q => if 3 ≤ q.val ∧ q.val < 35 then .rsS else if 35 ≤ q.val ∧ q.val < 67 then .rsR
      else if 67 ≤ q.val ∧ q.val < 99 then .agS else if 99 ≤ q.val ∧ q.val < 131 then .agR else .other
/-- Its half and its ring offset, for a semaphore of the four arrays. -/
def hOf : SemLoc sig → Fin 2
  | .reg _ => 0
  | .dma q => ⟨(q.val - 3) / 16 % 2, Nat.mod_lt _ (by decide)⟩
def jOf : SemLoc sig → Fin 16
  | .reg _ => 0
  | .dma q => ⟨(q.val - 3) % 16, Nat.mod_lt _ (by decide)⟩

/-- The credit of one 24 x 768 piece landing in the receive buffer, and in the result buffer. -/
abbrev NS : ℕ := (slotV 0 1).view.dmaCredit
abbrev NO : ℕ := (rowsV oM 0 0).view.dmaCredit
theorem NS_pos : 0 < NS := View.dmaCredit_pos _ (by decide)
theorem NO_pos : 0 < NO := View.dmaCredit_pos _ (by decide)

variable (shr : Fin 16 → PosShare TreeShare)

/-- One round, round 0. The barrier cell: fifteen duties of one unit, duty j paid by the device j places ahead. A cell
    (h, j), j ≠ 0, of the four arrays: one duty (named 0) of the piece's credit; the cells (h, 0) are never used. -/
def Rd : Rounds.Schedule (GSem nD τ sig) (Fin 16) 𝕄 where
  duties g r :=
    if r = 0 ∧ g.1.2 = .tc then
      (match kindOf g.2 with
        | .bar => Finset.univ.erase 0
        | .other => ∅
        | _ => if jOf g.2 = 0 then ∅ else {0})
    else ∅
  unitless _ := False
  amount g _ _ := match kindOf g.2 with
    | .bar => 1
    | .rsS => NS
    | .rsR => NS
    | .agS => NO
    | .agR => NO
    | .other => 1
  payload g _ d := match kindOf g.2 with
    | .bar => barPay g.1.1 d
    | .rsS => rsSPay m g.1.1 (hOf g.2) (jOf g.2)
    | .rsR => rsRPay m g.1.1 (hOf g.2) (jOf g.2)
    | .agS => agSPay m shr g.1.1 (hOf g.2) (jOf g.2)
    | .agR => agRPay m g.1.1 (hOf g.2) (jOf g.2)
    | .other => iprop(emp)
  amount_pos g _ _ _ := by
    cases kindOf g.2 <;> first | exact Nat.one_pos | exact NS_pos | exact NO_pos

/-! ## The schedule's tables, cell by cell -/

section Tables
variable (c : Dev nD) (h : Fin 2) (j : Fin 16)

theorem kind_bar : kindOf (.reg barS) = Kind.bar := by decide
theorem kind_rsS : kindOf (rsS h j) = .rsS := by revert h j; decide
theorem kind_rsR : kindOf (rsR h j) = .rsR := by revert h j; decide
theorem kind_agS : kindOf (agS h j) = .agS := by revert h j; decide
theorem kind_agR : kindOf (agR h j) = .agR := by revert h j; decide
theorem hOf_rsS : hOf (rsS h j) = h := by revert h j; decide
theorem hOf_rsR : hOf (rsR h j) = h := by revert h j; decide
theorem hOf_agS : hOf (agS h j) = h := by revert h j; decide
theorem hOf_agR : hOf (agR h j) = h := by revert h j; decide
theorem jOf_rsS : jOf (rsS h j) = j := by revert h j; decide
theorem jOf_rsR : jOf (rsR h j) = j := by revert h j; decide
theorem jOf_agS : jOf (agS h j) = j := by revert h j; decide
theorem jOf_agR : jOf (agR h j) = j := by revert h j; decide

theorem duties_bar : (Rd (F := F) m shr).duties (cel c (.reg barS)) 0 = Finset.univ.erase 0 := by
  dsimp only [Rd]; rw [if_pos ⟨rfl, rfl⟩, kind_bar]
theorem duties_rsS (hj : j ≠ 0) : (Rd (F := F) m shr).duties (cel c (rsS h j)) 0 = {0} := by
  dsimp only [Rd]; rw [if_pos ⟨rfl, rfl⟩, kind_rsS, jOf_rsS, if_neg hj]
theorem duties_rsR (hj : j ≠ 0) : (Rd (F := F) m shr).duties (cel c (rsR h j)) 0 = {0} := by
  dsimp only [Rd]; rw [if_pos ⟨rfl, rfl⟩, kind_rsR, jOf_rsR, if_neg hj]
theorem duties_agS (hj : j ≠ 0) : (Rd (F := F) m shr).duties (cel c (agS h j)) 0 = {0} := by
  dsimp only [Rd]; rw [if_pos ⟨rfl, rfl⟩, kind_agS, jOf_agS, if_neg hj]
theorem duties_agR (hj : j ≠ 0) : (Rd (F := F) m shr).duties (cel c (agR h j)) 0 = {0} := by
  dsimp only [Rd]; rw [if_pos ⟨rfl, rfl⟩, kind_agR, jOf_agR, if_neg hj]
theorem duties_later (g : GSem nD τ sig) : ∀ r, 1 ≤ r → (Rd (F := F) m shr).duties g r = ∅ :=
  fun r hr => by dsimp only [Rd]; rw [if_neg fun h => by omega]

theorem amount_bar (d : Fin 16) : (Rd (F := F) m shr).amount (cel c (.reg barS)) 0 d = 1 := by dsimp only [Rd]; rw [kind_bar]
theorem amount_rsS (d : Fin 16) : (Rd (F := F) m shr).amount (cel c (rsS h j)) 0 d = NS := by dsimp only [Rd]; rw [kind_rsS]
theorem amount_rsR (d : Fin 16) : (Rd (F := F) m shr).amount (cel c (rsR h j)) 0 d = NS := by dsimp only [Rd]; rw [kind_rsR]
theorem amount_agS (d : Fin 16) : (Rd (F := F) m shr).amount (cel c (agS h j)) 0 d = NO := by dsimp only [Rd]; rw [kind_agS]
theorem amount_agR (d : Fin 16) : (Rd (F := F) m shr).amount (cel c (agR h j)) 0 d = NO := by dsimp only [Rd]; rw [kind_agR]

theorem expect_bar : (Rd (F := F) m shr).expect (cel c (.reg barS)) 0 = 15 := by
  unfold Schedule.expect Schedule.amountOf
  rw [duties_bar, Finset.sum_congr rfl fun d _ => amount_bar m shr c d, Finset.sum_const, smul_eq_mul, mul_one]
  decide
theorem expect_rsS (hj : j ≠ 0) : (Rd (F := F) m shr).expect (cel c (rsS h j)) 0 = NS := by
  unfold Schedule.expect Schedule.amountOf; rw [duties_rsS m shr c h j hj, Finset.sum_singleton, amount_rsS]
theorem expect_rsR (hj : j ≠ 0) : (Rd (F := F) m shr).expect (cel c (rsR h j)) 0 = NS := by
  unfold Schedule.expect Schedule.amountOf; rw [duties_rsR m shr c h j hj, Finset.sum_singleton, amount_rsR]
theorem expect_agS (hj : j ≠ 0) : (Rd (F := F) m shr).expect (cel c (agS h j)) 0 = NO := by
  unfold Schedule.expect Schedule.amountOf; rw [duties_agS m shr c h j hj, Finset.sum_singleton, amount_agS]
theorem expect_agR (hj : j ≠ 0) : (Rd (F := F) m shr).expect (cel c (agR h j)) 0 = NO := by
  unfold Schedule.expect Schedule.amountOf; rw [duties_agR m shr c h j hj, Finset.sum_singleton, amount_agR]

theorem payload_bar (d : Fin 16) : (Rd (F := F) m shr).payload (cel c (.reg barS)) 0 d = barPay c d := by dsimp only [Rd]; rw [kind_bar]
theorem payload_rsS (d : Fin 16) : (Rd (F := F) m shr).payload (cel c (rsS h j)) 0 d = rsSPay m c h j := by
  dsimp only [Rd]; rw [kind_rsS, hOf_rsS, jOf_rsS]
theorem payload_rsR (d : Fin 16) : (Rd (F := F) m shr).payload (cel c (rsR h j)) 0 d = rsRPay m c h j := by
  dsimp only [Rd]; rw [kind_rsR, hOf_rsR, jOf_rsR]
theorem payload_agS (d : Fin 16) : (Rd (F := F) m shr).payload (cel c (agS h j)) 0 d = agSPay m shr c h j := by
  dsimp only [Rd]; rw [kind_agS, hOf_agS, jOf_agS]
theorem payload_agR (d : Fin 16) : (Rd (F := F) m shr).payload (cel c (agR h j)) 0 d = agRPay m c h j := by
  dsimp only [Rd]; rw [kind_agR, hOf_agR, jOf_agR]

end Tables

end Cert.Kernel.Pr

end
-- ==== Proof.Bits.Proto.lean ====
/-
  What a device's body starts from and ends with: the cells' invariants it opens, its positions on its own cells,
  the tokens of the duties it pays, the credit for what the others owe it; what it owes at launch, summed in the
  order it pays; the levels; and the pipeline's proof data.
-/
import proofs.«900888_g7700000000000889_dist_matmul_k_i_m768_n768_k384_v7x_i16_bf16_1_alg».proof.Proof.Bits.Sched

noncomputable section

namespace Cert.Kernel.Pr

open Cert.Kernel Cert.Kernel.Gen Cert.Kernel.Geo Cert.Kernel.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (shr : Fin 16 → PosShare TreeShare)

/-- A half and a copy number: the index of one copy of one of the two collectives. -/
abbrev HR : Type := Fin 2 × Fin 15

/-! ## What a device owes at launch, in the order it pays -/

/-- The barrier units still owed from signal number k on; -/
def owedBar (c : Dev nD) (k : ℕ) : CellTallies nD τ sig Unit :=
  ∑ r ∈ Finset.univ.filter (fun r : Fin 15 => k ≤ r.val), tallyAt (cel (peer c (off r)) (.reg barS)) () 1
/-- the reduce-scatter credits still owed from copy number k (k = 15 h + r) on; -/
def owedRS (c : Dev nD) (k : ℕ) : CellTallies nD τ sig Unit :=
  ∑ p ∈ Finset.univ.filter (fun p : HR => k ≤ 15 * p.1.val + p.2.val), tallyAt (cel (peer c (off p.2)) (rsR p.1 (off p.2))) () NS
/-- the all-gather credits still owed from copy number k on. -/
def owedAG (c : Dev nD) (k : ℕ) : CellTallies nD τ sig Unit :=
  ∑ p ∈ Finset.univ.filter (fun p : HR => k ≤ 15 * p.1.val + p.2.val), tallyAt (cel (peer c (off p.2)) (agR p.1 (off p.2))) () NO

/-- All a device owes at launch: a unit on every other device's barrier, the credit of every copy it will send. -/
def O₀ (c : Dev nD) : CellTallies nD τ sig Unit := owedAG c 0 + owedRS c 0 + owedBar c 0

/-! ## The levels: barrier cells below reduce-scatter receive cells below all-gather receive cells -/

def L (g : GSem nD τ sig) : Finset Unit := if g.1.2 = .tc then {()} else ∅
def lv (g : GSem nD τ sig) (_ : Unit) : ℕ := match kindOf g.2 with
  | .bar => 1
  | .rsR => 2
  | .agR => 3
  | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

variable (K : GSem nD τ sig → ℕ)

/-- The invariants of the cells device c touches: its own, the other devices' barriers, and the receive cells of
    the devices it copies to. -/
def invs (c : Dev nD) : sProp 𝕄 :=
  iprop(cellInv ER (Rd m shr) (K (cel c (.reg barS))) (cel c (.reg barS))
    ∗ (bigSep Finset.univ fun p : HR => iprop(
          cellInv ER (Rd m shr) (K (cel c (rsS p.1 (off p.2)))) (cel c (rsS p.1 (off p.2)))
        ∗ cellInv ER (Rd m shr) (K (cel c (rsR p.1 (off p.2)))) (cel c (rsR p.1 (off p.2)))
        ∗ cellInv ER (Rd m shr) (K (cel c (agS p.1 (off p.2)))) (cel c (agS p.1 (off p.2)))
        ∗ cellInv ER (Rd m shr) (K (cel c (agR p.1 (off p.2)))) (cel c (agR p.1 (off p.2)))))
    ∗ (bigSep Finset.univ fun r : Fin 15 => cellInv ER (Rd m shr) (K (cel (peer c (off r)) (.reg barS))) (cel (peer c (off r)) (.reg barS)))
    ∗ (bigSep Finset.univ fun p : HR => iprop(
          cellInv ER (Rd m shr) (K (cel (peer c (off p.2)) (rsR p.1 (off p.2)))) (cel (peer c (off p.2)) (rsR p.1 (off p.2)))
        ∗ cellInv ER (Rd m shr) (K (cel (peer c (off p.2)) (agR p.1 (off p.2)))) (cel (peer c (off p.2)) (agR p.1 (off p.2))))))

instance invs_persistent (c : Dev nD) : BI.Persistent (invs m shr K c) := by unfold invs; infer_instance

/-- Its positions: round 0 of each of its own cells, nothing taken. -/
def poss (c : Dev nD) : sProp 𝕄 :=
  iprop(atPos ER (cel c (.reg barS)) 0 ∅ 0
    ∗ bigSep Finset.univ fun p : HR => iprop(
          atPos ER (cel c (rsS p.1 (off p.2))) 0 ∅ 0 ∗ atPos ER (cel c (rsR p.1 (off p.2))) 0 ∅ 0
        ∗ atPos ER (cel c (agS p.1 (off p.2))) 0 ∅ 0 ∗ atPos ER (cel c (agR p.1 (off p.2))) 0 ∅ 0))

/-- That round 0 is open on every cell it pays or hands word of: its own and the addressed ones. -/
def opens (c : Dev nD) : sProp 𝕄 :=
  iprop((bigSep Finset.univ fun p : HR => iprop(
          reached ER (cel c (rsS p.1 (off p.2))) 0 ∗ reached ER (cel c (rsR p.1 (off p.2))) 0
        ∗ reached ER (cel c (agS p.1 (off p.2))) 0 ∗ reached ER (cel c (agR p.1 (off p.2))) 0))
    ∗ (bigSep Finset.univ fun r : Fin 15 => reached ER (cel (peer c (off r)) (.reg barS)) 0))

instance opens_persistent (c : Dev nD) : BI.Persistent (opens (F := F) c) := by unfold opens; infer_instance

/-- The tokens of the duties it pays: on each other device's barrier the duty that names it, on the addressed receive
    cells and on its own send cells the one duty. -/
def toks (c : Dev nD) : sProp 𝕄 :=
  iprop((bigSep Finset.univ fun r : Fin 15 => dutyTok ER (cel (peer c (off r)) (.reg barS)) 0 (neg (off r)))
    ∗ bigSep Finset.univ fun p : HR => iprop(
          dutyTok ER (cel (peer c (off p.2)) (rsR p.1 (off p.2))) 0 0 ∗ dutyTok ER (cel (peer c (off p.2)) (agR p.1 (off p.2))) 0 0
        ∗ dutyTok ER (cel c (rsS p.1 (off p.2))) 0 0 ∗ dutyTok ER (cel c (agS p.1 (off p.2))) 0 0))

def ghost (c : Dev nD) : sProp 𝕄 := iprop(invs m shr K c ∗ poss c ∗ opens c ∗ toks c)

/-- The credit for what the others owe its cells: fifteen units on its barrier, one piece on every receive cell. -/
def creds (c : Dev nD) : sProp 𝕄 :=
  iprop(cred (tallyAt (cel c (.reg barS)) () 15)
    ∗ bigSep Finset.univ fun p : HR => iprop(cred (tallyAt (cel c (rsR p.1 (off p.2))) () NS) ∗ cred (tallyAt (cel c (agR p.1 (off p.2))) () NO)))

/-- The eight semaphores (h, 0) nothing uses: at zero throughout. -/
def idle (c : Dev nD) : sProp 𝕄 :=
  bigSep Finset.univ fun h : Fin 2 => iprop(semVal (cel c (rsS h 0)) 0 ∗ semVal (cel c (rsR h 0)) 0 ∗ semVal (cel c (agS h 0)) 0 ∗ semVal (cel c (agR h 0)) 0)

/-- What the body starts from beside its buffers. -/
def start (c : Dev nD) : sProp 𝕄 := iprop((∃ K, ghost m shr K c) ∗ creds c ∗ idle c ∗ levAts L lv)

/-- The three scratch buffers, whole, at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Every one of the hundred and twenty-eight own semaphores back at zero. -/
def semsZero (c : Dev nD) : sProp 𝕄 :=
  iprop(idle c ∗ bigSep Finset.univ fun p : HR => iprop(
      semVal (cel c (rsS p.1 (off p.2))) 0 ∗ semVal (cel c (rsR p.1 (off p.2))) 0 ∗ semVal (cel c (agS p.1 (off p.2))) 0 ∗ semVal (cel c (agR p.1 (off p.2))) 0))

def Φ₀ (c : Dev nD) : sProp 𝕄 := iprop(start m shr c ∗ scratches c)
def Φ₁ (c : Dev nD) : sProp 𝕄 := iprop(scratches c ∗ semsZero c)

/-- The pipeline's proof data: the two inputs stay as fetched, the result's staging buffer ends at the whole result. -/
def dats (_ : Fin 1) (c : Dev nD) : Dat τ (Elt F) Unit ℕ UU ℕ cfg0 c where
  A w := m ((cfg0.win w).arr.view.loc (c : Thread nD τ))
  after w _ := match w with
    | ⟨0, _⟩ => aV m c
    | ⟨1, _⟩ => bV m c
    | ⟨2, _⟩ => outFull m
  Φ t := match t with
    | ⟨0, _⟩ => Φ₀ m shr c
    | ⟨_ + 1, _⟩ => Φ₁ c
  q _ := fullShare
  owed t := match t with
    | ⟨0, _⟩ => O₀ c
    | ⟨_ + 1, _⟩ => 0

end Cert.Kernel.Pr

end
-- ==== Proof.Bits.Plumb.lean ====
/-
  Cutting a device's buffers into the pieces the protocol moves: a points-to over a union of pairwise
  disjoint index sets is the separating product of the points-tos over the sets; the index sets of the
  views (a block of twenty-four rows, a receive slot) in closed form; the thirty-two row blocks partition
  a 768 x 768 buffer and the thirty-two slots partition the receive buffer; the full share cut into
  fifteen shares.
-/
import proofs.«900888_g7700000000000889_dist_matmul_k_i_m768_n768_k384_v7x_i16_bf16_1_alg».proof.Proof.Bits.Views
import Idealize.ShloMosaic.Rules.PointsTo

noncomputable section

namespace Cert.Kernel.Pr

open Cert.Kernel Cert.Kernel.Gen Cert.Kernel.Geo Cert.Kernel.Vals
open Idealize.ShloMosaic Idealize.ShloMosaic.TcCoe
open Idealize.SL
open Idealize.SL.RA Idealize.SL.Sem
open Idealize.SL.BI (sProp bigSep bigSep_insert bigSep_mono bigSep_empty bigSep_congr bigSep_map)
open scoped Idealize.SL.BI
open Idealize.SL.BI.BIBase Idealize.SL.BI.Laws

variable {F : FTy → Type} [FloatOps F]

/-! ## A points-to over a disjoint union -/

section Generic
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {q : PosShare TreeShare} {f : Buf Val ℓ}

/-- Along a finite family of pairwise disjoint index sets. -/
theorem pointsTo_biUnion {α : Type} [DecidableEq α] (S : Finset α) (I : α → Finset (Idx ℓ))
    (hd : ∀ a ∈ S, ∀ b ∈ S, a ≠ b → Disjoint (I a) (I b)) :
    (ℓ ↦[S.biUnion I]{q} f : sProp 𝕄) ⊣⊢ bigSep S (fun a => ℓ ↦[I a]{q} f) :=
  BiEntails.of_eq (Idealize.ShloMosaic.pointsTo_biUnion S I hd)

/-- A whole buffer along a finite family of pairwise disjoint index sets that covers every index. -/
theorem pointsTo_cover {α : Type} [Fintype α] [DecidableEq α] (K : α → Finset (Idx ℓ))
    (hc : ∀ i : Idx ℓ, ∃ a, i ∈ K a)
    (hd : ∀ a b : α, a ≠ b → Disjoint (K a) (K b)) :
    (ℓ ↦{q} f : sProp 𝕄) ⊣⊢ bigSep Finset.univ (fun a => ℓ ↦[K a]{q} f) := by
  have e : (Finset.univ : Finset (Idx ℓ)) = Finset.univ.biUnion K := by
    ext i
    simp only [Finset.mem_univ, Finset.mem_biUnion, true_and, true_iff]
    exact hc i
  rw [e]
  exact pointsTo_biUnion Finset.univ K fun a _ b _ h => hd a b h

end Generic

/-! ## The index sets of the views -/

/-- A rectangle of twenty-four whole rows of the 768 x 768 shape from row R: its indices. -/
theorem unit_rows_set (off : Fin 2 → Nat) (inb : ∀ a, off a + S24x768.size a ≤ S768x768.size a) (R : Nat)
    (h0 : off 0 = R) (h1 : off 1 = 0) :
    (Rect.unit (s := S768x768) off S24x768.size inb).set
      = Finset.univ.filter fun i : S768x768.Idx => R ≤ (i 0).val ∧ (i 0).val < R + 24 := by
  ext i
  rw [Rect.mem_set_unit]
  simp only [Finset.mem_filter, Finset.mem_univ, true_and]
  have c1 : (i 1).val < 768 := (i 1).isLt
  constructor
  · intro H
    have a : off 0 ≤ (i 0).val ∧ (i 0).val < off 0 + 24 := H 0
    omega
  · intro H
    refine Fin.forall_fin_two.mpr ⟨?_, ?_⟩
    · show off 0 ≤ (i 0).val ∧ (i 0).val < off 0 + 24
      omega
    · show off 1 ≤ (i 1).val ∧ (i 1).val < off 1 + 768
      omega

theorem rowsSet_eq (s : Dev nD) (h : Fin 2) :
    rowsSet s h = Finset.univ.filter fun i : S768x768.Idx =>
      s.val * 48 + 24 * h.val ≤ (i 0).val ∧ (i 0).val < s.val * 48 + 24 * h.val + 24 := rfl

/-- Half h of device s's rows, through the result's staging buffer, -/
theorem rowsV_set_oM (s : Dev nD) (h : Fin 2) : (rowsV oM s h).view.set = rowsSet s h :=
  (View.set_slice_whole cc0_stg2_0 _).trans (unit_rows_set _ _ _ (Geo.off3_row s h) (Geo.off3_col s h))

/-- and through the partial product's buffer. -/
theorem rowsV_set_pbM (s : Dev nD) (h : Fin 2) : (rowsV pbM s h).view.set = rowsSet s h :=
  (View.set_slice_whole cc0_scratch0 _).trans (unit_rows_set _ _ _ (Geo.off3_row s h) (Geo.off3_col s h))

/-- What a load or a store through the own-row rectangle touches, on either buffer. -/
theorem ownRect_set (s : Dev nD) (h : Fin 2) : (ownRect s h).set = rowsSet s h :=
  unit_rows_set _ _ _ (Geo.off2_row s h) (Geo.off2_col s h)

theorem ownRect_set_oM (s : Dev nD) (h : Fin 2) : (oM.access (ownRect s h)).set = rowsSet s h :=
  (View.set_slice_whole cc0_stg2_0 _).trans (ownRect_set s h)

theorem ownRect_set_pbM (s : Dev nD) (h : Fin 2) : (pbM.access (ownRect s h)).set = rowsSet s h :=
  (View.set_slice_whole cc0_scratch0 _).trans (ownRect_set s h)

/-- The source of device c's copy number r: the rows of the device 1 + r places ahead. -/
theorem srcV_set (c : Dev nD) (r : Fin 15) (h : Fin 2) : (srcV c r h).view.set = rowsSet (peer c (off r)) h :=
  (View.set_slice_whole cc0_scratch0 _).trans (unit_rows_set _ _ _ (Geo.off1_row c r h) (Geo.off1_col c r h))

/-- The rectangle of receive slot (h, j): its indices. -/
theorem unit_slot_set (h : Fin 2) (j : Fin 16) :
    (Rect.unit (s := S2x16x24x768) ![h.val, j.val, 0, 0] S1x1x24x768.size (slot_inb h j)).set = slotSet h j := by
  ext z
  rw [Rect.mem_set_unit]
  simp only [slotSet, Finset.mem_filter, Finset.mem_univ, true_and]
  have c2 : (z 2).val < 24 := (z 2).isLt
  have c3 : (z 3).val < 768 := (z 3).isLt
  constructor
  · intro H
    have a0 : h.val ≤ (z 0).val ∧ (z 0).val < h.val + 1 := H 0
    have a1 : j.val ≤ (z 1).val ∧ (z 1).val < j.val + 1 := H 1
    omega
  · intro H
    refine Fin.forall_fin_succ.mpr ⟨?_, Fin.forall_fin_succ.mpr ⟨?_, Fin.forall_fin_two.mpr ⟨?_, ?_⟩⟩⟩
    · show h.val ≤ (z 0).val ∧ (z 0).val < h.val + 1
      omega
    · show j.val ≤ (z 1).val ∧ (z 1).val < j.val + 1
      omega
    · show 0 ≤ (z 2).val ∧ (z 2).val < 0 + 24
      omega
    · show 0 ≤ (z 3).val ∧ (z 3).val < 0 + 768
      omega

/-- Receive slot (h, j). -/
theorem slotV_set (h : Fin 2) (j : Fin 16) : (slotV h j).view.set = slotSet h j :=
  (View.set_reshape _ _).trans ((View.set_slice_whole cc0_scratch2 _).trans (unit_slot_set h j))

/-! ## The row blocks partition the 768 x 768 indices, the slots partition the receive buffer's -/

theorem mem_rowsSet {s : Dev nD} {h : Fin 2} {i : S768x768.Idx} :
    i ∈ rowsSet s h ↔ s.val * 48 + 24 * h.val ≤ (i 0).val ∧ (i 0).val < s.val * 48 + 24 * h.val + 24 := by
  simp only [rowsSet, Finset.mem_filter, Finset.mem_univ, true_and]

theorem mem_slotSet {h : Fin 2} {j : Fin 16} {z : S2x16x24x768.Idx} :
    z ∈ slotSet h j ↔ (z 0).val = h.val ∧ (z 1).val = j.val := by
  simp only [slotSet, Finset.mem_filter, Finset.mem_univ, true_and]

/-- Every index lies in the row block of the device and half its row names. -/
theorem rows_cover_mem (i : S768x768.Idx) : ∃ p : Dev nD × Fin 2, i ∈ rowsSet p.1 p.2 := by
  have h0 : (i 0).val < 768 := (i 0).isLt
  refine ⟨(⟨(i 0).val / 48, by show _ < 16; omega⟩, ⟨(i 0).val % 48 / 24, by omega⟩), mem_rowsSet.mpr ?_⟩
  show (i 0).val / 48 * 48 + 24 * ((i 0).val % 48 / 24) ≤ (i 0).val ∧ (i 0).val < (i 0).val / 48 * 48 + 24 * ((i 0).val % 48 / 24) + 24
  omega

theorem rows_cover :
    (Finset.univ : Finset S768x768.Idx) = (Finset.univ : Finset (Dev nD × Fin 2)).biUnion (fun p => rowsSet p.1 p.2) := by
  ext i
  simp only [Finset.mem_univ, Finset.mem_biUnion, true_and, true_iff]
  exact rows_cover_mem i

theorem rows_disjoint (p p' : Dev nD × Fin 2) (h : p ≠ p') : Disjoint (rowsSet p.1 p.2) (rowsSet p'.1 p'.2) := by
  refine Finset.disjoint_left.mpr fun i hi hi' => ?_
  have a := mem_rowsSet.mp hi
  have b := mem_rowsSet.mp hi'
  have c := Geo.rows_disjoint p.1 p'.1 p.2 p'.2 (fun e => h (Prod.ext e.1 e.2))
  omega

/-- Every index of the receive buffer lies in the slot its first two coordinates name. -/
theorem slots_cover_mem (z : S2x16x24x768.Idx) : ∃ p : Fin 2 × Fin 16, z ∈ slotSet p.1 p.2 :=
  ⟨(⟨(z 0).val, (z 0).isLt⟩, ⟨(z 1).val, (z 1).isLt⟩), mem_slotSet.mpr ⟨rfl, rfl⟩⟩

theorem slots_cover :
    (Finset.univ : Finset S2x16x24x768.Idx) = (Finset.univ : Finset (Fin 2 × Fin 16)).biUnion (fun p => slotSet p.1 p.2) := by
  ext z
  simp only [Finset.mem_univ, Finset.mem_biUnion, true_and, true_iff]
  exact slots_cover_mem z

theorem slots_disjoint (p p' : Fin 2 × Fin 16) (h : p ≠ p') : Disjoint (slotSet p.1 p.2) (slotSet p'.1 p'.2) := by
  refine Finset.disjoint_left.mpr fun z hz hz' => ?_
  have a := mem_slotSet.mp hz
  have b := mem_slotSet.mp hz'
  exact h (Prod.ext (Fin.ext (a.1.symm.trans b.1)) (Fin.ext (a.2.symm.trans b.2)))

section Whole
variable {Ix : Type} [DecidableEq Ix]
variable {Val : EltTy → Type} {Name : Type} [DecidableEq Name]
variable {U : Type} [URA U]
variable {Lvl : Type}
local notation "𝕄" => MT nD τ sig Ix Val Name U Lvl

variable {q : PosShare TreeShare}

/-- A whole 768 x 768 buffer of device d (the result's staging buffer) is its thirty-two row blocks. -/
theorem whole_rows_oM (d : Dev nD) (f : Buf Val ((d : Thread nD τ).loc cc0_stg2_0)) :
    (((d : Thread nD τ).loc cc0_stg2_0) ↦{q} f : sProp 𝕄)
      ⊣⊢ bigSep Finset.univ (fun p : Dev nD × Fin 2 => ((d : Thread nD τ).loc cc0_stg2_0) ↦[rowsSet p.1 p.2]{q} f) :=
  pointsTo_cover (ℓ := (d : Thread nD τ).loc cc0_stg2_0) (q := q) (f := f) (α := Dev nD × Fin 2)
    (fun p : Dev nD × Fin 2 => rowsSet p.1 p.2) rows_cover_mem rows_disjoint

/-- The same for the partial product's buffer. -/
theorem whole_rows_pbM (d : Dev nD) (f : Buf Val ((d : Thread nD τ).loc cc0_scratch0)) :
    (((d : Thread nD τ).loc cc0_scratch0) ↦{q} f : sProp 𝕄)
      ⊣⊢ bigSep Finset.univ (fun p : Dev nD × Fin 2 => ((d : Thread nD τ).loc cc0_scratch0) ↦[rowsSet p.1 p.2]{q} f) :=
  pointsTo_cover (ℓ := (d : Thread nD τ).loc cc0_scratch0) (q := q) (f := f) (α := Dev nD × Fin 2)
    (fun p : Dev nD × Fin 2 => rowsSet p.1 p.2) rows_cover_mem rows_disjoint

/-- The receive buffer of device d is its thirty-two slots. -/
theorem whole_slots (d : Dev nD) (f : Buf Val ((d : Thread nD τ).loc cc0_scratch2)) :
    (((d : Thread nD τ).loc cc0_scratch2) ↦{q} f : sProp 𝕄)
      ⊣⊢ bigSep Finset.univ (fun p : Fin 2 × Fin 16 => ((d : Thread nD τ).loc cc0_scratch2) ↦[slotSet p.1 p.2]{q} f) :=
  pointsTo_cover (ℓ := (d : Thread nD τ).loc cc0_scratch2) (q := q) (f := f) (α := Fin 2 × Fin 16)
    (fun p : Fin 2 × Fin 16 => slotSet p.1 p.2) slots_cover_mem slots_disjoint

end Whole

/-! ## The full share in fifteen -/

/-- A share cut in n + 1: its left half, then the left half of what remains, and so on; the last is what remains. -/
def shrFrom : (n : Nat) → PosShare TreeShare → Fin (n + 1) → PosShare TreeShare
  | 0, q, _ => q
  | n + 1, q, r => Fin.cases q.left (shrFrom n q.right) r

/-- The fifteen shares the full share is cut into. -/
def shr : Fin 15 → PosShare TreeShare := shrFrom 14 fullShare

section Shares
variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

variable {ℓ : Loc nD τ sig} {I : Finset (Idx ℓ)} {f : Buf Val ℓ}

theorem bigSep_fin_succ {M : Type _} [URA M] (n : Nat) (Φ : Fin (n + 1) → sProp M) :
    bigSep Finset.univ Φ = iprop(Φ 0 ∗ bigSep Finset.univ (fun r : Fin n => Φ r.succ)) := by
  rw [Fin.univ_succ, Finset.cons_eq_insert, bigSep_insert (by simp)]
  congr 1
  exact bigSep_map ⟨Fin.succ, Fin.succ_injective n⟩

theorem pointsTo_shrFrom (n : Nat) (q : PosShare TreeShare) :
    (ℓ ↦[I]{q} f : sProp 𝕄) ⊣⊢ bigSep Finset.univ (fun r : Fin (n + 1) => ℓ ↦[I]{shrFrom n q r} f) := by
  induction n generalizing q with
  | zero =>
    rw [BI.bigSep_univ_of_subsingleton (0 : Fin 1)]
    exact .rfl
  | succ n ih =>
    rw [bigSep_fin_succ]
    refine (pointsTo_share (PosShare.mem_left_op_right q)).trans ?_
    rw [BI.equiv_iff.mp ⟨(ih q.right).1, (ih q.right).2⟩]
    exact .rfl

theorem pointsTo_shr :
    (ℓ ↦[I]{fullShare} f : sProp 𝕄) ⊣⊢ bigSep Finset.univ (fun r : Fin 15 => ℓ ↦[I]{shr r} f) :=
  pointsTo_shrFrom 14 fullShare

end Shares

end Cert.Kernel.Pr

end
-- ==== Proof.Bits.Shares.lean ====
/-
  The shares at which a device lends its own rows of the result to its fifteen all-gather copies: copy 1 + r gets
  share number r of a cut of the whole into fifteen.
-/
import proofs.«900888_g7700000000000889_dist_matmul_k_i_m768_n768_k384_v7x_i16_bf16_1_alg».proof.Proof.Bits.Plumb

noncomputable section

namespace Cert.Kernel.Pr

open Cert.Kernel Cert.Kernel.Vals
open Idealize.ShloMosaic Idealize.SL.RA

/-- The share lent to the all-gather copy with ring offset j (offset 0 names no copy). -/
def shrF : Fin 16 → PosShare TreeShare := fun j => if h : j = 0 then fullShare else shr ⟨j.val - 1, by have := j.isLt; have : j.val ≠ 0 := fun h0 => h (Fin.ext h0); omega⟩

theorem shrF_off (r : Fin 15) : shrF (off r) = shr r := by
  unfold shrF
  rw [dif_neg (fun h0 => by have := congrArg Fin.val h0; simp [off] at this)]
  congr 1
  exact Fin.ext (by simp [off])

end Cert.Kernel.Pr

end
-- ==== Proof.Bits.Launch.lean ====
/-
  The launch. With every device's body proved, the program's run follows by one application of the pipeline
  library's launch theorem for devices that owe units at launch and meet on the runtime's barrier semaphore. The
  kernel's own hundred and twenty-eight DMA semaphores and the barrier semaphore of every device are taken at
  zero under one update: the invariants of the cells in use are allocated, the eight semaphores nothing uses stay
  at zero, and the duty tokens minted on a device's cells are dealt round the ring to the devices that pay them.
  What the other devices owe a device's cells at launch is its credit. The pipeline's waits on its staging cells
  sit at level 0, below every cell a device owes. The final arrays are read off the pipeline's proof data: the
  inputs as launched, the result the one block written back at the one point.
-/
import proofs.«900888_g7700000000000889_dist_matmul_k_i_m768_n768_k384_v7x_i16_bf16_1_alg».proof.Proof.Bits.Proto
import proofs.«900888_g7700000000000889_dist_matmul_k_i_m768_n768_k384_v7x_i16_bf16_1_alg».proof.Proof.Bits.Shares
import proofs.«900888_g7700000000000889_dist_matmul_k_i_m768_n768_k384_v7x_i16_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Pr

open Cert.Kernel Cert.Kernel.Gen Cert.Kernel.Geo Cert.Kernel.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The kernel's own semaphores: four arrays of thirty-two -/

/-- Semaphore (h, j) of array a: the reduce-scatter's send and receive arrays, then the all-gather's. -/
def semK (a : Fin 4) (h : Fin 2) (j : Fin 16) : SemLoc sig := match a with
  | 0 => rsS h j
  | 1 => rsR h j
  | 2 => agS h j
  | 3 => agR h j

abbrev OK : Type := Fin 4 × Fin 2 × Fin 16
abbrev osem : OK → SemLoc sig := fun k => semK k.1 k.2.1 k.2.2

/-- The number of a DMA semaphore (0 for a regular one): array a's semaphore (h, j) is number 3 + 32 a + 16 h + j. -/
def semNo : SemLoc sig → ℕ
  | .reg _ => 0
  | .dma q => q.val

theorem semNo_semK (a : Fin 4) (h : Fin 2) (j : Fin 16) : semNo (semK a h j) = 3 + 32 * a.val + 16 * h.val + j.val := by
  revert a h j; decide

theorem semK_ne_bar (a : Fin 4) (h : Fin 2) (j : Fin 16) : semK a h j ≠ .reg barS := by
  revert a h j; decide

theorem semK_inj {a a' : Fin 4} {h h' : Fin 2} {j j' : Fin 16} (e : semK a h j = semK a' h' j') : a = a' ∧ h = h' ∧ j = j' := by
  have e' := congrArg semNo e
  rw [semNo_semK, semNo_semK] at e'
  have := h.isLt; have := h'.isLt; have := j.isLt; have := j'.isLt
  exact ⟨Fin.ext (by omega), Fin.ext (by omega), Fin.ext (by omega)⟩

theorem off_inj {r r' : Fin 15} (e : off r = off r') : r = r' := by
  have e' : 1 + r.val = 1 + r'.val := congrArg Fin.val e
  exact Fin.ext (by omega)

theorem ownSemFacts : Pipeline.OwnSemFacts cfg0.spec osem :=
  ⟨fun ⟨a, h, j⟩ => by revert a h j; decide,
   fun ⟨a, h, j⟩ ⟨a', h', j'⟩ e => by obtain ⟨ha, hh, hj⟩ := semK_inj e; exact Prod.ext ha (Prod.ext hh hj),
   fun ⟨a, h, j⟩ w s => by revert a h j w s; decide⟩

theorem share_eq (c : Dev nD) (w : Fin cfg0.W) : (dats m shrF 0 c).share w = fullShare := by unfold Dat.share; split <;> rfl

/-! ## The protocol's cells and the tokens minted on them -/

/-- A device's cells in use: its barrier cell, and cell (h, 1 + r) of each of the four arrays. -/
abbrev CK : Type := Unit ⊕ (Fin 4 × HR)
def csem : CK → SemLoc sig
  | .inl _ => .reg barS
  | .inr ap => semK ap.1 ap.2.1 (off ap.2.2)
abbrev kcell (ck : Dev nD × CK) : GSem nD τ sig := cel ck.1 (csem ck.2)

theorem kcell_injective : Function.Injective (kcell : Dev nD × CK → GSem nD τ sig) := by
  rintro ⟨c, k⟩ ⟨c', k'⟩ e
  have h1 : c = c' := by have := congrArg (fun g : GSem nD τ sig => g.1.1) e; exact this
  subst h1
  have h2 : csem k = csem k' := congrArg Prod.snd e
  rcases k with u | ⟨a, h, r⟩ <;> rcases k' with u' | ⟨a', h', r'⟩
  · rfl
  · exact absurd h2.symm (semK_ne_bar _ _ _)
  · exact absurd h2 (semK_ne_bar _ _ _)
  · obtain ⟨ha, hh, hr⟩ : a = a' ∧ h = h' ∧ off r = off r' := semK_inj h2
    rw [ha, hh, off_inj hr]
def ringCells : Finset (GSem nD τ sig) := Finset.univ.map ⟨kcell, kcell_injective⟩

/-- The duties of a device's cells: on its barrier cell the fifteen offsets 1 + r, on each cell of the arrays the one duty. -/
abbrev TK : Type := Fin 15 ⊕ (Fin 4 × HR)
def tokOf (cj : Dev nD × TK) : GSem nD τ sig × ℕ × Fin 16 := match cj.2 with
  | .inl r => (cel cj.1 (.reg barS), 0, off r)
  | .inr ap => (cel cj.1 (semK ap.1 ap.2.1 (off ap.2.2)), 0, 0)
theorem tokOf_injective : Function.Injective (tokOf : Dev nD × TK → GSem nD τ sig × ℕ × Fin 16) := by
  rintro ⟨c, t⟩ ⟨c', t'⟩ e
  have h1 : c = c' := by
    have := congrArg (fun x : GSem nD τ sig × ℕ × Fin 16 => x.1.1.1) e
    rcases t with r | ap <;> rcases t' with r' | ap' <;> exact this
  subst h1
  rcases t with r | ⟨a, h, r⟩ <;> rcases t' with r' | ⟨a', h', r'⟩
  · have h3 : off r = off r' := congrArg (fun x : GSem nD τ sig × ℕ × Fin 16 => x.2.2) e
    rw [off_inj h3]
  · have h2 : (SemLoc.reg barS : SemLoc sig) = semK a' h' (off r') := congrArg (fun x : GSem nD τ sig × ℕ × Fin 16 => x.1.2) e
    exact absurd h2.symm (semK_ne_bar _ _ _)
  · have h2 : semK a h (off r) = (SemLoc.reg barS : SemLoc sig) := congrArg (fun x : GSem nD τ sig × ℕ × Fin 16 => x.1.2) e
    exact absurd h2 (semK_ne_bar _ _ _)
  · have h2 : semK a h (off r) = semK a' h' (off r') := congrArg (fun x : GSem nD τ sig × ℕ × Fin 16 => x.1.2) e
    obtain ⟨ha, hh, hr⟩ := semK_inj h2
    rw [ha, hh, off_inj hr]
def ringToks : Finset (GSem nD τ sig × ℕ × Fin 16) := Finset.univ.map ⟨tokOf, tokOf_injective⟩

/-! ## Every payload of the schedule may be stored in an invariant: points-tos and round facts -/

instance slotPts_storable (d : Dev nD) (h : Fin 2) (j : Fin 16) (f : Buf (Elt F) ((slotV h j).view.loc (d : Thread nD τ))) :
    BI.Storable (upEmb : UEmb _ 𝕄) (slotPts (F := F) d h j f) := by unfold slotPts; infer_instance
instance outPts_storable (d s : Dev nD) (h : Fin 2) (q : PosShare TreeShare) (f : Buf (Elt F) ((rowsV oM s h).view.loc (d : Thread nD τ))) :
    BI.Storable (upEmb : UEmb _ 𝕄) (outPts (F := F) d s h q f) := by unfold outPts; infer_instance
instance srcPts_storable (c : Dev nD) (r : Fin 15) (h : Fin 2) :
    BI.Storable (upEmb : UEmb _ 𝕄) (srcPts m c r h) := by unfold srcPts; infer_instance
instance barPay_storable (c : Dev nD) (j : Fin 16) : BI.Storable (upEmb : UEmb _ 𝕄) (barPay (F := F) c j) := by
  unfold barPay; infer_instance
instance rsSPay_storable (c : Dev nD) (h : Fin 2) (j : Fin 16) : BI.Storable (upEmb : UEmb _ 𝕄) (rsSPay m c h j) := by
  unfold rsSPay; split <;> infer_instance
instance rsRPay_storable (d : Dev nD) (h : Fin 2) (j : Fin 16) : BI.Storable (upEmb : UEmb _ 𝕄) (rsRPay m d h j) := by
  unfold rsRPay; infer_instance
instance agRPay_storable (d : Dev nD) (h : Fin 2) (j : Fin 16) : BI.Storable (upEmb : UEmb _ 𝕄) (agRPay m d h j) := by
  unfold agRPay; infer_instance
instance agSPay_storable (shr : Fin 16 → PosShare TreeShare) (c : Dev nD) (h : Fin 2) (j : Fin 16) :
    BI.Storable (upEmb : UEmb _ 𝕄) (agSPay m shr c h j) := by unfold agSPay; infer_instance

instance Rd_payload_storable (shr : Fin 16 → PosShare TreeShare) (g : GSem nD τ sig) (r : ℕ) (d : Fin 16) :
    BI.Storable (upEmb : UEmb _ 𝕄) ((Rd (F := F) m shr).payload g r d) := by
  dsimp only [Rd]
  split <;> infer_instance

/-! ## Products over the semaphores, regrouped -/

/-- Cell (h, j) of each of the four arrays under a predicate of the semaphore. -/
def quad (Φ : SemLoc sig → sProp 𝕄) (h : Fin 2) (j : Fin 16) : sProp 𝕄 :=
  iprop(Φ (rsS h j) ∗ Φ (rsR h j) ∗ Φ (agS h j) ∗ Φ (agR h j))

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Sixteen offsets: offset 0, then the fifteen offsets 1 + r. -/
theorem bigSep_sixteen (Φ : Fin 16 → sProp 𝕄) : bigSep Finset.univ Φ = iprop(Φ 0 ∗ bigSep Finset.univ fun r : Fin 15 => Φ (off r)) := by
  rw [bigSep_fin_succ 15 Φ]
  congr 1

omit [FloatOps F] in
/-- Array by array over the cells in use is (half, copy) by (half, copy) over the four cells. -/
theorem bigSep_dma (Φ : SemLoc sig → sProp 𝕄) :
    bigSep Finset.univ (fun ap : Fin 4 × HR => Φ (semK ap.1 ap.2.1 (off ap.2.2))) = bigSep Finset.univ fun p : HR => quad Φ p.1 (off p.2) := by
  rw [bigSep_univ_equiv (Equiv.prodComm HR (Fin 4)) (fun ap : Fin 4 × HR => Φ (semK ap.1 ap.2.1 (off ap.2.2))), bigSep_univ_prod]
  exact bigSep_congr fun p _ => by rw [bigSep_fin4]; rfl

omit [FloatOps F] in
/-- A device's cells in use: its barrier cell, then the four cells of every (half, copy). -/
theorem bigSep_csem (Φ : SemLoc sig → sProp 𝕄) :
    bigSep Finset.univ (fun k : CK => Φ (csem k)) = iprop(Φ (.reg barS) ∗ bigSep Finset.univ fun p : HR => quad Φ p.1 (off p.2)) := by
  rw [bigSep_univ_sum, bigSep_univ_of_subsingleton (), ← bigSep_dma Φ]
  rfl

omit [FloatOps F] in
/-- All hundred and twenty-eight: the eight cells (h, 0), then the four cells of every (half, copy). -/
theorem bigSep_osem (Φ : SemLoc sig → sProp 𝕄) :
    bigSep Finset.univ (fun k : OK => Φ (osem k))
      = iprop((bigSep Finset.univ fun h : Fin 2 => quad Φ h 0) ∗ bigSep Finset.univ fun p : HR => quad Φ p.1 (off p.2)) := by
  have e1 : bigSep Finset.univ (fun k : OK => Φ (osem k)) = bigSep Finset.univ fun hj : Fin 2 × Fin 16 => quad Φ hj.1 hj.2 := by
    rw [bigSep_univ_equiv (Equiv.prodComm (Fin 2 × Fin 16) (Fin 4)) (fun k : OK => Φ (osem k)), bigSep_univ_prod]
    exact bigSep_congr fun hj _ => by rw [bigSep_fin4]; rfl
  rw [e1, bigSep_univ_prod (fun hj : Fin 2 × Fin 16 => quad Φ hj.1 hj.2),
    bigSep_congr (s := Finset.univ) (fun (h : Fin 2) _ => bigSep_sixteen (fun j => quad Φ h j)), bigSep_sep',
    ← bigSep_univ_prod (fun p : HR => quad Φ p.1 (off p.2))]

omit [FloatOps F] in
/-- The kernel's own semaphores at zero are all of them at zero, as the body leaves them. -/
theorem ownSems0_eq (c : Dev nD) :
    (Pipeline.ownSems0 (Ix := Unit) (Name := ℕ) (U := UU) (Lvl := ℕ) (Val := Elt F) (τ := τ) osem c : sProp 𝕄) = semsZero c := by
  unfold Pipeline.ownSems0
  rw [bigSep_osem (fun s => semVal (cel c s) 0)]
  rfl

omit [FloatOps F] in
/-- the barrier semaphore the launch's one unscoped semaphore. -/
theorem unscopedSems0_eq (c : Dev nD) : (unscopedSems0 c : sProp 𝕄) = semVal (cel c (.reg barS)) 0 := by
  unfold unscopedSems0; rw [bigSep_eq_bigSepL_of_eq [SemLoc.reg barS] (by decide) (by decide)]; rfl

/-- The launch element: the pipeline's at its staging cells beside the protocol's at its cells. -/
def u₀ : UU :=
  (initOf (Pipeline.cells cfgs cellOf_inj) (Pipeline.launchToks cfgs cellOf_inj), initOf ringCells ringToks)

/-- The tokens minted on device c's own cells. -/
def mint (c : Dev nD) : sProp 𝕄 :=
  iprop((bigSep Finset.univ fun r : Fin 15 => dutyTok ER (cel c (.reg barS)) 0 (off r))
    ∗ bigSep Finset.univ fun ap : Fin 4 × HR => dutyTok ER (cel c (semK ap.1 ap.2.1 (off ap.2.2))) 0 0)

/-- What the launch element deals device c: its cells' round states, its positions, round 0 open, its cells' tokens. -/
def G (c : Dev nD) : sProp 𝕄 :=
  iprop((bigSep Finset.univ fun k : CK => roundState ER (Rd m shrF) (kcell (c, k)) 0)
    ∗ (bigSep Finset.univ fun k : CK => iprop(atPos ER (kcell (c, k)) 0 ∅ 0 ∗ reached ER (kcell (c, k)) 0)) ∗ mint c)

/-- What the global step makes of it: the ghost state the body starts from, and the eight idle semaphores at zero. -/
def G' (c : Dev nD) : sProp 𝕄 := iprop((∃ K, ghost m shrF K c) ∗ idle c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => mint c := by
    unfold ringToks; rw [bigSep_map, bigSep_univ_prod]
    exact bigSep_congr fun c _ => by unfold mint; rw [bigSep_univ_sum]; rfl
  iintro HX
  imod (Rounds.fund ER (Rd m shrF) ringCells ringToks) $$ HX with ⟨Hst, Hr, Hat, Htok⟩
  imodintro
  ihave Hst' := (Entails.of_eq (hX fun g => roundState ER (Rd m shrF) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the cells' invariants allocated, the tokens dealt round the ring -/

omit [FloatOps F] in
/-- A device's semaphores at zero: those of its cells in use, and the eight idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CK => (semVal (kcell (c, k)) 0 : sProp 𝕄)) ∗ idle c) := by
  have e : (bigSep Finset.univ fun k : CK => (semVal (kcell (c, k)) 0 : sProp 𝕄))
      = iprop(semVal (cel c (.reg barS)) 0 ∗ bigSep Finset.univ fun p : HR => quad (fun s => semVal (cel c s) 0) p.1 (off p.2)) :=
    bigSep_csem (fun s => semVal (cel c s) 0)
  rw [ownSems0_eq, unscopedSems0_eq, e]
  unfold semsZero
  iintro ⟨⟨Hi, Hq⟩, Hb⟩
  isplitr [Hi]
  · isplitl [Hb]; · iexact Hb
    iexact Hq
  · iexact Hi

/-- One device: its cells' counters at zero and their round states make their invariants, at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m shrF) κ (kcell (c, k))))
          ∗ idle c ∗ (bigSep Finset.univ fun k : CK => iprop(atPos ER (kcell (c, k)) 0 ∅ 0 ∗ reached ER (kcell (c, k)) 0)) ∗ mint c) := by
  unfold G
  iintro ⟨Hos, Hus, Hst, Hat, Htok⟩
  ihave Hv := (sems0_eq (F := F) c) $$ [Hos Hus]
  · isplitl [Hos] <;> iassumption
  icases Hv with ⟨Hv, Hi⟩
  imod (show iprop((bigSep Finset.univ fun k : CK => semVal (kcell (c, k)) 0) ∗ bigSep Finset.univ fun k : CK => roundState ER (Rd m shrF) (kcell (c, k)) 0)
      ⊢ (|={Set.univ}=> bigSep Finset.univ fun k : CK => iprop(∃ κ : ℕ, cellInv ER (Rd m shrF) κ (kcell (c, k))) : sProp 𝕄) from by
        rw [← bigSep_sep']
        exact (bigSep_mono fun k _ => (Rounds.body_intro ER (Rd m shrF) (kcell (c, k))).trans inv_alloc).trans (bigSep_fupd _ _)) $$ [Hv Hst] with Hinv
  · isplitl [Hv] <;> iassumption
  imodintro
  isplitl [Hinv]; · iexact Hinv
  isplitl [Hi]; · iexact Hi
  isplitl [Hat]; · iexact Hat
  iexact Htok

/-- A cell's invariant at the name the table K gives the cell. -/
abbrev ci (K : GSem nD τ sig → ℕ) (g : GSem nD τ sig) : sProp 𝕄 := cellInv ER (Rd m shrF) (K g) g

/-- What every device may keep a copy of: every cell's invariant, and that round 0 of every cell is open. -/
def records (K : GSem nD τ sig → ℕ) : sProp 𝕄 :=
  iprop((bigSep Finset.univ fun ck : Dev nD × CK => ci m K (kcell ck))
    ∗ bigSep Finset.univ fun ck : Dev nD × CK => reached ER (kcell ck) 0)

instance records_persistent (K : GSem nD τ sig → ℕ) : BI.Persistent (records m K) := by unfold records; infer_instance

theorem inv_at (K : GSem nD τ sig → ℕ) (ck : Dev nD × CK) : records m K ⊢ ci m K (kcell ck) :=
  (show records m K ⊢ (bigSep Finset.univ fun ck : Dev nD × CK => ci m K (kcell ck)) from by
    unfold records; iintro ⟨H, -⟩; iexact H).trans (bigSep_elim (Finset.mem_univ ck))

theorem reached_at (K : GSem nD τ sig → ℕ) (ck : Dev nD × CK) : records m K ⊢ reached ER (kcell ck) 0 :=
  (show records m K ⊢ (bigSep Finset.univ fun ck : Dev nD × CK => (reached ER (kcell ck) 0 : sProp 𝕄)) from by
    unfold records; iintro ⟨-, H⟩; iexact H).trans (bigSep_elim (Finset.mem_univ ck))

/-- The invariants a device's body opens: its own cells', every other device's barrier cell's, and the receive cells'
    of the devices it copies to. -/
theorem invs_intro (K : GSem nD τ sig → ℕ) (c : Dev nD) : records m K ⊢ invs m shrF K c := by
  have h1 : records m K ⊢ bigSep Finset.univ fun p : HR => iprop(
        ci m K (cel c (rsS p.1 (off p.2))) ∗ ci m K (cel c (rsR p.1 (off p.2))) ∗ ci m K (cel c (agS p.1 (off p.2))) ∗ ci m K (cel c (agR p.1 (off p.2)))) :=
    bigSep_intro_persistent fun p _ => by
      iintro #H
      isplitr; · iapply (inv_at m K (c, .inr (0, p))); iexact H
      isplitr; · iapply (inv_at m K (c, .inr (1, p))); iexact H
      isplitr; · iapply (inv_at m K (c, .inr (2, p))); iexact H
      iapply (inv_at m K (c, .inr (3, p))); iexact H
  have h2 : records m K ⊢ bigSep Finset.univ fun r : Fin 15 => ci m K (cel (peer c (off r)) (.reg barS)) :=
    bigSep_intro_persistent fun r _ => inv_at m K (peer c (off r), .inl ())
  have h3 : records m K ⊢ bigSep Finset.univ fun p : HR => iprop(
        ci m K (cel (peer c (off p.2)) (rsR p.1 (off p.2))) ∗ ci m K (cel (peer c (off p.2)) (agR p.1 (off p.2)))) :=
    bigSep_intro_persistent fun p _ => by
      iintro #H
      isplitr; · iapply (inv_at m K (peer c (off p.2), .inr (1, p))); iexact H
      iapply (inv_at m K (peer c (off p.2), .inr (3, p))); iexact H
  unfold invs
  iintro #H
  isplitr; · iapply (inv_at m K (c, .inl ())); iexact H
  isplitr; · iapply h1; iexact H
  isplitr; · iapply h2; iexact H
  iapply h3; iexact H

/-- Round 0 open on a device's own cells of the four arrays and on every other device's barrier cell. -/
theorem opens_intro (K : GSem nD τ sig → ℕ) (c : Dev nD) : records m K ⊢ opens (F := F) c := by
  have h1 : records m K ⊢ bigSep Finset.univ fun p : HR => iprop(
        reached ER (cel c (rsS p.1 (off p.2))) 0 ∗ reached ER (cel c (rsR p.1 (off p.2))) 0
        ∗ reached ER (cel c (agS p.1 (off p.2))) 0 ∗ reached ER (cel c (agR p.1 (off p.2))) 0) :=
    bigSep_intro_persistent fun p _ => by
      iintro #H
      isplitr; · iapply (reached_at m K (c, .inr (0, p))); iexact H
      isplitr; · iapply (reached_at m K (c, .inr (1, p))); iexact H
      isplitr; · iapply (reached_at m K (c, .inr (2, p))); iexact H
      iapply (reached_at m K (c, .inr (3, p))); iexact H
  have h2 : records m K ⊢ bigSep Finset.univ fun r : Fin 15 => reached ER (cel (peer c (off r)) (.reg barS)) 0 :=
    bigSep_intro_persistent fun r _ => reached_at m K (peer c (off r), .inl ())
  unfold opens
  iintro #H
  isplitr; · iapply h1; iexact H
  iapply h2; iexact H

/-- What stays with one device: its idle semaphores, its positions, the tokens of the duties it pays. -/
def linear (c : Dev nD) : sProp 𝕄 :=
  iprop(idle c ∗ (bigSep Finset.univ fun k : CK => atPos ER (kcell (c, k)) 0 ∅ 0) ∗ toks c)

omit [FloatOps F] in
theorem poss_eq (c : Dev nD) : (bigSep Finset.univ fun k : CK => (atPos ER (kcell (c, k)) 0 ∅ 0 : sProp 𝕄)) = poss c :=
  (bigSep_csem (fun s => atPos ER (cel c s) 0 ∅ 0)).trans rfl

theorem ghost_intro (K : GSem nD τ sig → ℕ) (c : Dev nD) : iprop(records m K ∗ linear c) ⊢ G' m c := by
  unfold linear G' ghost
  rw [poss_eq]
  iintro ⟨#HR, Hi, Hat, Htok⟩
  isplitr [Hi]
  · iexists K
    isplitr; · iapply (invs_intro m K c); iexact HR
    isplitl [Hat]; · iexact Hat
    isplitr; · iapply (opens_intro m K c); iexact HR
    iexact Htok
  · iexact Hi

/-- The device j places ahead, as a bijection of the devices. -/
def ring (j : Fin 16) : Dev nD ≃ Dev nD := ⟨fun c => peer c j, fun d => frm d j, fun c => frm_peer c j, fun d => peer_frm d j⟩

/-- Copy number r's offset leads back by the offset of copy number 14 - r. -/
def negr (r : Fin 15) : Fin 15 := ⟨14 - r.val, by omega⟩
theorem off_negr (r : Fin 15) : off (negr r) = neg (off r) := by revert r; decide
theorem negr_negr (r : Fin 15) : negr (negr r) = r := by revert r; decide
def negE : Fin 15 ≃ Fin 15 := ⟨negr, negr, negr_negr, negr_negr⟩

omit [FloatOps F] in
/-- A product over (device, half and copy) taken at the device the copy goes to instead. -/
theorem around_HR (Φ : Dev nD → HR → sProp 𝕄) :
    (bigSep Finset.univ fun c : Dev nD => bigSep Finset.univ fun p : HR => Φ c p)
      = bigSep Finset.univ fun c : Dev nD => bigSep Finset.univ fun p : HR => Φ (peer c (off p.2)) p := by
  rw [bigSep_univ_comm, bigSep_congr (s := Finset.univ) (fun (p : HR) _ => bigSep_univ_equiv (ring (off p.2)) (fun c : Dev nD => Φ c p)), bigSep_univ_comm]
  rfl

omit [FloatOps F] in
/-- A product over (device, nonzero offset) taken at the device that far ahead and the offset that leads back. -/
theorem around_bar (Φ : Dev nD → Fin 16 → sProp 𝕄) :
    (bigSep Finset.univ fun c : Dev nD => bigSep Finset.univ fun r : Fin 15 => Φ c (off r))
      = bigSep Finset.univ fun c : Dev nD => bigSep Finset.univ fun r : Fin 15 => Φ (peer c (off r)) (neg (off r)) := by
  have e1 : (bigSep Finset.univ fun c : Dev nD => bigSep Finset.univ fun r : Fin 15 => Φ c (off r))
      = bigSep Finset.univ fun c : Dev nD => bigSep Finset.univ fun r : Fin 15 => Φ c (neg (off r)) :=
    bigSep_congr fun c _ => (bigSep_univ_equiv negE (fun r : Fin 15 => Φ c (off r))).trans
      (bigSep_congr fun r _ => by rw [show negE r = negr r from rfl, off_negr])
  rw [e1, bigSep_univ_comm, bigSep_congr (s := Finset.univ) (fun (r : Fin 15) _ => bigSep_univ_equiv (ring (off r)) (fun c : Dev nD => Φ c (neg (off r)))), bigSep_univ_comm]
  rfl

omit [FloatOps F] in
/-- The tokens minted on the devices' own cells are the tokens of the duties the devices pay: a barrier's token for the
    offset 1 + r goes to the device that far behind, a receive cell's token to the device that copies into it. -/
theorem toks_around : (bigSep Finset.univ fun c : Dev nD => (mint c : sProp 𝕄)) ⊢ bigSep Finset.univ fun c : Dev nD => toks c := by
  have hm (c : Dev nD) : (mint c : sProp 𝕄) = iprop((bigSep Finset.univ fun r : Fin 15 => dutyTok ER (cel c (.reg barS)) 0 (off r))
      ∗ bigSep Finset.univ fun p : HR => quad (fun s => dutyTok ER (cel c s) 0 0) p.1 (off p.2)) := by
    unfold mint; rw [bigSep_dma (fun s => dutyTok ER (cel c s) 0 0)]
  rw [bigSep_congr (s := Finset.univ) (fun (c : Dev nD) _ => hm c)]
  unfold toks quad
  simp only [bigSep_sep']
  rw [around_bar (fun c j => dutyTok ER (cel c (.reg barS)) 0 j),
    around_HR (fun c p => dutyTok ER (cel c (rsR p.1 (off p.2))) 0 0),
    around_HR (fun c p => dutyTok ER (cel c (agR p.1 (off p.2))) 0 0)]
  iintro ⟨Hb, HS, HR, HAS, HAR⟩
  isplitl [Hb]; · iexact Hb
  isplitl [HR]; · iexact HR
  isplitl [HAR]; · iexact HAR
  isplitl [HS]; · iexact HS
  iexact HAS

theorem regroup :
    (bigSep Finset.univ fun c : Dev nD => iprop((bigSep Finset.univ fun k : CK => iprop(∃ κ : ℕ, cellInv ER (Rd m shrF) κ (kcell (c, k))))
          ∗ idle c ∗ (bigSep Finset.univ fun k : CK => iprop(atPos ER (kcell (c, k)) 0 ∅ 0 ∗ reached ER (kcell (c, k)) 0)) ∗ mint c) : sProp 𝕄)
      ⊢ bigSep Finset.univ (G' m) := by
  rw [bigSep_sep', bigSep_sep', bigSep_sep', ← bigSep_univ_prod (fun ck : Dev nD × CK => iprop(∃ κ : ℕ, cellInv ER (Rd m shrF) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, Hidle, ⟨Hat, #HR⟩, Htok⟩
  ihave HK := (BI.bigSep_exists_pi Finset.univ (fun (ck : Dev nD × CK) (κ : ℕ) => (cellInv ER (Rd m shrF) κ (kcell ck) : sProp 𝕄))) $$ HI
  icases HK with ⟨%K', #HI⟩
  have hK : ∀ ck, Function.extend kcell K' 0 (kcell ck) = K' ck := fun ck => kcell_injective.extend_apply K' 0 ck
  have hI : (bigSep Finset.univ fun ck : Dev nD × CK => (cellInv ER (Rd m shrF) (K' ck) (kcell ck) : sProp 𝕄))
      = bigSep Finset.univ fun ck : Dev nD × CK => ci m (Function.extend kcell K' 0) (kcell ck) :=
    bigSep_congr fun ck _ => by rw [ci, hK]
  ihave Htk := (toks_around (F := F)) $$ Htok
  iapply (bigSep_with_persistent (R := records m (Function.extend kcell K' 0)) fun c _ => ghost_intro m (Function.extend kcell K' 0) c)
  isplitr
  · unfold records; isplitl
    · iapply (Entails.of_eq hI); iexact HI
    · iexact HR
  · iapply ((Entails.of_eq (bigSep_sep' Finset.univ (fun c : Dev nD => idle c) (fun c : Dev nD => iprop((bigSep Finset.univ fun k : CK => (atPos ER (kcell (c, k)) 0 ∅ 0 : sProp 𝕄)) ∗ toks c))).symm).trans
      (bigSep_mono fun c _ => show _ ⊢ linear c from Entails.refl _))
    isplitl [Hidle]; · iexact Hidle
    iapply (Entails.of_eq (bigSep_sep' Finset.univ (fun c : Dev nD => bigSep Finset.univ fun k : CK => (atPos ER (kcell (c, k)) 0 ∅ 0 : sProp 𝕄)) (fun c : Dev nD => toks c)).symm)
    isplitl [Hat]; · iexact Hat
    iexact Htk

/-- The global step: own and barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the other devices owe a device's cells -/

omit [FloatOps F] in
/-- Fifteen single units on one cell are one tally of fifteen. -/
theorem sum15_tallyAt (g : GSem nD τ sig) : (∑ _r : Fin 15, (tallyAt g () 1 : CellTallies nD τ sig Unit)) = tallyAt g () 15 := by
  funext g'
  refine Finsupp.ext fun u => ?_
  rw [Finset.sum_apply, Finsupp.finsetSum_apply, Finset.sum_congr rfl (fun _ _ => tallyAt_apply g () 1 g' u), Finset.sum_const,
    Finset.card_univ, Fintype.card_fin, smul_eq_mul, tallyAt_apply]
  by_cases hp : g' = g ∧ u = ()
  · rw [if_pos hp, if_pos hp]
  · rw [if_neg hp, if_neg hp]

omit [FloatOps F] in
theorem filter15 : Finset.univ.filter (fun r : Fin 15 => 0 ≤ r.val) = Finset.univ := Finset.filter_true_of_mem fun _ _ => Nat.zero_le _
omit [FloatOps F] in
theorem filterHR : Finset.univ.filter (fun p : HR => 0 ≤ 15 * p.1.val + p.2.val) = Finset.univ := Finset.filter_true_of_mem fun _ _ => Nat.zero_le _

omit [FloatOps F] in
/-- Each device owing a unit to the barrier cell of every device ahead of it, a device's barrier cell is owed fifteen; each
    owing a piece to the receive cell number 1 + r of the device 1 + r ahead, a device's receive cells are each owed a piece. -/
theorem creds_intro (c : Dev nD) : (Pipeline.launchCred O₀ c : sProp 𝕄) ⊢ creds c := by
  have hO : (O₀ : Dev nD → CellTallies nD τ sig Unit) = fun d => (owedAG d 0 + owedRS d 0) + owedBar d 0 := rfl
  have hbar : (Pipeline.launchCred (fun d => owedBar d 0) c : sProp 𝕄) ⊢ cred (tallyAt (cel c (.reg barS)) () 15) := by
    unfold owedBar
    rw [filter15, Pipeline.launchCred_sum]
    refine (bigSep_mono fun r _ => Pipeline.launchCred_tallyAt (.reg barS) (fun d => peer d (off r)) (fun d => frm d (off r))
      (fun d => peer_frm d (off r)) (fun d => frm_peer d (off r)) () 1 c).trans ?_
    rw [← Pipeline.cred_finsetSum, sum15_tallyAt]
    exact Entails.refl _
  have hrs : (Pipeline.launchCred (fun d => owedRS d 0) c : sProp 𝕄) ⊢ bigSep Finset.univ fun p : HR => cred (tallyAt (cel c (rsR p.1 (off p.2))) () NS) := by
    unfold owedRS
    rw [filterHR, Pipeline.launchCred_sum]
    exact bigSep_mono fun p _ => Pipeline.launchCred_tallyAt (rsR p.1 (off p.2)) (fun d => peer d (off p.2)) (fun d => frm d (off p.2))
      (fun d => peer_frm d (off p.2)) (fun d => frm_peer d (off p.2)) () NS c
  have hag : (Pipeline.launchCred (fun d => owedAG d 0) c : sProp 𝕄) ⊢ bigSep Finset.univ fun p : HR => cred (tallyAt (cel c (agR p.1 (off p.2))) () NO) := by
    unfold owedAG
    rw [filterHR, Pipeline.launchCred_sum]
    exact bigSep_mono fun p _ => Pipeline.launchCred_tallyAt (agR p.1 (off p.2)) (fun d => peer d (off p.2)) (fun d => frm d (off p.2))
      (fun d => peer_frm d (off p.2)) (fun d => frm_peer d (off p.2)) () NO c
  rw [hO, Pipeline.launchCred_add, Pipeline.launchCred_add]
  unfold creds
  rw [bigSep_sep']
  iintro ⟨⟨Hag, Hrs⟩, Hbar⟩
  isplitl [Hbar]; · iapply hbar; iexact Hbar
  isplitl [Hrs]
  · iapply hrs; iexact Hrs
  · iapply hag; iexact Hag

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m shrF c ∗ emp) := by
  iintro ⟨-, Hlev, Hcr, -, HG⟩
  ihave Hc := (creds_intro (F := F) c) $$ Hcr
  unfold G'
  icases HG with ⟨Hg, Hi⟩
  imodintro
  unfold start
  isplitl
  · isplitl [Hg]; · iexact Hg
    isplitl [Hc]; · iexact Hc
    isplitl [Hi]; · iexact Hi
    iexact Hlev
  · iempintro

theorem phi0_intro (c : Dev nD) :
    iprop(start m shrF c ∗ Pipeline.prefHeld Pipeline.Prefetch.none c (fun _ => fullShare.right) (fun k => k.elim0) ∗ Pipeline.scopedRest cfg0.spec c)
      ⊢ (dats m shrF 0 c).Φ 0 := by
  rw [show (dats m shrF 0 c).Φ 0 = Φ₀ m shrF c from rfl, scopedRest0_eq]
  unfold Φ₀ scratches
  iintro ⟨Hs, -, Hr⟩
  isplitl [Hs]; · iexact Hs
  iexact Hr

theorem phi1_exit (c : Dev nD) :
    (dats m shrF 0 c).Φ (Fin.last cfg0.N) ⊢ iprop(emp ∗ Pipeline.ownSems0 osem c ∗ Pipeline.scopedRest cfg0.spec c) := by
  rw [show (dats m shrF 0 c).Φ (Fin.last cfg0.N) = Φ₁ c from rfl, scopedRest0_eq, ownSems0_eq]
  unfold Φ₁ scratches
  iintro ⟨Hr, Hz⟩
  isplitr; · iempintro
  isplitl [Hz]; · iexact Hz
  iexact Hr

/-- Every cell a device owes at launch sits at level 1 or above: a barrier cell, or a receive cell of one of the collectives. -/
theorem owed₀_pos {c : Dev nD} {g : GSem nD τ sig} {u : Unit} (h : 0 < O₀ c g u) : g.1.2 = .tc ∧ 1 ≤ lv g u := by
  unfold O₀ at h
  rcases Pipeline.add_pos_cases h with h | h
  · rcases Pipeline.add_pos_cases h with h | h
    · unfold owedAG at h
      obtain ⟨p, _, hp⟩ := Pipeline.sum_pos_exists h
      obtain ⟨rfl, _⟩ := Pipeline.tallyAt_pos hp
      refine ⟨rfl, ?_⟩
      dsimp only [lv]; rw [kind_agR]; decide
    · unfold owedRS at h
      obtain ⟨p, _, hp⟩ := Pipeline.sum_pos_exists h
      obtain ⟨rfl, _⟩ := Pipeline.tallyAt_pos hp
      refine ⟨rfl, ?_⟩
      dsimp only [lv]; rw [kind_rsR]; decide
  · unfold owedBar at h
    obtain ⟨r, _, hr⟩ := Pipeline.sum_pos_exists h
    obtain ⟨rfl, _⟩ := Pipeline.tallyAt_pos hr
    refine ⟨rfl, ?_⟩
    dsimp only [lv]; rw [kind_bar]

omit [FloatOps F] in
/-- A wait on a cell of level 0 is allowed whether the device still owes all it owes at launch or nothing. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (L := L) (lev := lv) (by rw [L_tc]; exact Finset.mem_singleton_self _) fun g u hg => ?_
    obtain ⟨htc, hlv⟩ := owed₀_pos hg
    refine ⟨by unfold L; rw [if_pos htc]; exact Finset.mem_singleton_self _, ?_⟩
    rw [hq]; exact hlv
  · rw [MayWait_zero]; iintro -; iempintro

theorem waits (c : Dev nD) : (levAts L lv : sProp 𝕄) ⊢ Pipeline.cellsWaits cfgs (dats m shrF) () 0 c :=
  Pipeline.cellsWaits_intro cfgs (dats m shrF) () 0 c fun w s t =>
    mayWait_stage c _ (by fin_cases w <;> fin_cases s <;> (dsimp only [lv]; decide)) _ (by
      rcases t with ⟨_ | _, ht⟩
      · exact Or.inl rfl
      · exact Or.inr rfl)

/-! ## The final arrays -/

theorem final_out (c : Dev nD) : (dats m shrF 0 c).arrAt 2 cfg0.N = outFull m := by
  have h := (dats (F := F) m shrF 0 c).arrAt_succ 2 t0_0
  rw [flush0_2 t0_0, if_pos rfl] at h
  refine Eq.trans (show (dats m shrF 0 c).arrAt 2 cfg0.N = (dats m shrF 0 c).arrAt 2 (t0_0.val + 1) from rfl) (h.trans ?_)
  exact Memref.write_access_unit_zero_univ (Elt F) main_v1 (funext fun a => Nat.zero_mul _) _ _ _
theorem final_in0 (c : Dev nD) : (dats m shrF 0 c).arrAt 0 cfg0.N = m ((c : Thread nD τ).loc main_arg0) :=
  (dats (F := F) m shrF 0 c).arrAt_in 0 rfl _
theorem final_in1 (c : Dev nD) : (dats m shrF 0 c).arrAt 1 cfg0.N = m ((c : Thread nD τ).loc main_arg1) :=
  (dats (F := F) m shrF 0 c).arrAt_in 1 rfl _

/-! ## The run -/

set_option maxRecDepth 8000 in
/-- At the compiled mesh of sixteen devices, for any float values, from any memory with zero counters: every weakly
    fair execution of @main terminates, and every final state has each device's result array at the whole result
    and its two argument arrays unchanged. -/
theorem run_main (hbody : ∀ c : Dev nD, BodyObligation (dats (F := F) m shrF 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = outFull m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m shrF) () cellOf_inj (0 : Fin 1)
    winFacts0.to₀ ownSemFacts (Pipeline.PreFacts.none _) EP defs₀ Variants.none m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m shrF) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 2).trans (final_out m c), ((h c).1 0).trans (final_in0 m c), ((h c).1 1).trans (final_in1 m c)⟩)

/-- info: 'Cert.Kernel.Pr.run_main' depends on axioms: [propext, Classical.choice, Quot.sound] -/
#guard_msgs in #print axioms run_main

end Cert.Kernel.Pr

end
-- ==== Proof.Spec.lean ====
/-
  The mathematics of the claim, free of any program: a product of a 768 x 6144 matrix with a 6144 x 768 matrix over
  the extended reals is the sum, over the sixteen blocks the contraction axis is cut into, of the blocks' products;
  and a sum of sixteen terms taken in rotated order is the sum.
-/
import Idealize.ShloMosaic.PureOps.Ideal
import Idealize.ShloMosaic.Lib.ValueIdx
import Idealize.ShloMosaic.Lib.Layout

noncomputable section

namespace Cert.Spec

open Idealize.ShloMosaic Idealize.ShloMosaic.ValueIdx

abbrev SA : Shape := ⟨2, ![768, 6144]⟩
abbrev SB : Shape := ⟨2, ![6144, 768]⟩
abbrev Sa : Shape := ⟨2, ![768, 384]⟩
abbrev Sb : Shape := ⟨2, ![384, 768]⟩
abbrev SO : Shape := ⟨2, ![768, 768]⟩

/-- Entry (p, q) of the product of the whole matrices: the sum over the 6144 contracted positions. -/
def prodAt (A : SA.Idx → EReal) (B : SB.Idx → EReal) (p q : Fin 768) : EReal :=
  ∑ k : Fin 6144, A (ix2 p k) * B (ix2 k q)

/-- The whole product as an array. -/
def prod (A : SA.Idx → EReal) (B : SB.Idx → EReal) : SO.Idx → EReal := fun i => prodAt A B (i 0) (i 1)

/-- Entry (p, q) of the product of one pair of blocks: the sum over the block's 384 contracted positions. -/
def partAt (a : Sa.Idx → EReal) (b : Sb.Idx → EReal) (p q : Fin 768) : EReal :=
  ∑ k : Fin 384, a (ix2 p k) * b (ix2 k q)

/-- Block u of the left matrix (its columns 384u .. 384u+383) and of the right matrix (its rows likewise). -/
def blkA (A : SA.Idx → EReal) (u : Fin 16) : Sa.Idx → EReal := Layout.block Sa SA 1 16 u A
def blkB (B : SB.Idx → EReal) (u : Fin 16) : Sb.Idx → EReal := Layout.block Sb SB 0 16 u B

/-- A sum over 6144 positions is the sum over sixteen runs of 384 consecutive positions (only that addition is
    commutative and associative is used: the pairs (run, place in the run) are in bijection with the positions). -/
theorem sum_split {M : Type*} [AddCommMonoid M] (f : Fin 6144 → M) :
    ∑ k, f k = ∑ u : Fin 16, ∑ l : Fin 384, f ⟨u.val * 384 + l.val, by omega⟩ := by
  rw [← Fintype.sum_prod_type' (f := fun (u : Fin 16) (l : Fin 384) => f ⟨u.val * 384 + l.val, by omega⟩)]
  refine (Fintype.sum_equiv (finProdFinEquiv (m := 16) (n := 384)) _ _ ?_).symm
  rintro ⟨u, l⟩
  congr 1
  apply Fin.ext
  simp [finProdFinEquiv]
  omega

/-- Column l of block u of the left matrix is column 384u + l of the whole, its row the same. -/
theorem blkA_apply (A : SA.Idx → EReal) (u : Fin 16) (p : Fin 768) (l : Fin 384) :
    blkA A u (ix2 p l) = A (ix2 p ⟨u.val * 384 + l.val, by omega⟩) := by
  unfold blkA
  rw [Layout.block_apply]
  congr 1
  funext b
  match b with
  | ⟨0, _⟩ => rfl
  | ⟨1, _⟩ => rfl

/-- Row l of block u of the right matrix is row 384u + l of the whole, its column the same. -/
theorem blkB_apply (B : SB.Idx → EReal) (u : Fin 16) (l : Fin 384) (q : Fin 768) :
    blkB B u (ix2 l q) = B (ix2 ⟨u.val * 384 + l.val, by omega⟩ q) := by
  unfold blkB
  rw [Layout.block_apply]
  congr 1
  funext b
  match b with
  | ⟨0, _⟩ => rfl
  | ⟨1, _⟩ => rfl

/-- The contraction split into its sixteen blocks. -/
theorem prodAt_eq_sum_parts (A : SA.Idx → EReal) (B : SB.Idx → EReal) (p q : Fin 768) :
    prodAt A B p q = ∑ u : Fin 16, partAt (blkA A u) (blkB B u) p q := by
  unfold prodAt partAt
  rw [sum_split]
  refine Finset.sum_congr rfl fun u _ => Finset.sum_congr rfl fun l _ => ?_
  rw [blkA_apply, blkB_apply]

/-- The device j places behind s on the ring of sixteen. -/
def back (s j : Fin 16) : Fin 16 := ⟨(s.val + 16 - j.val) % 16, Nat.mod_lt _ (by decide)⟩

/-- Walking back from s by the distance walked back from s to j lands on j (256 cases, each computed). -/
theorem back_back : ∀ s j : Fin 16, back s (back s j) = j := by decide

/-- Walking back from s is a bijection of the ring onto itself: it is its own inverse. -/
def backEquiv (s : Fin 16) : Fin 16 ≃ Fin 16 where
  toFun := back s
  invFun := back s
  left_inv := back_back s
  right_inv := back_back s

/-- Sixteen terms added one after the other starting at s and walking backwards round the ring: the sum of all. -/
theorem rot_sum (P : Fin 16 → EReal) (s : Fin 16) :
    P (back s 0) + P (back s 1) + P (back s 2) + P (back s 3) + P (back s 4) + P (back s 5) + P (back s 6) + P (back s 7)
      + P (back s 8) + P (back s 9) + P (back s 10) + P (back s 11) + P (back s 12) + P (back s 13) + P (back s 14) + P (back s 15)
      = ∑ u : Fin 16, P u := by
  rw [← Equiv.sum_comp (backEquiv s) P]
  simp only [Fin.sum_univ_castSucc, Fin.sum_univ_zero, zero_add]
  rfl

end Cert.Spec

end
-- ==== Proof.Value.lean ====
/-
  The value of the kernel at the ideal values: every device's partial product is its blocks' product; the sixteen
  pieces a device adds for each half of its rows are, in rotated order, the sixteen devices' partial products at
  those rows; so the whole result every device ends with is the whole product. Only that addition of extended
  reals is commutative and associative is used.
-/
import proofs.«900888_g7700000000000889_dist_matmul_k_i_m768_n768_k384_v7x_i16_bf16_1_alg».proof.Proof.Vals
import proofs.«900888_g7700000000000889_dist_matmul_k_i_m768_n768_k384_v7x_i16_bf16_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Layout

noncomputable section

namespace Cert.KernelIdeal.Value

open Idealize.ShloMosaic Idealize.ShloMosaic.TcCoe Idealize.ShloMosaic.ValueIdx
open Cert.KernelIdeal Cert.KernelIdeal.Gen Cert.KernelIdeal.Geo Cert.KernelIdeal.Vals

variable (m : (ℓ : Loc nD τ sig) → Buf (Elt Ideal) ℓ)

/-! ## A device's blocks of the two matrices -/

/-- The left window's one block is the whole array (no grid, offsets zero): reading it reads the device's buffer. -/
theorem aV_eq (c : Dev nD) : aV (F := Ideal) m c = m ((c : Thread nD τ).loc main_arg0) := by
  have hz : (fun a => (win0_0.index t0_0) a * main_arg0.ty.shape.size a) = fun _ => 0 :=
    funext fun a => by fin_cases a <;> decide
  exact Memref.read_access_unit_zero (Elt Ideal) main_arg0 hz (fun a => by fin_cases a <;> decide) _

/-- The right window's likewise. -/
theorem bV_eq (c : Dev nD) : bV (F := Ideal) m c = m ((c : Thread nD τ).loc main_arg1) := by
  have hz : (fun a => (win0_1.index t0_0) a * main_arg1.ty.shape.size a) = fun _ => 0 :=
    funext fun a => by fin_cases a <;> decide
  exact Memref.read_access_unit_zero (Elt Ideal) main_arg1 hz (fun a => by fin_cases a <;> decide) _

/-! ## The partial product at an index -/

/-- The four coordinates of the contraction's operand indices: the left operand is read at (row of the output,
    contracted position), the right at (contracted position, column of the output). -/
theorem lhs_ax0 (i : S768x768.Idx) (q : dot_S768x384_S384x768_S768x768_1_0_0_1_n_n.contr.Idx) :
    (dot_S768x384_S384x768_S768x768_1_0_0_1_n_n.lhsIdx i q 0).val = (i 0).val := by
  unfold DotDims.lhsIdx
  rw [dif_neg (show ¬(0 : Fin S768x384.rank) ∈ dot_S768x384_S384x768_S768x768_1_0_0_1_n_n.lhsBatch by decide), dif_pos (show (0 : Fin S768x384.rank) ∈ dot_S768x384_S384x768_S768x768_1_0_0_1_n_n.lhsNonContracting by decide)]
  rfl
theorem lhs_ax1 (i : S768x768.Idx) (q : dot_S768x384_S384x768_S768x768_1_0_0_1_n_n.contr.Idx) :
    (dot_S768x384_S384x768_S768x768_1_0_0_1_n_n.lhsIdx i q 1).val = (q ⟨0, by decide⟩).val :=
  dot_S768x384_S384x768_S768x768_1_0_0_1_n_n.lhsIdx_val_of_single rfl i q
theorem rhs_ax0 (i : S768x768.Idx) (q : dot_S768x384_S384x768_S768x768_1_0_0_1_n_n.contr.Idx) :
    (dot_S768x384_S384x768_S768x768_1_0_0_1_n_n.rhsIdx i q 0).val = (q ⟨0, by decide⟩).val :=
  dot_S768x384_S384x768_S768x768_1_0_0_1_n_n.rhsIdx_val_of_single rfl i q
theorem rhs_ax1 (i : S768x768.Idx) (q : dot_S768x384_S384x768_S768x768_1_0_0_1_n_n.contr.Idx) :
    (dot_S768x384_S384x768_S768x768_1_0_0_1_n_n.rhsIdx i q 1).val = (i 1).val := by
  unfold DotDims.rhsIdx
  rw [dif_neg (show ¬(1 : Fin S384x768.rank) ∈ dot_S768x384_S384x768_S768x768_1_0_0_1_n_n.rhsBatch by decide), dif_pos (show (1 : Fin S384x768.rank) ∈ dot_S768x384_S384x768_S768x768_1_0_0_1_n_n.rhsNonContracting by decide)]
  rfl

/-- The right operand's change of format is the identity over the extended reals. -/
theorem pay1_eq (b : Vec Ideal S384x768 .f32) : k0_pay1 (F := Ideal) b = b := by
  unfold k0_pay1
  simp only [shapeCast_self]
  rfl

/-- The stored product's cast to its own shape is the identity. -/
theorem pay3_eq (v : FVec Ideal S768x768 .bf16) : k0_pay3 (F := Ideal) v = v := by
  unfold k0_pay3
  simp only [shapeCast_self]

/-- Entry (p, q) of the matrix unit's product into the zero accumulator: the sum over the 384 contracted positions. -/
theorem pay2_apply (a : FVec Ideal S768x384 .f32) (b : FVec Ideal S384x768 .bf16) (p q : Fin 768) :
    k0_pay2 (F := Ideal) a b (ix2 p q) = ∑ k : Fin 384, a (ix2 p k) * b (ix2 k q) := by
  unfold k0_pay2
  simp only [shapeCast_self]
  -- the two changes of format are the identity over the extended reals; the product into the zero accumulator is the sum
  refine (Ideal.matmul_constant_zero_apply (φ₁ := .bf16) (φ₂ := .bf16) dot_S768x384_S384x768_S768x768_1_0_0_1_n_n none (truncf .bf16 a bitsLt_bf16_f32) b (ix2 p q)).trans ?_
  rw [← Equiv.sum_comp (ValueIdx.contrEquiv1 dot_S768x384_S384x768_S768x768_1_0_0_1_n_n 384 rfl rfl).symm]
  refine Finset.sum_congr rfl fun k _ => ?_
  have hk := ValueIdx.contrEquiv1_symm_val dot_S768x384_S384x768_S768x768_1_0_0_1_n_n 384 rfl rfl k
  have el : dot_S768x384_S384x768_S768x768_1_0_0_1_n_n.lhsIdx (ix2 p q) ((ValueIdx.contrEquiv1 dot_S768x384_S384x768_S768x768_1_0_0_1_n_n 384 rfl rfl).symm k) = ix2 p k := funext fun x => Fin.ext (by
    match x with
    | ⟨0, _⟩ => exact lhs_ax0 _ _
    | ⟨1, _⟩ => exact (lhs_ax1 _ _).trans hk)
  have er : dot_S768x384_S384x768_S768x768_1_0_0_1_n_n.rhsIdx (ix2 p q) ((ValueIdx.contrEquiv1 dot_S768x384_S384x768_S768x768_1_0_0_1_n_n 384 rfl rfl).symm k) = ix2 k q := funext fun x => Fin.ext (by
    match x with
    | ⟨0, _⟩ => exact (rhs_ax0 _ _).trans hk
    | ⟨1, _⟩ => exact rhs_ax1 _ _)
  exact congrArg₂ (· * ·) (congrArg a el) (congrArg b er)

/-! ## The sums a device forms, at an index -/

/-- A [1, 1, 24, 768] slot viewed as a [24, 768] array reads, at (y, n), the slot at (0, 0, y, n): the two
    indices have the same row-major position. -/
theorem cast_slot {α : Type} (x : S1x1x24x768.Idx → α) (h : S1x1x24x768.ShapeCasts S24x768) (y : Fin 24) (n : Fin 768) :
    shapeCast S24x768 x h (ix2 y n) = x (ix4 (0 : Fin 1) (0 : Fin 1) y n) :=
  shapeCast_apply x h _ _ (by
    rw [Shape.rowMajor_val_four, Shape.rowMajor_val_two]
    show ((0 * 1 + 0) * 24 + y.val) * 768 + n.val = y.val * 768 + n.val
    omega)

/-- One received piece widened: the slot's entry. -/
theorem ext_slot (l : Vec Ideal S1x1x24x768 .bf16) (y : Fin 24) (n : Fin 768) :
    (extf .f32 (shapeCast S24x768 l shapeCasts_S1x1x24x768_S24x768) bitsLt_bf16_f32 : FVec Ideal S24x768 .f32) (ix2 y n) = l (ix4 (0 : Fin 1) (0 : Fin 1) y n) :=
  cast_slot l shapeCasts_S1x1x24x768_S24x768 y n

/-- Two received pieces added to a running sum, one after the other. -/
theorem add_two (v : FVec Ideal S24x768 .f32) (a b : Vec Ideal S1x1x24x768 .bf16) (y : Fin 24) (n : Fin 768) :
    (addf (addf v (extf .f32 (shapeCast S24x768 a shapeCasts_S1x1x24x768_S24x768) bitsLt_bf16_f32)) (extf .f32 (shapeCast S24x768 b shapeCasts_S1x1x24x768_S24x768) bitsLt_bf16_f32) : FVec Ideal S24x768 .f32) (ix2 y n)
      = v (ix2 y n) + a (ix4 (0 : Fin 1) (0 : Fin 1) y n) + b (ix4 (0 : Fin 1) (0 : Fin 1) y n) := by
  rw [addf_apply, addf_apply, ext_slot, ext_slot]

theorem pay4_apply (x : Vec Ideal S24x768 .bf16) (y : Fin 24) (n : Fin 768) : k0_pay4 (F := Ideal) x (ix2 y n) = x (ix2 y n) := rfl
theorem pay13_apply (x : Vec Ideal S24x768 .bf16) (y : Fin 24) (n : Fin 768) : k0_pay13 (F := Ideal) x (ix2 y n) = x (ix2 y n) := rfl
theorem pay7_apply (l : Vec Ideal S1x1x24x768 .bf16) (y : Fin 24) (n : Fin 768) :
    k0_pay7 (F := Ideal) l (ix2 y n) = l (ix4 (0 : Fin 1) (0 : Fin 1) y n) := ext_slot l y n
theorem pay18_apply (l : Vec Ideal S1x1x24x768 .bf16) (y : Fin 24) (n : Fin 768) :
    k0_pay18 (F := Ideal) l (ix2 y n) = l (ix4 (0 : Fin 1) (0 : Fin 1) y n) := cast_slot l shapeCasts_S1x1x24x768_S24x768 y n
theorem pay5_apply (v : FVec Ideal S24x768 .f32) (a b : Vec Ideal S1x1x24x768 .bf16) (y : Fin 24) (n : Fin 768) :
    k0_pay5 (F := Ideal) v a b (ix2 y n) = v (ix2 y n) + a (ix4 (0 : Fin 1) (0 : Fin 1) y n) + b (ix4 (0 : Fin 1) (0 : Fin 1) y n) := add_two v a b y n
theorem pay6_apply (v : FVec Ideal S24x768 .f32) (a b : Vec Ideal S1x1x24x768 .bf16) (y : Fin 24) (n : Fin 768) :
    k0_pay6 (F := Ideal) v a b (ix2 y n) = v (ix2 y n) + a (ix4 (0 : Fin 1) (0 : Fin 1) y n) + b (ix4 (0 : Fin 1) (0 : Fin 1) y n) := add_two v a b y n
theorem pay9_apply (v : FVec Ideal S24x768 .f32) (a b : Vec Ideal S1x1x24x768 .bf16) (y : Fin 24) (n : Fin 768) :
    k0_pay9 (F := Ideal) v a b (ix2 y n) = v (ix2 y n) + a (ix4 (0 : Fin 1) (0 : Fin 1) y n) + b (ix4 (0 : Fin 1) (0 : Fin 1) y n) := add_two v a b y n
theorem pay10_apply (v : FVec Ideal S24x768 .f32) (a b : Vec Ideal S1x1x24x768 .bf16) (y : Fin 24) (n : Fin 768) :
    k0_pay10 (F := Ideal) v a b (ix2 y n) = v (ix2 y n) + a (ix4 (0 : Fin 1) (0 : Fin 1) y n) + b (ix4 (0 : Fin 1) (0 : Fin 1) y n) := add_two v a b y n
theorem pay11_apply (v : FVec Ideal S24x768 .f32) (a b : Vec Ideal S1x1x24x768 .bf16) (y : Fin 24) (n : Fin 768) :
    k0_pay11 (F := Ideal) v a b (ix2 y n) = v (ix2 y n) + a (ix4 (0 : Fin 1) (0 : Fin 1) y n) + b (ix4 (0 : Fin 1) (0 : Fin 1) y n) := add_two v a b y n
theorem pay14_apply (v : FVec Ideal S24x768 .f32) (a b : Vec Ideal S1x1x24x768 .bf16) (y : Fin 24) (n : Fin 768) :
    k0_pay14 (F := Ideal) v a b (ix2 y n) = v (ix2 y n) + a (ix4 (0 : Fin 1) (0 : Fin 1) y n) + b (ix4 (0 : Fin 1) (0 : Fin 1) y n) := add_two v a b y n
theorem pay15_apply (v : FVec Ideal S24x768 .f32) (a b : Vec Ideal S1x1x24x768 .bf16) (y : Fin 24) (n : Fin 768) :
    k0_pay15 (F := Ideal) v a b (ix2 y n) = v (ix2 y n) + a (ix4 (0 : Fin 1) (0 : Fin 1) y n) + b (ix4 (0 : Fin 1) (0 : Fin 1) y n) := add_two v a b y n
theorem pay16_apply (v : FVec Ideal S24x768 .f32) (a b : Vec Ideal S1x1x24x768 .bf16) (y : Fin 24) (n : Fin 768) :
    k0_pay16 (F := Ideal) v a b (ix2 y n) = v (ix2 y n) + a (ix4 (0 : Fin 1) (0 : Fin 1) y n) + b (ix4 (0 : Fin 1) (0 : Fin 1) y n) := add_two v a b y n
theorem pay17_apply (v : FVec Ideal S24x768 .f32) (a b : Vec Ideal S1x1x24x768 .bf16) (y : Fin 24) (n : Fin 768) :
    k0_pay17 (F := Ideal) v a b (ix2 y n) = v (ix2 y n) + a (ix4 (0 : Fin 1) (0 : Fin 1) y n) + b (ix4 (0 : Fin 1) (0 : Fin 1) y n) := add_two v a b y n
theorem pay20_apply (v : FVec Ideal S24x768 .f32) (a b : Vec Ideal S1x1x24x768 .bf16) (y : Fin 24) (n : Fin 768) :
    k0_pay20 (F := Ideal) v a b (ix2 y n) = v (ix2 y n) + a (ix4 (0 : Fin 1) (0 : Fin 1) y n) + b (ix4 (0 : Fin 1) (0 : Fin 1) y n) := add_two v a b y n
/-- The last two pieces and the narrowing of the sum, the identity over the extended reals. -/
theorem pay12_apply (v : FVec Ideal S24x768 .f32) (a b : Vec Ideal S1x1x24x768 .bf16) (y : Fin 24) (n : Fin 768) :
    k0_pay12 (F := Ideal) v a b (ix2 y n) = v (ix2 y n) + a (ix4 (0 : Fin 1) (0 : Fin 1) y n) + b (ix4 (0 : Fin 1) (0 : Fin 1) y n) := add_two v a b y n
/-- The last two pieces and the narrowing of the sum, the identity over the extended reals. -/
theorem pay21_apply (v : FVec Ideal S24x768 .f32) (a b : Vec Ideal S1x1x24x768 .bf16) (y : Fin 24) (n : Fin 768) :
    k0_pay21 (F := Ideal) v a b (ix2 y n) = v (ix2 y n) + a (ix4 (0 : Fin 1) (0 : Fin 1) y n) + b (ix4 (0 : Fin 1) (0 : Fin 1) y n) := add_two v a b y n
/-- A piece widened apart, then it and two more added to the running sum. -/
theorem pay8_apply (v w : FVec Ideal S24x768 .f32) (a b : Vec Ideal S1x1x24x768 .bf16) (y : Fin 24) (n : Fin 768) :
    k0_pay8 (F := Ideal) v w a b (ix2 y n) = v (ix2 y n) + w (ix2 y n) + a (ix4 (0 : Fin 1) (0 : Fin 1) y n) + b (ix4 (0 : Fin 1) (0 : Fin 1) y n) :=
  add_two (addf v w) a b y n
theorem pay19_apply (v : FVec Ideal S24x768 .f32) (w : FVec Ideal S24x768 .bf16) (a b : Vec Ideal S1x1x24x768 .bf16) (y : Fin 24) (n : Fin 768) :
    k0_pay19 (F := Ideal) v w a b (ix2 y n) = v (ix2 y n) + w (ix2 y n) + a (ix4 (0 : Fin 1) (0 : Fin 1) y n) + b (ix4 (0 : Fin 1) (0 : Fin 1) y n) :=
  add_two (addf v (extf .f32 w bitsLt_bf16_f32)) a b y n

/-- The first half's sum at (y, n): the own entry, then the fifteen received entries, added one after the other. -/
theorem acc0_apply (x0 : Vec Ideal S24x768 .bf16) (l : Fin 15 → Vec Ideal S1x1x24x768 .bf16) (y : Fin 24) (n : Fin 768) :
    acc0 (F := Ideal) x0 l (ix2 y n) = x0 (ix2 y n)
      + l 0 (ix4 (0 : Fin 1) (0 : Fin 1) y n) + l 1 (ix4 (0 : Fin 1) (0 : Fin 1) y n) + l 2 (ix4 (0 : Fin 1) (0 : Fin 1) y n)
      + l 3 (ix4 (0 : Fin 1) (0 : Fin 1) y n) + l 4 (ix4 (0 : Fin 1) (0 : Fin 1) y n) + l 5 (ix4 (0 : Fin 1) (0 : Fin 1) y n)
      + l 6 (ix4 (0 : Fin 1) (0 : Fin 1) y n) + l 7 (ix4 (0 : Fin 1) (0 : Fin 1) y n) + l 8 (ix4 (0 : Fin 1) (0 : Fin 1) y n)
      + l 9 (ix4 (0 : Fin 1) (0 : Fin 1) y n) + l 10 (ix4 (0 : Fin 1) (0 : Fin 1) y n) + l 11 (ix4 (0 : Fin 1) (0 : Fin 1) y n)
      + l 12 (ix4 (0 : Fin 1) (0 : Fin 1) y n) + l 13 (ix4 (0 : Fin 1) (0 : Fin 1) y n) + l 14 (ix4 (0 : Fin 1) (0 : Fin 1) y n) := by
  unfold acc0
  rw [pay12_apply, pay11_apply, pay10_apply, pay9_apply, pay8_apply, pay6_apply, pay5_apply, pay4_apply, pay7_apply]

/-- The second half's likewise. -/
theorem acc1_apply (x0 : Vec Ideal S24x768 .bf16) (l : Fin 15 → Vec Ideal S1x1x24x768 .bf16) (y : Fin 24) (n : Fin 768) :
    acc1 (F := Ideal) x0 l (ix2 y n) = x0 (ix2 y n)
      + l 0 (ix4 (0 : Fin 1) (0 : Fin 1) y n) + l 1 (ix4 (0 : Fin 1) (0 : Fin 1) y n) + l 2 (ix4 (0 : Fin 1) (0 : Fin 1) y n)
      + l 3 (ix4 (0 : Fin 1) (0 : Fin 1) y n) + l 4 (ix4 (0 : Fin 1) (0 : Fin 1) y n) + l 5 (ix4 (0 : Fin 1) (0 : Fin 1) y n)
      + l 6 (ix4 (0 : Fin 1) (0 : Fin 1) y n) + l 7 (ix4 (0 : Fin 1) (0 : Fin 1) y n) + l 8 (ix4 (0 : Fin 1) (0 : Fin 1) y n)
      + l 9 (ix4 (0 : Fin 1) (0 : Fin 1) y n) + l 10 (ix4 (0 : Fin 1) (0 : Fin 1) y n) + l 11 (ix4 (0 : Fin 1) (0 : Fin 1) y n)
      + l 12 (ix4 (0 : Fin 1) (0 : Fin 1) y n) + l 13 (ix4 (0 : Fin 1) (0 : Fin 1) y n) + l 14 (ix4 (0 : Fin 1) (0 : Fin 1) y n) := by
  unfold acc1
  rw [pay21_apply, pay20_apply, pay19_apply, pay17_apply, pay16_apply, pay15_apply, pay14_apply, pay13_apply, pay18_apply]

/-! ## A device's rows of the result -/

/-- Entry (p, q) of device c's partial product: the sum over its block's 384 contracted positions. -/
theorem pbV_apply (c : Dev nD) (p q : Fin 768) :
    pbV (F := Ideal) m c (ix2 p q) = ∑ k : Fin 384, aV (F := Ideal) m c (ix2 p k) * bV (F := Ideal) m c (ix2 k q) := by
  unfold pbV
  rw [pay3_eq, pay1_eq, pay2_apply]

/-- With each device's buffers its blocks of the whole matrices, that entry is the entry of the blocks' product. -/
theorem pbV_part (A : Cert.Spec.SA.Idx → EReal) (B : Cert.Spec.SB.Idx → EReal)
    (hA : ∀ c : Dev nD, m ((c.tc : Thread nD τ).loc main_arg0) = Layout.block ⟨2, ![768, 384]⟩ ⟨2, ![768, 6144]⟩ 1 16 c A)
    (hB : ∀ c : Dev nD, m ((c.tc : Thread nD τ).loc main_arg1) = Layout.block ⟨2, ![384, 768]⟩ ⟨2, ![6144, 768]⟩ 0 16 c B)
    (u : Dev nD) (p q : Fin 768) :
    pbV (F := Ideal) m u (ix2 p q) = Cert.Spec.partAt (Cert.Spec.blkA A u) (Cert.Spec.blkB B u) p q := by
  rw [pbV_apply, aV_eq, bV_eq, hA u, hB u]
  rfl

/-- Row y of half h of device d's rows, as a row of the whole result. -/
def row (d : Dev nD) (h : Fin 2) (y : Fin 24) : Fin 768 :=
  ⟨d.val * 48 + 24 * h.val + y.val, by have hd : d.val < 16 := d.isLt; have hh : h.val < 2 := h.isLt; have hy : y.val < 24 := y.isLt; omega⟩

/-- Entry (y, n) of half h of device d's rows as d computes it: the entry of its own partial product, then of the
    partial product of the device 1 behind, 2 behind, …, 15 behind, added one after the other. -/
theorem chunkV_terms (d : Dev nD) (h : Fin 2) (y : Fin 24) (n : Fin 768) :
    chunkV (F := Ideal) m d h (ix2 y n) = pbV (F := Ideal) m d (ix2 (row d h y) n)
      + pbV (F := Ideal) m (frm d (off 0)) (ix2 (row d h y) n)
      + pbV (F := Ideal) m (frm d (off 1)) (ix2 (row d h y) n)
      + pbV (F := Ideal) m (frm d (off 2)) (ix2 (row d h y) n)
      + pbV (F := Ideal) m (frm d (off 3)) (ix2 (row d h y) n)
      + pbV (F := Ideal) m (frm d (off 4)) (ix2 (row d h y) n)
      + pbV (F := Ideal) m (frm d (off 5)) (ix2 (row d h y) n)
      + pbV (F := Ideal) m (frm d (off 6)) (ix2 (row d h y) n)
      + pbV (F := Ideal) m (frm d (off 7)) (ix2 (row d h y) n)
      + pbV (F := Ideal) m (frm d (off 8)) (ix2 (row d h y) n)
      + pbV (F := Ideal) m (frm d (off 9)) (ix2 (row d h y) n)
      + pbV (F := Ideal) m (frm d (off 10)) (ix2 (row d h y) n)
      + pbV (F := Ideal) m (frm d (off 11)) (ix2 (row d h y) n)
      + pbV (F := Ideal) m (frm d (off 12)) (ix2 (row d h y) n)
      + pbV (F := Ideal) m (frm d (off 13)) (ix2 (row d h y) n)
      + pbV (F := Ideal) m (frm d (off 14)) (ix2 (row d h y) n) := by
  unfold chunkV
  have h2 : h = 0 ∨ h = 1 := by revert h; decide
  rcases h2 with rfl | rfl
  · rw [if_pos rfl, acc0_apply]
    rfl
  · rw [if_neg (by decide), acc1_apply]
    rfl

/-- The device 1 + r places behind d on the ring, in the words of the sum's rotation. -/
theorem frm_off (d : Dev nD) (r : Fin 15) : frm d (off r) = Cert.Spec.back d ⟨1 + r.val, by omega⟩ := rfl

/-- Sixteen terms, one per device, added starting at d and walking backwards round the ring: the sum over the devices. -/
theorem ring_sum (Q : Fin 16 → EReal) (d : Dev nD) :
    Q d
      + Q (frm d (off 0))
      + Q (frm d (off 1))
      + Q (frm d (off 2))
      + Q (frm d (off 3))
      + Q (frm d (off 4))
      + Q (frm d (off 5))
      + Q (frm d (off 6))
      + Q (frm d (off 7))
      + Q (frm d (off 8))
      + Q (frm d (off 9))
      + Q (frm d (off 10))
      + Q (frm d (off 11))
      + Q (frm d (off 12))
      + Q (frm d (off 13))
      + Q (frm d (off 14)) = ∑ u : Fin 16, Q u := by
  have e0 : Q d = Q (Cert.Spec.back d 0) := congrArg Q (by revert d; decide)
  rw [e0]
  exact Cert.Spec.rot_sum Q d

/-- Entry (y, n) of half h of device d's rows is the sum over the sixteen devices of the entries of their blocks'
    products at that row of the whole result. -/
theorem chunkV_apply (A : Cert.Spec.SA.Idx → EReal) (B : Cert.Spec.SB.Idx → EReal)
    (hA : ∀ c : Dev nD, m ((c.tc : Thread nD τ).loc main_arg0) = Layout.block ⟨2, ![768, 384]⟩ ⟨2, ![768, 6144]⟩ 1 16 c A)
    (hB : ∀ c : Dev nD, m ((c.tc : Thread nD τ).loc main_arg1) = Layout.block ⟨2, ![384, 768]⟩ ⟨2, ![6144, 768]⟩ 0 16 c B)
    (d : Dev nD) (h : Fin 2) (y : Fin 24) (n : Fin 768) :
    chunkV (F := Ideal) m d h (ix2 y n)
      = ∑ u : Fin 16, Cert.Spec.partAt (Cert.Spec.blkA A u) (Cert.Spec.blkB B u) (row d h y) n := by
  rw [chunkV_terms]
  simp only [pbV_part m A B hA hB]
  exact ring_sum (fun u => Cert.Spec.partAt (Cert.Spec.blkA A u) (Cert.Spec.blkB B u) (row d h y) n) d

/-! ## The whole result -/

/-- At the ideal values the whole result every device ends with is the whole product: row 48 s + 24 h + y of it is row y
    of half h of device s's rows, the sum over the sixteen blocks of the contraction axis of the blocks' products. -/
theorem outFull_eq (m : (ℓ : Loc nD τ sig) → Buf (Elt Ideal) ℓ) (A : Cert.Spec.SA.Idx → EReal) (B : Cert.Spec.SB.Idx → EReal)
    (hA : ∀ c : Dev nD, m ((c.tc : Thread nD τ).loc main_arg0) = Layout.block ⟨2, ![768, 384]⟩ ⟨2, ![768, 6144]⟩ 1 16 c A)
    (hB : ∀ c : Dev nD, m ((c.tc : Thread nD τ).loc main_arg1) = Layout.block ⟨2, ![384, 768]⟩ ⟨2, ![6144, 768]⟩ 0 16 c B) :
    Cert.KernelIdeal.Vals.outFull (F := Ideal) m = Cert.Spec.prod A B := by
  funext i
  unfold outFull
  rw [chunkV_apply m A B hA hB, ← Cert.Spec.prodAt_eq_sum_parts]
  unfold Cert.Spec.prod
  have hr : row (⟨(i 0).val / 48, by have h0 : (i 0).val < 768 := (i 0).isLt; show _ < 16; omega⟩ : Dev nD)
      (⟨(i 0).val % 48 / 24, by omega⟩ : Fin 2) (⟨(i 0).val % 24, by omega⟩ : Fin 24) = i 0 :=
    Fin.ext (by show (i 0).val / 48 * 48 + 24 * ((i 0).val % 48 / 24) + (i 0).val % 24 = (i 0).val; omega)
  rw [hr]
  rfl

end Cert.KernelIdeal.Value

end
-- ==== Proof.Ref.lean ====
/-
  The reference's side: its run read back as one function of the whole argument arrays, the whole product.
-/
import proofs.«900888_g7700000000000889_dist_matmul_k_i_m768_n768_k384_v7x_i16_bf16_1_alg».proof.Defs
import proofs.«900888_g7700000000000889_dist_matmul_k_i_m768_n768_k384_v7x_i16_bf16_1_alg».proof.Proof.Gen.ReferenceIdeal
import proofs.«900888_g7700000000000889_dist_matmul_k_i_m768_n768_k384_v7x_i16_bf16_1_alg».proof.Proof.Gen.ReferenceIdeal.Run
import proofs.«900888_g7700000000000889_dist_matmul_k_i_m768_n768_k384_v7x_i16_bf16_1_alg».proof.Proof.Gen.ReferenceIdeal.Read
import proofs.«900888_g7700000000000889_dist_matmul_k_i_m768_n768_k384_v7x_i16_bf16_1_alg».proof.Proof.Gen.Pre_finite_inputs_ReferenceIdeal
import proofs.«900888_g7700000000000889_dist_matmul_k_i_m768_n768_k384_v7x_i16_bf16_1_alg».proof.Proof.Spec

noncomputable section

namespace Cert.Proof.Ref

open Idealize.ShloMosaic Idealize.ShloMosaic.TcCoe Idealize.SL.Sem

/-- The reference runs to the end with its result the whole product of its argument arrays, the arguments unchanged. -/
theorem run_ref [Cert.ReferenceIdeal.Facts]
    (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = Cert.Spec.prod (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine (θ_run (Cert.ReferenceIdeal.defs (F := Ideal)) _ _).mono (fun _ h => ?_)
    (Cert.ReferenceIdeal.Value.run (F := Ideal) m' g')
  obtain ⟨h1, h2, h3⟩ := h 0
  refine ⟨h1.trans ?_, h2, h3⟩
  -- the result's term, read one operation at a time: the change of format is the identity over the extended reals,
  -- and the contraction is the sum over the 6144 contracted positions
  rw [Cert.ReferenceIdeal.Read.val_main_v1_eq]
  funext i
  rw [Cert.ReferenceIdeal.Read.val_main_v1_apply, Ideal.truncf_def, Cert.ReferenceIdeal.Read.val_main_v0_apply]
  unfold Cert.Spec.prod Cert.Spec.prodAt
  refine Finset.sum_congr rfl fun k _ => ?_
  -- the left operand is read at (row of i, k), the right at (k, column of i)
  have el : Cert.ReferenceIdeal.Read.lidx_main_v0 i k = ValueIdx.ix2 (i 0) k := by
    funext a
    match a with
    | ⟨0, _⟩ => rfl
    | ⟨1, _⟩ => rfl
  have er : Cert.ReferenceIdeal.Read.ridx_main_v0 i k = ValueIdx.ix2 k (i 1) := by
    funext a
    match a with
    | ⟨0, _⟩ => rfl
    | ⟨1, _⟩ => rfl
  rw [el, er]
  rfl

/-- The reference's frame: its run with the result dropped. -/
theorem frame_ri [Cert.ReferenceIdeal.Facts] [Cert.Pre_finite_inputs_ReferenceIdeal.Facts] : Cert.frame_ReferenceIdeal := fun m ρ _ =>
  (θ_run (Cert.ReferenceIdeal.defs (F := Ideal)) _ _).mono (fun _ h c => (h c).2)
    (Cert.ReferenceIdeal.Value.run (F := Ideal) m ρ)

end Cert.Proof.Ref

end
-- ==== Proof.Asm.lean ====
/-
  The assembly. A device's body proved, the launch gives the program's run: every device's result array ends at the
  whole result, a pure term of the launch memory, and its two argument arrays end as they began. That run holds for
  any float values; each frame is it with the value dropped, at the machine's words for the kernel as printed and
  at the extended reals for the kernel read at the ideal values. At the ideal values, where every device's argument
  arrays are its blocks of two whole matrices A (768 x 6144) and B (6144 x 768), the whole result is the product
  A B: the contraction axis is cut into sixteen runs of 384, device u forms the product of block u of A with block
  u of B, and the sixteen partial products are added round the ring, in an order that depends on the device;
  addition of extended reals being commutative and associative, every order gives the sum over the 6144 contracted
  positions, which is what the reference computes on the whole matrices.
-/
import proofs.«900888_g7700000000000889_dist_matmul_k_i_m768_n768_k384_v7x_i16_bf16_1_alg».proof.Defs
import proofs.«900888_g7700000000000889_dist_matmul_k_i_m768_n768_k384_v7x_i16_bf16_1_alg».proof.Proof.Launch
import proofs.«900888_g7700000000000889_dist_matmul_k_i_m768_n768_k384_v7x_i16_bf16_1_alg».proof.Proof.Bits.Launch
import proofs.«900888_g7700000000000889_dist_matmul_k_i_m768_n768_k384_v7x_i16_bf16_1_alg».proof.Proof.Value
import proofs.«900888_g7700000000000889_dist_matmul_k_i_m768_n768_k384_v7x_i16_bf16_1_alg».proof.Proof.Ref
import proofs.«900888_g7700000000000889_dist_matmul_k_i_m768_n768_k384_v7x_i16_bf16_1_alg».proof.Proof.Gen.Pre_finite_inputs_Kernel

noncomputable section

namespace Cert.Proof.Asm

open Idealize.ShloMosaic Idealize.ShloMosaic.TcCoe Idealize.SL.Sem
open Idealize.ShloMosaic.Pipeline (BodyObligation)

/-- The kernel's frame at the machine's words: the same run, read at that instance, with the result's value dropped. -/
theorem frame_p_of
    (hb : ∀ (m : (ℓ : Loc Cert.Kernel.nD Cert.Kernel.τ Cert.Kernel.sig) → Buf (Elt Bits) ℓ) (c : Dev Cert.Kernel.nD),
      BodyObligation (Cert.Kernel.Pr.dats (F := Bits) m Cert.Kernel.Pr.shrF 0 c) (Cert.Kernel.defs₀ (F := Bits)) Variants.none () Set.univ) :
    Cert.frame_Kernel := fun m g _ =>
  (θ_run (Cert.Kernel.defs (F := Bits)) _ _).mono (fun _ h c => (h c).2)
    (Cert.Kernel.Pr.run_main (F := Bits) m g (hb m))

/-- The idealized kernel's frame: its run with the result's value dropped. -/
theorem frame_pi_of
    (hb : ∀ (m : (ℓ : Loc Cert.KernelIdeal.nD Cert.KernelIdeal.τ Cert.KernelIdeal.sig) → Buf (Elt Ideal) ℓ) (c : Dev Cert.KernelIdeal.nD),
      BodyObligation (Cert.KernelIdeal.Pr.dats (F := Ideal) m Cert.KernelIdeal.Pr.shrF 0 c) (Cert.KernelIdeal.defs₀ (F := Ideal)) Variants.none () Set.univ) :
    Cert.frame_KernelIdeal := fun m g _ =>
  (θ_run (Cert.KernelIdeal.defs (F := Ideal)) _ _).mono (fun _ h c => (h c).2)
    (Cert.KernelIdeal.Pr.run_main (F := Ideal) m g (hb m))

/-- The idealized kernel against the reference: from memories where each device holds its blocks of the
    reference's two matrices, both run, every device's result and the reference's result end at the whole product,
    and the arguments of both end unchanged. -/
theorem algebraic_of
    (hb : ∀ (m : (ℓ : Loc Cert.KernelIdeal.nD Cert.KernelIdeal.τ Cert.KernelIdeal.sig) → Buf (Elt Ideal) ℓ) (c : Dev Cert.KernelIdeal.nD),
      BodyObligation (Cert.KernelIdeal.Pr.dats (F := Ideal) m Cert.KernelIdeal.Pr.shrF 0 c) (Cert.KernelIdeal.defs₀ (F := Ideal)) Variants.none () Set.univ) :
    Cert.algebraic_KernelIdeal_ReferenceIdeal := fun m g m' g' _ hagree =>
  ⟨Cert.Spec.prod
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
   (θ_run (Cert.KernelIdeal.defs (F := Ideal)) _ _).mono
      (fun _ h c => ⟨(h c).1.trans
          (Cert.KernelIdeal.Value.outFull_eq m _ _ (fun c => (hagree c).1) (fun c => (hagree c).2)), (h c).2⟩)
      (Cert.KernelIdeal.Pr.run_main (F := Ideal) m g (hb m)),
   Cert.Proof.Ref.run_ref m' g'⟩

/-- info: 'Cert.Proof.Asm.frame_p_of' depends on axioms: [propext, Classical.choice, Quot.sound] -/
#guard_msgs in #print axioms frame_p_of

/-- info: 'Cert.Proof.Asm.frame_pi_of' depends on axioms: [propext, Classical.choice, Quot.sound] -/
#guard_msgs in #print axioms frame_pi_of

/-- info: 'Cert.Proof.Asm.algebraic_of' depends on axioms: [propext, Classical.choice, Quot.sound] -/
#guard_msgs in #print axioms algebraic_of

end Cert.Proof.Asm

end
-- ==== Proof.Steps.lean ====
/-
  One lemma per kind of cross-device step of the body: the rounds library's rule at this protocol's cells, the
  schedule's tables looked up, the landing's contents identified with the named contents.
-/
import proofs.«900888_g7700000000000889_dist_matmul_k_i_m768_n768_k384_v7x_i16_bf16_1_alg».proof.Proof.Proto
import Idealize.ShloMosaic.Lib.Pipeline.Value
import Idealize.ShloMosaic.Lib.ValueLayout
import Idealize.ShloMosaic.Lib.ValueIdx

noncomputable section
namespace Cert.KernelIdeal.Pr
open Cert.KernelIdeal Cert.KernelIdeal.Gen Cert.KernelIdeal.Geo Cert.KernelIdeal.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (shr : Fin 16 → PosShare TreeShare)

/-- What device c hands the device i places ahead with its unit on that device's barrier. -/
def barGive (c : Dev nD) (i : Fin 16) : sProp 𝕄 :=
  iprop((∃ f, slotPts c 0 (neg i) f) ∗ (∃ f, slotPts c 1 (neg i) f)
    ∗ (∃ f, outPts c (peer c i) 0 fullShare f) ∗ (∃ f, outPts c (peer c i) 1 fullShare f)
    ∗ reached ER (cel c (rsR 0 (neg i))) 0 ∗ reached ER (cel c (rsR 1 (neg i))) 0
    ∗ reached ER (cel c (agR 0 (neg i))) 0 ∗ reached ER (cel c (agR 1 (neg i))) 0)

theorem barPay_eq (t c : Dev nD) (j : Fin 16) (e : peer t j = c) :
    barPay (F := F) t j = iprop((∃ f, slotPts c 0 j f) ∗ (∃ f, slotPts c 1 j f)
    ∗ (∃ f, outPts c t 0 fullShare f) ∗ (∃ f, outPts c t 1 fullShare f)
    ∗ reached ER (cel c (rsR 0 j)) 0 ∗ reached ER (cel c (rsR 1 j)) 0
    ∗ reached ER (cel c (agR 0 j)) 0 ∗ reached ER (cel c (agR 1 j)) 0) := by
  subst e; rfl

theorem barPay_peer (c : Dev nD) (i : Fin 16) : barPay (F := F) (peer c i) (neg i) = barGive c i :=
  barPay_eq (peer c i) c (neg i) (peer_peer_neg c i)

/-- The signal to the device 1 + r places ahead: its barrier duty that names c is paid with what c hands it. -/
theorem wp_sig (K : GSem nD τ sig → ℕ) (c : Dev nD) (i : Fin 16) (hi : i ≠ 0) (n : Dev nD) (hn : n = peer c i)
    {α : Type} {Q : α → sProp 𝕄} {k : PUnit → Prog (TpuEff nD τ sig (Elt F) Λ₀ .tc) α}
    (O : CellTallies nD τ sig Unit) (W : Waits sig Unit) :
    iprop(cellInv ER (Rd m shr) (K (cel (peer c i) (.reg barS))) (cel (peer c i) (.reg barS))
        ∗ owes (c : Thread nD τ) (O + tallyAt (cel (peer c i) (.reg barS)) () 1) W
        ∗ dutyTok ER (cel (peer c i) (.reg barS)) 0 (neg i)
        ∗ barGive c i
        ∗ reached ER (cel (peer c i) (.reg barS)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  rw [← barPay_peer c i, ← payload_bar m shr (peer c i) (neg i)]
  exact Rounds.wp_signal Variants.none ER (Rd m shr) (c : Thread nD τ) none (dst := (peer c i : Thread nD τ)) (κ := K (cel (peer c i) (.reg barS)))
    (d := neg i) (by rw [duties_bar]; exact Finset.mem_erase.mpr ⟨neg_ne_zero i hi, Finset.mem_univ _⟩) (amount_bar m shr (peer c i) (neg i)) () O rfl

/-- The ring offset of a copy is never zero. -/
theorem off_ne_zero (r : Fin 15) : off r ≠ 0 := by revert r; decide

/-- The send cell's payload at the offset of copy number r is that copy's source. -/
theorem rsSPay_off (c : Dev nD) (h : Fin 2) (r : Fin 15) : rsSPay m c h (off r) = srcPts m c r h := by
  unfold rsSPay
  rw [dif_neg (off_ne_zero r)]
  exact congrArg (fun x => srcPts m c x h) (Fin.ext (by show 1 + r.val - 1 = r.val; omega))

/-! ## The barrier wait -/

/-- What the fifteen units on c's barrier bring: from every other device its two slots, its two blocks of c's rows, and the four open cells. -/
def barGot (c : Dev nD) : sProp 𝕄 := bigSep (Finset.univ.erase (0 : Fin 16)) (fun j => barPay (F := F) c j)

theorem wp_wait_bar (K : GSem nD τ sig → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (Rd m shr) (K (cel c (.reg barS))) (cel c (.reg barS)) ∗ cred (tallyAt (cel c (.reg barS)) () 15)
        ∗ owes (c : Thread nD τ) O W ∗ MayWait (c : Thread nD τ) (.reg barS) () O ∗ atPos ER (cel c (.reg barS)) 0 ∅ 0)
      ⊢ iprop(((owes (c : Thread nD τ) O (insert (SemLoc.reg barS, ()) W) ∗ atPos ER (cel c (.reg barS)) 1 ∅ 0 ∗ reached ER (cel c (.reg barS)) 1 ∗ barGot c)
            -∗ wp frame (wpE (defs₀ (F := F)) Variants.none (c : Thread nD τ) none) Set.univ (k ⟨⟩) Q)
          -∗ wp frame (wpE (defs₀ (F := F)) Variants.none (c : Thread nD τ) none) Set.univ (.op (.semWait barS 15) k) Q) := by
  have e : bigSep ((Rd (F := F) m shr).duties (cel c (.reg barS)) 0 \ ∅) (fun d => (Rd (F := F) m shr).payload (cel c (.reg barS)) 0 d) = barGot c := by
    rw [Finset.sdiff_empty, duties_bar]
    exact bigSep_congr fun d _ => payload_bar m shr c d
  rw [← e]
  exact Rounds.wp_wait_rest_token Variants.none ER (Rd m shr) (c : Thread nD τ) none (κ := K (cel c (.reg barS)))
    (wpE_semWait_eq Variants.none (c : Thread nD τ) none Set.univ) (Set.mem_univ _) () (O := O) (W := W) (R := 0) (m := 0) (T := ∅)
    (by rw [Nat.zero_add, expect_bar])

/-! ## The reduce-scatter -/

/-- Where index (a, b) of receive slot (h, j) sits in the receive buffer: at (h, j, a, b). -/
theorem slotV_emb (h : Fin 2) (j : Fin 16) (a : Fin 24) (b : Fin 768) :
    (slotV h j).view.emb (ix2 a b) = ix4 h j a b := by
  have e : (slotV h j).view.emb (ix2 a b)
      = (Rect.unit (s := S2x16x24x768) ![h.val, j.val, 0, 0] S1x1x24x768.size (slot_inb h j)).emb
          (Shape.reshapeEquiv squeezes_S1x1x24x768_S24x768.numel_eq (ix2 a b)) := rfl
  rw [e, reshapeEquiv_ix2_11ab]
  funext k
  apply Fin.ext
  rw [Rect.emb_apply]
  match k with
  | ⟨0, _⟩ => show h.val + 1 * 0 = h.val; omega
  | ⟨1, _⟩ => show j.val + 1 * 0 = j.val; omega
  | ⟨2, _⟩ => show 0 + 1 * a.val = a.val; omega
  | ⟨3, _⟩ => show 0 + 1 * b.val = b.val; omega

/-- Where index y of the source of copy number r sits in the partial product: in half h of the rows of the device 1 + r ahead. -/
theorem srcV_emb (c : Dev nD) (r : Fin 15) (h : Fin 2) (y : S24x768.Idx) :
    (srcV c r h).view.emb y = rowIx (peer c (off r)) h y := by
  have e : (srcV c r h).view.emb y
      = (Rect.unit (s := S768x768) (k0_off1 c (BitVec.ofNat 32 (1 + r.val)) (BitVec.ofNat 32 (24 * h.val))) S24x768.size (k0_off1_inb c r h)).emb y := rfl
  rw [e]
  funext k
  apply Fin.ext
  rw [Rect.emb_apply]
  match k with
  | ⟨0, _⟩ =>
    have e0 := Geo.off1_row c r h
    show k0_off1 c (BitVec.ofNat 32 (1 + r.val)) (BitVec.ofNat 32 (24 * h.val)) 0 + 1 * (y 0).val = (peer c (off r)).val * 48 + 24 * h.val + (y 0).val
    rw [e0]
    show (peer c (off r)).val * 48 + 24 * h.val + 1 * (y 0).val = _
    omega
  | ⟨1, _⟩ =>
    have e1 := Geo.off1_col c r h
    show k0_off1 c (BitVec.ofNat 32 (1 + r.val)) (BitVec.ofNat 32 (24 * h.val)) 1 + 1 * (y 1).val = (y 1).val
    rw [e1]
    omega

/-- The landing of copy number r of half h: slot (h, 1 + r) of the device 1 + r ahead, written with c's rows of that device,
    holds what that device's receive buffer is to hold there. -/
theorem rs_land (c : Dev nD) (h : Fin 2) (r : Fin 15)
    (fd : Buf (Elt F) ((slotV h (off r)).view.loc (peer c (off r) : Thread nD τ))) :
    ∀ i ∈ (slotV h (off r)).view.set,
      (slotV h (off r)).view.write (Elt F) fd ((srcV c r h).view.read (Elt F) (pbV m c)) Finset.univ i
        = rsFull m (peer c (off r)) i := by
  intro i hi
  obtain ⟨y, rfl⟩ := View.exists_emb_of_mem_set (slotV h (off r)).view hi
  rw [View.write_emb_of_mem _ _ (Finset.mem_univ y), View.read_apply, srcV_emb]
  have ey : (slotV h (off r)).view.emb y = ix4 h (off r) (⟨(y 0).val, (y 0).isLt⟩ : Fin 24) (⟨(y 1).val, (y 1).isLt⟩ : Fin 768) := by
    rw [← slotV_emb]; exact congrArg _ (eq_ix2 y)
  rw [ey]
  show pbV m c (rowIx (peer c (off r)) h y) = pbV m (frm (peer c (off r)) (off r)) (rowIx (peer c (off r)) h y)
  rw [frm_peer]

/-- Copy number r of half h: c's rows of the device 1 + r ahead go to that device's slot (h, 1 + r). -/
theorem wp_rs_send (K : GSem nD τ sig → ℕ) (c : Dev nD) (h : Fin 2) (r : Fin 15) (n : Dev nD) (hn : n = peer c (off r))
    {hsc : (slotV h (off r) : Memref sig (Dev.tc n : Thread nD τ).2.kind .vmem S24x768 .bf16).view.ref.isScScratch = false}
    {hsrc : (srcV c r h).view.WordExact} {hdst : (slotV h (off r)).view.WordExact}
    {hsem : DmaTarget.Typed .vmem (rsR h (off r)) (.remote (Dev.tc n : Thread nD τ) (slotV h (off r)) (rsS h (off r)) hsc)}
    {α : Type} {Q : α → sProp 𝕄} {k : PUnit → Prog (TpuEff nD τ sig (Elt F) Λ₀ .tc) α}
    (fd : Buf (Elt F) ((slotV h (off r)).view.loc (peer c (off r) : Thread nD τ))) (O : CellTallies nD τ sig Unit) (W : Waits sig Unit) :
    iprop(cellInv ER (Rd m shr) (K (cel c (rsS h (off r)))) (cel c (rsS h (off r)))
        ∗ cellInv ER (Rd m shr) (K (cel (peer c (off r)) (rsR h (off r)))) (cel (peer c (off r)) (rsR h (off r)))
        ∗ srcPts m c r h ∗ slotPts (peer c (off r)) h (off r) fd
        ∗ owes (c : Thread nD τ) (O + tallyAt (cel (peer c (off r)) (rsR h (off r))) () NS) W
        ∗ dutyTok ER (cel c (rsS h (off r))) 0 0 ∗ reached ER (cel c (rsS h (off r))) 0
        ∗ dutyTok ER (cel (peer c (off r)) (rsR h (off r))) 0 0 ∗ reached ER (cel (peer c (off r)) (rsR h (off r))) 0)
      ⊢ iprop(((cred (tallyAt (cel c (rsS h (off r))) () NS) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (srcV c r h) (.remote (Dev.tc n : Thread nD τ) (slotV h (off r)) (rsS h (off r)) hsc) (rsR h (off r)) hsrc hdst hsem) k) Q) := by
  subst hn
  have hj : off r ≠ 0 := off_ne_zero r
  exact Rounds.wp_send_pointsTo Variants.none ER (Rd m shr) (c : Thread nD τ) none
    (c' := (peer c (off r) : Thread nD τ)) (src := srcV c r h) (dst := slotV h (off r)) (sS := rsS h (off r)) (sem := rsR h (off r))
    (q := fullShare) (fs := pbV m c) (fd := fd) (r₁ := 0) (r₂ := 0) (d₁ := 0) (d₂ := 0)
    (κ₁ := K (cel c (rsS h (off r)))) (κ₂ := K (cel (peer c (off r)) (rsR h (off r))))
    (by rw [duties_rsS m shr c h (off r) hj]; exact Finset.mem_singleton_self _)
    (by rw [duties_rsR m shr (peer c (off r)) h (off r) hj]; exact Finset.mem_singleton_self _)
    () () NS rfl (amount_rsS m shr c h (off r) 0) (amount_rsR m shr (peer c (off r)) h (off r) 0) O rfl
    (Entails.of_eq (by rw [payload_rsS, rsSPay_off]; rfl))
    (Entails.of_eq (by
      rw [payload_rsR]
      exact pointsTo_congr (rs_land m c h r fd)))

/-- The wait on c's receive cell (h, 1 + r) of the reduce-scatter: the slot, landed. The wait names its amount by a view `dv` of the piece's credit. -/
theorem wp_wait_rsR (K : GSem nD τ sig → ℕ) (c : Dev nD) (h : Fin 2) (r : Fin 15)
    {sv dv : Memref sig .tc .vmem S24x768 .bf16} {hs : sv.view.WordExact} {hd : dv.view.WordExact} (hN : dv.view.dmaCredit = NS)
    {α : Type} {Q : α → sProp 𝕄} {k : PUnit → Prog (TpuEff nD τ sig (Elt F) Λ₀ .tc) α}
    (O : CellTallies nD τ sig Unit) (W : Waits sig Unit) :
    iprop(cellInv ER (Rd m shr) (K (cel c (rsR h (off r)))) (cel c (rsR h (off r))) ∗ cred (tallyAt (cel c (rsR h (off r))) () NS)
        ∗ owes (c : Thread nD τ) O W ∗ MayWait (c : Thread nD τ) (rsR h (off r)) () O ∗ atPos ER (cel c (rsR h (off r))) 0 ∅ 0)
      ⊢ iprop(((owes (c : Thread nD τ) O (insert (rsR h (off r), ()) W) ∗ atPos ER (cel c (rsR h (off r))) 1 ∅ 0 ∗ rsRPay m c h (off r))
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch4 h (off r)) sv dv hs hd) k) Q) := by
  have hj : off r ≠ 0 := off_ne_zero r
  have e : bigSep ((Rd (F := F) m shr).duties (cel c (rsR h (off r))) 0 \ ∅) (fun d => (Rd (F := F) m shr).payload (cel c (rsR h (off r))) 0 d) = rsRPay m c h (off r) := by
    rw [Finset.sdiff_empty, duties_rsR m shr c h (off r) hj, bigSep_singleton, payload_rsR]
  rw [← hN]
  iintro ⟨Hg, Hc, HL, Hlev, Hat⟩ Hk
  iapply (Rounds.wp_wait_rest_token Variants.none ER (Rd m shr) (c : Thread nD τ) none (κ := K (cel c (rsR h (off r))))
      (wpE_waitDma2_eq Variants.none (c : Thread nD τ) none Set.univ) (Set.mem_univ _) () (O := O) (W := W) (R := 0) (m := 0) (T := ∅)
      (by rw [Nat.zero_add, hN, expect_rsR m shr c h (off r) hj])) $$ [Hg Hc HL Hlev Hat]
  · isplitl [Hg]; · iexact Hg
    isplitl [Hc]; · iexact Hc
    isplitl [HL]; · iexact HL
    isplitl [Hlev]; · iexact Hlev
    iexact Hat
  iintro ⟨HO, Hat, -, Hpay⟩
  ihave Hp := (Entails.of_eq e) $$ Hpay
  iapply Hk
  isplitl [HO]; · iexact HO
  isplitl [Hat]; · iexact Hat
  iexact Hp

/-- The wait on c's send cell (h, 1 + r) of the reduce-scatter: the source back. -/
theorem wp_wait_rsS (K : GSem nD τ sig → ℕ) (c : Dev nD) (h : Fin 2) (r : Fin 15)
    {sv dv : Memref sig .tc .vmem S24x768 .bf16} {hs : sv.view.WordExact} {hd : dv.view.WordExact} (hN : dv.view.dmaCredit = NS)
    {α : Type} {Q : α → sProp 𝕄} {k : PUnit → Prog (TpuEff nD τ sig (Elt F) Λ₀ .tc) α}
    (W : Waits sig Unit) :
    iprop(cellInv ER (Rd m shr) (K (cel c (rsS h (off r)))) (cel c (rsS h (off r))) ∗ cred (tallyAt (cel c (rsS h (off r))) () NS)
        ∗ owes (c : Thread nD τ) 0 W ∗ atPos ER (cel c (rsS h (off r))) 0 ∅ 0)
      ⊢ iprop(((owes (c : Thread nD τ) 0 (insert (rsS h (off r), ()) W) ∗ atPos ER (cel c (rsS h (off r))) 1 ∅ 0 ∗ srcPts m c r h)
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch3 h (off r)) sv dv hs hd) k) Q) := by
  have hj : off r ≠ 0 := off_ne_zero r
  have e : bigSep ((Rd (F := F) m shr).duties (cel c (rsS h (off r))) 0 \ ∅) (fun d => (Rd (F := F) m shr).payload (cel c (rsS h (off r))) 0 d) = srcPts m c r h := by
    rw [Finset.sdiff_empty, duties_rsS m shr c h (off r) hj, bigSep_singleton, payload_rsS]
    exact rsSPay_off m c h r
  rw [← hN]
  iintro ⟨Hg, Hc, HL, Hat⟩ Hk
  iapply (Rounds.wp_wait_rest_token Variants.none ER (Rd m shr) (c : Thread nD τ) none (κ := K (cel c (rsS h (off r))))
      (wpE_waitDma2_eq Variants.none (c : Thread nD τ) none Set.univ) (Set.mem_univ _) () (O := 0) (W := W) (R := 0) (m := 0) (T := ∅)
      (by rw [Nat.zero_add, hN, expect_rsS m shr c h (off r) hj])) $$ [Hg Hc HL Hat]
  · isplitl [Hg]; · iexact Hg
    isplitl [Hc]; · iexact Hc
    isplitl [HL]; · iexact HL
    isplitr; · rw [MayWait_zero]; iempintro
    iexact Hat
  iintro ⟨HO, Hat, -, Hpay⟩
  ihave Hp := (Entails.of_eq e) $$ Hpay
  iapply Hk
  isplitl [HO]; · iexact HO
  isplitl [Hat]; · iexact Hat
  iexact Hp

/-! ## The all-gather -/

/-- The receive cell's payload of the all-gather at the device the rows come from, named outright. -/
theorem agRPay_eq (d s : Dev nD) (h : Fin 2) (j : Fin 16) (e : frm d j = s) :
    agRPay m d h j = outPts d s h fullShare (outFull m) := by
  subst e; rfl

/-- The landing of an all-gather copy: the block of rows written with what the source holds there is the result's
    rows wherever the source was. -/
theorem ag_land (c d : Dev nD) (h : Fin 2)
    (fs : Buf (Elt F) ((rowsV oM c h).view.loc (c : Thread nD τ))) (hfs : ∀ i ∈ (rowsV oM c h).view.set, fs i = outFull m i)
    (fd : Buf (Elt F) ((rowsV oM c h).view.loc (d : Thread nD τ))) :
    ∀ i ∈ (rowsV oM c h).view.set,
      (rowsV oM c h).view.write (Elt F) fd ((rowsV oM c h).view.read (Elt F) fs) Finset.univ i = outFull m i := by
  intro i hi
  obtain ⟨y, rfl⟩ := View.exists_emb_of_mem_set (rowsV oM c h).view hi
  rw [View.write_emb_of_mem _ _ (Finset.mem_univ y), View.read_apply]
  exact hfs _ hi

/-- Copy number r of half h of the all-gather: c's own rows of the result go to the same rows of the device 1 + r ahead. The source is lent at the share of its copy. -/
theorem wp_ag_send (K : GSem nD τ sig → ℕ) (c : Dev nD) (h : Fin 2) (r : Fin 15) (n : Dev nD) (hn : n = peer c (off r))
    {hsc : (rowsV oM c h : Memref sig (Dev.tc n : Thread nD τ).2.kind .vmem S24x768 .bf16).view.ref.isScScratch = false}
    {hsrc : (rowsV oM c h).view.WordExact} {hdst : (rowsV oM c h).view.WordExact}
    {hsem : DmaTarget.Typed .vmem (agR h (off r)) (.remote (Dev.tc n : Thread nD τ) (rowsV oM c h) (agS h (off r)) hsc)}
    {α : Type} {Q : α → sProp 𝕄} {k : PUnit → Prog (TpuEff nD τ sig (Elt F) Λ₀ .tc) α}
    (fs : Buf (Elt F) ((rowsV oM c h).view.loc (c : Thread nD τ))) (hfs : ∀ i ∈ (rowsV oM c h).view.set, fs i = outFull m i)
    (fd : Buf (Elt F) ((rowsV oM c h).view.loc (peer c (off r) : Thread nD τ))) (O : CellTallies nD τ sig Unit) (W : Waits sig Unit) :
    iprop(cellInv ER (Rd m shr) (K (cel c (agS h (off r)))) (cel c (agS h (off r)))
        ∗ cellInv ER (Rd m shr) (K (cel (peer c (off r)) (agR h (off r)))) (cel (peer c (off r)) (agR h (off r)))
        ∗ outPts c c h (shr (off r)) fs ∗ outPts (peer c (off r)) c h fullShare fd
        ∗ owes (c : Thread nD τ) (O + tallyAt (cel (peer c (off r)) (agR h (off r))) () NO) W
        ∗ dutyTok ER (cel c (agS h (off r))) 0 0 ∗ reached ER (cel c (agS h (off r))) 0
        ∗ dutyTok ER (cel (peer c (off r)) (agR h (off r))) 0 0 ∗ reached ER (cel (peer c (off r)) (agR h (off r))) 0)
      ⊢ iprop(((cred (tallyAt (cel c (agS h (off r))) () NO) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (rowsV oM c h) (.remote (Dev.tc n : Thread nD τ) (rowsV oM c h) (agS h (off r)) hsc) (agR h (off r)) hsrc hdst hsem) k) Q) := by
  subst hn
  have hj : off r ≠ 0 := off_ne_zero r
  exact Rounds.wp_send_pointsTo Variants.none ER (Rd m shr) (c : Thread nD τ) none
    (c' := (peer c (off r) : Thread nD τ)) (src := rowsV oM c h) (dst := rowsV oM c h) (sS := agS h (off r)) (sem := agR h (off r))
    (q := shr (off r)) (fs := fs) (fd := fd) (r₁ := 0) (r₂ := 0) (d₁ := 0) (d₂ := 0)
    (κ₁ := K (cel c (agS h (off r)))) (κ₂ := K (cel (peer c (off r)) (agR h (off r))))
    (by rw [duties_agS m shr c h (off r) hj]; exact Finset.mem_singleton_self _)
    (by rw [duties_agR m shr (peer c (off r)) h (off r) hj]; exact Finset.mem_singleton_self _)
    () () NO rfl (amount_agS m shr c h (off r) 0) (amount_agR m shr (peer c (off r)) h (off r) 0) O rfl
    (Entails.of_eq (by
      rw [payload_agS]
      exact pointsTo_congr hfs))
    (Entails.of_eq (by
      rw [payload_agR, agRPay_eq m (peer c (off r)) c h (off r) (frm_peer c (off r))]
      exact pointsTo_congr (ag_land m c (peer c (off r)) h fs hfs fd)))

/-- The wait on c's receive cell (h, 1 + r) of the all-gather: the rows of the device 1 + r behind, at the result. -/
theorem wp_wait_agR (K : GSem nD τ sig → ℕ) (c : Dev nD) (h : Fin 2) (r : Fin 15)
    {sv dv : Memref sig .tc .vmem S24x768 .bf16} {hs : sv.view.WordExact} {hd : dv.view.WordExact} (hN : dv.view.dmaCredit = NO)
    {α : Type} {Q : α → sProp 𝕄} {k : PUnit → Prog (TpuEff nD τ sig (Elt F) Λ₀ .tc) α}
    (W : Waits sig Unit) :
    iprop(cellInv ER (Rd m shr) (K (cel c (agR h (off r)))) (cel c (agR h (off r))) ∗ cred (tallyAt (cel c (agR h (off r))) () NO)
        ∗ owes (c : Thread nD τ) 0 W ∗ atPos ER (cel c (agR h (off r))) 0 ∅ 0)
      ⊢ iprop(((owes (c : Thread nD τ) 0 (insert (agR h (off r), ()) W) ∗ atPos ER (cel c (agR h (off r))) 1 ∅ 0 ∗ agRPay m c h (off r))
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch6 h (off r)) sv dv hs hd) k) Q) := by
  have hj : off r ≠ 0 := off_ne_zero r
  have e : bigSep ((Rd (F := F) m shr).duties (cel c (agR h (off r))) 0 \ ∅) (fun d => (Rd (F := F) m shr).payload (cel c (agR h (off r))) 0 d) = agRPay m c h (off r) := by
    rw [Finset.sdiff_empty, duties_agR m shr c h (off r) hj, bigSep_singleton, payload_agR]
  rw [← hN]
  iintro ⟨Hg, Hc, HL, Hat⟩ Hk
  iapply (Rounds.wp_wait_rest_token Variants.none ER (Rd m shr) (c : Thread nD τ) none (κ := K (cel c (agR h (off r))))
      (wpE_waitDma2_eq Variants.none (c : Thread nD τ) none Set.univ) (Set.mem_univ _) () (O := 0) (W := W) (R := 0) (m := 0) (T := ∅)
      (by rw [Nat.zero_add, hN, expect_agR m shr c h (off r) hj])) $$ [Hg Hc HL Hat]
  · isplitl [Hg]; · iexact Hg
    isplitl [Hc]; · iexact Hc
    isplitl [HL]; · iexact HL
    isplitr; · rw [MayWait_zero]; iempintro
    iexact Hat
  iintro ⟨HO, Hat, -, Hpay⟩
  ihave Hp := (Entails.of_eq e) $$ Hpay
  iapply Hk
  isplitl [HO]; · iexact HO
  isplitl [Hat]; · iexact Hat
  iexact Hp

/-- The wait on c's send cell (h, 1 + r) of the all-gather: the source's share back. -/
theorem wp_wait_agS (K : GSem nD τ sig → ℕ) (c : Dev nD) (h : Fin 2) (r : Fin 15)
    {sv dv : Memref sig .tc .vmem S24x768 .bf16} {hs : sv.view.WordExact} {hd : dv.view.WordExact} (hN : dv.view.dmaCredit = NO)
    {α : Type} {Q : α → sProp 𝕄} {k : PUnit → Prog (TpuEff nD τ sig (Elt F) Λ₀ .tc) α}
    (W : Waits sig Unit) :
    iprop(cellInv ER (Rd m shr) (K (cel c (agS h (off r)))) (cel c (agS h (off r))) ∗ cred (tallyAt (cel c (agS h (off r))) () NO)
        ∗ owes (c : Thread nD τ) 0 W ∗ atPos ER (cel c (agS h (off r))) 0 ∅ 0)
      ⊢ iprop(((owes (c : Thread nD τ) 0 (insert (agS h (off r), ()) W) ∗ atPos ER (cel c (agS h (off r))) 1 ∅ 0 ∗ outPts c c h (shr (off r)) (outFull m))
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch5 h (off r)) sv dv hs hd) k) Q) := by
  have hj : off r ≠ 0 := off_ne_zero r
  have e : bigSep ((Rd (F := F) m shr).duties (cel c (agS h (off r))) 0 \ ∅) (fun d => (Rd (F := F) m shr).payload (cel c (agS h (off r))) 0 d) = outPts c c h (shr (off r)) (outFull m) := by
    rw [Finset.sdiff_empty, duties_agS m shr c h (off r) hj, bigSep_singleton, payload_agS]
    rfl
  rw [← hN]
  iintro ⟨Hg, Hc, HL, Hat⟩ Hk
  iapply (Rounds.wp_wait_rest_token Variants.none ER (Rd m shr) (c : Thread nD τ) none (κ := K (cel c (agS h (off r))))
      (wpE_waitDma2_eq Variants.none (c : Thread nD τ) none Set.univ) (Set.mem_univ _) () (O := 0) (W := W) (R := 0) (m := 0) (T := ∅)
      (by rw [Nat.zero_add, hN, expect_agS m shr c h (off r) hj])) $$ [Hg Hc HL Hat]
  · isplitl [Hg]; · iexact Hg
    isplitl [Hc]; · iexact Hc
    isplitl [HL]; · iexact HL
    isplitr; · rw [MayWait_zero]; iempintro
    iexact Hat
  iintro ⟨HO, Hat, -, Hpay⟩
  ihave Hp := (Entails.of_eq e) $$ Hpay
  iapply Hk
  isplitl [HO]; · iexact HO
  isplitl [Hat]; · iexact Hat
  iexact Hp

/-- A cell of c's whose one round is over closes: its counter, at zero, is c's again. -/
theorem close_cell (K : GSem nD τ sig → ℕ) (g : GSem nD τ sig) :
    iprop(cellInv ER (Rd m shr) (K g) g ∗ atPos ER g 1 ∅ 0) ⊢ iprop(|={Set.univ}=> semVal g 0) :=
  Rounds.cell_close ER (Rd m shr) (Set.mem_univ (K g)) (fun h => h) (R := 1) (duties_later m shr g)

end Cert.KernelIdeal.Pr
end
-- ==== Proof.Reads.lean ====
/-
  What the body's own loads read and what its store leaves, as the named contents: the load through the whole
  receive buffer at a slot's rectangle touches exactly that slot and reads the rows that landed there; the load of
  the own rows of the partial product reads those rows; the sums the body forms are the named halves of the result;
  the store of a summed half leaves the result on the own rows.
-/
import proofs.«900888_g7700000000000889_dist_matmul_k_i_m768_n768_k384_v7x_i16_bf16_1_alg».proof.Proof.Steps
import proofs.«900888_g7700000000000889_dist_matmul_k_i_m768_n768_k384_v7x_i16_bf16_1_alg».proof.Proof.Plumb
import Idealize.ShloMosaic.Lib.Pipeline.Value
import Idealize.ShloMosaic.Lib.ValueIdx

noncomputable section
namespace Cert.KernelIdeal.Pr
open Cert.KernelIdeal Cert.KernelIdeal.Gen Cert.KernelIdeal.Geo Cert.KernelIdeal.Vals
open Idealize.ShloMosaic Idealize.ShloMosaic.TcCoe
open Idealize.ShloMosaic.ValueIdx

variable {F : FTy → Type} [FloatOps F]
variable (m : (ℓ : Loc nD τ sig) → Buf (Elt F) ℓ)

/-- The rectangle of receive slot (h, j) in the receive buffer. -/
abbrev slotRect (h : Fin 2) (j : Fin 16) : Rect S2x16x24x768 :=
  Rect.unit (s := S2x16x24x768) ![h.val, j.val, 0, 0] S1x1x24x768.size (slot_inb h j)

/-- The load through the whole receive buffer at the slot's rectangle touches exactly the slot. -/
theorem slot_access_set (h : Fin 2) (j : Fin 16) : (rsM.access (slotRect h j)).set = (slotV h j).view.set :=
  ((View.set_slice_whole cc0_scratch2 _).trans (unit_slot_set h j)).trans (slotV_set h j).symm

/-! ## Where the indices of the rectangles sit -/

/-- Index y of the own-row rectangle sits at row 48 c + 24 h + y₀, column y₁ of the 768 x 768 shape. -/
theorem ownRect_emb (c : Dev nD) (h : Fin 2) (y : S24x768.Idx) : (ownRect c h).emb y = rowIx c h y := by
  funext k
  apply Fin.ext
  rw [Rect.emb_apply]
  match k with
  | ⟨0, _⟩ =>
    have e0 := Geo.off2_row c h
    show k0_off2 c (BitVec.ofNat 32 (24 * h.val)) 0 + 1 * (y 0).val = c.val * 48 + 24 * h.val + (y 0).val
    rw [e0]
    omega
  | ⟨1, _⟩ =>
    have e1 := Geo.off2_col c h
    show k0_off2 c (BitVec.ofNat 32 (24 * h.val)) 1 + 1 * (y 1).val = (y 1).val
    rw [e1]
    omega

/-- Through the partial product's buffer, -/
theorem ownRect_emb_pbM (c : Dev nD) (h : Fin 2) (y : S24x768.Idx) : (pbM.access (ownRect c h)).emb y = rowIx c h y :=
  ownRect_emb c h y

/-- and through the result's staging buffer. -/
theorem ownRect_emb_oM (c : Dev nD) (h : Fin 2) (y : S24x768.Idx) : (oM.access (ownRect c h)).emb y = rowIx c h y :=
  ownRect_emb c h y

/-- Index z of the rectangle of slot (h, j) sits at (h, j, z₂, z₃) of the receive buffer. -/
theorem slotRect_emb (h : Fin 2) (j : Fin 16) (z : S1x1x24x768.Idx) :
    (rsM.access (slotRect h j)).emb z
      = ix4 h j (⟨(z 2).val, (z 2).isLt⟩ : Fin 24) (⟨(z 3).val, (z 3).isLt⟩ : Fin 768) := by
  have e : (rsM.access (slotRect h j)).emb z = (slotRect h j).emb z := rfl
  rw [e]
  funext k
  apply Fin.ext
  rw [Rect.emb_apply]
  have z0 : (z 0).val < 1 := (z 0).isLt
  have z1 : (z 1).val < 1 := (z 1).isLt
  match k with
  | ⟨0, _⟩ => show h.val + 1 * (z 0).val = h.val; omega
  | ⟨1, _⟩ => show j.val + 1 * (z 1).val = j.val; omega
  | ⟨2, _⟩ => show 0 + 1 * (z 2).val = (z 2).val; omega
  | ⟨3, _⟩ => show 0 + 1 * (z 3).val = (z 3).val; omega

/-! ## The loads -/

/-- The own-row load of the partial product reads the own rows. -/
theorem own_read (c : Dev nD) (h : Fin 2) : (pbM.access (ownRect c h)).read (Elt F) (pbV m c) = ownRows m c h := by
  funext y
  rw [View.read_apply, ownRect_emb_pbM]
  rfl

/-- The load of a landed slot reads the sender's rows. -/
theorem slot_read (c : Dev nD) (h : Fin 2) (r : Fin 15) :
    (rsM.access (slotRect h (off r))).read (Elt F) (rsFull m c) = landed m c h r := by
  funext z
  rw [View.read_apply, slotRect_emb]
  rfl

/-! ## The sums -/

/-- The two sums the body forms are the two halves of the device's rows of the result. -/
theorem chunk_eq (c : Dev nD) :
    acc0 (ownRows m c 0) (landed m c 0) = chunkV m c 0 ∧ acc1 (ownRows m c 1) (landed m c 1) = chunkV m c 1 := by
  constructor
  · unfold chunkV
    rw [if_pos rfl]
  · unfold chunkV
    rw [if_neg (by decide)]

/-! ## The store -/

/-- The result at row y of half h of device c's rows is what c computes for that half there. -/
theorem outFull_rowIx (c : Dev nD) (h : Fin 2) (y : S24x768.Idx) : outFull m (rowIx c h y) = chunkV m c h y := by
  have h0 : (y 0).val < 24 := (y 0).isLt
  have hh : h.val < 2 := h.isLt
  have key : ∀ (d : Dev nD) (g : Fin 2) (y' : S24x768.Idx), d = c → g = h → y' = y → chunkV m d g y' = chunkV m c h y := by
    intro d g y' e1 e2 e3
    subst e1 e2 e3
    rfl
  refine key _ _ _ (Fin.ext ?_) (Fin.ext ?_) ?_
  · show (c.val * 48 + 24 * h.val + (y 0).val) / 48 = c.val
    omega
  · show (c.val * 48 + 24 * h.val + (y 0).val) % 48 / 24 = h.val
    omega
  · rw [eq_ix2 y]
    have a : (⟨(c.val * 48 + 24 * h.val + (y 0).val) % 24, by omega⟩ : Fin 24) = y 0 := Fin.ext (by show (c.val * 48 + 24 * h.val + (y 0).val) % 24 = (y 0).val; omega)
    show ix2 (⟨(c.val * 48 + 24 * h.val + (y 0).val) % 24, by omega⟩ : Fin 24) (⟨(y 1).val, (y 1).isLt⟩ : Fin 768) = ix2 (y 0) (y 1)
    rw [a]
    rfl

/-- The store of the summed half leaves the result on the own rows. -/
theorem own_store (c : Dev nD) (h : Fin 2) (fo : Buf (Elt F) ((oM.access (ownRect c h)).loc (c : Thread nD τ))) :
    ∀ i ∈ (oM.access (ownRect c h)).set,
      (oM.access (ownRect c h)).write (Elt F) fo (chunkV m c h) Finset.univ i = outFull m i := by
  intro i hi
  obtain ⟨y, rfl⟩ := View.exists_emb_of_mem_set (oM.access (ownRect c h)) hi
  rw [View.write_emb_of_mem _ _ (Finset.mem_univ y), ownRect_emb_oM, outFull_rowIx]
  rfl

end Cert.KernelIdeal.Pr
end
-- ==== Proof.Join.lean ====
/-
  Cutting a device's buffers into the pieces the protocol hands round, and joining them again. The result's staging
  buffer is its thirty-two row blocks: the thirty that belong to the other devices go out with the barrier units, the
  two own ones stay for the store. The receive buffer is its thirty-two slots: thirty go out with the barrier units,
  the two numbered 0 are never used. The partial product's buffer is the thirty sources of the reduce-scatter copies
  and the two own blocks. All of it is regrouping of iterated separating conjunctions along the ring's bijections.
-/
import proofs.«900888_g7700000000000889_dist_matmul_k_i_m768_n768_k384_v7x_i16_bf16_1_alg».proof.Proof.Steps
import proofs.«900888_g7700000000000889_dist_matmul_k_i_m768_n768_k384_v7x_i16_bf16_1_alg».proof.Proof.Shares
import proofs.«900888_g7700000000000889_dist_matmul_k_i_m768_n768_k384_v7x_i16_bf16_1_alg».proof.Proof.Plumb

noncomputable section
namespace Cert.KernelIdeal.Pr
open Cert.KernelIdeal Cert.KernelIdeal.Gen Cert.KernelIdeal.Geo Cert.KernelIdeal.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- Device c's own rows (half h) of its partial product: what the own-row load reads. -/
def ownPb (c : Dev nD) (h : Fin 2) : sProp 𝕄 :=
  (pbM.access (ownRect c h)).loc (c : Thread nD τ) ↦[(pbM.access (ownRect c h)).set]{fullShare} pbV m c

/-- Device c's own rows (half h) of the result buffer: what the store writes. -/
def ownOut (c : Dev nD) (h : Fin 2) (f : Buf (Elt F) ((oM.access (ownRect c h)).loc (c : Thread nD τ))) : sProp 𝕄 :=
  (oM.access (ownRect c h)).loc (c : Thread nD τ) ↦[(oM.access (ownRect c h)).set]{fullShare} f

/-! ## The ring's bijections -/

/-- The offsets from c name every device once. -/
def peerE (c : Dev nD) : Fin 16 ≃ Dev nD where
  toFun := peer c
  invFun d := ⟨(d.val + 16 - c.val) % 16, Nat.mod_lt _ (by decide)⟩
  left_inv := by revert c; decide
  right_inv := by revert c; decide

/-- So do the offsets back from c. -/
def frmE (c : Dev nD) : Fin 16 ≃ Dev nD where
  toFun := frm c
  invFun d := ⟨(c.val + 16 - d.val) % 16, Nat.mod_lt _ (by decide)⟩
  left_inv := by revert c; decide
  right_inv := by revert c; decide

/-- Copy number r read backwards: copy number 14 - r. -/
def revE : Fin 15 ≃ Fin 15 where
  toFun r := ⟨14 - r.val, by omega⟩
  invFun r := ⟨14 - r.val, by omega⟩
  left_inv := by decide
  right_inv := by decide

theorem neg_off (r : Fin 15) : neg (off r) = off (revE r) := by revert r; decide
theorem off_eq_succ (r : Fin 15) : off r = r.succ := Fin.ext (Nat.add_comm 1 r.val)

/-! ## Regrouping iterated separating conjunctions -/

section Regroup
variable {M : Type _} [URA M]

/-- Over the sixteen offsets: offset 0, then the fifteen copies' offsets. -/
theorem bigSep_fin16 (Φ : Fin 16 → sProp M) :
    bigSep Finset.univ Φ = iprop(Φ 0 ∗ bigSep Finset.univ fun r : Fin 15 => Φ (off r)) := by
  rw [bigSep_fin_succ 15 Φ]
  simp only [off_eq_succ]

/-- Over the nonzero offsets: the fifteen copies' offsets. -/
theorem bigSep_erase_zero (Φ : Fin 16 → sProp M) :
    bigSep (Finset.univ.erase (0 : Fin 16)) Φ = bigSep Finset.univ fun r : Fin 15 => Φ (off r) := by
  have e : (Finset.univ : Finset (Fin 16)).erase 0 = Finset.univ.map ⟨Fin.succ, Fin.succ_injective 15⟩ := by
    ext j
    simp only [Finset.mem_erase, Finset.mem_univ, and_true, Finset.mem_map, true_and, Function.Embedding.coeFn_mk]
    exact (Fin.exists_succ_eq).symm
  rw [e, bigSep_map]
  simp only [off_eq_succ, Function.Embedding.coeFn_mk]

/-- Over the halves and the copies: copy by copy, both halves together. -/
theorem bigSep_HR (Φ : Fin 2 → Fin 15 → sProp M) :
    (bigSep Finset.univ fun p : HR => Φ p.1 p.2) = bigSep Finset.univ fun r : Fin 15 => iprop(Φ 0 r ∗ Φ 1 r) := by
  rw [bigSep_univ_prod (fun p : HR => Φ p.1 p.2), bigSep_univ_two, bigSep_sep']

/-- Over the halves and the copies, the copies read backwards. -/
theorem bigSep_HR_rev (Φ : Fin 2 → Fin 15 → sProp M) :
    (bigSep Finset.univ fun p : HR => Φ p.1 p.2) = bigSep Finset.univ fun p : HR => Φ p.1 (revE p.2) :=
  bigSep_univ_equiv (Equiv.prodCongr (Equiv.refl (Fin 2)) revE) (fun p : HR => Φ p.1 p.2)

/-- The thirty-two row blocks, along a numbering of the devices by offsets: the thirty blocks at the copies'
    offsets, and the two at offset 0. -/
theorem bigSep_rows (e : Fin 16 ≃ Dev nD) (Φ : Dev nD → Fin 2 → sProp M) :
    (bigSep Finset.univ fun p : Dev nD × Fin 2 => Φ p.1 p.2)
      = iprop((bigSep Finset.univ fun p : HR => Φ (e (off p.2)) p.1) ∗ Φ (e 0) 0 ∗ Φ (e 0) 1) := by
  rw [bigSep_univ_prod (fun p : Dev nD × Fin 2 => Φ p.1 p.2),
    bigSep_univ_equiv e (fun s : Dev nD => bigSep Finset.univ fun h : Fin 2 => Φ s h),
    bigSep_fin16 (fun j : Fin 16 => bigSep Finset.univ fun h : Fin 2 => Φ (e j) h),
    bigSep_univ_two (fun h : Fin 2 => Φ (e 0) h),
    bigSep_univ_prod (fun p : HR => Φ (e (off p.2)) p.1),
    bigSep_univ_comm (fun (h : Fin 2) (r : Fin 15) => Φ (e (off r)) h)]
  exact BI.equiv_iff.mp ⟨BI.sep_comm, BI.sep_comm⟩

/-- The thirty-two slots: the thirty at the copies' offsets, and the two at offset 0. -/
theorem bigSep_slots (Φ : Fin 2 → Fin 16 → sProp M) :
    (bigSep Finset.univ fun p : Fin 2 × Fin 16 => Φ p.1 p.2)
      = iprop((bigSep Finset.univ fun p : HR => Φ p.1 (off p.2)) ∗ Φ 0 0 ∗ Φ 1 0) := by
  rw [bigSep_univ_prod (fun p : Fin 2 × Fin 16 => Φ p.1 p.2),
    bigSep_congr (s := Finset.univ) (fun (h : Fin 2) _ => bigSep_fin16 (fun j : Fin 16 => Φ h j)),
    bigSep_sep', bigSep_univ_two (fun h : Fin 2 => Φ h 0),
    bigSep_univ_prod (fun p : HR => Φ p.1 (off p.2))]
  exact BI.equiv_iff.mp ⟨BI.sep_comm, BI.sep_comm⟩

end Regroup

theorem ownOut_eq (c : Dev nD) (h : Fin 2) (f : Buf (Elt F) ((oM.access (ownRect c h)).loc (c : Thread nD τ))) :
    ownOut c h f = outPts c c h fullShare f := by
  have e : (oM.access (ownRect c h)).set = (rowsV oM c h).view.set := (ownRect_set_oM c h).trans (rowsV_set_oM c h).symm
  unfold ownOut outPts
  exact congrArg (fun I => (((c : Thread nD τ).loc cc0_stg2_0) ↦[I]{fullShare} f : sProp 𝕄)) e

theorem own_shares (c : Dev nD) (h : Fin 2) (f : Buf (Elt F) ((rowsV oM c h).view.loc (c : Thread nD τ))) :
    outPts c c h fullShare f ⊣⊢ bigSep Finset.univ fun r : Fin 15 => outPts c c h (shrF (off r)) f := by
  unfold outPts
  simp only [shrF_off]
  exact pointsTo_shr (ℓ := (rowsV oM c h).view.loc (c : Thread nD τ)) (I := (rowsV oM c h).view.set) (f := f)

theorem got_split (c : Dev nD) : barGot (F := F) c ⊢ bigSep Finset.univ fun r : Fin 15 => barPay (F := F) c (off r) := by
  unfold barGot
  rw [bigSep_erase_zero]

theorem peerE_apply (c : Dev nD) (j : Fin 16) : peerE c j = peer c j := rfl
theorem frmE_apply (c : Dev nD) (j : Fin 16) : frmE c j = frm c j := rfl

/-! ## The pieces as regions of the whole buffers -/

theorem srcPts_eq (c : Dev nD) (r : Fin 15) (h : Fin 2) :
    srcPts m c r h = (((c : Thread nD τ).loc cc0_scratch0) ↦[rowsSet (peer c (off r)) h]{fullShare} (pbV m c) : sProp 𝕄) := by
  unfold srcPts
  exact congrArg (fun I => (((c : Thread nD τ).loc cc0_scratch0) ↦[I]{fullShare} (pbV m c) : sProp 𝕄)) (srcV_set c r h)

theorem ownPb_eq (c : Dev nD) (h : Fin 2) :
    ownPb m c h = (((c : Thread nD τ).loc cc0_scratch0) ↦[rowsSet c h]{fullShare} (pbV m c) : sProp 𝕄) := by
  unfold ownPb
  exact congrArg (fun I => (((c : Thread nD τ).loc cc0_scratch0) ↦[I]{fullShare} (pbV m c) : sProp 𝕄)) (ownRect_set_pbM c h)

theorem outPts_eq (d s : Dev nD) (h : Fin 2) (q : PosShare TreeShare) (f : Buf (Elt F) ((d : Thread nD τ).loc cc0_stg2_0)) :
    outPts d s h q f = (((d : Thread nD τ).loc cc0_stg2_0) ↦[rowsSet s h]{q} f : sProp 𝕄) := by
  unfold outPts
  exact congrArg (fun I => (((d : Thread nD τ).loc cc0_stg2_0) ↦[I]{q} f : sProp 𝕄)) (rowsV_set_oM s h)

theorem slotPts_eq (d : Dev nD) (h : Fin 2) (j : Fin 16) (f : Buf (Elt F) ((d : Thread nD τ).loc cc0_scratch2)) :
    slotPts d h j f = (((d : Thread nD τ).loc cc0_scratch2) ↦[slotSet h j]{fullShare} f : sProp 𝕄) := by
  unfold slotPts
  exact congrArg (fun I => (((d : Thread nD τ).loc cc0_scratch2) ↦[I]{fullShare} f : sProp 𝕄)) (slotV_set h j)

theorem pb_split (c : Dev nD) :
    ((((c : Thread nD τ).loc cc0_scratch0) ↦{fullShare} (pbV m c) : sProp 𝕄))
      ⊣⊢ iprop((bigSep Finset.univ fun p : HR => srcPts m c p.2 p.1) ∗ ownPb m c 0 ∗ ownPb m c 1) := by
  have e : (bigSep Finset.univ fun p : Dev nD × Fin 2 => (((c : Thread nD τ).loc cc0_scratch0) ↦[rowsSet p.1 p.2]{fullShare} (pbV m c) : sProp 𝕄))
      = iprop((bigSep Finset.univ fun p : HR => srcPts m c p.2 p.1) ∗ ownPb m c 0 ∗ ownPb m c 1) := by
    rw [bigSep_rows (peerE c) (fun s h => (((c : Thread nD τ).loc cc0_scratch0) ↦[rowsSet s h]{fullShare} (pbV m c) : sProp 𝕄))]
    simp only [srcPts_eq, ownPb_eq, peerE_apply, peer_zero]
  exact (whole_rows_pbM (Ix := Unit) (Val := Elt F) (Name := ℕ) (U := UU) (Lvl := ℕ) (q := fullShare) c (pbV m c)).trans (BiEntails.of_eq e)

theorem out_join (c : Dev nD) :
    iprop((bigSep Finset.univ fun p : HR => agRPay m c p.1 (off p.2)) ∗ outPts c c 0 fullShare (outFull m) ∗ outPts c c 1 fullShare (outFull m))
      ⊢ ((((c : Thread nD τ).loc cc0_stg2_0) ↦{fullShare} (outFull m) : sProp 𝕄)) := by
  have e : (bigSep Finset.univ fun p : Dev nD × Fin 2 => (((c : Thread nD τ).loc cc0_stg2_0) ↦[rowsSet p.1 p.2]{fullShare} (outFull m) : sProp 𝕄))
      = iprop((bigSep Finset.univ fun p : HR => agRPay m c p.1 (off p.2)) ∗ outPts c c 0 fullShare (outFull m) ∗ outPts c c 1 fullShare (outFull m)) := by
    rw [bigSep_rows (frmE c) (fun s h => (((c : Thread nD τ).loc cc0_stg2_0) ↦[rowsSet s h]{fullShare} (outFull m) : sProp 𝕄))]
    simp only [agRPay, outPts_eq, frmE_apply, frm_zero]
  rw [← e]
  exact (whole_rows_oM (Ix := Unit) (Val := Elt F) (Name := ℕ) (U := UU) (Lvl := ℕ) (q := fullShare) c (outFull m)).2

theorem rs_join (c : Dev nD) (frs : Buf (Elt F) ((c : Thread nD τ).loc cc0_scratch2)) :
    iprop((bigSep Finset.univ fun p : HR => rsRPay m c p.1 (off p.2)) ∗ slotPts c 0 0 frs ∗ slotPts c 1 0 frs)
      ⊢ (∃ f, (((c : Thread nD τ).loc cc0_scratch2) ↦{fullShare} f) : sProp 𝕄) := by
  -- one function for the whole buffer: the idle slots' contents on the slots numbered 0, the landed rows elsewhere
  let g : Buf (Elt F) ((c : Thread nD τ).loc cc0_scratch2) := fun z => if (z 1).val = 0 then frs z else rsFull m c z
  have e1 : ∀ (h : Fin 2) (r : Fin 15), rsRPay m c h (off r)
      = (((c : Thread nD τ).loc cc0_scratch2) ↦[slotSet h (off r)]{fullShare} g : sProp 𝕄) := fun h r => by
    unfold rsRPay
    rw [slotPts_eq]
    refine pointsTo_congr fun z hz => ?_
    have hz1 : (z 1).val = (off r).val := (mem_slotSet.mp hz).2
    have : (z 1).val ≠ 0 := by rw [hz1]; simp [off]
    exact (if_neg this).symm
  have e2 : ∀ h : Fin 2, slotPts c h 0 frs
      = (((c : Thread nD τ).loc cc0_scratch2) ↦[slotSet h 0]{fullShare} g : sProp 𝕄) := fun h => by
    rw [slotPts_eq]
    refine pointsTo_congr fun z hz => ?_
    have hz1 : (z 1).val = 0 := (mem_slotSet.mp hz).2
    exact (if_pos hz1).symm
  simp only [e1, e2]
  rw [← bigSep_slots (fun h j => (((c : Thread nD τ).loc cc0_scratch2) ↦[slotSet h j]{fullShare} g : sProp 𝕄))]
  iintro H
  iexists g
  iapply (whole_slots (Ix := Unit) (Val := Elt F) (Name := ℕ) (U := UU) (Lvl := ℕ) (q := fullShare) c g).2
  iexact H

/-! ## What goes out with the barrier units -/

/-- The result's staging buffer: the other devices' rows, copy by copy, and the two own blocks. -/
theorem out_cut (c : Dev nD) (fo : Buf (Elt F) ((c : Thread nD τ).loc cc0_stg2_0)) :
    ((((c : Thread nD τ).loc cc0_stg2_0) ↦{fullShare} fo : sProp 𝕄))
      ⊣⊢ iprop((bigSep Finset.univ fun r : Fin 15 => iprop(outPts c (peer c (off r)) 0 fullShare fo ∗ outPts c (peer c (off r)) 1 fullShare fo))
          ∗ ownOut c 0 fo ∗ ownOut c 1 fo) := by
  have e : (bigSep Finset.univ fun p : Dev nD × Fin 2 => (((c : Thread nD τ).loc cc0_stg2_0) ↦[rowsSet p.1 p.2]{fullShare} fo : sProp 𝕄))
      = iprop((bigSep Finset.univ fun r : Fin 15 => iprop(outPts c (peer c (off r)) 0 fullShare fo ∗ outPts c (peer c (off r)) 1 fullShare fo))
          ∗ ownOut c 0 fo ∗ ownOut c 1 fo) := by
    rw [bigSep_rows (peerE c) (fun s h => (((c : Thread nD τ).loc cc0_stg2_0) ↦[rowsSet s h]{fullShare} fo : sProp 𝕄)),
      ← bigSep_HR (fun h r => outPts c (peer c (off r)) h fullShare fo)]
    simp only [ownOut_eq, outPts_eq, peerE_apply, peer_zero]
  exact (whole_rows_oM (Ix := Unit) (Val := Elt F) (Name := ℕ) (U := UU) (Lvl := ℕ) (q := fullShare) c fo).trans (BiEntails.of_eq e)

/-- The receive buffer: the slots the other devices write, numbered as the receiver of copy r numbers them, and the two idle ones. -/
theorem slot_cut (c : Dev nD) (frs : Buf (Elt F) ((c : Thread nD τ).loc cc0_scratch2)) :
    ((((c : Thread nD τ).loc cc0_scratch2) ↦{fullShare} frs : sProp 𝕄))
      ⊣⊢ iprop((bigSep Finset.univ fun r : Fin 15 => iprop(slotPts c 0 (neg (off r)) frs ∗ slotPts c 1 (neg (off r)) frs))
          ∗ slotPts c 0 0 frs ∗ slotPts c 1 0 frs) := by
  have e : (bigSep Finset.univ fun p : Fin 2 × Fin 16 => (((c : Thread nD τ).loc cc0_scratch2) ↦[slotSet p.1 p.2]{fullShare} frs : sProp 𝕄))
      = iprop((bigSep Finset.univ fun r : Fin 15 => iprop(slotPts c 0 (neg (off r)) frs ∗ slotPts c 1 (neg (off r)) frs))
          ∗ slotPts c 0 0 frs ∗ slotPts c 1 0 frs) := by
    rw [bigSep_slots (fun h j => (((c : Thread nD τ).loc cc0_scratch2) ↦[slotSet h j]{fullShare} frs : sProp 𝕄)),
      bigSep_HR_rev (fun h r => (((c : Thread nD τ).loc cc0_scratch2) ↦[slotSet h (off r)]{fullShare} frs : sProp 𝕄)),
      ← bigSep_HR (fun h r => slotPts c h (neg (off r)) frs)]
    simp only [slotPts_eq, neg_off]
  exact (whole_slots (Ix := Unit) (Val := Elt F) (Name := ℕ) (U := UU) (Lvl := ℕ) (q := fullShare) c frs).trans (BiEntails.of_eq e)

/-- The own receive cells are open: said copy by copy, numbered as the receiver of copy r numbers them. -/
theorem opens_cut (c : Dev nD) : opens (F := F) c ⊢ bigSep Finset.univ fun r : Fin 15 =>
    iprop(reached ER (cel c (rsR 0 (neg (off r)))) 0 ∗ reached ER (cel c (rsR 1 (neg (off r)))) 0
      ∗ reached ER (cel c (agR 0 (neg (off r)))) 0 ∗ reached ER (cel c (agR 1 (neg (off r)))) 0) := by
  have e : (bigSep Finset.univ fun p : HR => iprop(reached ER (cel c (rsR p.1 (off p.2))) 0 ∗ reached ER (cel c (agR p.1 (off p.2))) 0) : sProp 𝕄)
      = bigSep Finset.univ fun r : Fin 15 => iprop((reached ER (cel c (rsR 0 (neg (off r)))) 0 ∗ reached ER (cel c (agR 0 (neg (off r)))) 0)
          ∗ (reached ER (cel c (rsR 1 (neg (off r)))) 0 ∗ reached ER (cel c (agR 1 (neg (off r)))) 0)) := by
    rw [bigSep_HR_rev (fun h r => iprop(reached ER (cel c (rsR h (off r))) 0 ∗ reached ER (cel c (agR h (off r))) 0)),
      ← bigSep_HR (fun h r => iprop(reached ER (cel c (rsR h (neg (off r)))) 0 ∗ reached ER (cel c (agR h (neg (off r)))) 0))]
    simp only [neg_off]
  have h1 : opens (F := F) c ⊢ (bigSep Finset.univ fun p : HR => iprop(reached ER (cel c (rsR p.1 (off p.2))) 0 ∗ reached ER (cel c (agR p.1 (off p.2))) 0) : sProp 𝕄) := by
    have h0 : (bigSep Finset.univ fun p : HR => iprop(
          reached ER (cel c (rsS p.1 (off p.2))) 0 ∗ reached ER (cel c (rsR p.1 (off p.2))) 0
        ∗ reached ER (cel c (agS p.1 (off p.2))) 0 ∗ reached ER (cel c (agR p.1 (off p.2))) 0) : sProp 𝕄)
        ⊢ bigSep Finset.univ fun p : HR => iprop(reached ER (cel c (rsR p.1 (off p.2))) 0 ∗ reached ER (cel c (agR p.1 (off p.2))) 0) :=
      bigSep_mono fun p _ => by
        show (_ : sProp 𝕄) ⊢ _
        iintro ⟨-, HR, -, HA⟩
        isplitl [HR]; · iexact HR
        iexact HA
    unfold opens
    iintro ⟨H, -⟩
    iapply h0
    iexact H
  have h2 : (bigSep Finset.univ fun r : Fin 15 => iprop((reached ER (cel c (rsR 0 (neg (off r)))) 0 ∗ reached ER (cel c (agR 0 (neg (off r)))) 0)
          ∗ (reached ER (cel c (rsR 1 (neg (off r)))) 0 ∗ reached ER (cel c (agR 1 (neg (off r)))) 0)) : sProp 𝕄)
      ⊢ bigSep Finset.univ fun r : Fin 15 =>
        iprop(reached ER (cel c (rsR 0 (neg (off r)))) 0 ∗ reached ER (cel c (rsR 1 (neg (off r)))) 0
          ∗ reached ER (cel c (agR 0 (neg (off r)))) 0 ∗ reached ER (cel c (agR 1 (neg (off r)))) 0) :=
    bigSep_mono fun r _ => by
      show (_ : sProp 𝕄) ⊢ _
      iintro ⟨⟨HR0, HA0⟩, HR1, HA1⟩
      isplitl [HR0]; · iexact HR0
      isplitl [HR1]; · iexact HR1
      isplitl [HA0]; · iexact HA0
      iexact HA1
  exact h1.trans ((Entails.of_eq e).trans h2)

/-- Copy by copy: the two slots, the two row blocks and the four open cells are what the unit to the device of copy r carries. -/
theorem give_each (c : Dev nD) (fo : Buf (Elt F) ((c : Thread nD τ).loc cc0_stg2_0)) (frs : Buf (Elt F) ((c : Thread nD τ).loc cc0_scratch2)) :
    iprop((bigSep Finset.univ fun r : Fin 15 => iprop(outPts c (peer c (off r)) 0 fullShare fo ∗ outPts c (peer c (off r)) 1 fullShare fo))
        ∗ (bigSep Finset.univ fun r : Fin 15 => iprop(slotPts c 0 (neg (off r)) frs ∗ slotPts c 1 (neg (off r)) frs))
        ∗ (bigSep Finset.univ fun r : Fin 15 =>
            iprop(reached ER (cel c (rsR 0 (neg (off r)))) 0 ∗ reached ER (cel c (rsR 1 (neg (off r)))) 0
              ∗ reached ER (cel c (agR 0 (neg (off r)))) 0 ∗ reached ER (cel c (agR 1 (neg (off r)))) 0)))
      ⊢ bigSep Finset.univ fun r : Fin 15 => barGive (F := F) c (off r) := by
  rw [← bigSep_sep', ← bigSep_sep']
  refine bigSep_mono fun r _ => ?_
  unfold barGive
  show (_ : sProp 𝕄) ⊢ _
  iintro ⟨⟨Ho0, Ho1⟩, ⟨Hs0, Hs1⟩, HR0, HR1, HA0, HA1⟩
  isplitl [Hs0]; · iexists frs; iexact Hs0
  isplitl [Hs1]; · iexists frs; iexact Hs1
  isplitl [Ho0]; · iexists fo; iexact Ho0
  isplitl [Ho1]; · iexists fo; iexact Ho1
  isplitl [HR0]; · iexact HR0
  isplitl [HR1]; · iexact HR1
  isplitl [HA0]; · iexact HA0
  iexact HA1

theorem give_split (c : Dev nD) (fo : Buf (Elt F) ((c : Thread nD τ).loc cc0_stg2_0)) (frs : Buf (Elt F) ((c : Thread nD τ).loc cc0_scratch2)) :
    iprop((((c : Thread nD τ).loc cc0_stg2_0) ↦{fullShare} fo) ∗ (((c : Thread nD τ).loc cc0_scratch2) ↦{fullShare} frs) ∗ opens (F := F) c)
      ⊢ iprop((bigSep Finset.univ fun r : Fin 15 => barGive (F := F) c (off r)) ∗ ownOut c 0 fo ∗ ownOut c 1 fo ∗ slotPts c 0 0 frs ∗ slotPts c 1 0 frs) := by
  iintro ⟨Ho, Hs, Hop⟩
  ihave Ho' := (out_cut c fo).1 $$ Ho
  icases Ho' with ⟨Hor, Ho0, Ho1⟩
  ihave Hs' := (slot_cut c frs).1 $$ Hs
  icases Hs' with ⟨Hsr, Hs0, Hs1⟩
  ihave Hrc := (opens_cut (F := F) c) $$ Hop
  isplitl [Hor Hsr Hrc]
  · iapply (give_each c fo frs)
    isplitl [Hor]; · iexact Hor
    isplitl [Hsr]; · iexact Hsr
    iexact Hrc
  isplitl [Ho0]; · iexact Ho0
  isplitl [Ho1]; · iexact Ho1
  isplitl [Hs0]; · iexact Hs0
  iexact Hs1

end Cert.KernelIdeal.Pr
end
-- ==== Proof.BodyLem.lean ====
/-
  What the body's first stretch leaves in the partial-product buffer: the product of the device's two blocks.
-/
import proofs.«900888_g7700000000000889_dist_matmul_k_i_m768_n768_k384_v7x_i16_bf16_1_alg».proof.Proof.Reads
import proofs.«900888_g7700000000000889_dist_matmul_k_i_m768_n768_k384_v7x_i16_bf16_1_alg».proof.Proof.Join
import Idealize.ShloMosaic.Lib.Pipeline.Value

noncomputable section
namespace Cert.KernelIdeal.Pr
open Cert.KernelIdeal Cert.KernelIdeal.Gen Cert.KernelIdeal.Geo Cert.KernelIdeal.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem hz2 : (![0, 0] : Fin 2 → Nat) = fun _ => 0 := funext fun a => by fin_cases a <;> rfl

/-- A load of a whole staging buffer through the rectangle at the origin reads its contents. -/
theorem read_a (c : Dev nD) (f : Buf (Elt F) (aM.view.loc (c : Thread nD τ))) :
    aM.view.readAt (Elt F) (Rect.unit (s := S768x384) ![0, 0] S768x384.size inb_S768x384_S768x384_0_0).toLoadRect f = f :=
  Memref.readAt_unit_zero (Elt F) cc0_stg0_0 hz2 _ f
theorem read_b (c : Dev nD) (f : Buf (Elt F) (bM.view.loc (c : Thread nD τ))) :
    bM.view.readAt (Elt F) (Rect.unit (s := S384x768) ![0, 0] S384x768.size inb_S384x768_S384x768_0_0).toLoadRect f = f :=
  Memref.readAt_unit_zero (Elt F) cc0_stg1_0 hz2 _ f

/-- A load that a whole store covers reads what was stored. -/
theorem readcov_bb (w : S384x768.Idx → Elt F (.bf16)) :
    bbM.view.readCov [(⟨Rect.unit (s := S384x768) ![0, 0] S384x768.size inb_S384x768_S384x768_0_0, w⟩ : View.Piece (Elt F) S384x768 .bf16)]
      (Rect.unit (s := S384x768) ![0, 0] S384x768.size inb_S384x768_S384x768_0_0).toLoadRect = w :=
  View.readCov_unit_zero bbM.view hz2 _ w

/-- The partial-product buffer after its one whole store holds the product of the two blocks. -/
theorem pb_contents (c : Dev nD) (fp : Buf (Elt F) (pbM.view.loc (c : Thread nD τ)))
    (x : Vec F S768x384 .f32) (y : Vec F S384x768 .bf16) (hx : x = aV m c) (hy : y = k0_pay1 (bV m c))
    (h1 : ∀ a, (![0, 0] : Fin 2 → Nat) a + S768x768.size a ≤ S768x768.size a) (h2 : S768x768.ShapeCasts S768x768) :
    pbM.view.writes (Elt F) fp [⟨Rect.unit (s := S768x768) ![0, 0] S768x768.size h1, shapeCast S768x768 (k0_pay2 x y) h2⟩] = pbV m c := by
  subst hx hy
  rw [View.writes_singleton]
  exact Memref.write_access_unit_zero_univ (Elt F) cc0_scratch0 hz2 _ fp _

/-- The own rows of the result buffer after the store of the summed half hold the result there. -/
theorem stored (c : Dev nD) (h : Fin 2) (fo : Buf (Elt F) ((oM.access (ownRect c h)).loc (c : Thread nD τ)))
    (w : FVec F S24x768 .bf16) (hw : w = chunkV m c h) :
    (((oM.access (ownRect c h)).loc (c : Thread nD τ) ↦[(oM.access (ownRect c h)).set]{fullShare} ((oM.access (ownRect c h)).write (Elt F) fo w Finset.univ)) : sProp 𝕄)
      = outPts c c h fullShare (outFull m) := by
  subst hw
  rw [← ownOut_eq c h (outFull m)]
  unfold ownOut
  exact pointsTo_congr (own_store m c h fo)

/-! ## Fifteen, and twice fifteen, things one by one -/

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem bigSep_fin2 (Φ : Fin 2 → sProp 𝕄) : bigSep Finset.univ Φ = iprop(Φ 0 ∗ Φ 1) :=
  bigSep_univ_eq_bigSepL [0, 1] (by decide) (by decide) Φ

theorem bigSep_HR2 (Φ : HR → sProp 𝕄) : bigSep Finset.univ Φ
    = iprop((bigSep Finset.univ fun r : Fin 15 => Φ (0, r)) ∗ (bigSep Finset.univ fun r : Fin 15 => Φ (1, r))) := by
  rw [bigSep_univ_prod, bigSep_fin2]

/-- Thirty things indexed by half and copy number, one by one. -/
theorem bigSep_HR_list (Φ : HR → sProp 𝕄) : bigSep Finset.univ Φ
    = iprop((Φ (0, 0) ∗ Φ (0, 1) ∗ Φ (0, 2) ∗ Φ (0, 3) ∗ Φ (0, 4) ∗ Φ (0, 5) ∗ Φ (0, 6) ∗ Φ (0, 7) ∗ Φ (0, 8) ∗ Φ (0, 9) ∗ Φ (0, 10) ∗ Φ (0, 11) ∗ Φ (0, 12) ∗ Φ (0, 13) ∗ Φ (0, 14)) ∗ (Φ (1, 0) ∗ Φ (1, 1) ∗ Φ (1, 2) ∗ Φ (1, 3) ∗ Φ (1, 4) ∗ Φ (1, 5) ∗ Φ (1, 6) ∗ Φ (1, 7) ∗ Φ (1, 8) ∗ Φ (1, 9) ∗ Φ (1, 10) ∗ Φ (1, 11) ∗ Φ (1, 12) ∗ Φ (1, 13) ∗ Φ (1, 14))) := by
  rw [bigSep_HR2, bigSep_fin15, bigSep_fin15]

/-- What one unit on c's barrier brings, spelt out. -/
def gotOne (c : Dev nD) (j : Fin 16) : sProp 𝕄 :=
  iprop((∃ f, slotPts (peer c j) 0 j f) ∗ (∃ f, slotPts (peer c j) 1 j f)
    ∗ (∃ f, outPts (peer c j) c 0 fullShare f) ∗ (∃ f, outPts (peer c j) c 1 fullShare f)
    ∗ reached ER (cel (peer c j) (rsR 0 j)) 0 ∗ reached ER (cel (peer c j) (rsR 1 j)) 0
    ∗ reached ER (cel (peer c j) (agR 0 j)) 0 ∗ reached ER (cel (peer c j) (agR 1 j)) 0)

/-- The barrier wait's fifteen payloads, one by one. -/
theorem got_list (c : Dev nD) : barGot (F := F) c ⊢ iprop(barPay (F := F) c (off 0) ∗ barPay (F := F) c (off 1) ∗ barPay (F := F) c (off 2) ∗ barPay (F := F) c (off 3) ∗ barPay (F := F) c (off 4) ∗ barPay (F := F) c (off 5) ∗ barPay (F := F) c (off 6) ∗ barPay (F := F) c (off 7) ∗ barPay (F := F) c (off 8) ∗ barPay (F := F) c (off 9) ∗ barPay (F := F) c (off 10) ∗ barPay (F := F) c (off 11) ∗ barPay (F := F) c (off 12) ∗ barPay (F := F) c (off 13) ∗ barPay (F := F) c (off 14)) :=
  (got_split c).trans (Entails.of_eq (bigSep_fin15 _))

/-- The partial product cut into the thirty sources and the two own blocks, one by one. -/
theorem pb_list (c : Dev nD) : ((((c : Thread nD τ).loc cc0_scratch0) ↦{fullShare} (pbV m c) : sProp 𝕄))
    ⊢ iprop(((srcPts m c 0 0 ∗ srcPts m c 1 0 ∗ srcPts m c 2 0 ∗ srcPts m c 3 0 ∗ srcPts m c 4 0 ∗ srcPts m c 5 0 ∗ srcPts m c 6 0 ∗ srcPts m c 7 0 ∗ srcPts m c 8 0 ∗ srcPts m c 9 0 ∗ srcPts m c 10 0 ∗ srcPts m c 11 0 ∗ srcPts m c 12 0 ∗ srcPts m c 13 0 ∗ srcPts m c 14 0) ∗ (srcPts m c 0 1 ∗ srcPts m c 1 1 ∗ srcPts m c 2 1 ∗ srcPts m c 3 1 ∗ srcPts m c 4 1 ∗ srcPts m c 5 1 ∗ srcPts m c 6 1 ∗ srcPts m c 7 1 ∗ srcPts m c 8 1 ∗ srcPts m c 9 1 ∗ srcPts m c 10 1 ∗ srcPts m c 11 1 ∗ srcPts m c 12 1 ∗ srcPts m c 13 1 ∗ srcPts m c 14 1)) ∗ ownPb m c 0 ∗ ownPb m c 1) :=
  (pb_split m c).mp.trans (Entails.of_eq (by rw [bigSep_HR_list]))
theorem pb_unlist (c : Dev nD) : iprop(((srcPts m c 0 0 ∗ srcPts m c 1 0 ∗ srcPts m c 2 0 ∗ srcPts m c 3 0 ∗ srcPts m c 4 0 ∗ srcPts m c 5 0 ∗ srcPts m c 6 0 ∗ srcPts m c 7 0 ∗ srcPts m c 8 0 ∗ srcPts m c 9 0 ∗ srcPts m c 10 0 ∗ srcPts m c 11 0 ∗ srcPts m c 12 0 ∗ srcPts m c 13 0 ∗ srcPts m c 14 0) ∗ (srcPts m c 0 1 ∗ srcPts m c 1 1 ∗ srcPts m c 2 1 ∗ srcPts m c 3 1 ∗ srcPts m c 4 1 ∗ srcPts m c 5 1 ∗ srcPts m c 6 1 ∗ srcPts m c 7 1 ∗ srcPts m c 8 1 ∗ srcPts m c 9 1 ∗ srcPts m c 10 1 ∗ srcPts m c 11 1 ∗ srcPts m c 12 1 ∗ srcPts m c 13 1 ∗ srcPts m c 14 1)) ∗ ownPb m c 0 ∗ ownPb m c 1)
    ⊢ ((((c : Thread nD τ).loc cc0_scratch0) ↦{fullShare} (pbV m c) : sProp 𝕄)) :=
  (Entails.of_eq (by rw [bigSep_HR_list])).trans (pb_split m c).mpr

/-- The own rows of the result cut into the fifteen shares of the copies, one by one, and joined again. -/
theorem shares_list (c : Dev nD) (h : Fin 2) (f : Buf (Elt F) ((rowsV oM c h).view.loc (c : Thread nD τ))) :
    outPts c c h fullShare f ⊢ iprop(outPts c c h (shrF (off 0)) f ∗ outPts c c h (shrF (off 1)) f ∗ outPts c c h (shrF (off 2)) f ∗ outPts c c h (shrF (off 3)) f ∗ outPts c c h (shrF (off 4)) f ∗ outPts c c h (shrF (off 5)) f ∗ outPts c c h (shrF (off 6)) f ∗ outPts c c h (shrF (off 7)) f ∗ outPts c c h (shrF (off 8)) f ∗ outPts c c h (shrF (off 9)) f ∗ outPts c c h (shrF (off 10)) f ∗ outPts c c h (shrF (off 11)) f ∗ outPts c c h (shrF (off 12)) f ∗ outPts c c h (shrF (off 13)) f ∗ outPts c c h (shrF (off 14)) f) :=
  (own_shares c h f).mp.trans (Entails.of_eq (bigSep_fin15 _))
theorem shares_unlist (c : Dev nD) (h : Fin 2) (f : Buf (Elt F) ((rowsV oM c h).view.loc (c : Thread nD τ))) :
    iprop(outPts c c h (shrF (off 0)) f ∗ outPts c c h (shrF (off 1)) f ∗ outPts c c h (shrF (off 2)) f ∗ outPts c c h (shrF (off 3)) f ∗ outPts c c h (shrF (off 4)) f ∗ outPts c c h (shrF (off 5)) f ∗ outPts c c h (shrF (off 6)) f ∗ outPts c c h (shrF (off 7)) f ∗ outPts c c h (shrF (off 8)) f ∗ outPts c c h (shrF (off 9)) f ∗ outPts c c h (shrF (off 10)) f ∗ outPts c c h (shrF (off 11)) f ∗ outPts c c h (shrF (off 12)) f ∗ outPts c c h (shrF (off 13)) f ∗ outPts c c h (shrF (off 14)) f) ⊢ outPts c c h fullShare f :=
  (Entails.of_eq (bigSep_fin15 _).symm).trans (own_shares c h f).mpr

/-- The result's thirty received blocks and the two own ones, all at the result: the whole buffer at the result. -/
theorem out_unlist (c : Dev nD) :
    iprop(((agRPay m c 0 (off 0) ∗ agRPay m c 0 (off 1) ∗ agRPay m c 0 (off 2) ∗ agRPay m c 0 (off 3) ∗ agRPay m c 0 (off 4) ∗ agRPay m c 0 (off 5) ∗ agRPay m c 0 (off 6) ∗ agRPay m c 0 (off 7) ∗ agRPay m c 0 (off 8) ∗ agRPay m c 0 (off 9) ∗ agRPay m c 0 (off 10) ∗ agRPay m c 0 (off 11) ∗ agRPay m c 0 (off 12) ∗ agRPay m c 0 (off 13) ∗ agRPay m c 0 (off 14)) ∗ (agRPay m c 1 (off 0) ∗ agRPay m c 1 (off 1) ∗ agRPay m c 1 (off 2) ∗ agRPay m c 1 (off 3) ∗ agRPay m c 1 (off 4) ∗ agRPay m c 1 (off 5) ∗ agRPay m c 1 (off 6) ∗ agRPay m c 1 (off 7) ∗ agRPay m c 1 (off 8) ∗ agRPay m c 1 (off 9) ∗ agRPay m c 1 (off 10) ∗ agRPay m c 1 (off 11) ∗ agRPay m c 1 (off 12) ∗ agRPay m c 1 (off 13) ∗ agRPay m c 1 (off 14))) ∗ outPts c c 0 fullShare (outFull m) ∗ outPts c c 1 fullShare (outFull m))
      ⊢ ((((c : Thread nD τ).loc cc0_stg2_0) ↦{fullShare} (outFull m) : sProp 𝕄)) :=
  (Entails.of_eq (by rw [bigSep_HR_list])).trans (out_join m c)

/-- The receive buffer's thirty landed slots and the two idle ones: the whole buffer again. -/
theorem rs_unlist (c : Dev nD) (frs : Buf (Elt F) ((c : Thread nD τ).loc cc0_scratch2)) :
    iprop(((rsRPay m c 0 (off 0) ∗ rsRPay m c 0 (off 1) ∗ rsRPay m c 0 (off 2) ∗ rsRPay m c 0 (off 3) ∗ rsRPay m c 0 (off 4) ∗ rsRPay m c 0 (off 5) ∗ rsRPay m c 0 (off 6) ∗ rsRPay m c 0 (off 7) ∗ rsRPay m c 0 (off 8) ∗ rsRPay m c 0 (off 9) ∗ rsRPay m c 0 (off 10) ∗ rsRPay m c 0 (off 11) ∗ rsRPay m c 0 (off 12) ∗ rsRPay m c 0 (off 13) ∗ rsRPay m c 0 (off 14)) ∗ (rsRPay m c 1 (off 0) ∗ rsRPay m c 1 (off 1) ∗ rsRPay m c 1 (off 2) ∗ rsRPay m c 1 (off 3) ∗ rsRPay m c 1 (off 4) ∗ rsRPay m c 1 (off 5) ∗ rsRPay m c 1 (off 6) ∗ rsRPay m c 1 (off 7) ∗ rsRPay m c 1 (off 8) ∗ rsRPay m c 1 (off 9) ∗ rsRPay m c 1 (off 10) ∗ rsRPay m c 1 (off 11) ∗ rsRPay m c 1 (off 12) ∗ rsRPay m c 1 (off 13) ∗ rsRPay m c 1 (off 14))) ∗ slotPts c 0 0 frs ∗ slotPts c 1 0 frs)
      ⊢ (∃ f, (((c : Thread nD τ).loc cc0_scratch2) ↦{fullShare} f) : sProp 𝕄) :=
  (Entails.of_eq (by rw [bigSep_HR_list])).trans (rs_join m c frs)

/-- Every one of the own semaphores at zero, from the hundred and twenty closed cells one by one and the eight idle ones. -/
theorem sems_unlist (c : Dev nD) :
    iprop(idle (F := F) c ∗ ((semVal (cel c (rsS 0 (off 0))) 0 ∗ semVal (cel c (rsR 0 (off 0))) 0 ∗ semVal (cel c (agS 0 (off 0))) 0 ∗ semVal (cel c (agR 0 (off 0))) 0) ∗ (semVal (cel c (rsS 0 (off 1))) 0 ∗ semVal (cel c (rsR 0 (off 1))) 0 ∗ semVal (cel c (agS 0 (off 1))) 0 ∗ semVal (cel c (agR 0 (off 1))) 0) ∗ (semVal (cel c (rsS 0 (off 2))) 0 ∗ semVal (cel c (rsR 0 (off 2))) 0 ∗ semVal (cel c (agS 0 (off 2))) 0 ∗ semVal (cel c (agR 0 (off 2))) 0) ∗ (semVal (cel c (rsS 0 (off 3))) 0 ∗ semVal (cel c (rsR 0 (off 3))) 0 ∗ semVal (cel c (agS 0 (off 3))) 0 ∗ semVal (cel c (agR 0 (off 3))) 0) ∗ (semVal (cel c (rsS 0 (off 4))) 0 ∗ semVal (cel c (rsR 0 (off 4))) 0 ∗ semVal (cel c (agS 0 (off 4))) 0 ∗ semVal (cel c (agR 0 (off 4))) 0) ∗ (semVal (cel c (rsS 0 (off 5))) 0 ∗ semVal (cel c (rsR 0 (off 5))) 0 ∗ semVal (cel c (agS 0 (off 5))) 0 ∗ semVal (cel c (agR 0 (off 5))) 0) ∗ (semVal (cel c (rsS 0 (off 6))) 0 ∗ semVal (cel c (rsR 0 (off 6))) 0 ∗ semVal (cel c (agS 0 (off 6))) 0 ∗ semVal (cel c (agR 0 (off 6))) 0) ∗ (semVal (cel c (rsS 0 (off 7))) 0 ∗ semVal (cel c (rsR 0 (off 7))) 0 ∗ semVal (cel c (agS 0 (off 7))) 0 ∗ semVal (cel c (agR 0 (off 7))) 0) ∗ (semVal (cel c (rsS 0 (off 8))) 0 ∗ semVal (cel c (rsR 0 (off 8))) 0 ∗ semVal (cel c (agS 0 (off 8))) 0 ∗ semVal (cel c (agR 0 (off 8))) 0) ∗ (semVal (cel c (rsS 0 (off 9))) 0 ∗ semVal (cel c (rsR 0 (off 9))) 0 ∗ semVal (cel c (agS 0 (off 9))) 0 ∗ semVal (cel c (agR 0 (off 9))) 0) ∗ (semVal (cel c (rsS 0 (off 10))) 0 ∗ semVal (cel c (rsR 0 (off 10))) 0 ∗ semVal (cel c (agS 0 (off 10))) 0 ∗ semVal (cel c (agR 0 (off 10))) 0) ∗ (semVal (cel c (rsS 0 (off 11))) 0 ∗ semVal (cel c (rsR 0 (off 11))) 0 ∗ semVal (cel c (agS 0 (off 11))) 0 ∗ semVal (cel c (agR 0 (off 11))) 0) ∗ (semVal (cel c (rsS 0 (off 12))) 0 ∗ semVal (cel c (rsR 0 (off 12))) 0 ∗ semVal (cel c (agS 0 (off 12))) 0 ∗ semVal (cel c (agR 0 (off 12))) 0) ∗ (semVal (cel c (rsS 0 (off 13))) 0 ∗ semVal (cel c (rsR 0 (off 13))) 0 ∗ semVal (cel c (agS 0 (off 13))) 0 ∗ semVal (cel c (agR 0 (off 13))) 0) ∗ (semVal (cel c (rsS 0 (off 14))) 0 ∗ semVal (cel c (rsR 0 (off 14))) 0 ∗ semVal (cel c (agS 0 (off 14))) 0 ∗ semVal (cel c (agR 0 (off 14))) 0))
        ∗ ((semVal (cel c (rsS 1 (off 0))) 0 ∗ semVal (cel c (rsR 1 (off 0))) 0 ∗ semVal (cel c (agS 1 (off 0))) 0 ∗ semVal (cel c (agR 1 (off 0))) 0) ∗ (semVal (cel c (rsS 1 (off 1))) 0 ∗ semVal (cel c (rsR 1 (off 1))) 0 ∗ semVal (cel c (agS 1 (off 1))) 0 ∗ semVal (cel c (agR 1 (off 1))) 0) ∗ (semVal (cel c (rsS 1 (off 2))) 0 ∗ semVal (cel c (rsR 1 (off 2))) 0 ∗ semVal (cel c (agS 1 (off 2))) 0 ∗ semVal (cel c (agR 1 (off 2))) 0) ∗ (semVal (cel c (rsS 1 (off 3))) 0 ∗ semVal (cel c (rsR 1 (off 3))) 0 ∗ semVal (cel c (agS 1 (off 3))) 0 ∗ semVal (cel c (agR 1 (off 3))) 0) ∗ (semVal (cel c (rsS 1 (off 4))) 0 ∗ semVal (cel c (rsR 1 (off 4))) 0 ∗ semVal (cel c (agS 1 (off 4))) 0 ∗ semVal (cel c (agR 1 (off 4))) 0) ∗ (semVal (cel c (rsS 1 (off 5))) 0 ∗ semVal (cel c (rsR 1 (off 5))) 0 ∗ semVal (cel c (agS 1 (off 5))) 0 ∗ semVal (cel c (agR 1 (off 5))) 0) ∗ (semVal (cel c (rsS 1 (off 6))) 0 ∗ semVal (cel c (rsR 1 (off 6))) 0 ∗ semVal (cel c (agS 1 (off 6))) 0 ∗ semVal (cel c (agR 1 (off 6))) 0) ∗ (semVal (cel c (rsS 1 (off 7))) 0 ∗ semVal (cel c (rsR 1 (off 7))) 0 ∗ semVal (cel c (agS 1 (off 7))) 0 ∗ semVal (cel c (agR 1 (off 7))) 0) ∗ (semVal (cel c (rsS 1 (off 8))) 0 ∗ semVal (cel c (rsR 1 (off 8))) 0 ∗ semVal (cel c (agS 1 (off 8))) 0 ∗ semVal (cel c (agR 1 (off 8))) 0) ∗ (semVal (cel c (rsS 1 (off 9))) 0 ∗ semVal (cel c (rsR 1 (off 9))) 0 ∗ semVal (cel c (agS 1 (off 9))) 0 ∗ semVal (cel c (agR 1 (off 9))) 0) ∗ (semVal (cel c (rsS 1 (off 10))) 0 ∗ semVal (cel c (rsR 1 (off 10))) 0 ∗ semVal (cel c (agS 1 (off 10))) 0 ∗ semVal (cel c (agR 1 (off 10))) 0) ∗ (semVal (cel c (rsS 1 (off 11))) 0 ∗ semVal (cel c (rsR 1 (off 11))) 0 ∗ semVal (cel c (agS 1 (off 11))) 0 ∗ semVal (cel c (agR 1 (off 11))) 0) ∗ (semVal (cel c (rsS 1 (off 12))) 0 ∗ semVal (cel c (rsR 1 (off 12))) 0 ∗ semVal (cel c (agS 1 (off 12))) 0 ∗ semVal (cel c (agR 1 (off 12))) 0) ∗ (semVal (cel c (rsS 1 (off 13))) 0 ∗ semVal (cel c (rsR 1 (off 13))) 0 ∗ semVal (cel c (agS 1 (off 13))) 0 ∗ semVal (cel c (agR 1 (off 13))) 0) ∗ (semVal (cel c (rsS 1 (off 14))) 0 ∗ semVal (cel c (rsR 1 (off 14))) 0 ∗ semVal (cel c (agS 1 (off 14))) 0 ∗ semVal (cel c (agR 1 (off 14))) 0)))
      ⊢ semsZero (F := F) c := by
  unfold semsZero
  rw [bigSep_HR_list]

end Cert.KernelIdeal.Pr
end
-- ==== Proof.Owed.lean ====
/-
  What a device still owes, peeled one duty at a time in the order its body pays: each of the three sums of Proto.lean
  loses its first summand when the index moves on by one, and is empty past its last index. A positive entry of one of
  the sums sits on a cell of a TensorCore thread, of the kind the sum is about; so every wait of the body sits at a
  level strictly below everything the device owes at that point: the barrier wait (level 1) below the receive cells of
  the two collectives (levels 2 and 3), a reduce-scatter receive wait (level 2) below the all-gather receive cells
  (level 3), and a wait on a staging or send cell (level 0) below everything a device can owe at all (levels ≥ 1).
-/
import proofs.«900888_g7700000000000889_dist_matmul_k_i_m768_n768_k384_v7x_i16_bf16_1_alg».proof.Proof.Proto

noncomputable section

namespace Cert.KernelIdeal.Pr

open Cert.KernelIdeal Cert.KernelIdeal.Gen Cert.KernelIdeal.Geo Cert.KernelIdeal.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The index sets: the set from k on is the set from k + 1 on with k put in -/

theorem filter_bar_succ (k : ℕ) (hk : k < 15) :
    Finset.univ.filter (fun r : Fin 15 => k ≤ r.val)
      = insert (⟨k, hk⟩ : Fin 15) (Finset.univ.filter (fun r : Fin 15 => k + 1 ≤ r.val)) := by
  ext r
  simp only [Finset.mem_filter, Finset.mem_univ, true_and, Finset.mem_insert, Fin.ext_iff]
  omega

theorem not_mem_filter_bar (k : ℕ) (hk : k < 15) :
    (⟨k, hk⟩ : Fin 15) ∉ Finset.univ.filter (fun r : Fin 15 => k + 1 ≤ r.val) := by
  rw [Finset.mem_filter]; rintro ⟨-, h⟩; exact absurd h (Nat.not_succ_le_self k)

theorem filter_bar_end : Finset.univ.filter (fun r : Fin 15 => 15 ≤ r.val) = ∅ :=
  Finset.filter_eq_empty_iff.mpr fun r _ h => absurd r.isLt (Nat.not_lt.mpr h)

/-- The copy number 15 h + r of the pair (h, r) is injective, so the pairs from number 15 h + r on are (h, r) and the
    pairs from the next number on. -/
theorem filter_hr_succ (h : Fin 2) (r : Fin 15) :
    Finset.univ.filter (fun p : HR => 15 * h.val + r.val ≤ 15 * p.1.val + p.2.val)
      = insert ((h, r) : HR) (Finset.univ.filter (fun p : HR => 15 * h.val + r.val + 1 ≤ 15 * p.1.val + p.2.val)) := by
  ext ⟨a, b⟩
  simp only [Finset.mem_filter, Finset.mem_univ, true_and, Finset.mem_insert, Prod.mk.injEq, Fin.ext_iff]
  omega

theorem not_mem_filter_hr (h : Fin 2) (r : Fin 15) :
    ((h, r) : HR) ∉ Finset.univ.filter (fun p : HR => 15 * h.val + r.val + 1 ≤ 15 * p.1.val + p.2.val) := by
  rw [Finset.mem_filter]; rintro ⟨-, h'⟩; exact absurd h' (Nat.not_succ_le_self _)

theorem filter_hr_end : Finset.univ.filter (fun p : HR => 30 ≤ 15 * p.1.val + p.2.val) = ∅ :=
  Finset.filter_eq_empty_iff.mpr fun p _ h => by
    have h1 := p.1.isLt; have h2 := p.2.isLt; omega

/-! ## Peeling one duty off a sum -/

theorem owedBar_succ (c : Dev nD) (k : ℕ) (hk : k < 15) :
    owedBar c k = owedBar c (k + 1) + tallyAt (cel (peer c (off ⟨k, hk⟩)) (.reg barS)) () 1 := by
  unfold owedBar
  rw [filter_bar_succ k hk, Finset.sum_insert (not_mem_filter_bar k hk), add_comm]

theorem owedBar_end (c : Dev nD) : owedBar c 15 = 0 := by
  unfold owedBar; rw [filter_bar_end, Finset.sum_empty]

theorem owedRS_succ (c : Dev nD) (h : Fin 2) (r : Fin 15) :
    owedRS c (15 * h.val + r.val) = owedRS c (15 * h.val + r.val + 1) + tallyAt (cel (peer c (off r)) (rsR h (off r))) () NS := by
  unfold owedRS
  rw [filter_hr_succ h r, Finset.sum_insert (not_mem_filter_hr h r), add_comm]

theorem owedRS_end (c : Dev nD) : owedRS c 30 = 0 := by
  unfold owedRS; rw [filter_hr_end, Finset.sum_empty]

theorem owedAG_succ (c : Dev nD) (h : Fin 2) (r : Fin 15) :
    owedAG c (15 * h.val + r.val) = owedAG c (15 * h.val + r.val + 1) + tallyAt (cel (peer c (off r)) (agR h (off r))) () NO := by
  unfold owedAG
  rw [filter_hr_succ h r, Finset.sum_insert (not_mem_filter_hr h r), add_comm]

theorem owedAG_end (c : Dev nD) : owedAG c 30 = 0 := by
  unfold owedAG; rw [filter_hr_end, Finset.sum_empty]

/-- A barrier signal peels the last summand of what is owed at launch; -/
theorem peel_bar (c : Dev nD) (k : ℕ) (hk : k < 15) :
    owedAG c 0 + owedRS c 0 + owedBar c k
      = (owedAG c 0 + owedRS c 0 + owedBar c (k + 1)) + tallyAt (cel (peer c (off ⟨k, hk⟩)) (.reg barS)) () 1 := by
  rw [owedBar_succ c k hk, add_assoc (owedAG c 0 + owedRS c 0)]

/-- a reduce-scatter copy the last summand of what is left once the barrier is paid. -/
theorem peel_rs (c : Dev nD) (h : Fin 2) (r : Fin 15) :
    owedAG c 0 + owedRS c (15 * h.val + r.val)
      = (owedAG c 0 + owedRS c (15 * h.val + r.val + 1)) + tallyAt (cel (peer c (off r)) (rsR h (off r))) () NS := by
  rw [owedRS_succ c h r, add_assoc (owedAG c 0)]

/-! ## Where a sum is positive: on a TensorCore thread's cell of the sum's own kind -/

theorem owedBar_pos_kind {c : Dev nD} {k : ℕ} {g : GSem nD τ sig} {u : Unit} (h : 0 < owedBar c k g u) :
    g.1.2 = .tc ∧ kindOf g.2 = .bar := by
  unfold owedBar at h
  obtain ⟨r, -, hr⟩ := Pipeline.sum_pos_exists h
  obtain ⟨rfl, -⟩ := Pipeline.tallyAt_pos hr
  exact ⟨rfl, kind_bar⟩

theorem owedRS_pos_kind {c : Dev nD} {k : ℕ} {g : GSem nD τ sig} {u : Unit} (h : 0 < owedRS c k g u) :
    g.1.2 = .tc ∧ kindOf g.2 = .rsR := by
  unfold owedRS at h
  obtain ⟨p, -, hp⟩ := Pipeline.sum_pos_exists h
  obtain ⟨rfl, -⟩ := Pipeline.tallyAt_pos hp
  exact ⟨rfl, kind_rsR _ _⟩

theorem owedAG_pos_kind {c : Dev nD} {k : ℕ} {g : GSem nD τ sig} {u : Unit} (h : 0 < owedAG c k g u) :
    g.1.2 = .tc ∧ kindOf g.2 = .agR := by
  unfold owedAG at h
  obtain ⟨p, -, hp⟩ := Pipeline.sum_pos_exists h
  obtain ⟨rfl, -⟩ := Pipeline.tallyAt_pos hp
  exact ⟨rfl, kind_agR _ _⟩

/-- The three together. -/
theorem owed_pos_kind (c : Dev nD) (k : ℕ) (g : GSem nD τ sig) (u : Unit) :
    (0 < owedBar c k g u → g.1.2 = .tc ∧ kindOf g.2 = .bar)
      ∧ (0 < owedRS c k g u → g.1.2 = .tc ∧ kindOf g.2 = .rsR)
      ∧ (0 < owedAG c k g u → g.1.2 = .tc ∧ kindOf g.2 = .agR) :=
  ⟨owedBar_pos_kind, owedRS_pos_kind, owedAG_pos_kind⟩

/-! ## The levels of the kinds -/

theorem mem_L_of_tc {g : GSem nD τ sig} (h : g.1.2 = .tc) (u : Unit) : u ∈ L g := by
  unfold L; rw [if_pos h]; exact Finset.mem_singleton_self _

theorem lv_of_bar {g : GSem nD τ sig} (u : Unit) (h : kindOf g.2 = .bar) : lv g u = 1 := by unfold lv; rw [h]
theorem lv_of_rsR {g : GSem nD τ sig} (u : Unit) (h : kindOf g.2 = .rsR) : lv g u = 2 := by unfold lv; rw [h]
theorem lv_of_agR {g : GSem nD τ sig} (u : Unit) (h : kindOf g.2 = .agR) : lv g u = 3 := by unfold lv; rw [h]

/-- A semaphore of the four arrays is not the barrier. -/
theorem kind_dma_ne_bar (q : DmaSem sig) : kindOf (.dma q) ≠ .bar := by
  dsimp only [kindOf]; split_ifs <;> exact fun h => Kind.noConfusion h

/-- A cell that is neither a barrier nor a receive cell of one of the two collectives sits at level 0. -/
theorem lv_low (g : GSem nD τ sig) (u : Unit) (h1 : kindOf g.2 ≠ .bar) (h2 : kindOf g.2 ≠ .rsR) (h3 : kindOf g.2 ≠ .agR) : lv g u = 0 := by
  unfold lv
  generalize kindOf g.2 = x at h1 h2 h3
  cases x
  · exact absurd rfl h1
  · rfl
  · exact absurd rfl h2
  · rfl
  · exact absurd rfl h3
  · rfl

/-- Everything a device owes at launch sits on a TensorCore thread's cell of level at least 1. -/
theorem O₀_pos {c : Dev nD} {g : GSem nD τ sig} {u : Unit} (h : 0 < O₀ c g u) : g.1.2 = .tc ∧ 1 ≤ lv g u := by
  unfold O₀ at h
  rcases Pipeline.add_pos_cases h with h | h
  · rcases Pipeline.add_pos_cases h with h | h
    · have := owedAG_pos_kind h; exact ⟨this.1, by rw [lv_of_agR u this.2]; decide⟩
    · have := owedRS_pos_kind h; exact ⟨this.1, by rw [lv_of_rsR u this.2]; decide⟩
  · have := owedBar_pos_kind h; exact ⟨this.1, by rw [lv_of_bar u this.2]⟩

/-! ## Every wait sits below what is still owed -/

/-- The barrier wait: still owing every copy's credit, all on cells of level 2 or 3, above the barrier's 1. -/
theorem mayWait_bar (c : Dev nD) :
    (levAts L lv : sProp 𝕄) ⊢ MayWait (c : Thread nD τ) (.reg barS) () (owedAG c 0 + owedRS c 0) :=
  Pipeline.mayWait_of_levAts (mem_L_of_tc rfl ()) fun g u hg => by
    rw [lv_of_bar (g := ((c : Thread nD τ), SemLoc.reg barS)) () kind_bar]
    rcases Pipeline.add_pos_cases hg with h | h
    · have := owedAG_pos_kind h; exact ⟨mem_L_of_tc this.1 u, by rw [lv_of_agR u this.2]; decide⟩
    · have := owedRS_pos_kind h; exact ⟨mem_L_of_tc this.1 u, by rw [lv_of_rsR u this.2]; decide⟩

/-- A reduce-scatter receive wait: still owing all-gather credits only (level 3 above 2). -/
theorem mayWait_rsR (c : Dev nD) (h : Fin 2) (r : Fin 15) (k : ℕ) :
    (levAts L lv : sProp 𝕄) ⊢ MayWait (c : Thread nD τ) (rsR h (off r)) () (owedAG c k) :=
  Pipeline.mayWait_of_levAts (mem_L_of_tc rfl ()) fun g u hg => by
    rw [lv_of_rsR (g := ((c : Thread nD τ), rsR h (off r))) () (kind_rsR h (off r))]
    have := owedAG_pos_kind hg
    exact ⟨mem_L_of_tc this.1 u, by rw [lv_of_agR u this.2]; decide⟩

/-- A staging or send cell, level 0, below everything a device can owe (levels ≥ 1). -/
theorem mayWait_low (c : Dev nD) (q : DmaSem sig) (hq : kindOf (.dma q) ≠ .rsR ∧ kindOf (.dma q) ≠ .agR)
    (O : CellTallies nD τ sig Unit) (hO : O = O₀ c ∨ O = 0) :
    (levAts L lv : sProp 𝕄) ⊢ MayWait (c : Thread nD τ) (.dma q) () O :=
  Pipeline.mayWait_of_levAts (mem_L_of_tc rfl ()) fun g u hg => by
    rw [lv_low ((c : Thread nD τ), SemLoc.dma q) () (kind_dma_ne_bar q) hq.1 hq.2]
    rcases hO with rfl | rfl
    · have := O₀_pos hg; exact ⟨mem_L_of_tc this.1 u, this.2⟩
    · rw [Pi.zero_apply, Finsupp.zero_apply] at hg; exact absurd hg (Nat.lt_irrefl 0)

/-- info: 'Cert.KernelIdeal.Pr.mayWait_low' depends on axioms: [propext, Classical.choice, Quot.sound] -/
#guard_msgs in #print axioms mayWait_low
/-- info: 'Cert.KernelIdeal.Pr.mayWait_bar' depends on axioms: [propext, Classical.choice, Quot.sound] -/
#guard_msgs in #print axioms mayWait_bar
/-- info: 'Cert.KernelIdeal.Pr.mayWait_rsR' depends on axioms: [propext, Classical.choice, Quot.sound] -/
#guard_msgs in #print axioms mayWait_rsR
/-- info: 'Cert.KernelIdeal.Pr.peel_bar' depends on axioms: [propext, Classical.choice, Quot.sound] -/
#guard_msgs in #print axioms peel_bar
/-- info: 'Cert.KernelIdeal.Pr.peel_rs' depends on axioms: [propext, Classical.choice, Quot.sound] -/
#guard_msgs in #print axioms peel_rs

end Cert.KernelIdeal.Pr

end
-- ==== Proof.BodyLem2.lean ====
/-
  Two step lemmas in the form the body meets them: a store that follows a load directly, and the reduce-scatter's
  receive wait with its landed slot spelt out as the elements it holds.
-/
import proofs.«900888_g7700000000000889_dist_matmul_k_i_m768_n768_k384_v7x_i16_bf16_1_alg».proof.Proof.BodyLem
import proofs.«900888_g7700000000000889_dist_matmul_k_i_m768_n768_k384_v7x_i16_bf16_1_alg».proof.Proof.Owed

noncomputable section
namespace Cert.KernelIdeal.Pr
open Cert.KernelIdeal Cert.KernelIdeal.Gen Cert.KernelIdeal.Geo Cert.KernelIdeal.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ)

/-- The store of half h's sum into the own rows of the result buffer, met as the first statement of a sequence. -/
theorem wp_own_store_bind (c : Dev nD) (h : Fin 2) {α : Type} {Q : α → sProp 𝕄}
    {w : (ownRect c h).shape.Idx → Elt F (.bf16)} {hx : (oM.access (ownRect c h)).Stores Finset.univ}
    {hm : (Finset.univ : Finset (ownRect c h).shape.Idx) = Finset.univ ∨ ∀ a, (ownRect c h).stride a = 1}
    {k : PUnit → Prog (TpuEff nD τ sig (Elt F) Λ₀ .tc) α}
    (f : Buf (Elt F) ((oM.access (ownRect c h)).loc (c : Thread nD τ))) :
    ((oM.access (ownRect c h)).loc (c : Thread nD τ) ↦[(oM.access (ownRect c h)).set]{fullShare} f)
      ⊢ iprop((((oM.access (ownRect c h)).loc (c : Thread nD τ) ↦[(oM.access (ownRect c h)).set]{fullShare} ((oM.access (ownRect c h)).write (Elt F) f w Finset.univ))
            -∗ wp frame (wpE (defs₀ (F := F)) Variants.none (c : Thread nD τ) none) Set.univ (k ⟨⟩) Q)
          -∗ wp frame (wpE (defs₀ (F := F)) Variants.none (c : Thread nD τ) none) Set.univ
              (Prog.lift (.store oM (ownRect c h) w Finset.univ hx hm) >>= k) Q) := by
  simp only [Prog.lift, Prog.bind_op, Prog.bind_ret]
  exact wp_store Variants.none (c : Thread nD τ) none Set.univ (m := oM) (r := ownRect c h) (Mk := Finset.univ) (View.setOn_subset_set _ _)

/-- The reduce-scatter receive wait with its payload spelt out: the slot's elements at the landed contents. -/
theorem wp_wait_rsR' (c : Dev nD) (h : Fin 2) (r : Fin 15)
    {sv dv : Memref sig .tc .vmem S24x768 .bf16} {hs : sv.view.WordExact} {hd : dv.view.WordExact} (hN : dv.view.dmaCredit = NS)
    {α : Type} {Q : α → sProp 𝕄} {k : PUnit → Prog (TpuEff nD τ sig (Elt F) Λ₀ .tc) α}
    (O : CellTallies nD τ sig Unit) (W : Waits sig Unit) :
    iprop(cellInv ER (Rd m shrF) (K (cel c (rsR h (off r)))) (cel c (rsR h (off r))) ∗ cred (tallyAt (cel c (rsR h (off r))) () NS)
        ∗ owes (c : Thread nD τ) O W ∗ MayWait (c : Thread nD τ) (rsR h (off r)) () O ∗ atPos ER (cel c (rsR h (off r))) 0 ∅ 0)
      ⊢ iprop(((owes (c : Thread nD τ) O (insert (rsR h (off r), ()) W) ∗ atPos ER (cel c (rsR h (off r))) 1 ∅ 0
              ∗ ((slotV h (off r)).view.loc (c : Thread nD τ) ↦[(slotV h (off r)).view.set]{fullShare} rsFull m c))
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch4 h (off r)) sv dv hs hd) k) Q) :=
  wp_wait_rsR m shrF K c h r hN O W

/-- What is owed, peeled at copy number k of the reduce-scatter (k = 15 h + r, k' = k + 1), the numbers given outright. -/
theorem peel_rs' (c : Dev nD) (h : Fin 2) (r : Fin 15) (k k' : ℕ) (hk : k = 15 * h.val + r.val) (hk' : k' = k + 1) :
    owedAG c 0 + owedRS c k = (owedAG c 0 + owedRS c k') + tallyAt (cel (peer c (off r)) (rsR h (off r))) () NS := by
  subst hk hk'; exact peel_rs c h r
/-- The same for the all-gather, once the reduce-scatter is paid. -/
theorem peel_ag' (c : Dev nD) (h : Fin 2) (r : Fin 15) (k k' : ℕ) (hk : k = 15 * h.val + r.val) (hk' : k' = k + 1) :
    owedAG c k = owedAG c k' + tallyAt (cel (peer c (off r)) (agR h (off r))) () NO := by
  subst hk hk'; exact owedAG_succ c h r

/-- The sum the body forms for a half, over what its sixteen loads read, is that half of the device's rows of the result. -/
theorem acc0_reads (c : Dev nD) :
    acc0 (ownRows m c 0) (fun r => (rsM.access (slotRect 0 (off r))).read (Elt F) (rsFull m c)) = chunkV m c 0 := by
  rw [← (chunk_eq m c).1]; congr 1; funext r; exact slot_read m c 0 r
theorem acc1_reads (c : Dev nD) :
    acc1 (ownRows m c 1) (fun r => (rsM.access (slotRect 1 (off r))).read (Elt F) (rsFull m c)) = chunkV m c 1 := by
  rw [← (chunk_eq m c).2]; congr 1; funext r; exact slot_read m c 1 r

end Cert.KernelIdeal.Pr
end
-- ==== Proof.BodyDefs.lean ====
/-
  What one device's body is handed and what it hands back, as the stepping of the body states them.
-/
import proofs.«900888_g7700000000000889_dist_matmul_k_i_m768_n768_k384_v7x_i16_bf16_1_alg».proof.Proof.BodyLem2
import proofs.«900888_g7700000000000889_dist_matmul_k_i_m768_n768_k384_v7x_i16_bf16_1_alg».proof.Proof.Gen.KernelIdeal.Points

noncomputable section
namespace Cert.KernelIdeal.Pr
open Cert.KernelIdeal Cert.KernelIdeal.Gen Cert.KernelIdeal.Geo Cert.KernelIdeal.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 3)).fetch t = true := fetch0_0 t
theorem fetch_1 (t : Fin cfg0.N) : (cfg0.win (1 : Fin 3)).fetch t = true := fetch0_1 t

/-- A staging buffer, whole, at contents X, held through its named view. -/
def stgM {S : Shape} {e : EltTy} (c : Dev nD) (M : Memref sig .tc .vmem S e) (X : Buf (Elt F) (M.view.loc (c : Thread nD τ))) : sProp 𝕄 :=
  iprop(∃ f : Buf (Elt F) (M.view.loc (c : Thread nD τ)), ⌜f = X⌝ ∗ (M.view.loc (c : Thread nD τ) ↦{fullShare} f))

/-- The three scratch buffers at the body's entry, the first two through their named views. -/
def scratchesM (c : Dev nD) : sProp 𝕄 :=
  iprop((∃ f : Buf (Elt F) (pbM.view.loc (c : Thread nD τ)), pbM.view.loc (c : Thread nD τ) ↦{fullShare} f)
    ∗ (∃ f : Buf (Elt F) (bbM.view.loc (c : Thread nD τ)), bbM.view.loc (c : Thread nD τ) ↦{fullShare} f)
    ∗ (∃ f : Buf (Elt F) ((c : Thread nD τ).loc cc0_scratch2), ((c : Thread nD τ).loc cc0_scratch2) ↦{fullShare} f))

variable (K : GSem nD τ sig → ℕ)

/-- What the body starts from, the ghost state at given names. -/
def bodyPre (c : Dev nD) : sProp 𝕄 :=
  iprop((ghost m shrF K c ∗ creds c ∗ idle c ∗ levAts L lv ∗ scratchesM c)
    ∗ (dats m shrF 0 c).owesAt () t₀.castSucc
    ∗ (∃ d, stgM c aM ((dats m shrF 0 c).before (0 : Fin 3) t₀ d))
    ∗ (∃ d, stgM c bM ((dats m shrF 0 c).before (1 : Fin 3) t₀ d))
    ∗ (∃ d f : Buf (Elt F) ((c : Thread nD τ).loc cc0_stg2_0), ⌜f = (dats m shrF 0 c).before (2 : Fin 3) t₀ d⌝ ∗ (((c : Thread nD τ).loc cc0_stg2_0) ↦{fullShare} f)))

/-- What it ends with. -/
def bodyPost (c : Dev nD) : sProp 𝕄 :=
  iprop(Φ₁ c ∗ (dats m shrF 0 c).owesAt () t₀.succ ∗ stgM c aM (aV m c) ∗ stgM c bM (bV m c)
    ∗ (∃ f : Buf (Elt F) ((c : Thread nD τ).loc cc0_stg2_0), ⌜f = outFull m⌝ ∗ (((c : Thread nD τ).loc cc0_stg2_0) ↦{fullShare} f)))

/-- The body as the pipeline calls it at the one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6

/-- One device's body run from its start to its end: the statement the stepping proves. -/
def SoundBody : Prop :=
  ∀ (K : GSem nD τ sig → ℕ) (c : Dev nD) (Kt : PUnit → sProp 𝕄),
    iprop(bodyPre m K c ∗ (bodyPost m c -∗ Kt ⟨⟩))
      ⊢ wp frame (wpE (defs₀ (F := F)) Variants.none (c : Thread nD τ) none) Set.univ (theBody (F := F)) Kt

theorem barPay_unfold (c : Dev nD) (j : Fin 16) : barPay (F := F) c j
    = iprop((∃ f, slotPts (peer c j) 0 j f) ∗ (∃ f, slotPts (peer c j) 1 j f)
    ∗ (∃ f, outPts (peer c j) c 0 fullShare f) ∗ (∃ f, outPts (peer c j) c 1 fullShare f)
    ∗ reached ER (cel (peer c j) (rsR 0 j)) 0 ∗ reached ER (cel (peer c j) (rsR 1 j)) 0
    ∗ reached ER (cel (peer c j) (agR 0 j)) 0 ∗ reached ER (cel (peer c j) (agR 1 j)) 0) := rfl

end Cert.KernelIdeal.Pr
end
-- ==== Proof.Body.lean ====
/-
  One device's body, stepped from what the launch hands it to what the pipeline's flush needs: the fifteen entry
  signals, the partial product, the barrier wait, the thirty reduce-scatter copies, the two halves summed as their
  pieces land and sent on, the ninety closing waits, and the buffers joined again.
-/
import proofs.«900888_g7700000000000889_dist_matmul_k_i_m768_n768_k384_v7x_i16_bf16_1_alg».proof.Proof.BodyDefs

noncomputable section
namespace Cert.KernelIdeal.Pr
open Cert.KernelIdeal Cert.KernelIdeal.Gen Cert.KernelIdeal.Geo Cert.KernelIdeal.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
variable (K : GSem nD τ sig → ℕ)

/-! ## One cell's invariant out of the bundle a device holds -/

section Invs
variable (shr : Fin 16 → PosShare TreeShare) (c : Dev nD)

/-- The invariants of c's own four cells of copy p, and of the two receive cells copy p credits on its addressee. -/
def ownInvs (p : HR) : sProp 𝕄 := iprop(
      cellInv ER (Rd m shr) (K (cel c (rsS p.1 (off p.2)))) (cel c (rsS p.1 (off p.2)))
    ∗ cellInv ER (Rd m shr) (K (cel c (rsR p.1 (off p.2)))) (cel c (rsR p.1 (off p.2)))
    ∗ cellInv ER (Rd m shr) (K (cel c (agS p.1 (off p.2)))) (cel c (agS p.1 (off p.2)))
    ∗ cellInv ER (Rd m shr) (K (cel c (agR p.1 (off p.2)))) (cel c (agR p.1 (off p.2))))
def peerInvs (p : HR) : sProp 𝕄 := iprop(
      cellInv ER (Rd m shr) (K (cel (peer c (off p.2)) (rsR p.1 (off p.2)))) (cel (peer c (off p.2)) (rsR p.1 (off p.2)))
    ∗ cellInv ER (Rd m shr) (K (cel (peer c (off p.2)) (agR p.1 (off p.2)))) (cel (peer c (off p.2)) (agR p.1 (off p.2))))
def barInvs (r : Fin 15) : sProp 𝕄 := cellInv ER (Rd m shr) (K (cel (peer c (off r)) (.reg barS))) (cel (peer c (off r)) (.reg barS))

theorem inv_bar : invs m shr K c ⊢ cellInv ER (Rd m shr) (K (cel c (.reg barS))) (cel c (.reg barS)) := by
  unfold invs; iintro ⟨#H, -⟩; iexact H
theorem invs_own : invs m shr K c ⊢ bigSep Finset.univ (ownInvs m K shr c) := by
  unfold invs ownInvs; iintro ⟨-, #H, -⟩; iexact H
theorem invs_pbar : invs m shr K c ⊢ bigSep Finset.univ (barInvs m K shr c) := by
  unfold invs barInvs; iintro ⟨-, -, #H, -⟩; iexact H
theorem invs_peer : invs m shr K c ⊢ bigSep Finset.univ (peerInvs m K shr c) := by
  unfold invs peerInvs; iintro ⟨-, -, -, #H⟩; iexact H

theorem inv_rsS (h : Fin 2) (r : Fin 15) : invs m shr K c ⊢ cellInv ER (Rd m shr) (K (cel c (rsS h (off r)))) (cel c (rsS h (off r))) :=
  ((invs_own m K shr c).trans (bigSep_elim (Finset.mem_univ (h, r)))).trans (by unfold ownInvs; iintro ⟨#H, -⟩; iexact H)
theorem inv_rsR (h : Fin 2) (r : Fin 15) : invs m shr K c ⊢ cellInv ER (Rd m shr) (K (cel c (rsR h (off r)))) (cel c (rsR h (off r))) :=
  ((invs_own m K shr c).trans (bigSep_elim (Finset.mem_univ (h, r)))).trans (by unfold ownInvs; iintro ⟨-, #H, -⟩; iexact H)
theorem inv_agS (h : Fin 2) (r : Fin 15) : invs m shr K c ⊢ cellInv ER (Rd m shr) (K (cel c (agS h (off r)))) (cel c (agS h (off r))) :=
  ((invs_own m K shr c).trans (bigSep_elim (Finset.mem_univ (h, r)))).trans (by unfold ownInvs; iintro ⟨-, -, #H, -⟩; iexact H)
theorem inv_agR (h : Fin 2) (r : Fin 15) : invs m shr K c ⊢ cellInv ER (Rd m shr) (K (cel c (agR h (off r)))) (cel c (agR h (off r))) :=
  ((invs_own m K shr c).trans (bigSep_elim (Finset.mem_univ (h, r)))).trans (by unfold ownInvs; iintro ⟨-, -, -, #H⟩; iexact H)
theorem inv_pbar (r : Fin 15) : invs m shr K c ⊢ cellInv ER (Rd m shr) (K (cel (peer c (off r)) (.reg barS))) (cel (peer c (off r)) (.reg barS)) :=
  (invs_pbar m K shr c).trans (bigSep_elim (Finset.mem_univ r))
theorem inv_prsR (h : Fin 2) (r : Fin 15) : invs m shr K c ⊢ cellInv ER (Rd m shr) (K (cel (peer c (off r)) (rsR h (off r)))) (cel (peer c (off r)) (rsR h (off r))) :=
  ((invs_peer m K shr c).trans (bigSep_elim (Finset.mem_univ (h, r)))).trans (by unfold peerInvs; iintro ⟨#H, -⟩; iexact H)
theorem inv_pagR (h : Fin 2) (r : Fin 15) : invs m shr K c ⊢ cellInv ER (Rd m shr) (K (cel (peer c (off r)) (agR h (off r)))) (cel (peer c (off r)) (agR h (off r))) :=
  ((invs_peer m K shr c).trans (bigSep_elim (Finset.mem_univ (h, r)))).trans (by unfold peerInvs; iintro ⟨-, #H⟩; iexact H)

end Invs

/-- The receive buffer's thirty landed slots, each spelt as the elements it holds, and the two idle ones: the whole buffer again. -/
theorem rs_unlist' (c : Dev nD) (frs : Buf (Elt F) ((c : Thread nD τ).loc cc0_scratch2)) :
    iprop(((((slotV 0 (off 0)).view.loc (c : Thread nD τ) ↦[(slotV 0 (off 0)).view.set]{fullShare} rsFull m c) ∗ ((slotV 0 (off 1)).view.loc (c : Thread nD τ) ↦[(slotV 0 (off 1)).view.set]{fullShare} rsFull m c) ∗ ((slotV 0 (off 2)).view.loc (c : Thread nD τ) ↦[(slotV 0 (off 2)).view.set]{fullShare} rsFull m c) ∗ ((slotV 0 (off 3)).view.loc (c : Thread nD τ) ↦[(slotV 0 (off 3)).view.set]{fullShare} rsFull m c) ∗ ((slotV 0 (off 4)).view.loc (c : Thread nD τ) ↦[(slotV 0 (off 4)).view.set]{fullShare} rsFull m c) ∗ ((slotV 0 (off 5)).view.loc (c : Thread nD τ) ↦[(slotV 0 (off 5)).view.set]{fullShare} rsFull m c) ∗ ((slotV 0 (off 6)).view.loc (c : Thread nD τ) ↦[(slotV 0 (off 6)).view.set]{fullShare} rsFull m c) ∗ ((slotV 0 (off 7)).view.loc (c : Thread nD τ) ↦[(slotV 0 (off 7)).view.set]{fullShare} rsFull m c) ∗ ((slotV 0 (off 8)).view.loc (c : Thread nD τ) ↦[(slotV 0 (off 8)).view.set]{fullShare} rsFull m c) ∗ ((slotV 0 (off 9)).view.loc (c : Thread nD τ) ↦[(slotV 0 (off 9)).view.set]{fullShare} rsFull m c) ∗ ((slotV 0 (off 10)).view.loc (c : Thread nD τ) ↦[(slotV 0 (off 10)).view.set]{fullShare} rsFull m c) ∗ ((slotV 0 (off 11)).view.loc (c : Thread nD τ) ↦[(slotV 0 (off 11)).view.set]{fullShare} rsFull m c) ∗ ((slotV 0 (off 12)).view.loc (c : Thread nD τ) ↦[(slotV 0 (off 12)).view.set]{fullShare} rsFull m c) ∗ ((slotV 0 (off 13)).view.loc (c : Thread nD τ) ↦[(slotV 0 (off 13)).view.set]{fullShare} rsFull m c) ∗ ((slotV 0 (off 14)).view.loc (c : Thread nD τ) ↦[(slotV 0 (off 14)).view.set]{fullShare} rsFull m c)) ∗ (((slotV 1 (off 0)).view.loc (c : Thread nD τ) ↦[(slotV 1 (off 0)).view.set]{fullShare} rsFull m c) ∗ ((slotV 1 (off 1)).view.loc (c : Thread nD τ) ↦[(slotV 1 (off 1)).view.set]{fullShare} rsFull m c) ∗ ((slotV 1 (off 2)).view.loc (c : Thread nD τ) ↦[(slotV 1 (off 2)).view.set]{fullShare} rsFull m c) ∗ ((slotV 1 (off 3)).view.loc (c : Thread nD τ) ↦[(slotV 1 (off 3)).view.set]{fullShare} rsFull m c) ∗ ((slotV 1 (off 4)).view.loc (c : Thread nD τ) ↦[(slotV 1 (off 4)).view.set]{fullShare} rsFull m c) ∗ ((slotV 1 (off 5)).view.loc (c : Thread nD τ) ↦[(slotV 1 (off 5)).view.set]{fullShare} rsFull m c) ∗ ((slotV 1 (off 6)).view.loc (c : Thread nD τ) ↦[(slotV 1 (off 6)).view.set]{fullShare} rsFull m c) ∗ ((slotV 1 (off 7)).view.loc (c : Thread nD τ) ↦[(slotV 1 (off 7)).view.set]{fullShare} rsFull m c) ∗ ((slotV 1 (off 8)).view.loc (c : Thread nD τ) ↦[(slotV 1 (off 8)).view.set]{fullShare} rsFull m c) ∗ ((slotV 1 (off 9)).view.loc (c : Thread nD τ) ↦[(slotV 1 (off 9)).view.set]{fullShare} rsFull m c) ∗ ((slotV 1 (off 10)).view.loc (c : Thread nD τ) ↦[(slotV 1 (off 10)).view.set]{fullShare} rsFull m c) ∗ ((slotV 1 (off 11)).view.loc (c : Thread nD τ) ↦[(slotV 1 (off 11)).view.set]{fullShare} rsFull m c) ∗ ((slotV 1 (off 12)).view.loc (c : Thread nD τ) ↦[(slotV 1 (off 12)).view.set]{fullShare} rsFull m c) ∗ ((slotV 1 (off 13)).view.loc (c : Thread nD τ) ↦[(slotV 1 (off 13)).view.set]{fullShare} rsFull m c) ∗ ((slotV 1 (off 14)).view.loc (c : Thread nD τ) ↦[(slotV 1 (off 14)).view.set]{fullShare} rsFull m c))) ∗ slotPts c 0 0 frs ∗ slotPts c 1 0 frs)
      ⊢ (∃ f, (((c : Thread nD τ).loc cc0_scratch2) ↦{fullShare} f) : sProp 𝕄) :=
  rs_unlist m c frs

/-- The partial product's thirty sources and its two own blocks, these spelt as the elements they hold: the whole buffer again. -/
theorem pb_unlist' (c : Dev nD) :
    iprop(((srcPts m c 0 0 ∗ srcPts m c 1 0 ∗ srcPts m c 2 0 ∗ srcPts m c 3 0 ∗ srcPts m c 4 0 ∗ srcPts m c 5 0 ∗ srcPts m c 6 0 ∗ srcPts m c 7 0 ∗ srcPts m c 8 0 ∗ srcPts m c 9 0 ∗ srcPts m c 10 0 ∗ srcPts m c 11 0 ∗ srcPts m c 12 0 ∗ srcPts m c 13 0 ∗ srcPts m c 14 0) ∗ (srcPts m c 0 1 ∗ srcPts m c 1 1 ∗ srcPts m c 2 1 ∗ srcPts m c 3 1 ∗ srcPts m c 4 1 ∗ srcPts m c 5 1 ∗ srcPts m c 6 1 ∗ srcPts m c 7 1 ∗ srcPts m c 8 1 ∗ srcPts m c 9 1 ∗ srcPts m c 10 1 ∗ srcPts m c 11 1 ∗ srcPts m c 12 1 ∗ srcPts m c 13 1 ∗ srcPts m c 14 1)) ∗ ((pbM.access (ownRect c 0)).loc (c : Thread nD τ) ↦[(pbM.access (ownRect c 0)).set]{fullShare} pbV m c) ∗ ((pbM.access (ownRect c 1)).loc (c : Thread nD τ) ↦[(pbM.access (ownRect c 1)).set]{fullShare} pbV m c))
      ⊢ ((((c : Thread nD τ).loc cc0_scratch0) ↦{fullShare} (pbV m c) : sProp 𝕄)) :=
  pb_unlist m c

set_option hygiene false in
/-- Entry signal number k (to the device 1 + k ahead): peel its unit off what is owed, pay the duty with what it is handed. -/
macro "sig_step " k:num ", " dev:term ", " hT:ident ", " hG:ident ", " hR:ident : tactic => `(tactic| (
  sl_exec_parts
  rw [peel_bar c $k (by decide)]
  iapply (wp_sig m shrF K c (off $k) (by decide) _ $dev _ _) $$ [HO $hT:ident $hG:ident]
  · isplitr; · iapply (inv_pbar m K shrF c $k); all_goals iexact HI
    isplitl [HO]; · iexact HO
    isplitl [$hT]; · iexact $hT
    isplitl [$hG]; · iexact $hG
    iexact $hR
  iintro HO))

set_option hygiene false in
/-- Reduce-scatter copy number r of half h: peel its credit off what is owed; the source block and the addressee's slot go with the copy. -/
macro "rs_send_step " h:num ", " r:num ", " k:num ", " k':num ", " dev:term ", " fd:term ", " hSrc:ident ", " hSlot:ident ", " hTs:ident ", " hOs:ident ", " hTr:ident ", " hRr:ident ", " hCs:ident : tactic => `(tactic| (
  sl_exec_parts
  rw [peel_rs' c $h $r $k $k' (by decide) (by decide)]
  iapply (wp_rs_send m shrF K c $h $r _ $dev $fd _ _) $$ [$hSrc:ident $hSlot:ident HO $hTs:ident $hTr:ident]
  · isplitr; · iapply (inv_rsS m K shrF c $h $r); all_goals iexact HI
    isplitr; · iapply (inv_prsR m K shrF c $h $r); all_goals iexact HI
    isplitl [$hSrc]; · iexact $hSrc
    isplitl [$hSlot]; · iexact $hSlot
    isplitl [HO]; · iexact HO
    isplitl [$hTs]; · iexact $hTs
    isplitr; · iexact $hOs
    isplitl [$hTr]; · iexact $hTr
    iexact $hRr
  iintro Hnew
  icases Hnew with ⟨$hCs:ident, HO⟩))

set_option hygiene false in
/-- The load of c's own rows of half h of its partial product. -/
macro "own_load_step " h:num ", " hOwn:ident : tactic => `(tactic| (
  sl_exec_parts
  try unfold ownPb
  iapply (wp_load_rect Variants.none (c : Thread nD τ) none Set.univ (m := pbM) (r := ownRect c $h) (Finset.Subset.refl _)) $$ $hOwn:ident
  iintro $hOwn:ident
  rw [own_read m c $h]))

set_option hygiene false in
/-- The wait on receive cell (h, 1 + r) of the reduce-scatter: the landed slot comes with it (the next stretch loads it). -/
macro "rs_recv_step " h:num ", " r:num ", " k:num ", " hC:ident ", " hP:ident ", " hPay:ident : tactic => `(tactic| (
  sl_exec_parts
  iapply (wp_wait_rsR' m K c $h $r (by rfl) _ _) $$ [$hC:ident HO $hP:ident]
  · isplitr; · iapply (inv_rsR m K shrF c $h $r); all_goals iexact HI
    isplitl [$hC]; · iexact $hC
    isplitl [HO]; · iexact HO
    isplitr; · iapply (mayWait_rsR c $h $r $k); iexact Hlev
    iexact $hP
  iintro Hnew
  icases Hnew with ⟨HO, $hP:ident, $hPay:ident⟩))

set_option hygiene false in
/-- The store of the summed half h into c's own rows of the result buffer (the body loads those rows first, a value nothing uses). -/
macro "own_store_step " h:num ", " hOut:ident ", " hw:term : tactic => `(tactic| (
  sl_exec_parts
  try unfold ownOut
  iapply (wp_load_rect Variants.none (c : Thread nD τ) none Set.univ (m := oM) (r := ownRect c $h) (Finset.Subset.refl _)) $$ $hOut:ident
  iintro $hOut:ident
  iapply (wp_own_store_bind c $h _) $$ $hOut:ident
  iintro $hOut:ident
  sl_unfold_words
  ihave $hOut:ident := (Entails.of_eq (stored m c $h _ _ $hw)) $$ $hOut:ident))

set_option hygiene false in
/-- All-gather copy number r of half h: its share of the own rows and the addressee's block go with the copy. -/
macro "ag_send_step " h:num ", " r:num ", " k:num ", " k':num ", " dev:term ", " fd:term ", " hSh:ident ", " hQ:ident ", " hTg:ident ", " hUs:ident ", " hTa:ident ", " hRa:ident ", " hCg:ident : tactic => `(tactic| (
  sl_exec_parts
  rw [peel_ag' c $h $r $k $k' (by decide) (by decide)]
  iapply (wp_ag_send m shrF K c $h $r _ $dev (outFull m) (fun _ _ => rfl) $fd _ _) $$ [$hSh:ident $hQ:ident HO $hTg:ident $hTa:ident]
  · isplitr; · iapply (inv_agS m K shrF c $h $r); all_goals iexact HI
    isplitr; · iapply (inv_pagR m K shrF c $h $r); all_goals iexact HI
    isplitl [$hSh]; · iexact $hSh
    isplitl [$hQ]; · iexact $hQ
    isplitl [HO]; · iexact HO
    isplitl [$hTg]; · iexact $hTg
    isplitr; · iexact $hUs
    isplitl [$hTa]; · iexact $hTa
    iexact $hRa
  iintro Hnew
  icases Hnew with ⟨$hCg:ident, HO⟩))

set_option hygiene false in
/-- A closing wait on one of c's cells, owing nothing: the cell's one payload comes back. -/
macro "wait0_step " lem:term ", " inv:term ", " hC:ident ", " hP:ident ", " hPay:ident : tactic => `(tactic| (
  sl_exec_parts
  iapply ($lem) $$ [$hC:ident HO $hP:ident]
  · isplitr; · iapply ($inv); all_goals iexact HI
    isplitl [$hC]; · iexact $hC
    isplitl [HO]; · iexact HO
    iexact $hP
  iintro Hnew
  icases Hnew with ⟨HO, $hP:ident, $hPay:ident⟩))

set_option hygiene false in
/-- A cell whose one round is over is closed: its counter is the device's again, at zero. -/
macro "close_step " g:term ", " inv:term ", " hP:ident ", " hZ:ident : tactic => `(tactic| (
  imod (close_cell m shrF K $g) $$ [$hP:ident] with $hZ:ident
  · isplitr; · iapply ($inv); all_goals iexact HI
    iexact $hP))

set_option maxHeartbeats 16000000 in
set_option maxRecDepth 16000 in
/-- The body, stepped: one rule per cross-device step in program order, the local stretches between them run through. -/
theorem sound_body : SoundBody (F := F) m := by
  intro K c Kt
  unfold bodyPre ghost poss toks creds
  simp only [bigSep_fin15, bigSep_HR2]
  unfold scratchesM stgM theBody
  iintro ⟨⟨⟨⟨#HI, ⟨HatB, HatO0, HatO1⟩, #Hopens, ⟨HtB, HtC0, HtC1⟩⟩,
      ⟨HcB, HcR0, HcR1⟩, Hidle, #Hlev, ⟨%fp, Hp⟩, ⟨%fbb, Hbb⟩, ⟨%frs, Hrs⟩⟩,
    Ho, ⟨%d0, %g0, %hg0, Ha⟩, ⟨%d1, %g1, %hg1, Hb⟩, ⟨%d2, %g2, %hg2, Hout⟩⟩, Hk⟩
  have ha : g0 = aV m c := by rw [hg0]; unfold Dat.before; rw [if_pos (fetch_0 t₀)]; rfl
  have hb : g1 = bV m c := by rw [hg1]; unfold Dat.before; rw [if_pos (fetch_1 t₀)]; rfl
  subst ha hb
  unfold Dat.owesAt Pipeline.owesWithin
  icases Ho with ⟨%W, %hW, HO⟩
  rw [show (dats m shrF 0 c).owed t₀.castSucc = O₀ c from rfl]
  unfold O₀
  -- the result buffer and the receive buffer cut into what each signal hands over
  ihave Hgive := (give_split c g2 frs) $$ [Hout Hrs]
  · isplitl [Hout]; · iexact Hout
    isplitl [Hrs]; · iexact Hrs
    iexact Hopens
  rw [bigSep_fin15]
  icases Hgive with ⟨⟨Hg0, Hg1, Hg2, Hg3, Hg4, Hg5, Hg6, Hg7, Hg8, Hg9, Hg10, Hg11, Hg12, Hg13, Hg14⟩, HoutC0, HoutC1, Hslot00, Hslot10⟩
  unfold opens
  repeat rw [bigSep_HR2]
  repeat rw [bigSep_fin15]
  icases HtB with ⟨Htb0, Htb1, Htb2, Htb3, Htb4, Htb5, Htb6, Htb7, Htb8, Htb9, Htb10, Htb11, Htb12, Htb13, Htb14⟩
  icases Hopens with ⟨⟨HopO0, HopO1⟩, Hrb0, Hrb1, Hrb2, Hrb3, Hrb4, Hrb5, Hrb6, Hrb7, Hrb8, Hrb9, Hrb10, Hrb11, Hrb12, Hrb13, Hrb14⟩
  sig_step 0, (dev1_eq c), Htb0, Hg0, Hrb0
  sig_step 1, (dev2_eq c), Htb1, Hg1, Hrb1
  sig_step 2, (dev3_eq c), Htb2, Hg2, Hrb2
  sig_step 3, (dev4_eq c), Htb3, Hg3, Hrb3
  sig_step 4, (dev5_eq c), Htb4, Hg4, Hrb4
  sig_step 5, (dev6_eq c), Htb5, Hg5, Hrb5
  sig_step 6, (dev7_eq c), Htb6, Hg6, Hrb6
  sig_step 7, (dev8_eq c), Htb7, Hg7, Hrb7
  sig_step 8, (dev9_eq c), Htb8, Hg8, Hrb8
  sig_step 9, (dev10_eq c), Htb9, Hg9, Hrb9
  sig_step 10, (dev11_eq c), Htb10, Hg10, Hrb10
  sig_step 11, (dev12_eq c), Htb11, Hg11, Hrb11
  sig_step 12, (dev13_eq c), Htb12, Hg12, Hrb12
  sig_step 13, (dev14_eq c), Htb13, Hg13, Hrb13
  sig_step 14, (dev15_eq c), Htb14, Hg14, Hrb14
  rw [owedBar_end, add_zero]
  -- the partial product
  sl_exec_parts
  sl_unfold_words
  rw [pb_contents m c _ _ _ (read_a c _) ((readcov_bb _).trans (congrArg k0_pay1 (read_b c _))) _ _]
  -- the barrier wait: every other device's slots and blocks come with its unit
  iapply (wp_wait_bar m shrF K c _ _) $$ [HcB HO HatB]
  · isplitr; · iapply (inv_bar m K shrF c); all_goals iexact HI
    isplitl [HcB]; · iexact HcB
    isplitl [HO]; · iexact HO
    isplitr; · iapply (mayWait_bar c); iexact Hlev
    iexact HatB
  iintro ⟨HO, HatB, -, Hgot⟩
  ihave Hgot := (got_list c) $$ Hgot
  icases Hgot with ⟨G0, G1, G2, G3, G4, G5, G6, G7, G8, G9, G10, G11, G12, G13, G14⟩
  ihave G0 := (Entails.of_eq (barPay_unfold c (off 0))) $$ G0
  icases G0 with ⟨⟨%fs0_0, Hs0_0⟩, ⟨%fs1_0, Hs1_0⟩, ⟨%fq0_0, Hq0_0⟩, ⟨%fq1_0, Hq1_0⟩, #Hrr0_0, #Hrr1_0, #Hra0_0, #Hra1_0⟩
  ihave G1 := (Entails.of_eq (barPay_unfold c (off 1))) $$ G1
  icases G1 with ⟨⟨%fs0_1, Hs0_1⟩, ⟨%fs1_1, Hs1_1⟩, ⟨%fq0_1, Hq0_1⟩, ⟨%fq1_1, Hq1_1⟩, #Hrr0_1, #Hrr1_1, #Hra0_1, #Hra1_1⟩
  ihave G2 := (Entails.of_eq (barPay_unfold c (off 2))) $$ G2
  icases G2 with ⟨⟨%fs0_2, Hs0_2⟩, ⟨%fs1_2, Hs1_2⟩, ⟨%fq0_2, Hq0_2⟩, ⟨%fq1_2, Hq1_2⟩, #Hrr0_2, #Hrr1_2, #Hra0_2, #Hra1_2⟩
  ihave G3 := (Entails.of_eq (barPay_unfold c (off 3))) $$ G3
  icases G3 with ⟨⟨%fs0_3, Hs0_3⟩, ⟨%fs1_3, Hs1_3⟩, ⟨%fq0_3, Hq0_3⟩, ⟨%fq1_3, Hq1_3⟩, #Hrr0_3, #Hrr1_3, #Hra0_3, #Hra1_3⟩
  ihave G4 := (Entails.of_eq (barPay_unfold c (off 4))) $$ G4
  icases G4 with ⟨⟨%fs0_4, Hs0_4⟩, ⟨%fs1_4, Hs1_4⟩, ⟨%fq0_4, Hq0_4⟩, ⟨%fq1_4, Hq1_4⟩, #Hrr0_4, #Hrr1_4, #Hra0_4, #Hra1_4⟩
  ihave G5 := (Entails.of_eq (barPay_unfold c (off 5))) $$ G5
  icases G5 with ⟨⟨%fs0_5, Hs0_5⟩, ⟨%fs1_5, Hs1_5⟩, ⟨%fq0_5, Hq0_5⟩, ⟨%fq1_5, Hq1_5⟩, #Hrr0_5, #Hrr1_5, #Hra0_5, #Hra1_5⟩
  ihave G6 := (Entails.of_eq (barPay_unfold c (off 6))) $$ G6
  icases G6 with ⟨⟨%fs0_6, Hs0_6⟩, ⟨%fs1_6, Hs1_6⟩, ⟨%fq0_6, Hq0_6⟩, ⟨%fq1_6, Hq1_6⟩, #Hrr0_6, #Hrr1_6, #Hra0_6, #Hra1_6⟩
  ihave G7 := (Entails.of_eq (barPay_unfold c (off 7))) $$ G7
  icases G7 with ⟨⟨%fs0_7, Hs0_7⟩, ⟨%fs1_7, Hs1_7⟩, ⟨%fq0_7, Hq0_7⟩, ⟨%fq1_7, Hq1_7⟩, #Hrr0_7, #Hrr1_7, #Hra0_7, #Hra1_7⟩
  ihave G8 := (Entails.of_eq (barPay_unfold c (off 8))) $$ G8
  icases G8 with ⟨⟨%fs0_8, Hs0_8⟩, ⟨%fs1_8, Hs1_8⟩, ⟨%fq0_8, Hq0_8⟩, ⟨%fq1_8, Hq1_8⟩, #Hrr0_8, #Hrr1_8, #Hra0_8, #Hra1_8⟩
  ihave G9 := (Entails.of_eq (barPay_unfold c (off 9))) $$ G9
  icases G9 with ⟨⟨%fs0_9, Hs0_9⟩, ⟨%fs1_9, Hs1_9⟩, ⟨%fq0_9, Hq0_9⟩, ⟨%fq1_9, Hq1_9⟩, #Hrr0_9, #Hrr1_9, #Hra0_9, #Hra1_9⟩
  ihave G10 := (Entails.of_eq (barPay_unfold c (off 10))) $$ G10
  icases G10 with ⟨⟨%fs0_10, Hs0_10⟩, ⟨%fs1_10, Hs1_10⟩, ⟨%fq0_10, Hq0_10⟩, ⟨%fq1_10, Hq1_10⟩, #Hrr0_10, #Hrr1_10, #Hra0_10, #Hra1_10⟩
  ihave G11 := (Entails.of_eq (barPay_unfold c (off 11))) $$ G11
  icases G11 with ⟨⟨%fs0_11, Hs0_11⟩, ⟨%fs1_11, Hs1_11⟩, ⟨%fq0_11, Hq0_11⟩, ⟨%fq1_11, Hq1_11⟩, #Hrr0_11, #Hrr1_11, #Hra0_11, #Hra1_11⟩
  ihave G12 := (Entails.of_eq (barPay_unfold c (off 12))) $$ G12
  icases G12 with ⟨⟨%fs0_12, Hs0_12⟩, ⟨%fs1_12, Hs1_12⟩, ⟨%fq0_12, Hq0_12⟩, ⟨%fq1_12, Hq1_12⟩, #Hrr0_12, #Hrr1_12, #Hra0_12, #Hra1_12⟩
  ihave G13 := (Entails.of_eq (barPay_unfold c (off 13))) $$ G13
  icases G13 with ⟨⟨%fs0_13, Hs0_13⟩, ⟨%fs1_13, Hs1_13⟩, ⟨%fq0_13, Hq0_13⟩, ⟨%fq1_13, Hq1_13⟩, #Hrr0_13, #Hrr1_13, #Hra0_13, #Hra1_13⟩
  ihave G14 := (Entails.of_eq (barPay_unfold c (off 14))) $$ G14
  icases G14 with ⟨⟨%fs0_14, Hs0_14⟩, ⟨%fs1_14, Hs1_14⟩, ⟨%fq0_14, Hq0_14⟩, ⟨%fq1_14, Hq1_14⟩, #Hrr0_14, #Hrr1_14, #Hra0_14, #Hra1_14⟩
  icases HatO0 with ⟨⟨Ps0_0, Pr0_0, Qs0_0, Qr0_0⟩, ⟨Ps0_1, Pr0_1, Qs0_1, Qr0_1⟩, ⟨Ps0_2, Pr0_2, Qs0_2, Qr0_2⟩, ⟨Ps0_3, Pr0_3, Qs0_3, Qr0_3⟩, ⟨Ps0_4, Pr0_4, Qs0_4, Qr0_4⟩, ⟨Ps0_5, Pr0_5, Qs0_5, Qr0_5⟩, ⟨Ps0_6, Pr0_6, Qs0_6, Qr0_6⟩, ⟨Ps0_7, Pr0_7, Qs0_7, Qr0_7⟩, ⟨Ps0_8, Pr0_8, Qs0_8, Qr0_8⟩, ⟨Ps0_9, Pr0_9, Qs0_9, Qr0_9⟩, ⟨Ps0_10, Pr0_10, Qs0_10, Qr0_10⟩, ⟨Ps0_11, Pr0_11, Qs0_11, Qr0_11⟩, ⟨Ps0_12, Pr0_12, Qs0_12, Qr0_12⟩, ⟨Ps0_13, Pr0_13, Qs0_13, Qr0_13⟩, ⟨Ps0_14, Pr0_14, Qs0_14, Qr0_14⟩⟩
  icases HatO1 with ⟨⟨Ps1_0, Pr1_0, Qs1_0, Qr1_0⟩, ⟨Ps1_1, Pr1_1, Qs1_1, Qr1_1⟩, ⟨Ps1_2, Pr1_2, Qs1_2, Qr1_2⟩, ⟨Ps1_3, Pr1_3, Qs1_3, Qr1_3⟩, ⟨Ps1_4, Pr1_4, Qs1_4, Qr1_4⟩, ⟨Ps1_5, Pr1_5, Qs1_5, Qr1_5⟩, ⟨Ps1_6, Pr1_6, Qs1_6, Qr1_6⟩, ⟨Ps1_7, Pr1_7, Qs1_7, Qr1_7⟩, ⟨Ps1_8, Pr1_8, Qs1_8, Qr1_8⟩, ⟨Ps1_9, Pr1_9, Qs1_9, Qr1_9⟩, ⟨Ps1_10, Pr1_10, Qs1_10, Qr1_10⟩, ⟨Ps1_11, Pr1_11, Qs1_11, Qr1_11⟩, ⟨Ps1_12, Pr1_12, Qs1_12, Qr1_12⟩, ⟨Ps1_13, Pr1_13, Qs1_13, Qr1_13⟩, ⟨Ps1_14, Pr1_14, Qs1_14, Qr1_14⟩⟩
  icases HopO0 with ⟨⟨Os0_0, Or0_0, Us0_0, Ur0_0⟩, ⟨Os0_1, Or0_1, Us0_1, Ur0_1⟩, ⟨Os0_2, Or0_2, Us0_2, Ur0_2⟩, ⟨Os0_3, Or0_3, Us0_3, Ur0_3⟩, ⟨Os0_4, Or0_4, Us0_4, Ur0_4⟩, ⟨Os0_5, Or0_5, Us0_5, Ur0_5⟩, ⟨Os0_6, Or0_6, Us0_6, Ur0_6⟩, ⟨Os0_7, Or0_7, Us0_7, Ur0_7⟩, ⟨Os0_8, Or0_8, Us0_8, Ur0_8⟩, ⟨Os0_9, Or0_9, Us0_9, Ur0_9⟩, ⟨Os0_10, Or0_10, Us0_10, Ur0_10⟩, ⟨Os0_11, Or0_11, Us0_11, Ur0_11⟩, ⟨Os0_12, Or0_12, Us0_12, Ur0_12⟩, ⟨Os0_13, Or0_13, Us0_13, Ur0_13⟩, ⟨Os0_14, Or0_14, Us0_14, Ur0_14⟩⟩
  icases HopO1 with ⟨⟨Os1_0, Or1_0, Us1_0, Ur1_0⟩, ⟨Os1_1, Or1_1, Us1_1, Ur1_1⟩, ⟨Os1_2, Or1_2, Us1_2, Ur1_2⟩, ⟨Os1_3, Or1_3, Us1_3, Ur1_3⟩, ⟨Os1_4, Or1_4, Us1_4, Ur1_4⟩, ⟨Os1_5, Or1_5, Us1_5, Ur1_5⟩, ⟨Os1_6, Or1_6, Us1_6, Ur1_6⟩, ⟨Os1_7, Or1_7, Us1_7, Ur1_7⟩, ⟨Os1_8, Or1_8, Us1_8, Ur1_8⟩, ⟨Os1_9, Or1_9, Us1_9, Ur1_9⟩, ⟨Os1_10, Or1_10, Us1_10, Ur1_10⟩, ⟨Os1_11, Or1_11, Us1_11, Ur1_11⟩, ⟨Os1_12, Or1_12, Us1_12, Ur1_12⟩, ⟨Os1_13, Or1_13, Us1_13, Ur1_13⟩, ⟨Os1_14, Or1_14, Us1_14, Ur1_14⟩⟩
  icases HtC0 with ⟨⟨Tr0_0, Ta0_0, Ts0_0, Tg0_0⟩, ⟨Tr0_1, Ta0_1, Ts0_1, Tg0_1⟩, ⟨Tr0_2, Ta0_2, Ts0_2, Tg0_2⟩, ⟨Tr0_3, Ta0_3, Ts0_3, Tg0_3⟩, ⟨Tr0_4, Ta0_4, Ts0_4, Tg0_4⟩, ⟨Tr0_5, Ta0_5, Ts0_5, Tg0_5⟩, ⟨Tr0_6, Ta0_6, Ts0_6, Tg0_6⟩, ⟨Tr0_7, Ta0_7, Ts0_7, Tg0_7⟩, ⟨Tr0_8, Ta0_8, Ts0_8, Tg0_8⟩, ⟨Tr0_9, Ta0_9, Ts0_9, Tg0_9⟩, ⟨Tr0_10, Ta0_10, Ts0_10, Tg0_10⟩, ⟨Tr0_11, Ta0_11, Ts0_11, Tg0_11⟩, ⟨Tr0_12, Ta0_12, Ts0_12, Tg0_12⟩, ⟨Tr0_13, Ta0_13, Ts0_13, Tg0_13⟩, ⟨Tr0_14, Ta0_14, Ts0_14, Tg0_14⟩⟩
  icases HtC1 with ⟨⟨Tr1_0, Ta1_0, Ts1_0, Tg1_0⟩, ⟨Tr1_1, Ta1_1, Ts1_1, Tg1_1⟩, ⟨Tr1_2, Ta1_2, Ts1_2, Tg1_2⟩, ⟨Tr1_3, Ta1_3, Ts1_3, Tg1_3⟩, ⟨Tr1_4, Ta1_4, Ts1_4, Tg1_4⟩, ⟨Tr1_5, Ta1_5, Ts1_5, Tg1_5⟩, ⟨Tr1_6, Ta1_6, Ts1_6, Tg1_6⟩, ⟨Tr1_7, Ta1_7, Ts1_7, Tg1_7⟩, ⟨Tr1_8, Ta1_8, Ts1_8, Tg1_8⟩, ⟨Tr1_9, Ta1_9, Ts1_9, Tg1_9⟩, ⟨Tr1_10, Ta1_10, Ts1_10, Tg1_10⟩, ⟨Tr1_11, Ta1_11, Ts1_11, Tg1_11⟩, ⟨Tr1_12, Ta1_12, Ts1_12, Tg1_12⟩, ⟨Tr1_13, Ta1_13, Ts1_13, Tg1_13⟩, ⟨Tr1_14, Ta1_14, Ts1_14, Tg1_14⟩⟩
  icases HcR0 with ⟨⟨Cr0_0, Ca0_0⟩, ⟨Cr0_1, Ca0_1⟩, ⟨Cr0_2, Ca0_2⟩, ⟨Cr0_3, Ca0_3⟩, ⟨Cr0_4, Ca0_4⟩, ⟨Cr0_5, Ca0_5⟩, ⟨Cr0_6, Ca0_6⟩, ⟨Cr0_7, Ca0_7⟩, ⟨Cr0_8, Ca0_8⟩, ⟨Cr0_9, Ca0_9⟩, ⟨Cr0_10, Ca0_10⟩, ⟨Cr0_11, Ca0_11⟩, ⟨Cr0_12, Ca0_12⟩, ⟨Cr0_13, Ca0_13⟩, ⟨Cr0_14, Ca0_14⟩⟩
  icases HcR1 with ⟨⟨Cr1_0, Ca1_0⟩, ⟨Cr1_1, Ca1_1⟩, ⟨Cr1_2, Ca1_2⟩, ⟨Cr1_3, Ca1_3⟩, ⟨Cr1_4, Ca1_4⟩, ⟨Cr1_5, Ca1_5⟩, ⟨Cr1_6, Ca1_6⟩, ⟨Cr1_7, Ca1_7⟩, ⟨Cr1_8, Ca1_8⟩, ⟨Cr1_9, Ca1_9⟩, ⟨Cr1_10, Ca1_10⟩, ⟨Cr1_11, Ca1_11⟩, ⟨Cr1_12, Ca1_12⟩, ⟨Cr1_13, Ca1_13⟩, ⟨Cr1_14, Ca1_14⟩⟩
  -- the partial product cut into the thirty copies' sources and the own rows
  ihave Hp := (pb_list m c) $$ Hp
  icases Hp with ⟨⟨⟨Src0_0, Src0_1, Src0_2, Src0_3, Src0_4, Src0_5, Src0_6, Src0_7, Src0_8, Src0_9, Src0_10, Src0_11, Src0_12, Src0_13, Src0_14⟩, ⟨Src1_0, Src1_1, Src1_2, Src1_3, Src1_4, Src1_5, Src1_6, Src1_7, Src1_8, Src1_9, Src1_10, Src1_11, Src1_12, Src1_13, Src1_14⟩⟩, HownPb0, HownPb1⟩
  rs_send_step 0, 0, 0, 1, (dev16_eq c), fs0_0, Src0_0, Hs0_0, Ts0_0, Os0_0, Tr0_0, Hrr0_0, Cs0_0
  rs_send_step 0, 1, 1, 2, (dev17_eq c), fs0_1, Src0_1, Hs0_1, Ts0_1, Os0_1, Tr0_1, Hrr0_1, Cs0_1
  rs_send_step 0, 2, 2, 3, (dev18_eq c), fs0_2, Src0_2, Hs0_2, Ts0_2, Os0_2, Tr0_2, Hrr0_2, Cs0_2
  rs_send_step 0, 3, 3, 4, (dev19_eq c), fs0_3, Src0_3, Hs0_3, Ts0_3, Os0_3, Tr0_3, Hrr0_3, Cs0_3
  rs_send_step 0, 4, 4, 5, (dev20_eq c), fs0_4, Src0_4, Hs0_4, Ts0_4, Os0_4, Tr0_4, Hrr0_4, Cs0_4
  rs_send_step 0, 5, 5, 6, (dev21_eq c), fs0_5, Src0_5, Hs0_5, Ts0_5, Os0_5, Tr0_5, Hrr0_5, Cs0_5
  rs_send_step 0, 6, 6, 7, (dev22_eq c), fs0_6, Src0_6, Hs0_6, Ts0_6, Os0_6, Tr0_6, Hrr0_6, Cs0_6
  rs_send_step 0, 7, 7, 8, (dev23_eq c), fs0_7, Src0_7, Hs0_7, Ts0_7, Os0_7, Tr0_7, Hrr0_7, Cs0_7
  rs_send_step 0, 8, 8, 9, (dev24_eq c), fs0_8, Src0_8, Hs0_8, Ts0_8, Os0_8, Tr0_8, Hrr0_8, Cs0_8
  rs_send_step 0, 9, 9, 10, (dev25_eq c), fs0_9, Src0_9, Hs0_9, Ts0_9, Os0_9, Tr0_9, Hrr0_9, Cs0_9
  rs_send_step 0, 10, 10, 11, (dev26_eq c), fs0_10, Src0_10, Hs0_10, Ts0_10, Os0_10, Tr0_10, Hrr0_10, Cs0_10
  rs_send_step 0, 11, 11, 12, (dev27_eq c), fs0_11, Src0_11, Hs0_11, Ts0_11, Os0_11, Tr0_11, Hrr0_11, Cs0_11
  rs_send_step 0, 12, 12, 13, (dev28_eq c), fs0_12, Src0_12, Hs0_12, Ts0_12, Os0_12, Tr0_12, Hrr0_12, Cs0_12
  rs_send_step 0, 13, 13, 14, (dev29_eq c), fs0_13, Src0_13, Hs0_13, Ts0_13, Os0_13, Tr0_13, Hrr0_13, Cs0_13
  rs_send_step 0, 14, 14, 15, (dev30_eq c), fs0_14, Src0_14, Hs0_14, Ts0_14, Os0_14, Tr0_14, Hrr0_14, Cs0_14
  rs_send_step 1, 0, 15, 16, (dev31_eq c), fs1_0, Src1_0, Hs1_0, Ts1_0, Os1_0, Tr1_0, Hrr1_0, Cs1_0
  rs_send_step 1, 1, 16, 17, (dev32_eq c), fs1_1, Src1_1, Hs1_1, Ts1_1, Os1_1, Tr1_1, Hrr1_1, Cs1_1
  rs_send_step 1, 2, 17, 18, (dev33_eq c), fs1_2, Src1_2, Hs1_2, Ts1_2, Os1_2, Tr1_2, Hrr1_2, Cs1_2
  rs_send_step 1, 3, 18, 19, (dev34_eq c), fs1_3, Src1_3, Hs1_3, Ts1_3, Os1_3, Tr1_3, Hrr1_3, Cs1_3
  rs_send_step 1, 4, 19, 20, (dev35_eq c), fs1_4, Src1_4, Hs1_4, Ts1_4, Os1_4, Tr1_4, Hrr1_4, Cs1_4
  rs_send_step 1, 5, 20, 21, (dev36_eq c), fs1_5, Src1_5, Hs1_5, Ts1_5, Os1_5, Tr1_5, Hrr1_5, Cs1_5
  rs_send_step 1, 6, 21, 22, (dev37_eq c), fs1_6, Src1_6, Hs1_6, Ts1_6, Os1_6, Tr1_6, Hrr1_6, Cs1_6
  rs_send_step 1, 7, 22, 23, (dev38_eq c), fs1_7, Src1_7, Hs1_7, Ts1_7, Os1_7, Tr1_7, Hrr1_7, Cs1_7
  rs_send_step 1, 8, 23, 24, (dev39_eq c), fs1_8, Src1_8, Hs1_8, Ts1_8, Os1_8, Tr1_8, Hrr1_8, Cs1_8
  rs_send_step 1, 9, 24, 25, (dev40_eq c), fs1_9, Src1_9, Hs1_9, Ts1_9, Os1_9, Tr1_9, Hrr1_9, Cs1_9
  rs_send_step 1, 10, 25, 26, (dev41_eq c), fs1_10, Src1_10, Hs1_10, Ts1_10, Os1_10, Tr1_10, Hrr1_10, Cs1_10
  rs_send_step 1, 11, 26, 27, (dev42_eq c), fs1_11, Src1_11, Hs1_11, Ts1_11, Os1_11, Tr1_11, Hrr1_11, Cs1_11
  rs_send_step 1, 12, 27, 28, (dev43_eq c), fs1_12, Src1_12, Hs1_12, Ts1_12, Os1_12, Tr1_12, Hrr1_12, Cs1_12
  rs_send_step 1, 13, 28, 29, (dev44_eq c), fs1_13, Src1_13, Hs1_13, Ts1_13, Os1_13, Tr1_13, Hrr1_13, Cs1_13
  rs_send_step 1, 14, 29, 30, (dev45_eq c), fs1_14, Src1_14, Hs1_14, Ts1_14, Os1_14, Tr1_14, Hrr1_14, Cs1_14
  rw [owedRS_end, add_zero]
  -- half 0: the own rows, the fifteen landed pieces, the store, the fifteen copies on
  own_load_step 0, HownPb0
  rs_recv_step 0, 0, 0, Cr0_0, Pr0_0, Ld0_0
  rs_recv_step 0, 1, 0, Cr0_1, Pr0_1, Ld0_1
  rs_recv_step 0, 2, 0, Cr0_2, Pr0_2, Ld0_2
  rs_recv_step 0, 3, 0, Cr0_3, Pr0_3, Ld0_3
  rs_recv_step 0, 4, 0, Cr0_4, Pr0_4, Ld0_4
  rs_recv_step 0, 5, 0, Cr0_5, Pr0_5, Ld0_5
  rs_recv_step 0, 6, 0, Cr0_6, Pr0_6, Ld0_6
  rs_recv_step 0, 7, 0, Cr0_7, Pr0_7, Ld0_7
  rs_recv_step 0, 8, 0, Cr0_8, Pr0_8, Ld0_8
  rs_recv_step 0, 9, 0, Cr0_9, Pr0_9, Ld0_9
  rs_recv_step 0, 10, 0, Cr0_10, Pr0_10, Ld0_10
  rs_recv_step 0, 11, 0, Cr0_11, Pr0_11, Ld0_11
  rs_recv_step 0, 12, 0, Cr0_12, Pr0_12, Ld0_12
  rs_recv_step 0, 13, 0, Cr0_13, Pr0_13, Ld0_13
  rs_recv_step 0, 14, 0, Cr0_14, Pr0_14, Ld0_14
  own_store_step 0, HoutC0, (by exact acc0_reads m c)
  ihave Hsh := (shares_list c 0 _) $$ HoutC0
  icases Hsh with ⟨Sh0_0, Sh0_1, Sh0_2, Sh0_3, Sh0_4, Sh0_5, Sh0_6, Sh0_7, Sh0_8, Sh0_9, Sh0_10, Sh0_11, Sh0_12, Sh0_13, Sh0_14⟩
  ag_send_step 0, 0, 0, 1, (dev46_eq c), fq0_0, Sh0_0, Hq0_0, Tg0_0, Us0_0, Ta0_0, Hra0_0, Cg0_0
  ag_send_step 0, 1, 1, 2, (dev47_eq c), fq0_1, Sh0_1, Hq0_1, Tg0_1, Us0_1, Ta0_1, Hra0_1, Cg0_1
  ag_send_step 0, 2, 2, 3, (dev48_eq c), fq0_2, Sh0_2, Hq0_2, Tg0_2, Us0_2, Ta0_2, Hra0_2, Cg0_2
  ag_send_step 0, 3, 3, 4, (dev49_eq c), fq0_3, Sh0_3, Hq0_3, Tg0_3, Us0_3, Ta0_3, Hra0_3, Cg0_3
  ag_send_step 0, 4, 4, 5, (dev50_eq c), fq0_4, Sh0_4, Hq0_4, Tg0_4, Us0_4, Ta0_4, Hra0_4, Cg0_4
  ag_send_step 0, 5, 5, 6, (dev51_eq c), fq0_5, Sh0_5, Hq0_5, Tg0_5, Us0_5, Ta0_5, Hra0_5, Cg0_5
  ag_send_step 0, 6, 6, 7, (dev52_eq c), fq0_6, Sh0_6, Hq0_6, Tg0_6, Us0_6, Ta0_6, Hra0_6, Cg0_6
  ag_send_step 0, 7, 7, 8, (dev53_eq c), fq0_7, Sh0_7, Hq0_7, Tg0_7, Us0_7, Ta0_7, Hra0_7, Cg0_7
  ag_send_step 0, 8, 8, 9, (dev54_eq c), fq0_8, Sh0_8, Hq0_8, Tg0_8, Us0_8, Ta0_8, Hra0_8, Cg0_8
  ag_send_step 0, 9, 9, 10, (dev55_eq c), fq0_9, Sh0_9, Hq0_9, Tg0_9, Us0_9, Ta0_9, Hra0_9, Cg0_9
  ag_send_step 0, 10, 10, 11, (dev56_eq c), fq0_10, Sh0_10, Hq0_10, Tg0_10, Us0_10, Ta0_10, Hra0_10, Cg0_10
  ag_send_step 0, 11, 11, 12, (dev57_eq c), fq0_11, Sh0_11, Hq0_11, Tg0_11, Us0_11, Ta0_11, Hra0_11, Cg0_11
  ag_send_step 0, 12, 12, 13, (dev58_eq c), fq0_12, Sh0_12, Hq0_12, Tg0_12, Us0_12, Ta0_12, Hra0_12, Cg0_12
  ag_send_step 0, 13, 13, 14, (dev59_eq c), fq0_13, Sh0_13, Hq0_13, Tg0_13, Us0_13, Ta0_13, Hra0_13, Cg0_13
  ag_send_step 0, 14, 14, 15, (dev60_eq c), fq0_14, Sh0_14, Hq0_14, Tg0_14, Us0_14, Ta0_14, Hra0_14, Cg0_14
  -- half 1: the own rows, the fifteen landed pieces, the store, the fifteen copies on
  own_load_step 1, HownPb1
  rs_recv_step 1, 0, 15, Cr1_0, Pr1_0, Ld1_0
  rs_recv_step 1, 1, 15, Cr1_1, Pr1_1, Ld1_1
  rs_recv_step 1, 2, 15, Cr1_2, Pr1_2, Ld1_2
  rs_recv_step 1, 3, 15, Cr1_3, Pr1_3, Ld1_3
  rs_recv_step 1, 4, 15, Cr1_4, Pr1_4, Ld1_4
  rs_recv_step 1, 5, 15, Cr1_5, Pr1_5, Ld1_5
  rs_recv_step 1, 6, 15, Cr1_6, Pr1_6, Ld1_6
  rs_recv_step 1, 7, 15, Cr1_7, Pr1_7, Ld1_7
  rs_recv_step 1, 8, 15, Cr1_8, Pr1_8, Ld1_8
  rs_recv_step 1, 9, 15, Cr1_9, Pr1_9, Ld1_9
  rs_recv_step 1, 10, 15, Cr1_10, Pr1_10, Ld1_10
  rs_recv_step 1, 11, 15, Cr1_11, Pr1_11, Ld1_11
  rs_recv_step 1, 12, 15, Cr1_12, Pr1_12, Ld1_12
  rs_recv_step 1, 13, 15, Cr1_13, Pr1_13, Ld1_13
  rs_recv_step 1, 14, 15, Cr1_14, Pr1_14, Ld1_14
  own_store_step 1, HoutC1, (by exact acc1_reads m c)
  ihave Hsh := (shares_list c 1 _) $$ HoutC1
  icases Hsh with ⟨Sh1_0, Sh1_1, Sh1_2, Sh1_3, Sh1_4, Sh1_5, Sh1_6, Sh1_7, Sh1_8, Sh1_9, Sh1_10, Sh1_11, Sh1_12, Sh1_13, Sh1_14⟩
  ag_send_step 1, 0, 15, 16, (dev61_eq c), fq1_0, Sh1_0, Hq1_0, Tg1_0, Us1_0, Ta1_0, Hra1_0, Cg1_0
  ag_send_step 1, 1, 16, 17, (dev62_eq c), fq1_1, Sh1_1, Hq1_1, Tg1_1, Us1_1, Ta1_1, Hra1_1, Cg1_1
  ag_send_step 1, 2, 17, 18, (dev63_eq c), fq1_2, Sh1_2, Hq1_2, Tg1_2, Us1_2, Ta1_2, Hra1_2, Cg1_2
  ag_send_step 1, 3, 18, 19, (dev64_eq c), fq1_3, Sh1_3, Hq1_3, Tg1_3, Us1_3, Ta1_3, Hra1_3, Cg1_3
  ag_send_step 1, 4, 19, 20, (dev65_eq c), fq1_4, Sh1_4, Hq1_4, Tg1_4, Us1_4, Ta1_4, Hra1_4, Cg1_4
  ag_send_step 1, 5, 20, 21, (dev66_eq c), fq1_5, Sh1_5, Hq1_5, Tg1_5, Us1_5, Ta1_5, Hra1_5, Cg1_5
  ag_send_step 1, 6, 21, 22, (dev67_eq c), fq1_6, Sh1_6, Hq1_6, Tg1_6, Us1_6, Ta1_6, Hra1_6, Cg1_6
  ag_send_step 1, 7, 22, 23, (dev68_eq c), fq1_7, Sh1_7, Hq1_7, Tg1_7, Us1_7, Ta1_7, Hra1_7, Cg1_7
  ag_send_step 1, 8, 23, 24, (dev69_eq c), fq1_8, Sh1_8, Hq1_8, Tg1_8, Us1_8, Ta1_8, Hra1_8, Cg1_8
  ag_send_step 1, 9, 24, 25, (dev70_eq c), fq1_9, Sh1_9, Hq1_9, Tg1_9, Us1_9, Ta1_9, Hra1_9, Cg1_9
  ag_send_step 1, 10, 25, 26, (dev71_eq c), fq1_10, Sh1_10, Hq1_10, Tg1_10, Us1_10, Ta1_10, Hra1_10, Cg1_10
  ag_send_step 1, 11, 26, 27, (dev72_eq c), fq1_11, Sh1_11, Hq1_11, Tg1_11, Us1_11, Ta1_11, Hra1_11, Cg1_11
  ag_send_step 1, 12, 27, 28, (dev73_eq c), fq1_12, Sh1_12, Hq1_12, Tg1_12, Us1_12, Ta1_12, Hra1_12, Cg1_12
  ag_send_step 1, 13, 28, 29, (dev74_eq c), fq1_13, Sh1_13, Hq1_13, Tg1_13, Us1_13, Ta1_13, Hra1_13, Cg1_13
  ag_send_step 1, 14, 29, 30, (dev75_eq c), fq1_14, Sh1_14, Hq1_14, Tg1_14, Us1_14, Ta1_14, Hra1_14, Cg1_14
  rw [owedAG_end]
  -- the closing waits: every received block, then every source back
  wait0_step (wp_wait_agR m shrF K c 0 0 (by rfl) _), (inv_agR m K shrF c 0 0), Ca0_0, Qr0_0, Ag0_0
  wait0_step (wp_wait_agR m shrF K c 0 1 (by rfl) _), (inv_agR m K shrF c 0 1), Ca0_1, Qr0_1, Ag0_1
  wait0_step (wp_wait_agR m shrF K c 0 2 (by rfl) _), (inv_agR m K shrF c 0 2), Ca0_2, Qr0_2, Ag0_2
  wait0_step (wp_wait_agR m shrF K c 0 3 (by rfl) _), (inv_agR m K shrF c 0 3), Ca0_3, Qr0_3, Ag0_3
  wait0_step (wp_wait_agR m shrF K c 0 4 (by rfl) _), (inv_agR m K shrF c 0 4), Ca0_4, Qr0_4, Ag0_4
  wait0_step (wp_wait_agR m shrF K c 0 5 (by rfl) _), (inv_agR m K shrF c 0 5), Ca0_5, Qr0_5, Ag0_5
  wait0_step (wp_wait_agR m shrF K c 0 6 (by rfl) _), (inv_agR m K shrF c 0 6), Ca0_6, Qr0_6, Ag0_6
  wait0_step (wp_wait_agR m shrF K c 0 7 (by rfl) _), (inv_agR m K shrF c 0 7), Ca0_7, Qr0_7, Ag0_7
  wait0_step (wp_wait_agR m shrF K c 0 8 (by rfl) _), (inv_agR m K shrF c 0 8), Ca0_8, Qr0_8, Ag0_8
  wait0_step (wp_wait_agR m shrF K c 0 9 (by rfl) _), (inv_agR m K shrF c 0 9), Ca0_9, Qr0_9, Ag0_9
  wait0_step (wp_wait_agR m shrF K c 0 10 (by rfl) _), (inv_agR m K shrF c 0 10), Ca0_10, Qr0_10, Ag0_10
  wait0_step (wp_wait_agR m shrF K c 0 11 (by rfl) _), (inv_agR m K shrF c 0 11), Ca0_11, Qr0_11, Ag0_11
  wait0_step (wp_wait_agR m shrF K c 0 12 (by rfl) _), (inv_agR m K shrF c 0 12), Ca0_12, Qr0_12, Ag0_12
  wait0_step (wp_wait_agR m shrF K c 0 13 (by rfl) _), (inv_agR m K shrF c 0 13), Ca0_13, Qr0_13, Ag0_13
  wait0_step (wp_wait_agR m shrF K c 0 14 (by rfl) _), (inv_agR m K shrF c 0 14), Ca0_14, Qr0_14, Ag0_14
  wait0_step (wp_wait_agR m shrF K c 1 0 (by rfl) _), (inv_agR m K shrF c 1 0), Ca1_0, Qr1_0, Ag1_0
  wait0_step (wp_wait_agR m shrF K c 1 1 (by rfl) _), (inv_agR m K shrF c 1 1), Ca1_1, Qr1_1, Ag1_1
  wait0_step (wp_wait_agR m shrF K c 1 2 (by rfl) _), (inv_agR m K shrF c 1 2), Ca1_2, Qr1_2, Ag1_2
  wait0_step (wp_wait_agR m shrF K c 1 3 (by rfl) _), (inv_agR m K shrF c 1 3), Ca1_3, Qr1_3, Ag1_3
  wait0_step (wp_wait_agR m shrF K c 1 4 (by rfl) _), (inv_agR m K shrF c 1 4), Ca1_4, Qr1_4, Ag1_4
  wait0_step (wp_wait_agR m shrF K c 1 5 (by rfl) _), (inv_agR m K shrF c 1 5), Ca1_5, Qr1_5, Ag1_5
  wait0_step (wp_wait_agR m shrF K c 1 6 (by rfl) _), (inv_agR m K shrF c 1 6), Ca1_6, Qr1_6, Ag1_6
  wait0_step (wp_wait_agR m shrF K c 1 7 (by rfl) _), (inv_agR m K shrF c 1 7), Ca1_7, Qr1_7, Ag1_7
  wait0_step (wp_wait_agR m shrF K c 1 8 (by rfl) _), (inv_agR m K shrF c 1 8), Ca1_8, Qr1_8, Ag1_8
  wait0_step (wp_wait_agR m shrF K c 1 9 (by rfl) _), (inv_agR m K shrF c 1 9), Ca1_9, Qr1_9, Ag1_9
  wait0_step (wp_wait_agR m shrF K c 1 10 (by rfl) _), (inv_agR m K shrF c 1 10), Ca1_10, Qr1_10, Ag1_10
  wait0_step (wp_wait_agR m shrF K c 1 11 (by rfl) _), (inv_agR m K shrF c 1 11), Ca1_11, Qr1_11, Ag1_11
  wait0_step (wp_wait_agR m shrF K c 1 12 (by rfl) _), (inv_agR m K shrF c 1 12), Ca1_12, Qr1_12, Ag1_12
  wait0_step (wp_wait_agR m shrF K c 1 13 (by rfl) _), (inv_agR m K shrF c 1 13), Ca1_13, Qr1_13, Ag1_13
  wait0_step (wp_wait_agR m shrF K c 1 14 (by rfl) _), (inv_agR m K shrF c 1 14), Ca1_14, Qr1_14, Ag1_14
  wait0_step (wp_wait_rsS m shrF K c 0 0 (by rfl) _), (inv_rsS m K shrF c 0 0), Cs0_0, Ps0_0, Sb0_0
  wait0_step (wp_wait_rsS m shrF K c 0 1 (by rfl) _), (inv_rsS m K shrF c 0 1), Cs0_1, Ps0_1, Sb0_1
  wait0_step (wp_wait_rsS m shrF K c 0 2 (by rfl) _), (inv_rsS m K shrF c 0 2), Cs0_2, Ps0_2, Sb0_2
  wait0_step (wp_wait_rsS m shrF K c 0 3 (by rfl) _), (inv_rsS m K shrF c 0 3), Cs0_3, Ps0_3, Sb0_3
  wait0_step (wp_wait_rsS m shrF K c 0 4 (by rfl) _), (inv_rsS m K shrF c 0 4), Cs0_4, Ps0_4, Sb0_4
  wait0_step (wp_wait_rsS m shrF K c 0 5 (by rfl) _), (inv_rsS m K shrF c 0 5), Cs0_5, Ps0_5, Sb0_5
  wait0_step (wp_wait_rsS m shrF K c 0 6 (by rfl) _), (inv_rsS m K shrF c 0 6), Cs0_6, Ps0_6, Sb0_6
  wait0_step (wp_wait_rsS m shrF K c 0 7 (by rfl) _), (inv_rsS m K shrF c 0 7), Cs0_7, Ps0_7, Sb0_7
  wait0_step (wp_wait_rsS m shrF K c 0 8 (by rfl) _), (inv_rsS m K shrF c 0 8), Cs0_8, Ps0_8, Sb0_8
  wait0_step (wp_wait_rsS m shrF K c 0 9 (by rfl) _), (inv_rsS m K shrF c 0 9), Cs0_9, Ps0_9, Sb0_9
  wait0_step (wp_wait_rsS m shrF K c 0 10 (by rfl) _), (inv_rsS m K shrF c 0 10), Cs0_10, Ps0_10, Sb0_10
  wait0_step (wp_wait_rsS m shrF K c 0 11 (by rfl) _), (inv_rsS m K shrF c 0 11), Cs0_11, Ps0_11, Sb0_11
  wait0_step (wp_wait_rsS m shrF K c 0 12 (by rfl) _), (inv_rsS m K shrF c 0 12), Cs0_12, Ps0_12, Sb0_12
  wait0_step (wp_wait_rsS m shrF K c 0 13 (by rfl) _), (inv_rsS m K shrF c 0 13), Cs0_13, Ps0_13, Sb0_13
  wait0_step (wp_wait_rsS m shrF K c 0 14 (by rfl) _), (inv_rsS m K shrF c 0 14), Cs0_14, Ps0_14, Sb0_14
  wait0_step (wp_wait_rsS m shrF K c 1 0 (by rfl) _), (inv_rsS m K shrF c 1 0), Cs1_0, Ps1_0, Sb1_0
  wait0_step (wp_wait_rsS m shrF K c 1 1 (by rfl) _), (inv_rsS m K shrF c 1 1), Cs1_1, Ps1_1, Sb1_1
  wait0_step (wp_wait_rsS m shrF K c 1 2 (by rfl) _), (inv_rsS m K shrF c 1 2), Cs1_2, Ps1_2, Sb1_2
  wait0_step (wp_wait_rsS m shrF K c 1 3 (by rfl) _), (inv_rsS m K shrF c 1 3), Cs1_3, Ps1_3, Sb1_3
  wait0_step (wp_wait_rsS m shrF K c 1 4 (by rfl) _), (inv_rsS m K shrF c 1 4), Cs1_4, Ps1_4, Sb1_4
  wait0_step (wp_wait_rsS m shrF K c 1 5 (by rfl) _), (inv_rsS m K shrF c 1 5), Cs1_5, Ps1_5, Sb1_5
  wait0_step (wp_wait_rsS m shrF K c 1 6 (by rfl) _), (inv_rsS m K shrF c 1 6), Cs1_6, Ps1_6, Sb1_6
  wait0_step (wp_wait_rsS m shrF K c 1 7 (by rfl) _), (inv_rsS m K shrF c 1 7), Cs1_7, Ps1_7, Sb1_7
  wait0_step (wp_wait_rsS m shrF K c 1 8 (by rfl) _), (inv_rsS m K shrF c 1 8), Cs1_8, Ps1_8, Sb1_8
  wait0_step (wp_wait_rsS m shrF K c 1 9 (by rfl) _), (inv_rsS m K shrF c 1 9), Cs1_9, Ps1_9, Sb1_9
  wait0_step (wp_wait_rsS m shrF K c 1 10 (by rfl) _), (inv_rsS m K shrF c 1 10), Cs1_10, Ps1_10, Sb1_10
  wait0_step (wp_wait_rsS m shrF K c 1 11 (by rfl) _), (inv_rsS m K shrF c 1 11), Cs1_11, Ps1_11, Sb1_11
  wait0_step (wp_wait_rsS m shrF K c 1 12 (by rfl) _), (inv_rsS m K shrF c 1 12), Cs1_12, Ps1_12, Sb1_12
  wait0_step (wp_wait_rsS m shrF K c 1 13 (by rfl) _), (inv_rsS m K shrF c 1 13), Cs1_13, Ps1_13, Sb1_13
  wait0_step (wp_wait_rsS m shrF K c 1 14 (by rfl) _), (inv_rsS m K shrF c 1 14), Cs1_14, Ps1_14, Sb1_14
  wait0_step (wp_wait_agS m shrF K c 0 0 (by rfl) _), (inv_agS m K shrF c 0 0), Cg0_0, Qs0_0, Shb0_0
  wait0_step (wp_wait_agS m shrF K c 0 1 (by rfl) _), (inv_agS m K shrF c 0 1), Cg0_1, Qs0_1, Shb0_1
  wait0_step (wp_wait_agS m shrF K c 0 2 (by rfl) _), (inv_agS m K shrF c 0 2), Cg0_2, Qs0_2, Shb0_2
  wait0_step (wp_wait_agS m shrF K c 0 3 (by rfl) _), (inv_agS m K shrF c 0 3), Cg0_3, Qs0_3, Shb0_3
  wait0_step (wp_wait_agS m shrF K c 0 4 (by rfl) _), (inv_agS m K shrF c 0 4), Cg0_4, Qs0_4, Shb0_4
  wait0_step (wp_wait_agS m shrF K c 0 5 (by rfl) _), (inv_agS m K shrF c 0 5), Cg0_5, Qs0_5, Shb0_5
  wait0_step (wp_wait_agS m shrF K c 0 6 (by rfl) _), (inv_agS m K shrF c 0 6), Cg0_6, Qs0_6, Shb0_6
  wait0_step (wp_wait_agS m shrF K c 0 7 (by rfl) _), (inv_agS m K shrF c 0 7), Cg0_7, Qs0_7, Shb0_7
  wait0_step (wp_wait_agS m shrF K c 0 8 (by rfl) _), (inv_agS m K shrF c 0 8), Cg0_8, Qs0_8, Shb0_8
  wait0_step (wp_wait_agS m shrF K c 0 9 (by rfl) _), (inv_agS m K shrF c 0 9), Cg0_9, Qs0_9, Shb0_9
  wait0_step (wp_wait_agS m shrF K c 0 10 (by rfl) _), (inv_agS m K shrF c 0 10), Cg0_10, Qs0_10, Shb0_10
  wait0_step (wp_wait_agS m shrF K c 0 11 (by rfl) _), (inv_agS m K shrF c 0 11), Cg0_11, Qs0_11, Shb0_11
  wait0_step (wp_wait_agS m shrF K c 0 12 (by rfl) _), (inv_agS m K shrF c 0 12), Cg0_12, Qs0_12, Shb0_12
  wait0_step (wp_wait_agS m shrF K c 0 13 (by rfl) _), (inv_agS m K shrF c 0 13), Cg0_13, Qs0_13, Shb0_13
  wait0_step (wp_wait_agS m shrF K c 0 14 (by rfl) _), (inv_agS m K shrF c 0 14), Cg0_14, Qs0_14, Shb0_14
  wait0_step (wp_wait_agS m shrF K c 1 0 (by rfl) _), (inv_agS m K shrF c 1 0), Cg1_0, Qs1_0, Shb1_0
  wait0_step (wp_wait_agS m shrF K c 1 1 (by rfl) _), (inv_agS m K shrF c 1 1), Cg1_1, Qs1_1, Shb1_1
  wait0_step (wp_wait_agS m shrF K c 1 2 (by rfl) _), (inv_agS m K shrF c 1 2), Cg1_2, Qs1_2, Shb1_2
  wait0_step (wp_wait_agS m shrF K c 1 3 (by rfl) _), (inv_agS m K shrF c 1 3), Cg1_3, Qs1_3, Shb1_3
  wait0_step (wp_wait_agS m shrF K c 1 4 (by rfl) _), (inv_agS m K shrF c 1 4), Cg1_4, Qs1_4, Shb1_4
  wait0_step (wp_wait_agS m shrF K c 1 5 (by rfl) _), (inv_agS m K shrF c 1 5), Cg1_5, Qs1_5, Shb1_5
  wait0_step (wp_wait_agS m shrF K c 1 6 (by rfl) _), (inv_agS m K shrF c 1 6), Cg1_6, Qs1_6, Shb1_6
  wait0_step (wp_wait_agS m shrF K c 1 7 (by rfl) _), (inv_agS m K shrF c 1 7), Cg1_7, Qs1_7, Shb1_7
  wait0_step (wp_wait_agS m shrF K c 1 8 (by rfl) _), (inv_agS m K shrF c 1 8), Cg1_8, Qs1_8, Shb1_8
  wait0_step (wp_wait_agS m shrF K c 1 9 (by rfl) _), (inv_agS m K shrF c 1 9), Cg1_9, Qs1_9, Shb1_9
  wait0_step (wp_wait_agS m shrF K c 1 10 (by rfl) _), (inv_agS m K shrF c 1 10), Cg1_10, Qs1_10, Shb1_10
  wait0_step (wp_wait_agS m shrF K c 1 11 (by rfl) _), (inv_agS m K shrF c 1 11), Cg1_11, Qs1_11, Shb1_11
  wait0_step (wp_wait_agS m shrF K c 1 12 (by rfl) _), (inv_agS m K shrF c 1 12), Cg1_12, Qs1_12, Shb1_12
  wait0_step (wp_wait_agS m shrF K c 1 13 (by rfl) _), (inv_agS m K shrF c 1 13), Cg1_13, Qs1_13, Shb1_13
  wait0_step (wp_wait_agS m shrF K c 1 14 (by rfl) _), (inv_agS m K shrF c 1 14), Cg1_14, Qs1_14, Shb1_14
  -- every used cell's one round is over: closed, its counter back at zero
  close_step (cel c (rsS 0 (off 0))), (inv_rsS m K shrF c 0 0), Ps0_0, Zs0_0
  close_step (cel c (rsR 0 (off 0))), (inv_rsR m K shrF c 0 0), Pr0_0, Zr0_0
  close_step (cel c (agS 0 (off 0))), (inv_agS m K shrF c 0 0), Qs0_0, Zg0_0
  close_step (cel c (agR 0 (off 0))), (inv_agR m K shrF c 0 0), Qr0_0, Za0_0
  close_step (cel c (rsS 0 (off 1))), (inv_rsS m K shrF c 0 1), Ps0_1, Zs0_1
  close_step (cel c (rsR 0 (off 1))), (inv_rsR m K shrF c 0 1), Pr0_1, Zr0_1
  close_step (cel c (agS 0 (off 1))), (inv_agS m K shrF c 0 1), Qs0_1, Zg0_1
  close_step (cel c (agR 0 (off 1))), (inv_agR m K shrF c 0 1), Qr0_1, Za0_1
  close_step (cel c (rsS 0 (off 2))), (inv_rsS m K shrF c 0 2), Ps0_2, Zs0_2
  close_step (cel c (rsR 0 (off 2))), (inv_rsR m K shrF c 0 2), Pr0_2, Zr0_2
  close_step (cel c (agS 0 (off 2))), (inv_agS m K shrF c 0 2), Qs0_2, Zg0_2
  close_step (cel c (agR 0 (off 2))), (inv_agR m K shrF c 0 2), Qr0_2, Za0_2
  close_step (cel c (rsS 0 (off 3))), (inv_rsS m K shrF c 0 3), Ps0_3, Zs0_3
  close_step (cel c (rsR 0 (off 3))), (inv_rsR m K shrF c 0 3), Pr0_3, Zr0_3
  close_step (cel c (agS 0 (off 3))), (inv_agS m K shrF c 0 3), Qs0_3, Zg0_3
  close_step (cel c (agR 0 (off 3))), (inv_agR m K shrF c 0 3), Qr0_3, Za0_3
  close_step (cel c (rsS 0 (off 4))), (inv_rsS m K shrF c 0 4), Ps0_4, Zs0_4
  close_step (cel c (rsR 0 (off 4))), (inv_rsR m K shrF c 0 4), Pr0_4, Zr0_4
  close_step (cel c (agS 0 (off 4))), (inv_agS m K shrF c 0 4), Qs0_4, Zg0_4
  close_step (cel c (agR 0 (off 4))), (inv_agR m K shrF c 0 4), Qr0_4, Za0_4
  close_step (cel c (rsS 0 (off 5))), (inv_rsS m K shrF c 0 5), Ps0_5, Zs0_5
  close_step (cel c (rsR 0 (off 5))), (inv_rsR m K shrF c 0 5), Pr0_5, Zr0_5
  close_step (cel c (agS 0 (off 5))), (inv_agS m K shrF c 0 5), Qs0_5, Zg0_5
  close_step (cel c (agR 0 (off 5))), (inv_agR m K shrF c 0 5), Qr0_5, Za0_5
  close_step (cel c (rsS 0 (off 6))), (inv_rsS m K shrF c 0 6), Ps0_6, Zs0_6
  close_step (cel c (rsR 0 (off 6))), (inv_rsR m K shrF c 0 6), Pr0_6, Zr0_6
  close_step (cel c (agS 0 (off 6))), (inv_agS m K shrF c 0 6), Qs0_6, Zg0_6
  close_step (cel c (agR 0 (off 6))), (inv_agR m K shrF c 0 6), Qr0_6, Za0_6
  close_step (cel c (rsS 0 (off 7))), (inv_rsS m K shrF c 0 7), Ps0_7, Zs0_7
  close_step (cel c (rsR 0 (off 7))), (inv_rsR m K shrF c 0 7), Pr0_7, Zr0_7
  close_step (cel c (agS 0 (off 7))), (inv_agS m K shrF c 0 7), Qs0_7, Zg0_7
  close_step (cel c (agR 0 (off 7))), (inv_agR m K shrF c 0 7), Qr0_7, Za0_7
  close_step (cel c (rsS 0 (off 8))), (inv_rsS m K shrF c 0 8), Ps0_8, Zs0_8
  close_step (cel c (rsR 0 (off 8))), (inv_rsR m K shrF c 0 8), Pr0_8, Zr0_8
  close_step (cel c (agS 0 (off 8))), (inv_agS m K shrF c 0 8), Qs0_8, Zg0_8
  close_step (cel c (agR 0 (off 8))), (inv_agR m K shrF c 0 8), Qr0_8, Za0_8
  close_step (cel c (rsS 0 (off 9))), (inv_rsS m K shrF c 0 9), Ps0_9, Zs0_9
  close_step (cel c (rsR 0 (off 9))), (inv_rsR m K shrF c 0 9), Pr0_9, Zr0_9
  close_step (cel c (agS 0 (off 9))), (inv_agS m K shrF c 0 9), Qs0_9, Zg0_9
  close_step (cel c (agR 0 (off 9))), (inv_agR m K shrF c 0 9), Qr0_9, Za0_9
  close_step (cel c (rsS 0 (off 10))), (inv_rsS m K shrF c 0 10), Ps0_10, Zs0_10
  close_step (cel c (rsR 0 (off 10))), (inv_rsR m K shrF c 0 10), Pr0_10, Zr0_10
  close_step (cel c (agS 0 (off 10))), (inv_agS m K shrF c 0 10), Qs0_10, Zg0_10
  close_step (cel c (agR 0 (off 10))), (inv_agR m K shrF c 0 10), Qr0_10, Za0_10
  close_step (cel c (rsS 0 (off 11))), (inv_rsS m K shrF c 0 11), Ps0_11, Zs0_11
  close_step (cel c (rsR 0 (off 11))), (inv_rsR m K shrF c 0 11), Pr0_11, Zr0_11
  close_step (cel c (agS 0 (off 11))), (inv_agS m K shrF c 0 11), Qs0_11, Zg0_11
  close_step (cel c (agR 0 (off 11))), (inv_agR m K shrF c 0 11), Qr0_11, Za0_11
  close_step (cel c (rsS 0 (off 12))), (inv_rsS m K shrF c 0 12), Ps0_12, Zs0_12
  close_step (cel c (rsR 0 (off 12))), (inv_rsR m K shrF c 0 12), Pr0_12, Zr0_12
  close_step (cel c (agS 0 (off 12))), (inv_agS m K shrF c 0 12), Qs0_12, Zg0_12
  close_step (cel c (agR 0 (off 12))), (inv_agR m K shrF c 0 12), Qr0_12, Za0_12
  close_step (cel c (rsS 0 (off 13))), (inv_rsS m K shrF c 0 13), Ps0_13, Zs0_13
  close_step (cel c (rsR 0 (off 13))), (inv_rsR m K shrF c 0 13), Pr0_13, Zr0_13
  close_step (cel c (agS 0 (off 13))), (inv_agS m K shrF c 0 13), Qs0_13, Zg0_13
  close_step (cel c (agR 0 (off 13))), (inv_agR m K shrF c 0 13), Qr0_13, Za0_13
  close_step (cel c (rsS 0 (off 14))), (inv_rsS m K shrF c 0 14), Ps0_14, Zs0_14
  close_step (cel c (rsR 0 (off 14))), (inv_rsR m K shrF c 0 14), Pr0_14, Zr0_14
  close_step (cel c (agS 0 (off 14))), (inv_agS m K shrF c 0 14), Qs0_14, Zg0_14
  close_step (cel c (agR 0 (off 14))), (inv_agR m K shrF c 0 14), Qr0_14, Za0_14
  close_step (cel c (rsS 1 (off 0))), (inv_rsS m K shrF c 1 0), Ps1_0, Zs1_0
  close_step (cel c (rsR 1 (off 0))), (inv_rsR m K shrF c 1 0), Pr1_0, Zr1_0
  close_step (cel c (agS 1 (off 0))), (inv_agS m K shrF c 1 0), Qs1_0, Zg1_0
  close_step (cel c (agR 1 (off 0))), (inv_agR m K shrF c 1 0), Qr1_0, Za1_0
  close_step (cel c (rsS 1 (off 1))), (inv_rsS m K shrF c 1 1), Ps1_1, Zs1_1
  close_step (cel c (rsR 1 (off 1))), (inv_rsR m K shrF c 1 1), Pr1_1, Zr1_1
  close_step (cel c (agS 1 (off 1))), (inv_agS m K shrF c 1 1), Qs1_1, Zg1_1
  close_step (cel c (agR 1 (off 1))), (inv_agR m K shrF c 1 1), Qr1_1, Za1_1
  close_step (cel c (rsS 1 (off 2))), (inv_rsS m K shrF c 1 2), Ps1_2, Zs1_2
  close_step (cel c (rsR 1 (off 2))), (inv_rsR m K shrF c 1 2), Pr1_2, Zr1_2
  close_step (cel c (agS 1 (off 2))), (inv_agS m K shrF c 1 2), Qs1_2, Zg1_2
  close_step (cel c (agR 1 (off 2))), (inv_agR m K shrF c 1 2), Qr1_2, Za1_2
  close_step (cel c (rsS 1 (off 3))), (inv_rsS m K shrF c 1 3), Ps1_3, Zs1_3
  close_step (cel c (rsR 1 (off 3))), (inv_rsR m K shrF c 1 3), Pr1_3, Zr1_3
  close_step (cel c (agS 1 (off 3))), (inv_agS m K shrF c 1 3), Qs1_3, Zg1_3
  close_step (cel c (agR 1 (off 3))), (inv_agR m K shrF c 1 3), Qr1_3, Za1_3
  close_step (cel c (rsS 1 (off 4))), (inv_rsS m K shrF c 1 4), Ps1_4, Zs1_4
  close_step (cel c (rsR 1 (off 4))), (inv_rsR m K shrF c 1 4), Pr1_4, Zr1_4
  close_step (cel c (agS 1 (off 4))), (inv_agS m K shrF c 1 4), Qs1_4, Zg1_4
  close_step (cel c (agR 1 (off 4))), (inv_agR m K shrF c 1 4), Qr1_4, Za1_4
  close_step (cel c (rsS 1 (off 5))), (inv_rsS m K shrF c 1 5), Ps1_5, Zs1_5
  close_step (cel c (rsR 1 (off 5))), (inv_rsR m K shrF c 1 5), Pr1_5, Zr1_5
  close_step (cel c (agS 1 (off 5))), (inv_agS m K shrF c 1 5), Qs1_5, Zg1_5
  close_step (cel c (agR 1 (off 5))), (inv_agR m K shrF c 1 5), Qr1_5, Za1_5
  close_step (cel c (rsS 1 (off 6))), (inv_rsS m K shrF c 1 6), Ps1_6, Zs1_6
  close_step (cel c (rsR 1 (off 6))), (inv_rsR m K shrF c 1 6), Pr1_6, Zr1_6
  close_step (cel c (agS 1 (off 6))), (inv_agS m K shrF c 1 6), Qs1_6, Zg1_6
  close_step (cel c (agR 1 (off 6))), (inv_agR m K shrF c 1 6), Qr1_6, Za1_6
  close_step (cel c (rsS 1 (off 7))), (inv_rsS m K shrF c 1 7), Ps1_7, Zs1_7
  close_step (cel c (rsR 1 (off 7))), (inv_rsR m K shrF c 1 7), Pr1_7, Zr1_7
  close_step (cel c (agS 1 (off 7))), (inv_agS m K shrF c 1 7), Qs1_7, Zg1_7
  close_step (cel c (agR 1 (off 7))), (inv_agR m K shrF c 1 7), Qr1_7, Za1_7
  close_step (cel c (rsS 1 (off 8))), (inv_rsS m K shrF c 1 8), Ps1_8, Zs1_8
  close_step (cel c (rsR 1 (off 8))), (inv_rsR m K shrF c 1 8), Pr1_8, Zr1_8
  close_step (cel c (agS 1 (off 8))), (inv_agS m K shrF c 1 8), Qs1_8, Zg1_8
  close_step (cel c (agR 1 (off 8))), (inv_agR m K shrF c 1 8), Qr1_8, Za1_8
  close_step (cel c (rsS 1 (off 9))), (inv_rsS m K shrF c 1 9), Ps1_9, Zs1_9
  close_step (cel c (rsR 1 (off 9))), (inv_rsR m K shrF c 1 9), Pr1_9, Zr1_9
  close_step (cel c (agS 1 (off 9))), (inv_agS m K shrF c 1 9), Qs1_9, Zg1_9
  close_step (cel c (agR 1 (off 9))), (inv_agR m K shrF c 1 9), Qr1_9, Za1_9
  close_step (cel c (rsS 1 (off 10))), (inv_rsS m K shrF c 1 10), Ps1_10, Zs1_10
  close_step (cel c (rsR 1 (off 10))), (inv_rsR m K shrF c 1 10), Pr1_10, Zr1_10
  close_step (cel c (agS 1 (off 10))), (inv_agS m K shrF c 1 10), Qs1_10, Zg1_10
  close_step (cel c (agR 1 (off 10))), (inv_agR m K shrF c 1 10), Qr1_10, Za1_10
  close_step (cel c (rsS 1 (off 11))), (inv_rsS m K shrF c 1 11), Ps1_11, Zs1_11
  close_step (cel c (rsR 1 (off 11))), (inv_rsR m K shrF c 1 11), Pr1_11, Zr1_11
  close_step (cel c (agS 1 (off 11))), (inv_agS m K shrF c 1 11), Qs1_11, Zg1_11
  close_step (cel c (agR 1 (off 11))), (inv_agR m K shrF c 1 11), Qr1_11, Za1_11
  close_step (cel c (rsS 1 (off 12))), (inv_rsS m K shrF c 1 12), Ps1_12, Zs1_12
  close_step (cel c (rsR 1 (off 12))), (inv_rsR m K shrF c 1 12), Pr1_12, Zr1_12
  close_step (cel c (agS 1 (off 12))), (inv_agS m K shrF c 1 12), Qs1_12, Zg1_12
  close_step (cel c (agR 1 (off 12))), (inv_agR m K shrF c 1 12), Qr1_12, Za1_12
  close_step (cel c (rsS 1 (off 13))), (inv_rsS m K shrF c 1 13), Ps1_13, Zs1_13
  close_step (cel c (rsR 1 (off 13))), (inv_rsR m K shrF c 1 13), Pr1_13, Zr1_13
  close_step (cel c (agS 1 (off 13))), (inv_agS m K shrF c 1 13), Qs1_13, Zg1_13
  close_step (cel c (agR 1 (off 13))), (inv_agR m K shrF c 1 13), Qr1_13, Za1_13
  close_step (cel c (rsS 1 (off 14))), (inv_rsS m K shrF c 1 14), Ps1_14, Zs1_14
  close_step (cel c (rsR 1 (off 14))), (inv_rsR m K shrF c 1 14), Pr1_14, Zr1_14
  close_step (cel c (agS 1 (off 14))), (inv_agS m K shrF c 1 14), Qs1_14, Zg1_14
  close_step (cel c (agR 1 (off 14))), (inv_agR m K shrF c 1 14), Qr1_14, Za1_14
  -- the buffers joined again
  ihave Hpb := (pb_unlist' m c) $$ [Sb0_0 Sb0_1 Sb0_2 Sb0_3 Sb0_4 Sb0_5 Sb0_6 Sb0_7 Sb0_8 Sb0_9 Sb0_10 Sb0_11 Sb0_12 Sb0_13 Sb0_14 Sb1_0 Sb1_1 Sb1_2 Sb1_3 Sb1_4 Sb1_5 Sb1_6 Sb1_7 Sb1_8 Sb1_9 Sb1_10 Sb1_11 Sb1_12 Sb1_13 Sb1_14 HownPb0 HownPb1]
  · isplitl [Sb0_0 Sb0_1 Sb0_2 Sb0_3 Sb0_4 Sb0_5 Sb0_6 Sb0_7 Sb0_8 Sb0_9 Sb0_10 Sb0_11 Sb0_12 Sb0_13 Sb0_14 Sb1_0 Sb1_1 Sb1_2 Sb1_3 Sb1_4 Sb1_5 Sb1_6 Sb1_7 Sb1_8 Sb1_9 Sb1_10 Sb1_11 Sb1_12 Sb1_13 Sb1_14]
    · isplitl [Sb0_0 Sb0_1 Sb0_2 Sb0_3 Sb0_4 Sb0_5 Sb0_6 Sb0_7 Sb0_8 Sb0_9 Sb0_10 Sb0_11 Sb0_12 Sb0_13 Sb0_14]
      · isplitl [Sb0_0]
        · iexact Sb0_0
        isplitl [Sb0_1]
        · iexact Sb0_1
        isplitl [Sb0_2]
        · iexact Sb0_2
        isplitl [Sb0_3]
        · iexact Sb0_3
        isplitl [Sb0_4]
        · iexact Sb0_4
        isplitl [Sb0_5]
        · iexact Sb0_5
        isplitl [Sb0_6]
        · iexact Sb0_6
        isplitl [Sb0_7]
        · iexact Sb0_7
        isplitl [Sb0_8]
        · iexact Sb0_8
        isplitl [Sb0_9]
        · iexact Sb0_9
        isplitl [Sb0_10]
        · iexact Sb0_10
        isplitl [Sb0_11]
        · iexact Sb0_11
        isplitl [Sb0_12]
        · iexact Sb0_12
        isplitl [Sb0_13]
        · iexact Sb0_13
        iexact Sb0_14
      isplitl [Sb1_0]
      · iexact Sb1_0
      isplitl [Sb1_1]
      · iexact Sb1_1
      isplitl [Sb1_2]
      · iexact Sb1_2
      isplitl [Sb1_3]
      · iexact Sb1_3
      isplitl [Sb1_4]
      · iexact Sb1_4
      isplitl [Sb1_5]
      · iexact Sb1_5
      isplitl [Sb1_6]
      · iexact Sb1_6
      isplitl [Sb1_7]
      · iexact Sb1_7
      isplitl [Sb1_8]
      · iexact Sb1_8
      isplitl [Sb1_9]
      · iexact Sb1_9
      isplitl [Sb1_10]
      · iexact Sb1_10
      isplitl [Sb1_11]
      · iexact Sb1_11
      isplitl [Sb1_12]
      · iexact Sb1_12
      isplitl [Sb1_13]
      · iexact Sb1_13
      iexact Sb1_14
    isplitl [HownPb0]
    · iexact HownPb0
    iexact HownPb1
  ihave Hrsj := (rs_unlist' m c frs) $$ [Ld0_0 Ld0_1 Ld0_2 Ld0_3 Ld0_4 Ld0_5 Ld0_6 Ld0_7 Ld0_8 Ld0_9 Ld0_10 Ld0_11 Ld0_12 Ld0_13 Ld0_14 Ld1_0 Ld1_1 Ld1_2 Ld1_3 Ld1_4 Ld1_5 Ld1_6 Ld1_7 Ld1_8 Ld1_9 Ld1_10 Ld1_11 Ld1_12 Ld1_13 Ld1_14 Hslot00 Hslot10]
  · isplitl [Ld0_0 Ld0_1 Ld0_2 Ld0_3 Ld0_4 Ld0_5 Ld0_6 Ld0_7 Ld0_8 Ld0_9 Ld0_10 Ld0_11 Ld0_12 Ld0_13 Ld0_14 Ld1_0 Ld1_1 Ld1_2 Ld1_3 Ld1_4 Ld1_5 Ld1_6 Ld1_7 Ld1_8 Ld1_9 Ld1_10 Ld1_11 Ld1_12 Ld1_13 Ld1_14]
    · isplitl [Ld0_0 Ld0_1 Ld0_2 Ld0_3 Ld0_4 Ld0_5 Ld0_6 Ld0_7 Ld0_8 Ld0_9 Ld0_10 Ld0_11 Ld0_12 Ld0_13 Ld0_14]
      · isplitl [Ld0_0]
        · iexact Ld0_0
        isplitl [Ld0_1]
        · iexact Ld0_1
        isplitl [Ld0_2]
        · iexact Ld0_2
        isplitl [Ld0_3]
        · iexact Ld0_3
        isplitl [Ld0_4]
        · iexact Ld0_4
        isplitl [Ld0_5]
        · iexact Ld0_5
        isplitl [Ld0_6]
        · iexact Ld0_6
        isplitl [Ld0_7]
        · iexact Ld0_7
        isplitl [Ld0_8]
        · iexact Ld0_8
        isplitl [Ld0_9]
        · iexact Ld0_9
        isplitl [Ld0_10]
        · iexact Ld0_10
        isplitl [Ld0_11]
        · iexact Ld0_11
        isplitl [Ld0_12]
        · iexact Ld0_12
        isplitl [Ld0_13]
        · iexact Ld0_13
        iexact Ld0_14
      isplitl [Ld1_0]
      · iexact Ld1_0
      isplitl [Ld1_1]
      · iexact Ld1_1
      isplitl [Ld1_2]
      · iexact Ld1_2
      isplitl [Ld1_3]
      · iexact Ld1_3
      isplitl [Ld1_4]
      · iexact Ld1_4
      isplitl [Ld1_5]
      · iexact Ld1_5
      isplitl [Ld1_6]
      · iexact Ld1_6
      isplitl [Ld1_7]
      · iexact Ld1_7
      isplitl [Ld1_8]
      · iexact Ld1_8
      isplitl [Ld1_9]
      · iexact Ld1_9
      isplitl [Ld1_10]
      · iexact Ld1_10
      isplitl [Ld1_11]
      · iexact Ld1_11
      isplitl [Ld1_12]
      · iexact Ld1_12
      isplitl [Ld1_13]
      · iexact Ld1_13
      iexact Ld1_14
    isplitl [Hslot00]
    · iexact Hslot00
    iexact Hslot10
  ihave HoutC0 := (shares_unlist c 0 (outFull m)) $$ [Shb0_0 Shb0_1 Shb0_2 Shb0_3 Shb0_4 Shb0_5 Shb0_6 Shb0_7 Shb0_8 Shb0_9 Shb0_10 Shb0_11 Shb0_12 Shb0_13 Shb0_14]
  · isplitl [Shb0_0]
    · iexact Shb0_0
    isplitl [Shb0_1]
    · iexact Shb0_1
    isplitl [Shb0_2]
    · iexact Shb0_2
    isplitl [Shb0_3]
    · iexact Shb0_3
    isplitl [Shb0_4]
    · iexact Shb0_4
    isplitl [Shb0_5]
    · iexact Shb0_5
    isplitl [Shb0_6]
    · iexact Shb0_6
    isplitl [Shb0_7]
    · iexact Shb0_7
    isplitl [Shb0_8]
    · iexact Shb0_8
    isplitl [Shb0_9]
    · iexact Shb0_9
    isplitl [Shb0_10]
    · iexact Shb0_10
    isplitl [Shb0_11]
    · iexact Shb0_11
    isplitl [Shb0_12]
    · iexact Shb0_12
    isplitl [Shb0_13]
    · iexact Shb0_13
    iexact Shb0_14
  ihave HoutC1 := (shares_unlist c 1 (outFull m)) $$ [Shb1_0 Shb1_1 Shb1_2 Shb1_3 Shb1_4 Shb1_5 Shb1_6 Shb1_7 Shb1_8 Shb1_9 Shb1_10 Shb1_11 Shb1_12 Shb1_13 Shb1_14]
  · isplitl [Shb1_0]
    · iexact Shb1_0
    isplitl [Shb1_1]
    · iexact Shb1_1
    isplitl [Shb1_2]
    · iexact Shb1_2
    isplitl [Shb1_3]
    · iexact Shb1_3
    isplitl [Shb1_4]
    · iexact Shb1_4
    isplitl [Shb1_5]
    · iexact Shb1_5
    isplitl [Shb1_6]
    · iexact Shb1_6
    isplitl [Shb1_7]
    · iexact Shb1_7
    isplitl [Shb1_8]
    · iexact Shb1_8
    isplitl [Shb1_9]
    · iexact Shb1_9
    isplitl [Shb1_10]
    · iexact Shb1_10
    isplitl [Shb1_11]
    · iexact Shb1_11
    isplitl [Shb1_12]
    · iexact Shb1_12
    isplitl [Shb1_13]
    · iexact Shb1_13
    iexact Shb1_14
  ihave Hout := (out_unlist m c) $$ [Ag0_0 Ag0_1 Ag0_2 Ag0_3 Ag0_4 Ag0_5 Ag0_6 Ag0_7 Ag0_8 Ag0_9 Ag0_10 Ag0_11 Ag0_12 Ag0_13 Ag0_14 Ag1_0 Ag1_1 Ag1_2 Ag1_3 Ag1_4 Ag1_5 Ag1_6 Ag1_7 Ag1_8 Ag1_9 Ag1_10 Ag1_11 Ag1_12 Ag1_13 Ag1_14 HoutC0 HoutC1]
  · isplitl [Ag0_0 Ag0_1 Ag0_2 Ag0_3 Ag0_4 Ag0_5 Ag0_6 Ag0_7 Ag0_8 Ag0_9 Ag0_10 Ag0_11 Ag0_12 Ag0_13 Ag0_14 Ag1_0 Ag1_1 Ag1_2 Ag1_3 Ag1_4 Ag1_5 Ag1_6 Ag1_7 Ag1_8 Ag1_9 Ag1_10 Ag1_11 Ag1_12 Ag1_13 Ag1_14]
    · isplitl [Ag0_0 Ag0_1 Ag0_2 Ag0_3 Ag0_4 Ag0_5 Ag0_6 Ag0_7 Ag0_8 Ag0_9 Ag0_10 Ag0_11 Ag0_12 Ag0_13 Ag0_14]
      · isplitl [Ag0_0]
        · iexact Ag0_0
        isplitl [Ag0_1]
        · iexact Ag0_1
        isplitl [Ag0_2]
        · iexact Ag0_2
        isplitl [Ag0_3]
        · iexact Ag0_3
        isplitl [Ag0_4]
        · iexact Ag0_4
        isplitl [Ag0_5]
        · iexact Ag0_5
        isplitl [Ag0_6]
        · iexact Ag0_6
        isplitl [Ag0_7]
        · iexact Ag0_7
        isplitl [Ag0_8]
        · iexact Ag0_8
        isplitl [Ag0_9]
        · iexact Ag0_9
        isplitl [Ag0_10]
        · iexact Ag0_10
        isplitl [Ag0_11]
        · iexact Ag0_11
        isplitl [Ag0_12]
        · iexact Ag0_12
        isplitl [Ag0_13]
        · iexact Ag0_13
        iexact Ag0_14
      isplitl [Ag1_0]
      · iexact Ag1_0
      isplitl [Ag1_1]
      · iexact Ag1_1
      isplitl [Ag1_2]
      · iexact Ag1_2
      isplitl [Ag1_3]
      · iexact Ag1_3
      isplitl [Ag1_4]
      · iexact Ag1_4
      isplitl [Ag1_5]
      · iexact Ag1_5
      isplitl [Ag1_6]
      · iexact Ag1_6
      isplitl [Ag1_7]
      · iexact Ag1_7
      isplitl [Ag1_8]
      · iexact Ag1_8
      isplitl [Ag1_9]
      · iexact Ag1_9
      isplitl [Ag1_10]
      · iexact Ag1_10
      isplitl [Ag1_11]
      · iexact Ag1_11
      isplitl [Ag1_12]
      · iexact Ag1_12
      isplitl [Ag1_13]
      · iexact Ag1_13
      iexact Ag1_14
    isplitl [HoutC0]
    · iexact HoutC0
    iexact HoutC1
  ihave Hsems := (sems_unlist c) $$ [Hidle Zs0_0 Zr0_0 Zg0_0 Za0_0 Zs0_1 Zr0_1 Zg0_1 Za0_1 Zs0_2 Zr0_2 Zg0_2 Za0_2 Zs0_3 Zr0_3 Zg0_3 Za0_3 Zs0_4 Zr0_4 Zg0_4 Za0_4 Zs0_5 Zr0_5 Zg0_5 Za0_5 Zs0_6 Zr0_6 Zg0_6 Za0_6 Zs0_7 Zr0_7 Zg0_7 Za0_7 Zs0_8 Zr0_8 Zg0_8 Za0_8 Zs0_9 Zr0_9 Zg0_9 Za0_9 Zs0_10 Zr0_10 Zg0_10 Za0_10 Zs0_11 Zr0_11 Zg0_11 Za0_11 Zs0_12 Zr0_12 Zg0_12 Za0_12 Zs0_13 Zr0_13 Zg0_13 Za0_13 Zs0_14 Zr0_14 Zg0_14 Za0_14 Zs1_0 Zr1_0 Zg1_0 Za1_0 Zs1_1 Zr1_1 Zg1_1 Za1_1 Zs1_2 Zr1_2 Zg1_2 Za1_2 Zs1_3 Zr1_3 Zg1_3 Za1_3 Zs1_4 Zr1_4 Zg1_4 Za1_4 Zs1_5 Zr1_5 Zg1_5 Za1_5 Zs1_6 Zr1_6 Zg1_6 Za1_6 Zs1_7 Zr1_7 Zg1_7 Za1_7 Zs1_8 Zr1_8 Zg1_8 Za1_8 Zs1_9 Zr1_9 Zg1_9 Za1_9 Zs1_10 Zr1_10 Zg1_10 Za1_10 Zs1_11 Zr1_11 Zg1_11 Za1_11 Zs1_12 Zr1_12 Zg1_12 Za1_12 Zs1_13 Zr1_13 Zg1_13 Za1_13 Zs1_14 Zr1_14 Zg1_14 Za1_14]
  · isplitl [Hidle]
    · iexact Hidle
    isplitl [Zs0_0 Zr0_0 Zg0_0 Za0_0 Zs0_1 Zr0_1 Zg0_1 Za0_1 Zs0_2 Zr0_2 Zg0_2 Za0_2 Zs0_3 Zr0_3 Zg0_3 Za0_3 Zs0_4 Zr0_4 Zg0_4 Za0_4 Zs0_5 Zr0_5 Zg0_5 Za0_5 Zs0_6 Zr0_6 Zg0_6 Za0_6 Zs0_7 Zr0_7 Zg0_7 Za0_7 Zs0_8 Zr0_8 Zg0_8 Za0_8 Zs0_9 Zr0_9 Zg0_9 Za0_9 Zs0_10 Zr0_10 Zg0_10 Za0_10 Zs0_11 Zr0_11 Zg0_11 Za0_11 Zs0_12 Zr0_12 Zg0_12 Za0_12 Zs0_13 Zr0_13 Zg0_13 Za0_13 Zs0_14 Zr0_14 Zg0_14 Za0_14]
    · isplitl [Zs0_0 Zr0_0 Zg0_0 Za0_0]
      · isplitl [Zs0_0]
        · iexact Zs0_0
        isplitl [Zr0_0]
        · iexact Zr0_0
        isplitl [Zg0_0]
        · iexact Zg0_0
        iexact Za0_0
      isplitl [Zs0_1 Zr0_1 Zg0_1 Za0_1]
      · isplitl [Zs0_1]
        · iexact Zs0_1
        isplitl [Zr0_1]
        · iexact Zr0_1
        isplitl [Zg0_1]
        · iexact Zg0_1
        iexact Za0_1
      isplitl [Zs0_2 Zr0_2 Zg0_2 Za0_2]
      · isplitl [Zs0_2]
        · iexact Zs0_2
        isplitl [Zr0_2]
        · iexact Zr0_2
        isplitl [Zg0_2]
        · iexact Zg0_2
        iexact Za0_2
      isplitl [Zs0_3 Zr0_3 Zg0_3 Za0_3]
      · isplitl [Zs0_3]
        · iexact Zs0_3
        isplitl [Zr0_3]
        · iexact Zr0_3
        isplitl [Zg0_3]
        · iexact Zg0_3
        iexact Za0_3
      isplitl [Zs0_4 Zr0_4 Zg0_4 Za0_4]
      · isplitl [Zs0_4]
        · iexact Zs0_4
        isplitl [Zr0_4]
        · iexact Zr0_4
        isplitl [Zg0_4]
        · iexact Zg0_4
        iexact Za0_4
      isplitl [Zs0_5 Zr0_5 Zg0_5 Za0_5]
      · isplitl [Zs0_5]
        · iexact Zs0_5
        isplitl [Zr0_5]
        · iexact Zr0_5
        isplitl [Zg0_5]
        · iexact Zg0_5
        iexact Za0_5
      isplitl [Zs0_6 Zr0_6 Zg0_6 Za0_6]
      · isplitl [Zs0_6]
        · iexact Zs0_6
        isplitl [Zr0_6]
        · iexact Zr0_6
        isplitl [Zg0_6]
        · iexact Zg0_6
        iexact Za0_6
      isplitl [Zs0_7 Zr0_7 Zg0_7 Za0_7]
      · isplitl [Zs0_7]
        · iexact Zs0_7
        isplitl [Zr0_7]
        · iexact Zr0_7
        isplitl [Zg0_7]
        · iexact Zg0_7
        iexact Za0_7
      isplitl [Zs0_8 Zr0_8 Zg0_8 Za0_8]
      · isplitl [Zs0_8]
        · iexact Zs0_8
        isplitl [Zr0_8]
        · iexact Zr0_8
        isplitl [Zg0_8]
        · iexact Zg0_8
        iexact Za0_8
      isplitl [Zs0_9 Zr0_9 Zg0_9 Za0_9]
      · isplitl [Zs0_9]
        · iexact Zs0_9
        isplitl [Zr0_9]
        · iexact Zr0_9
        isplitl [Zg0_9]
        · iexact Zg0_9
        iexact Za0_9
      isplitl [Zs0_10 Zr0_10 Zg0_10 Za0_10]
      · isplitl [Zs0_10]
        · iexact Zs0_10
        isplitl [Zr0_10]
        · iexact Zr0_10
        isplitl [Zg0_10]
        · iexact Zg0_10
        iexact Za0_10
      isplitl [Zs0_11 Zr0_11 Zg0_11 Za0_11]
      · isplitl [Zs0_11]
        · iexact Zs0_11
        isplitl [Zr0_11]
        · iexact Zr0_11
        isplitl [Zg0_11]
        · iexact Zg0_11
        iexact Za0_11
      isplitl [Zs0_12 Zr0_12 Zg0_12 Za0_12]
      · isplitl [Zs0_12]
        · iexact Zs0_12
        isplitl [Zr0_12]
        · iexact Zr0_12
        isplitl [Zg0_12]
        · iexact Zg0_12
        iexact Za0_12
      isplitl [Zs0_13 Zr0_13 Zg0_13 Za0_13]
      · isplitl [Zs0_13]
        · iexact Zs0_13
        isplitl [Zr0_13]
        · iexact Zr0_13
        isplitl [Zg0_13]
        · iexact Zg0_13
        iexact Za0_13
      isplitl [Zs0_14]
      · iexact Zs0_14
      isplitl [Zr0_14]
      · iexact Zr0_14
      isplitl [Zg0_14]
      · iexact Zg0_14
      iexact Za0_14
    isplitl [Zs1_0 Zr1_0 Zg1_0 Za1_0]
    · isplitl [Zs1_0]
      · iexact Zs1_0
      isplitl [Zr1_0]
      · iexact Zr1_0
      isplitl [Zg1_0]
      · iexact Zg1_0
      iexact Za1_0
    isplitl [Zs1_1 Zr1_1 Zg1_1 Za1_1]
    · isplitl [Zs1_1]
      · iexact Zs1_1
      isplitl [Zr1_1]
      · iexact Zr1_1
      isplitl [Zg1_1]
      · iexact Zg1_1
      iexact Za1_1
    isplitl [Zs1_2 Zr1_2 Zg1_2 Za1_2]
    · isplitl [Zs1_2]
      · iexact Zs1_2
      isplitl [Zr1_2]
      · iexact Zr1_2
      isplitl [Zg1_2]
      · iexact Zg1_2
      iexact Za1_2
    isplitl [Zs1_3 Zr1_3 Zg1_3 Za1_3]
    · isplitl [Zs1_3]
      · iexact Zs1_3
      isplitl [Zr1_3]
      · iexact Zr1_3
      isplitl [Zg1_3]
      · iexact Zg1_3
      iexact Za1_3
    isplitl [Zs1_4 Zr1_4 Zg1_4 Za1_4]
    · isplitl [Zs1_4]
      · iexact Zs1_4
      isplitl [Zr1_4]
      · iexact Zr1_4
      isplitl [Zg1_4]
      · iexact Zg1_4
      iexact Za1_4
    isplitl [Zs1_5 Zr1_5 Zg1_5 Za1_5]
    · isplitl [Zs1_5]
      · iexact Zs1_5
      isplitl [Zr1_5]
      · iexact Zr1_5
      isplitl [Zg1_5]
      · iexact Zg1_5
      iexact Za1_5
    isplitl [Zs1_6 Zr1_6 Zg1_6 Za1_6]
    · isplitl [Zs1_6]
      · iexact Zs1_6
      isplitl [Zr1_6]
      · iexact Zr1_6
      isplitl [Zg1_6]
      · iexact Zg1_6
      iexact Za1_6
    isplitl [Zs1_7 Zr1_7 Zg1_7 Za1_7]
    · isplitl [Zs1_7]
      · iexact Zs1_7
      isplitl [Zr1_7]
      · iexact Zr1_7
      isplitl [Zg1_7]
      · iexact Zg1_7
      iexact Za1_7
    isplitl [Zs1_8 Zr1_8 Zg1_8 Za1_8]
    · isplitl [Zs1_8]
      · iexact Zs1_8
      isplitl [Zr1_8]
      · iexact Zr1_8
      isplitl [Zg1_8]
      · iexact Zg1_8
      iexact Za1_8
    isplitl [Zs1_9 Zr1_9 Zg1_9 Za1_9]
    · isplitl [Zs1_9]
      · iexact Zs1_9
      isplitl [Zr1_9]
      · iexact Zr1_9
      isplitl [Zg1_9]
      · iexact Zg1_9
      iexact Za1_9
    isplitl [Zs1_10 Zr1_10 Zg1_10 Za1_10]
    · isplitl [Zs1_10]
      · iexact Zs1_10
      isplitl [Zr1_10]
      · iexact Zr1_10
      isplitl [Zg1_10]
      · iexact Zg1_10
      iexact Za1_10
    isplitl [Zs1_11 Zr1_11 Zg1_11 Za1_11]
    · isplitl [Zs1_11]
      · iexact Zs1_11
      isplitl [Zr1_11]
      · iexact Zr1_11
      isplitl [Zg1_11]
      · iexact Zg1_11
      iexact Za1_11
    isplitl [Zs1_12 Zr1_12 Zg1_12 Za1_12]
    · isplitl [Zs1_12]
      · iexact Zs1_12
      isplitl [Zr1_12]
      · iexact Zr1_12
      isplitl [Zg1_12]
      · iexact Zg1_12
      iexact Za1_12
    isplitl [Zs1_13 Zr1_13 Zg1_13 Za1_13]
    · isplitl [Zs1_13]
      · iexact Zs1_13
      isplitl [Zr1_13]
      · iexact Zr1_13
      isplitl [Zg1_13]
      · iexact Zg1_13
      iexact Za1_13
    isplitl [Zs1_14]
    · iexact Zs1_14
    isplitl [Zr1_14]
    · iexact Zr1_14
    isplitl [Zg1_14]
    · iexact Zg1_14
    iexact Za1_14
  -- the body returns; what the pipeline's flush needs is in hand
  sl_step
  iapply Hk
  unfold bodyPost Φ₁ scratches stgM Dat.owesAt Pipeline.owesWithin
  rw [show (dats m shrF 0 c).owed t₀.succ = 0 from rfl]
  isplitl [Hpb Hbb Hrsj Hsems]
  · isplitl [Hpb Hbb Hrsj]
    · isplitl [Hpb]; · iexists _; iexact Hpb
      isplitl [Hbb]; · iexists _; iexact Hbb
      iexact Hrsj
    · iexact Hsems
  isplitl [HO]
  · iexists _
    isplitr
    rotate_left
    · iexact HO
    · ipureintro; exact fun _ _ => Or.inl trivial
  isplitl [Ha]
  · iexists _; isplitr; · (ipureintro; rfl)
    iexact Ha
  isplitl [Hb]
  · iexists _; isplitr; · (ipureintro; rfl)
    iexact Hb
  iexists _; isplitr; · (ipureintro; rfl)
  iexact Hout

end Cert.KernelIdeal.Pr
end
-- ==== Proof.BodyOb.lean ====
/-
  One device's body, run from what it starts from to what it ends with, is the pipeline's body obligation at the one
  grid point. The three windows' staging buffers are whole buffers, so owning one at given contents is the points-to
  of the whole buffer at those contents; the two input buffers and the first two scratch buffers are the buffers the
  body's named views are views of. What the pipeline hands the body (the launch invariant, what the device owes, the
  three staging buffers as the pipeline left them) is then the body's start, the names of the ghost state chosen;
  and the body's end (the exit invariant, nothing owed, the two inputs as fetched and the result's buffer at the
  whole result) is what the pipeline takes back.
-/
import proofs.«900888_g7700000000000889_dist_matmul_k_i_m768_n768_k384_v7x_i16_bf16_1_alg».proof.Proof.BodyDefs
import proofs.«900888_g7700000000000889_dist_matmul_k_i_m768_n768_k384_v7x_i16_bf16_1_alg».proof.Proof.Gen.KernelIdeal.Launch
import proofs.«900888_g7700000000000889_dist_matmul_k_i_m768_n768_k384_v7x_i16_bf16_1_alg».proof.Proof.Gen.KernelIdeal.Frame

noncomputable section
namespace Cert.KernelIdeal.Pr
open Cert.KernelIdeal Cert.KernelIdeal.Gen Cert.KernelIdeal.Geo Cert.KernelIdeal.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Owning a whole buffer at contents X: the points-to of the buffer at X. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the pipeline hands the body at the one point, the staging buffers through the body's named views. -/
def bodyPre' (c : Dev nD) : sProp 𝕄 :=
  iprop((((∃ K, ghost m shrF K c) ∗ creds c ∗ idle c ∗ levAts L lv) ∗ scratchesM c)
    ∗ (dats m shrF 0 c).owesAt () t₀.castSucc
    ∗ (∃ d, stgM c aM ((dats m shrF 0 c).before (0 : Fin 3) t₀ d))
    ∗ (∃ d, stgM c bM ((dats m shrF 0 c).before (1 : Fin 3) t₀ d))
    ∗ (∃ d f : Buf (Elt F) ((c : Thread nD τ).loc cc0_stg2_0), ⌜f = (dats m shrF 0 c).before (2 : Fin 3) t₀ d⌝ ∗ (((c : Thread nD τ).loc cc0_stg2_0) ↦{fullShare} f)))

-- the two spellings of a staging buffer are compared through its extents, 768 rows walked a unit at a time
set_option maxRecDepth 16384 in
/-- The pipeline's body obligation on device c, from the body's run. -/
theorem body_obligation_of (hs : SoundBody (F := F) m) (c : Dev nD) :
    BodyObligation (dats (F := F) m shrF 0 c) (defs₀ (F := F)) Variants.none () Set.univ := fun t => by
  rw [fin_N t]
  rw [bigSep_W0, bigSep_W0]
  simp only [owns_whole_eq]
  show bodyPre' m c ⊢ wp frame (wpE (defs₀ (F := F)) Variants.none (c : Thread nD τ) none) Set.univ (theBody (F := F)) (fun _ => bodyPost m c)
  unfold bodyPre'
  iintro ⟨⟨⟨⟨%K, Hg⟩, Hrest⟩, Hscr⟩, Ho, Hx, Hy, Hout⟩
  iapply (hs K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hy]; · iexact Hy
    iexact Hout
  · iintro H; iexact H

/-- info: 'Cert.KernelIdeal.Pr.body_obligation_of' depends on axioms: [propext, Classical.choice, Quot.sound] -/
#guard_msgs in #print axioms body_obligation_of

end Cert.KernelIdeal.Pr
end
-- ==== Proof.Bits.Steps.lean ====
/-
  One lemma per kind of cross-device step of the body: the rounds library's rule at this protocol's cells, the
  schedule's tables looked up, the landing's contents identified with the named contents.
-/
import proofs.«900888_g7700000000000889_dist_matmul_k_i_m768_n768_k384_v7x_i16_bf16_1_alg».proof.Proof.Bits.Proto
import Idealize.ShloMosaic.Lib.Pipeline.Value
import Idealize.ShloMosaic.Lib.ValueLayout
import Idealize.ShloMosaic.Lib.ValueIdx

noncomputable section
namespace Cert.Kernel.Pr
open Cert.Kernel Cert.Kernel.Gen Cert.Kernel.Geo Cert.Kernel.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (shr : Fin 16 → PosShare TreeShare)

/-- What device c hands the device i places ahead with its unit on that device's barrier. -/
def barGive (c : Dev nD) (i : Fin 16) : sProp 𝕄 :=
  iprop((∃ f, slotPts c 0 (neg i) f) ∗ (∃ f, slotPts c 1 (neg i) f)
    ∗ (∃ f, outPts c (peer c i) 0 fullShare f) ∗ (∃ f, outPts c (peer c i) 1 fullShare f)
    ∗ reached ER (cel c (rsR 0 (neg i))) 0 ∗ reached ER (cel c (rsR 1 (neg i))) 0
    ∗ reached ER (cel c (agR 0 (neg i))) 0 ∗ reached ER (cel c (agR 1 (neg i))) 0)

theorem barPay_eq (t c : Dev nD) (j : Fin 16) (e : peer t j = c) :
    barPay (F := F) t j = iprop((∃ f, slotPts c 0 j f) ∗ (∃ f, slotPts c 1 j f)
    ∗ (∃ f, outPts c t 0 fullShare f) ∗ (∃ f, outPts c t 1 fullShare f)
    ∗ reached ER (cel c (rsR 0 j)) 0 ∗ reached ER (cel c (rsR 1 j)) 0
    ∗ reached ER (cel c (agR 0 j)) 0 ∗ reached ER (cel c (agR 1 j)) 0) := by
  subst e; rfl

theorem barPay_peer (c : Dev nD) (i : Fin 16) : barPay (F := F) (peer c i) (neg i) = barGive c i :=
  barPay_eq (peer c i) c (neg i) (peer_peer_neg c i)

/-- The signal to the device 1 + r places ahead: its barrier duty that names c is paid with what c hands it. -/
theorem wp_sig (K : GSem nD τ sig → ℕ) (c : Dev nD) (i : Fin 16) (hi : i ≠ 0) (n : Dev nD) (hn : n = peer c i)
    {α : Type} {Q : α → sProp 𝕄} {k : PUnit → Prog (TpuEff nD τ sig (Elt F) Λ₀ .tc) α}
    (O : CellTallies nD τ sig Unit) (W : Waits sig Unit) :
    iprop(cellInv ER (Rd m shr) (K (cel (peer c i) (.reg barS))) (cel (peer c i) (.reg barS))
        ∗ owes (c : Thread nD τ) (O + tallyAt (cel (peer c i) (.reg barS)) () 1) W
        ∗ dutyTok ER (cel (peer c i) (.reg barS)) 0 (neg i)
        ∗ barGive c i
        ∗ reached ER (cel (peer c i) (.reg barS)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  rw [← barPay_peer c i, ← payload_bar m shr (peer c i) (neg i)]
  exact Rounds.wp_signal Variants.none ER (Rd m shr) (c : Thread nD τ) none (dst := (peer c i : Thread nD τ)) (κ := K (cel (peer c i) (.reg barS)))
    (d := neg i) (by rw [duties_bar]; exact Finset.mem_erase.mpr ⟨neg_ne_zero i hi, Finset.mem_univ _⟩) (amount_bar m shr (peer c i) (neg i)) () O rfl

/-- The ring offset of a copy is never zero. -/
theorem off_ne_zero (r : Fin 15) : off r ≠ 0 := by revert r; decide

/-- The send cell's payload at the offset of copy number r is that copy's source. -/
theorem rsSPay_off (c : Dev nD) (h : Fin 2) (r : Fin 15) : rsSPay m c h (off r) = srcPts m c r h := by
  unfold rsSPay
  rw [dif_neg (off_ne_zero r)]
  exact congrArg (fun x => srcPts m c x h) (Fin.ext (by show 1 + r.val - 1 = r.val; omega))

/-! ## The barrier wait -/

/-- What the fifteen units on c's barrier bring: from every other device its two slots, its two blocks of c's rows, and the four open cells. -/
def barGot (c : Dev nD) : sProp 𝕄 := bigSep (Finset.univ.erase (0 : Fin 16)) (fun j => barPay (F := F) c j)

theorem wp_wait_bar (K : GSem nD τ sig → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (Rd m shr) (K (cel c (.reg barS))) (cel c (.reg barS)) ∗ cred (tallyAt (cel c (.reg barS)) () 15)
        ∗ owes (c : Thread nD τ) O W ∗ MayWait (c : Thread nD τ) (.reg barS) () O ∗ atPos ER (cel c (.reg barS)) 0 ∅ 0)
      ⊢ iprop(((owes (c : Thread nD τ) O (insert (SemLoc.reg barS, ()) W) ∗ atPos ER (cel c (.reg barS)) 1 ∅ 0 ∗ reached ER (cel c (.reg barS)) 1 ∗ barGot c)
            -∗ wp frame (wpE (defs₀ (F := F)) Variants.none (c : Thread nD τ) none) Set.univ (k ⟨⟩) Q)
          -∗ wp frame (wpE (defs₀ (F := F)) Variants.none (c : Thread nD τ) none) Set.univ (.op (.semWait barS 15) k) Q) := by
  have e : bigSep ((Rd (F := F) m shr).duties (cel c (.reg barS)) 0 \ ∅) (fun d => (Rd (F := F) m shr).payload (cel c (.reg barS)) 0 d) = barGot c := by
    rw [Finset.sdiff_empty, duties_bar]
    exact bigSep_congr fun d _ => payload_bar m shr c d
  rw [← e]
  exact Rounds.wp_wait_rest_token Variants.none ER (Rd m shr) (c : Thread nD τ) none (κ := K (cel c (.reg barS)))
    (wpE_semWait_eq Variants.none (c : Thread nD τ) none Set.univ) (Set.mem_univ _) () (O := O) (W := W) (R := 0) (m := 0) (T := ∅)
    (by rw [Nat.zero_add, expect_bar])

/-! ## The reduce-scatter -/

/-- Where index (a, b) of receive slot (h, j) sits in the receive buffer: at (h, j, a, b). -/
theorem slotV_emb (h : Fin 2) (j : Fin 16) (a : Fin 24) (b : Fin 768) :
    (slotV h j).view.emb (ix2 a b) = ix4 h j a b := by
  have e : (slotV h j).view.emb (ix2 a b)
      = (Rect.unit (s := S2x16x24x768) ![h.val, j.val, 0, 0] S1x1x24x768.size (slot_inb h j)).emb
          (Shape.reshapeEquiv squeezes_S1x1x24x768_S24x768.numel_eq (ix2 a b)) := rfl
  rw [e, reshapeEquiv_ix2_11ab]
  funext k
  apply Fin.ext
  rw [Rect.emb_apply]
  match k with
  | ⟨0, _⟩ => show h.val + 1 * 0 = h.val; omega
  | ⟨1, _⟩ => show j.val + 1 * 0 = j.val; omega
  | ⟨2, _⟩ => show 0 + 1 * a.val = a.val; omega
  | ⟨3, _⟩ => show 0 + 1 * b.val = b.val; omega

/-- Where index y of the source of copy number r sits in the partial product: in half h of the rows of the device 1 + r ahead. -/
theorem srcV_emb (c : Dev nD) (r : Fin 15) (h : Fin 2) (y : S24x768.Idx) :
    (srcV c r h).view.emb y = rowIx (peer c (off r)) h y := by
  have e : (srcV c r h).view.emb y
      = (Rect.unit (s := S768x768) (k0_off1 c (BitVec.ofNat 32 (1 + r.val)) (BitVec.ofNat 32 (24 * h.val))) S24x768.size (k0_off1_inb c r h)).emb y := rfl
  rw [e]
  funext k
  apply Fin.ext
  rw [Rect.emb_apply]
  match k with
  | ⟨0, _⟩ =>
    have e0 := Geo.off1_row c r h
    show k0_off1 c (BitVec.ofNat 32 (1 + r.val)) (BitVec.ofNat 32 (24 * h.val)) 0 + 1 * (y 0).val = (peer c (off r)).val * 48 + 24 * h.val + (y 0).val
    rw [e0]
    show (peer c (off r)).val * 48 + 24 * h.val + 1 * (y 0).val = _
    omega
  | ⟨1, _⟩ =>
    have e1 := Geo.off1_col c r h
    show k0_off1 c (BitVec.ofNat 32 (1 + r.val)) (BitVec.ofNat 32 (24 * h.val)) 1 + 1 * (y 1).val = (y 1).val
    rw [e1]
    omega

/-- The landing of copy number r of half h: slot (h, 1 + r) of the device 1 + r ahead, written with c's rows of that device,
    holds what that device's receive buffer is to hold there. -/
theorem rs_land (c : Dev nD) (h : Fin 2) (r : Fin 15)
    (fd : Buf (Elt F) ((slotV h (off r)).view.loc (peer c (off r) : Thread nD τ))) :
    ∀ i ∈ (slotV h (off r)).view.set,
      (slotV h (off r)).view.write (Elt F) fd ((srcV c r h).view.read (Elt F) (pbV m c)) Finset.univ i
        = rsFull m (peer c (off r)) i := by
  intro i hi
  obtain ⟨y, rfl⟩ := View.exists_emb_of_mem_set (slotV h (off r)).view hi
  rw [View.write_emb_of_mem _ _ (Finset.mem_univ y), View.read_apply, srcV_emb]
  have ey : (slotV h (off r)).view.emb y = ix4 h (off r) (⟨(y 0).val, (y 0).isLt⟩ : Fin 24) (⟨(y 1).val, (y 1).isLt⟩ : Fin 768) := by
    rw [← slotV_emb]; exact congrArg _ (eq_ix2 y)
  rw [ey]
  show pbV m c (rowIx (peer c (off r)) h y) = pbV m (frm (peer c (off r)) (off r)) (rowIx (peer c (off r)) h y)
  rw [frm_peer]

/-- Copy number r of half h: c's rows of the device 1 + r ahead go to that device's slot (h, 1 + r). -/
theorem wp_rs_send (K : GSem nD τ sig → ℕ) (c : Dev nD) (h : Fin 2) (r : Fin 15) (n : Dev nD) (hn : n = peer c (off r))
    {hsc : (slotV h (off r) : Memref sig (Dev.tc n : Thread nD τ).2.kind .vmem S24x768 .bf16).view.ref.isScScratch = false}
    {hsrc : (srcV c r h).view.WordExact} {hdst : (slotV h (off r)).view.WordExact}
    {hsem : DmaTarget.Typed .vmem (rsR h (off r)) (.remote (Dev.tc n : Thread nD τ) (slotV h (off r)) (rsS h (off r)) hsc)}
    {α : Type} {Q : α → sProp 𝕄} {k : PUnit → Prog (TpuEff nD τ sig (Elt F) Λ₀ .tc) α}
    (fd : Buf (Elt F) ((slotV h (off r)).view.loc (peer c (off r) : Thread nD τ))) (O : CellTallies nD τ sig Unit) (W : Waits sig Unit) :
    iprop(cellInv ER (Rd m shr) (K (cel c (rsS h (off r)))) (cel c (rsS h (off r)))
        ∗ cellInv ER (Rd m shr) (K (cel (peer c (off r)) (rsR h (off r)))) (cel (peer c (off r)) (rsR h (off r)))
        ∗ srcPts m c r h ∗ slotPts (peer c (off r)) h (off r) fd
        ∗ owes (c : Thread nD τ) (O + tallyAt (cel (peer c (off r)) (rsR h (off r))) () NS) W
        ∗ dutyTok ER (cel c (rsS h (off r))) 0 0 ∗ reached ER (cel c (rsS h (off r))) 0
        ∗ dutyTok ER (cel (peer c (off r)) (rsR h (off r))) 0 0 ∗ reached ER (cel (peer c (off r)) (rsR h (off r))) 0)
      ⊢ iprop(((cred (tallyAt (cel c (rsS h (off r))) () NS) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (srcV c r h) (.remote (Dev.tc n : Thread nD τ) (slotV h (off r)) (rsS h (off r)) hsc) (rsR h (off r)) hsrc hdst hsem) k) Q) := by
  subst hn
  have hj : off r ≠ 0 := off_ne_zero r
  exact Rounds.wp_send_pointsTo Variants.none ER (Rd m shr) (c : Thread nD τ) none
    (c' := (peer c (off r) : Thread nD τ)) (src := srcV c r h) (dst := slotV h (off r)) (sS := rsS h (off r)) (sem := rsR h (off r))
    (q := fullShare) (fs := pbV m c) (fd := fd) (r₁ := 0) (r₂ := 0) (d₁ := 0) (d₂ := 0)
    (κ₁ := K (cel c (rsS h (off r)))) (κ₂ := K (cel (peer c (off r)) (rsR h (off r))))
    (by rw [duties_rsS m shr c h (off r) hj]; exact Finset.mem_singleton_self _)
    (by rw [duties_rsR m shr (peer c (off r)) h (off r) hj]; exact Finset.mem_singleton_self _)
    () () NS rfl (amount_rsS m shr c h (off r) 0) (amount_rsR m shr (peer c (off r)) h (off r) 0) O rfl
    (Entails.of_eq (by rw [payload_rsS, rsSPay_off]; rfl))
    (Entails.of_eq (by
      rw [payload_rsR]
      exact pointsTo_congr (rs_land m c h r fd)))

/-- The wait on c's receive cell (h, 1 + r) of the reduce-scatter: the slot, landed. The wait names its amount by a view `dv` of the piece's credit. -/
theorem wp_wait_rsR (K : GSem nD τ sig → ℕ) (c : Dev nD) (h : Fin 2) (r : Fin 15)
    {sv dv : Memref sig .tc .vmem S24x768 .bf16} {hs : sv.view.WordExact} {hd : dv.view.WordExact} (hN : dv.view.dmaCredit = NS)
    {α : Type} {Q : α → sProp 𝕄} {k : PUnit → Prog (TpuEff nD τ sig (Elt F) Λ₀ .tc) α}
    (O : CellTallies nD τ sig Unit) (W : Waits sig Unit) :
    iprop(cellInv ER (Rd m shr) (K (cel c (rsR h (off r)))) (cel c (rsR h (off r))) ∗ cred (tallyAt (cel c (rsR h (off r))) () NS)
        ∗ owes (c : Thread nD τ) O W ∗ MayWait (c : Thread nD τ) (rsR h (off r)) () O ∗ atPos ER (cel c (rsR h (off r))) 0 ∅ 0)
      ⊢ iprop(((owes (c : Thread nD τ) O (insert (rsR h (off r), ()) W) ∗ atPos ER (cel c (rsR h (off r))) 1 ∅ 0 ∗ rsRPay m c h (off r))
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch4 h (off r)) sv dv hs hd) k) Q) := by
  have hj : off r ≠ 0 := off_ne_zero r
  have e : bigSep ((Rd (F := F) m shr).duties (cel c (rsR h (off r))) 0 \ ∅) (fun d => (Rd (F := F) m shr).payload (cel c (rsR h (off r))) 0 d) = rsRPay m c h (off r) := by
    rw [Finset.sdiff_empty, duties_rsR m shr c h (off r) hj, bigSep_singleton, payload_rsR]
  rw [← hN]
  iintro ⟨Hg, Hc, HL, Hlev, Hat⟩ Hk
  iapply (Rounds.wp_wait_rest_token Variants.none ER (Rd m shr) (c : Thread nD τ) none (κ := K (cel c (rsR h (off r))))
      (wpE_waitDma2_eq Variants.none (c : Thread nD τ) none Set.univ) (Set.mem_univ _) () (O := O) (W := W) (R := 0) (m := 0) (T := ∅)
      (by rw [Nat.zero_add, hN, expect_rsR m shr c h (off r) hj])) $$ [Hg Hc HL Hlev Hat]
  · isplitl [Hg]; · iexact Hg
    isplitl [Hc]; · iexact Hc
    isplitl [HL]; · iexact HL
    isplitl [Hlev]; · iexact Hlev
    iexact Hat
  iintro ⟨HO, Hat, -, Hpay⟩
  ihave Hp := (Entails.of_eq e) $$ Hpay
  iapply Hk
  isplitl [HO]; · iexact HO
  isplitl [Hat]; · iexact Hat
  iexact Hp

/-- The wait on c's send cell (h, 1 + r) of the reduce-scatter: the source back. -/
theorem wp_wait_rsS (K : GSem nD τ sig → ℕ) (c : Dev nD) (h : Fin 2) (r : Fin 15)
    {sv dv : Memref sig .tc .vmem S24x768 .bf16} {hs : sv.view.WordExact} {hd : dv.view.WordExact} (hN : dv.view.dmaCredit = NS)
    {α : Type} {Q : α → sProp 𝕄} {k : PUnit → Prog (TpuEff nD τ sig (Elt F) Λ₀ .tc) α}
    (W : Waits sig Unit) :
    iprop(cellInv ER (Rd m shr) (K (cel c (rsS h (off r)))) (cel c (rsS h (off r))) ∗ cred (tallyAt (cel c (rsS h (off r))) () NS)
        ∗ owes (c : Thread nD τ) 0 W ∗ atPos ER (cel c (rsS h (off r))) 0 ∅ 0)
      ⊢ iprop(((owes (c : Thread nD τ) 0 (insert (rsS h (off r), ()) W) ∗ atPos ER (cel c (rsS h (off r))) 1 ∅ 0 ∗ srcPts m c r h)
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch3 h (off r)) sv dv hs hd) k) Q) := by
  have hj : off r ≠ 0 := off_ne_zero r
  have e : bigSep ((Rd (F := F) m shr).duties (cel c (rsS h (off r))) 0 \ ∅) (fun d => (Rd (F := F) m shr).payload (cel c (rsS h (off r))) 0 d) = srcPts m c r h := by
    rw [Finset.sdiff_empty, duties_rsS m shr c h (off r) hj, bigSep_singleton, payload_rsS]
    exact rsSPay_off m c h r
  rw [← hN]
  iintro ⟨Hg, Hc, HL, Hat⟩ Hk
  iapply (Rounds.wp_wait_rest_token Variants.none ER (Rd m shr) (c : Thread nD τ) none (κ := K (cel c (rsS h (off r))))
      (wpE_waitDma2_eq Variants.none (c : Thread nD τ) none Set.univ) (Set.mem_univ _) () (O := 0) (W := W) (R := 0) (m := 0) (T := ∅)
      (by rw [Nat.zero_add, hN, expect_rsS m shr c h (off r) hj])) $$ [Hg Hc HL Hat]
  · isplitl [Hg]; · iexact Hg
    isplitl [Hc]; · iexact Hc
    isplitl [HL]; · iexact HL
    isplitr; · rw [MayWait_zero]; iempintro
    iexact Hat
  iintro ⟨HO, Hat, -, Hpay⟩
  ihave Hp := (Entails.of_eq e) $$ Hpay
  iapply Hk
  isplitl [HO]; · iexact HO
  isplitl [Hat]; · iexact Hat
  iexact Hp

/-! ## The all-gather -/

/-- The receive cell's payload of the all-gather at the device the rows come from, named outright. -/
theorem agRPay_eq (d s : Dev nD) (h : Fin 2) (j : Fin 16) (e : frm d j = s) :
    agRPay m d h j = outPts d s h fullShare (outFull m) := by
  subst e; rfl

/-- The landing of an all-gather copy: the block of rows written with what the source holds there is the result's
    rows wherever the source was. -/
theorem ag_land (c d : Dev nD) (h : Fin 2)
    (fs : Buf (Elt F) ((rowsV oM c h).view.loc (c : Thread nD τ))) (hfs : ∀ i ∈ (rowsV oM c h).view.set, fs i = outFull m i)
    (fd : Buf (Elt F) ((rowsV oM c h).view.loc (d : Thread nD τ))) :
    ∀ i ∈ (rowsV oM c h).view.set,
      (rowsV oM c h).view.write (Elt F) fd ((rowsV oM c h).view.read (Elt F) fs) Finset.univ i = outFull m i := by
  intro i hi
  obtain ⟨y, rfl⟩ := View.exists_emb_of_mem_set (rowsV oM c h).view hi
  rw [View.write_emb_of_mem _ _ (Finset.mem_univ y), View.read_apply]
  exact hfs _ hi

/-- Copy number r of half h of the all-gather: c's own rows of the result go to the same rows of the device 1 + r ahead. The source is lent at the share of its copy. -/
theorem wp_ag_send (K : GSem nD τ sig → ℕ) (c : Dev nD) (h : Fin 2) (r : Fin 15) (n : Dev nD) (hn : n = peer c (off r))
    {hsc : (rowsV oM c h : Memref sig (Dev.tc n : Thread nD τ).2.kind .vmem S24x768 .bf16).view.ref.isScScratch = false}
    {hsrc : (rowsV oM c h).view.WordExact} {hdst : (rowsV oM c h).view.WordExact}
    {hsem : DmaTarget.Typed .vmem (agR h (off r)) (.remote (Dev.tc n : Thread nD τ) (rowsV oM c h) (agS h (off r)) hsc)}
    {α : Type} {Q : α → sProp 𝕄} {k : PUnit → Prog (TpuEff nD τ sig (Elt F) Λ₀ .tc) α}
    (fs : Buf (Elt F) ((rowsV oM c h).view.loc (c : Thread nD τ))) (hfs : ∀ i ∈ (rowsV oM c h).view.set, fs i = outFull m i)
    (fd : Buf (Elt F) ((rowsV oM c h).view.loc (peer c (off r) : Thread nD τ))) (O : CellTallies nD τ sig Unit) (W : Waits sig Unit) :
    iprop(cellInv ER (Rd m shr) (K (cel c (agS h (off r)))) (cel c (agS h (off r)))
        ∗ cellInv ER (Rd m shr) (K (cel (peer c (off r)) (agR h (off r)))) (cel (peer c (off r)) (agR h (off r)))
        ∗ outPts c c h (shr (off r)) fs ∗ outPts (peer c (off r)) c h fullShare fd
        ∗ owes (c : Thread nD τ) (O + tallyAt (cel (peer c (off r)) (agR h (off r))) () NO) W
        ∗ dutyTok ER (cel c (agS h (off r))) 0 0 ∗ reached ER (cel c (agS h (off r))) 0
        ∗ dutyTok ER (cel (peer c (off r)) (agR h (off r))) 0 0 ∗ reached ER (cel (peer c (off r)) (agR h (off r))) 0)
      ⊢ iprop(((cred (tallyAt (cel c (agS h (off r))) () NO) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (rowsV oM c h) (.remote (Dev.tc n : Thread nD τ) (rowsV oM c h) (agS h (off r)) hsc) (agR h (off r)) hsrc hdst hsem) k) Q) := by
  subst hn
  have hj : off r ≠ 0 := off_ne_zero r
  exact Rounds.wp_send_pointsTo Variants.none ER (Rd m shr) (c : Thread nD τ) none
    (c' := (peer c (off r) : Thread nD τ)) (src := rowsV oM c h) (dst := rowsV oM c h) (sS := agS h (off r)) (sem := agR h (off r))
    (q := shr (off r)) (fs := fs) (fd := fd) (r₁ := 0) (r₂ := 0) (d₁ := 0) (d₂ := 0)
    (κ₁ := K (cel c (agS h (off r)))) (κ₂ := K (cel (peer c (off r)) (agR h (off r))))
    (by rw [duties_agS m shr c h (off r) hj]; exact Finset.mem_singleton_self _)
    (by rw [duties_agR m shr (peer c (off r)) h (off r) hj]; exact Finset.mem_singleton_self _)
    () () NO rfl (amount_agS m shr c h (off r) 0) (amount_agR m shr (peer c (off r)) h (off r) 0) O rfl
    (Entails.of_eq (by
      rw [payload_agS]
      exact pointsTo_congr hfs))
    (Entails.of_eq (by
      rw [payload_agR, agRPay_eq m (peer c (off r)) c h (off r) (frm_peer c (off r))]
      exact pointsTo_congr (ag_land m c (peer c (off r)) h fs hfs fd)))

/-- The wait on c's receive cell (h, 1 + r) of the all-gather: the rows of the device 1 + r behind, at the result. -/
theorem wp_wait_agR (K : GSem nD τ sig → ℕ) (c : Dev nD) (h : Fin 2) (r : Fin 15)
    {sv dv : Memref sig .tc .vmem S24x768 .bf16} {hs : sv.view.WordExact} {hd : dv.view.WordExact} (hN : dv.view.dmaCredit = NO)
    {α : Type} {Q : α → sProp 𝕄} {k : PUnit → Prog (TpuEff nD τ sig (Elt F) Λ₀ .tc) α}
    (W : Waits sig Unit) :
    iprop(cellInv ER (Rd m shr) (K (cel c (agR h (off r)))) (cel c (agR h (off r))) ∗ cred (tallyAt (cel c (agR h (off r))) () NO)
        ∗ owes (c : Thread nD τ) 0 W ∗ atPos ER (cel c (agR h (off r))) 0 ∅ 0)
      ⊢ iprop(((owes (c : Thread nD τ) 0 (insert (agR h (off r), ()) W) ∗ atPos ER (cel c (agR h (off r))) 1 ∅ 0 ∗ agRPay m c h (off r))
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch6 h (off r)) sv dv hs hd) k) Q) := by
  have hj : off r ≠ 0 := off_ne_zero r
  have e : bigSep ((Rd (F := F) m shr).duties (cel c (agR h (off r))) 0 \ ∅) (fun d => (Rd (F := F) m shr).payload (cel c (agR h (off r))) 0 d) = agRPay m c h (off r) := by
    rw [Finset.sdiff_empty, duties_agR m shr c h (off r) hj, bigSep_singleton, payload_agR]
  rw [← hN]
  iintro ⟨Hg, Hc, HL, Hat⟩ Hk
  iapply (Rounds.wp_wait_rest_token Variants.none ER (Rd m shr) (c : Thread nD τ) none (κ := K (cel c (agR h (off r))))
      (wpE_waitDma2_eq Variants.none (c : Thread nD τ) none Set.univ) (Set.mem_univ _) () (O := 0) (W := W) (R := 0) (m := 0) (T := ∅)
      (by rw [Nat.zero_add, hN, expect_agR m shr c h (off r) hj])) $$ [Hg Hc HL Hat]
  · isplitl [Hg]; · iexact Hg
    isplitl [Hc]; · iexact Hc
    isplitl [HL]; · iexact HL
    isplitr; · rw [MayWait_zero]; iempintro
    iexact Hat
  iintro ⟨HO, Hat, -, Hpay⟩
  ihave Hp := (Entails.of_eq e) $$ Hpay
  iapply Hk
  isplitl [HO]; · iexact HO
  isplitl [Hat]; · iexact Hat
  iexact Hp

/-- The wait on c's send cell (h, 1 + r) of the all-gather: the source's share back. -/
theorem wp_wait_agS (K : GSem nD τ sig → ℕ) (c : Dev nD) (h : Fin 2) (r : Fin 15)
    {sv dv : Memref sig .tc .vmem S24x768 .bf16} {hs : sv.view.WordExact} {hd : dv.view.WordExact} (hN : dv.view.dmaCredit = NO)
    {α : Type} {Q : α → sProp 𝕄} {k : PUnit → Prog (TpuEff nD τ sig (Elt F) Λ₀ .tc) α}
    (W : Waits sig Unit) :
    iprop(cellInv ER (Rd m shr) (K (cel c (agS h (off r)))) (cel c (agS h (off r))) ∗ cred (tallyAt (cel c (agS h (off r))) () NO)
        ∗ owes (c : Thread nD τ) 0 W ∗ atPos ER (cel c (agS h (off r))) 0 ∅ 0)
      ⊢ iprop(((owes (c : Thread nD τ) 0 (insert (agS h (off r), ()) W) ∗ atPos ER (cel c (agS h (off r))) 1 ∅ 0 ∗ outPts c c h (shr (off r)) (outFull m))
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch5 h (off r)) sv dv hs hd) k) Q) := by
  have hj : off r ≠ 0 := off_ne_zero r
  have e : bigSep ((Rd (F := F) m shr).duties (cel c (agS h (off r))) 0 \ ∅) (fun d => (Rd (F := F) m shr).payload (cel c (agS h (off r))) 0 d) = outPts c c h (shr (off r)) (outFull m) := by
    rw [Finset.sdiff_empty, duties_agS m shr c h (off r) hj, bigSep_singleton, payload_agS]
    rfl
  rw [← hN]
  iintro ⟨Hg, Hc, HL, Hat⟩ Hk
  iapply (Rounds.wp_wait_rest_token Variants.none ER (Rd m shr) (c : Thread nD τ) none (κ := K (cel c (agS h (off r))))
      (wpE_waitDma2_eq Variants.none (c : Thread nD τ) none Set.univ) (Set.mem_univ _) () (O := 0) (W := W) (R := 0) (m := 0) (T := ∅)
      (by rw [Nat.zero_add, hN, expect_agS m shr c h (off r) hj])) $$ [Hg Hc HL Hat]
  · isplitl [Hg]; · iexact Hg
    isplitl [Hc]; · iexact Hc
    isplitl [HL]; · iexact HL
    isplitr; · rw [MayWait_zero]; iempintro
    iexact Hat
  iintro ⟨HO, Hat, -, Hpay⟩
  ihave Hp := (Entails.of_eq e) $$ Hpay
  iapply Hk
  isplitl [HO]; · iexact HO
  isplitl [Hat]; · iexact Hat
  iexact Hp

/-- A cell of c's whose one round is over closes: its counter, at zero, is c's again. -/
theorem close_cell (K : GSem nD τ sig → ℕ) (g : GSem nD τ sig) :
    iprop(cellInv ER (Rd m shr) (K g) g ∗ atPos ER g 1 ∅ 0) ⊢ iprop(|={Set.univ}=> semVal g 0) :=
  Rounds.cell_close ER (Rd m shr) (Set.mem_univ (K g)) (fun h => h) (R := 1) (duties_later m shr g)

end Cert.Kernel.Pr
end
-- ==== Proof.Bits.Reads.lean ====
/-
  What the body's own loads read and what its store leaves, as the named contents: the load through the whole
  receive buffer at a slot's rectangle touches exactly that slot and reads the rows that landed there; the load of
  the own rows of the partial product reads those rows; the sums the body forms are the named halves of the result;
  the store of a summed half leaves the result on the own rows.
-/
import proofs.«900888_g7700000000000889_dist_matmul_k_i_m768_n768_k384_v7x_i16_bf16_1_alg».proof.Proof.Bits.Steps
import proofs.«900888_g7700000000000889_dist_matmul_k_i_m768_n768_k384_v7x_i16_bf16_1_alg».proof.Proof.Bits.Plumb
import Idealize.ShloMosaic.Lib.Pipeline.Value
import Idealize.ShloMosaic.Lib.ValueIdx

noncomputable section
namespace Cert.Kernel.Pr
open Cert.Kernel Cert.Kernel.Gen Cert.Kernel.Geo Cert.Kernel.Vals
open Idealize.ShloMosaic Idealize.ShloMosaic.TcCoe
open Idealize.ShloMosaic.ValueIdx

variable {F : FTy → Type} [FloatOps F]
variable (m : (ℓ : Loc nD τ sig) → Buf (Elt F) ℓ)

/-- The rectangle of receive slot (h, j) in the receive buffer. -/
abbrev slotRect (h : Fin 2) (j : Fin 16) : Rect S2x16x24x768 :=
  Rect.unit (s := S2x16x24x768) ![h.val, j.val, 0, 0] S1x1x24x768.size (slot_inb h j)

/-- The load through the whole receive buffer at the slot's rectangle touches exactly the slot. -/
theorem slot_access_set (h : Fin 2) (j : Fin 16) : (rsM.access (slotRect h j)).set = (slotV h j).view.set :=
  ((View.set_slice_whole cc0_scratch2 _).trans (unit_slot_set h j)).trans (slotV_set h j).symm

/-! ## Where the indices of the rectangles sit -/

/-- Index y of the own-row rectangle sits at row 48 c + 24 h + y₀, column y₁ of the 768 x 768 shape. -/
theorem ownRect_emb (c : Dev nD) (h : Fin 2) (y : S24x768.Idx) : (ownRect c h).emb y = rowIx c h y := by
  funext k
  apply Fin.ext
  rw [Rect.emb_apply]
  match k with
  | ⟨0, _⟩ =>
    have e0 := Geo.off2_row c h
    show k0_off2 c (BitVec.ofNat 32 (24 * h.val)) 0 + 1 * (y 0).val = c.val * 48 + 24 * h.val + (y 0).val
    rw [e0]
    omega
  | ⟨1, _⟩ =>
    have e1 := Geo.off2_col c h
    show k0_off2 c (BitVec.ofNat 32 (24 * h.val)) 1 + 1 * (y 1).val = (y 1).val
    rw [e1]
    omega

/-- Through the partial product's buffer, -/
theorem ownRect_emb_pbM (c : Dev nD) (h : Fin 2) (y : S24x768.Idx) : (pbM.access (ownRect c h)).emb y = rowIx c h y :=
  ownRect_emb c h y

/-- and through the result's staging buffer. -/
theorem ownRect_emb_oM (c : Dev nD) (h : Fin 2) (y : S24x768.Idx) : (oM.access (ownRect c h)).emb y = rowIx c h y :=
  ownRect_emb c h y

/-- Index z of the rectangle of slot (h, j) sits at (h, j, z₂, z₃) of the receive buffer. -/
theorem slotRect_emb (h : Fin 2) (j : Fin 16) (z : S1x1x24x768.Idx) :
    (rsM.access (slotRect h j)).emb z
      = ix4 h j (⟨(z 2).val, (z 2).isLt⟩ : Fin 24) (⟨(z 3).val, (z 3).isLt⟩ : Fin 768) := by
  have e : (rsM.access (slotRect h j)).emb z = (slotRect h j).emb z := rfl
  rw [e]
  funext k
  apply Fin.ext
  rw [Rect.emb_apply]
  have z0 : (z 0).val < 1 := (z 0).isLt
  have z1 : (z 1).val < 1 := (z 1).isLt
  match k with
  | ⟨0, _⟩ => show h.val + 1 * (z 0).val = h.val; omega
  | ⟨1, _⟩ => show j.val + 1 * (z 1).val = j.val; omega
  | ⟨2, _⟩ => show 0 + 1 * (z 2).val = (z 2).val; omega
  | ⟨3, _⟩ => show 0 + 1 * (z 3).val = (z 3).val; omega

/-! ## The loads -/

/-- The own-row load of the partial product reads the own rows. -/
theorem own_read (c : Dev nD) (h : Fin 2) : (pbM.access (ownRect c h)).read (Elt F) (pbV m c) = ownRows m c h := by
  funext y
  rw [View.read_apply, ownRect_emb_pbM]
  rfl

/-- The load of a landed slot reads the sender's rows. -/
theorem slot_read (c : Dev nD) (h : Fin 2) (r : Fin 15) :
    (rsM.access (slotRect h (off r))).read (Elt F) (rsFull m c) = landed m c h r := by
  funext z
  rw [View.read_apply, slotRect_emb]
  rfl

/-! ## The sums -/

/-- The two sums the body forms are the two halves of the device's rows of the result. -/
theorem chunk_eq (c : Dev nD) :
    acc0 (ownRows m c 0) (landed m c 0) = chunkV m c 0 ∧ acc1 (ownRows m c 1) (landed m c 1) = chunkV m c 1 := by
  constructor
  · unfold chunkV
    rw [if_pos rfl]
  · unfold chunkV
    rw [if_neg (by decide)]

/-! ## The store -/

/-- The result at row y of half h of device c's rows is what c computes for that half there. -/
theorem outFull_rowIx (c : Dev nD) (h : Fin 2) (y : S24x768.Idx) : outFull m (rowIx c h y) = chunkV m c h y := by
  have h0 : (y 0).val < 24 := (y 0).isLt
  have hh : h.val < 2 := h.isLt
  have key : ∀ (d : Dev nD) (g : Fin 2) (y' : S24x768.Idx), d = c → g = h → y' = y → chunkV m d g y' = chunkV m c h y := by
    intro d g y' e1 e2 e3
    subst e1 e2 e3
    rfl
  refine key _ _ _ (Fin.ext ?_) (Fin.ext ?_) ?_
  · show (c.val * 48 + 24 * h.val + (y 0).val) / 48 = c.val
    omega
  · show (c.val * 48 + 24 * h.val + (y 0).val) % 48 / 24 = h.val
    omega
  · rw [eq_ix2 y]
    have a : (⟨(c.val * 48 + 24 * h.val + (y 0).val) % 24, by omega⟩ : Fin 24) = y 0 := Fin.ext (by show (c.val * 48 + 24 * h.val + (y 0).val) % 24 = (y 0).val; omega)
    show ix2 (⟨(c.val * 48 + 24 * h.val + (y 0).val) % 24, by omega⟩ : Fin 24) (⟨(y 1).val, (y 1).isLt⟩ : Fin 768) = ix2 (y 0) (y 1)
    rw [a]
    rfl

/-- The store of the summed half leaves the result on the own rows. -/
theorem own_store (c : Dev nD) (h : Fin 2) (fo : Buf (Elt F) ((oM.access (ownRect c h)).loc (c : Thread nD τ))) :
    ∀ i ∈ (oM.access (ownRect c h)).set,
      (oM.access (ownRect c h)).write (Elt F) fo (chunkV m c h) Finset.univ i = outFull m i := by
  intro i hi
  obtain ⟨y, rfl⟩ := View.exists_emb_of_mem_set (oM.access (ownRect c h)) hi
  rw [View.write_emb_of_mem _ _ (Finset.mem_univ y), ownRect_emb_oM, outFull_rowIx]
  rfl

end Cert.Kernel.Pr
end
-- ==== Proof.Bits.Join.lean ====
/-
  Cutting a device's buffers into the pieces the protocol hands round, and joining them again. The result's staging
  buffer is its thirty-two row blocks: the thirty that belong to the other devices go out with the barrier units, the
  two own ones stay for the store. The receive buffer is its thirty-two slots: thirty go out with the barrier units,
  the two numbered 0 are never used. The partial product's buffer is the thirty sources of the reduce-scatter copies
  and the two own blocks. All of it is regrouping of iterated separating conjunctions along the ring's bijections.
-/
import proofs.«900888_g7700000000000889_dist_matmul_k_i_m768_n768_k384_v7x_i16_bf16_1_alg».proof.Proof.Bits.Steps
import proofs.«900888_g7700000000000889_dist_matmul_k_i_m768_n768_k384_v7x_i16_bf16_1_alg».proof.Proof.Bits.Shares
import proofs.«900888_g7700000000000889_dist_matmul_k_i_m768_n768_k384_v7x_i16_bf16_1_alg».proof.Proof.Bits.Plumb

noncomputable section
namespace Cert.Kernel.Pr
open Cert.Kernel Cert.Kernel.Gen Cert.Kernel.Geo Cert.Kernel.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- Device c's own rows (half h) of its partial product: what the own-row load reads. -/
def ownPb (c : Dev nD) (h : Fin 2) : sProp 𝕄 :=
  (pbM.access (ownRect c h)).loc (c : Thread nD τ) ↦[(pbM.access (ownRect c h)).set]{fullShare} pbV m c

/-- Device c's own rows (half h) of the result buffer: what the store writes. -/
def ownOut (c : Dev nD) (h : Fin 2) (f : Buf (Elt F) ((oM.access (ownRect c h)).loc (c : Thread nD τ))) : sProp 𝕄 :=
  (oM.access (ownRect c h)).loc (c : Thread nD τ) ↦[(oM.access (ownRect c h)).set]{fullShare} f

/-! ## The ring's bijections -/

/-- The offsets from c name every device once. -/
def peerE (c : Dev nD) : Fin 16 ≃ Dev nD where
  toFun := peer c
  invFun d := ⟨(d.val + 16 - c.val) % 16, Nat.mod_lt _ (by decide)⟩
  left_inv := by revert c; decide
  right_inv := by revert c; decide

/-- So do the offsets back from c. -/
def frmE (c : Dev nD) : Fin 16 ≃ Dev nD where
  toFun := frm c
  invFun d := ⟨(c.val + 16 - d.val) % 16, Nat.mod_lt _ (by decide)⟩
  left_inv := by revert c; decide
  right_inv := by revert c; decide

/-- Copy number r read backwards: copy number 14 - r. -/
def revE : Fin 15 ≃ Fin 15 where
  toFun r := ⟨14 - r.val, by omega⟩
  invFun r := ⟨14 - r.val, by omega⟩
  left_inv := by decide
  right_inv := by decide

theorem neg_off (r : Fin 15) : neg (off r) = off (revE r) := by revert r; decide
theorem off_eq_succ (r : Fin 15) : off r = r.succ := Fin.ext (Nat.add_comm 1 r.val)

/-! ## Regrouping iterated separating conjunctions -/

section Regroup
variable {M : Type _} [URA M]

/-- Over the sixteen offsets: offset 0, then the fifteen copies' offsets. -/
theorem bigSep_fin16 (Φ : Fin 16 → sProp M) :
    bigSep Finset.univ Φ = iprop(Φ 0 ∗ bigSep Finset.univ fun r : Fin 15 => Φ (off r)) := by
  rw [bigSep_fin_succ 15 Φ]
  simp only [off_eq_succ]

/-- Over the nonzero offsets: the fifteen copies' offsets. -/
theorem bigSep_erase_zero (Φ : Fin 16 → sProp M) :
    bigSep (Finset.univ.erase (0 : Fin 16)) Φ = bigSep Finset.univ fun r : Fin 15 => Φ (off r) := by
  have e : (Finset.univ : Finset (Fin 16)).erase 0 = Finset.univ.map ⟨Fin.succ, Fin.succ_injective 15⟩ := by
    ext j
    simp only [Finset.mem_erase, Finset.mem_univ, and_true, Finset.mem_map, true_and, Function.Embedding.coeFn_mk]
    exact (Fin.exists_succ_eq).symm
  rw [e, bigSep_map]
  simp only [off_eq_succ, Function.Embedding.coeFn_mk]

/-- Over the halves and the copies: copy by copy, both halves together. -/
theorem bigSep_HR (Φ : Fin 2 → Fin 15 → sProp M) :
    (bigSep Finset.univ fun p : HR => Φ p.1 p.2) = bigSep Finset.univ fun r : Fin 15 => iprop(Φ 0 r ∗ Φ 1 r) := by
  rw [bigSep_univ_prod (fun p : HR => Φ p.1 p.2), bigSep_univ_two, bigSep_sep']

/-- Over the halves and the copies, the copies read backwards. -/
theorem bigSep_HR_rev (Φ : Fin 2 → Fin 15 → sProp M) :
    (bigSep Finset.univ fun p : HR => Φ p.1 p.2) = bigSep Finset.univ fun p : HR => Φ p.1 (revE p.2) :=
  bigSep_univ_equiv (Equiv.prodCongr (Equiv.refl (Fin 2)) revE) (fun p : HR => Φ p.1 p.2)

/-- The thirty-two row blocks, along a numbering of the devices by offsets: the thirty blocks at the copies'
    offsets, and the two at offset 0. -/
theorem bigSep_rows (e : Fin 16 ≃ Dev nD) (Φ : Dev nD → Fin 2 → sProp M) :
    (bigSep Finset.univ fun p : Dev nD × Fin 2 => Φ p.1 p.2)
      = iprop((bigSep Finset.univ fun p : HR => Φ (e (off p.2)) p.1) ∗ Φ (e 0) 0 ∗ Φ (e 0) 1) := by
  rw [bigSep_univ_prod (fun p : Dev nD × Fin 2 => Φ p.1 p.2),
    bigSep_univ_equiv e (fun s : Dev nD => bigSep Finset.univ fun h : Fin 2 => Φ s h),
    bigSep_fin16 (fun j : Fin 16 => bigSep Finset.univ fun h : Fin 2 => Φ (e j) h),
    bigSep_univ_two (fun h : Fin 2 => Φ (e 0) h),
    bigSep_univ_prod (fun p : HR => Φ (e (off p.2)) p.1),
    bigSep_univ_comm (fun (h : Fin 2) (r : Fin 15) => Φ (e (off r)) h)]
  exact BI.equiv_iff.mp ⟨BI.sep_comm, BI.sep_comm⟩

/-- The thirty-two slots: the thirty at the copies' offsets, and the two at offset 0. -/
theorem bigSep_slots (Φ : Fin 2 → Fin 16 → sProp M) :
    (bigSep Finset.univ fun p : Fin 2 × Fin 16 => Φ p.1 p.2)
      = iprop((bigSep Finset.univ fun p : HR => Φ p.1 (off p.2)) ∗ Φ 0 0 ∗ Φ 1 0) := by
  rw [bigSep_univ_prod (fun p : Fin 2 × Fin 16 => Φ p.1 p.2),
    bigSep_congr (s := Finset.univ) (fun (h : Fin 2) _ => bigSep_fin16 (fun j : Fin 16 => Φ h j)),
    bigSep_sep', bigSep_univ_two (fun h : Fin 2 => Φ h 0),
    bigSep_univ_prod (fun p : HR => Φ p.1 (off p.2))]
  exact BI.equiv_iff.mp ⟨BI.sep_comm, BI.sep_comm⟩

end Regroup

theorem ownOut_eq (c : Dev nD) (h : Fin 2) (f : Buf (Elt F) ((oM.access (ownRect c h)).loc (c : Thread nD τ))) :
    ownOut c h f = outPts c c h fullShare f := by
  have e : (oM.access (ownRect c h)).set = (rowsV oM c h).view.set := (ownRect_set_oM c h).trans (rowsV_set_oM c h).symm
  unfold ownOut outPts
  exact congrArg (fun I => (((c : Thread nD τ).loc cc0_stg2_0) ↦[I]{fullShare} f : sProp 𝕄)) e

theorem own_shares (c : Dev nD) (h : Fin 2) (f : Buf (Elt F) ((rowsV oM c h).view.loc (c : Thread nD τ))) :
    outPts c c h fullShare f ⊣⊢ bigSep Finset.univ fun r : Fin 15 => outPts c c h (shrF (off r)) f := by
  unfold outPts
  simp only [shrF_off]
  exact pointsTo_shr (ℓ := (rowsV oM c h).view.loc (c : Thread nD τ)) (I := (rowsV oM c h).view.set) (f := f)

theorem got_split (c : Dev nD) : barGot (F := F) c ⊢ bigSep Finset.univ fun r : Fin 15 => barPay (F := F) c (off r) := by
  unfold barGot
  rw [bigSep_erase_zero]

theorem peerE_apply (c : Dev nD) (j : Fin 16) : peerE c j = peer c j := rfl
theorem frmE_apply (c : Dev nD) (j : Fin 16) : frmE c j = frm c j := rfl

/-! ## The pieces as regions of the whole buffers -/

theorem srcPts_eq (c : Dev nD) (r : Fin 15) (h : Fin 2) :
    srcPts m c r h = (((c : Thread nD τ).loc cc0_scratch0) ↦[rowsSet (peer c (off r)) h]{fullShare} (pbV m c) : sProp 𝕄) := by
  unfold srcPts
  exact congrArg (fun I => (((c : Thread nD τ).loc cc0_scratch0) ↦[I]{fullShare} (pbV m c) : sProp 𝕄)) (srcV_set c r h)

theorem ownPb_eq (c : Dev nD) (h : Fin 2) :
    ownPb m c h = (((c : Thread nD τ).loc cc0_scratch0) ↦[rowsSet c h]{fullShare} (pbV m c) : sProp 𝕄) := by
  unfold ownPb
  exact congrArg (fun I => (((c : Thread nD τ).loc cc0_scratch0) ↦[I]{fullShare} (pbV m c) : sProp 𝕄)) (ownRect_set_pbM c h)

theorem outPts_eq (d s : Dev nD) (h : Fin 2) (q : PosShare TreeShare) (f : Buf (Elt F) ((d : Thread nD τ).loc cc0_stg2_0)) :
    outPts d s h q f = (((d : Thread nD τ).loc cc0_stg2_0) ↦[rowsSet s h]{q} f : sProp 𝕄) := by
  unfold outPts
  exact congrArg (fun I => (((d : Thread nD τ).loc cc0_stg2_0) ↦[I]{q} f : sProp 𝕄)) (rowsV_set_oM s h)

theorem slotPts_eq (d : Dev nD) (h : Fin 2) (j : Fin 16) (f : Buf (Elt F) ((d : Thread nD τ).loc cc0_scratch2)) :
    slotPts d h j f = (((d : Thread nD τ).loc cc0_scratch2) ↦[slotSet h j]{fullShare} f : sProp 𝕄) := by
  unfold slotPts
  exact congrArg (fun I => (((d : Thread nD τ).loc cc0_scratch2) ↦[I]{fullShare} f : sProp 𝕄)) (slotV_set h j)

theorem pb_split (c : Dev nD) :
    ((((c : Thread nD τ).loc cc0_scratch0) ↦{fullShare} (pbV m c) : sProp 𝕄))
      ⊣⊢ iprop((bigSep Finset.univ fun p : HR => srcPts m c p.2 p.1) ∗ ownPb m c 0 ∗ ownPb m c 1) := by
  have e : (bigSep Finset.univ fun p : Dev nD × Fin 2 => (((c : Thread nD τ).loc cc0_scratch0) ↦[rowsSet p.1 p.2]{fullShare} (pbV m c) : sProp 𝕄))
      = iprop((bigSep Finset.univ fun p : HR => srcPts m c p.2 p.1) ∗ ownPb m c 0 ∗ ownPb m c 1) := by
    rw [bigSep_rows (peerE c) (fun s h => (((c : Thread nD τ).loc cc0_scratch0) ↦[rowsSet s h]{fullShare} (pbV m c) : sProp 𝕄))]
    simp only [srcPts_eq, ownPb_eq, peerE_apply, peer_zero]
  exact (whole_rows_pbM (Ix := Unit) (Val := Elt F) (Name := ℕ) (U := UU) (Lvl := ℕ) (q := fullShare) c (pbV m c)).trans (BiEntails.of_eq e)

theorem out_join (c : Dev nD) :
    iprop((bigSep Finset.univ fun p : HR => agRPay m c p.1 (off p.2)) ∗ outPts c c 0 fullShare (outFull m) ∗ outPts c c 1 fullShare (outFull m))
      ⊢ ((((c : Thread nD τ).loc cc0_stg2_0) ↦{fullShare} (outFull m) : sProp 𝕄)) := by
  have e : (bigSep Finset.univ fun p : Dev nD × Fin 2 => (((c : Thread nD τ).loc cc0_stg2_0) ↦[rowsSet p.1 p.2]{fullShare} (outFull m) : sProp 𝕄))
      = iprop((bigSep Finset.univ fun p : HR => agRPay m c p.1 (off p.2)) ∗ outPts c c 0 fullShare (outFull m) ∗ outPts c c 1 fullShare (outFull m)) := by
    rw [bigSep_rows (frmE c) (fun s h => (((c : Thread nD τ).loc cc0_stg2_0) ↦[rowsSet s h]{fullShare} (outFull m) : sProp 𝕄))]
    simp only [agRPay, outPts_eq, frmE_apply, frm_zero]
  rw [← e]
  exact (whole_rows_oM (Ix := Unit) (Val := Elt F) (Name := ℕ) (U := UU) (Lvl := ℕ) (q := fullShare) c (outFull m)).2

theorem rs_join (c : Dev nD) (frs : Buf (Elt F) ((c : Thread nD τ).loc cc0_scratch2)) :
    iprop((bigSep Finset.univ fun p : HR => rsRPay m c p.1 (off p.2)) ∗ slotPts c 0 0 frs ∗ slotPts c 1 0 frs)
      ⊢ (∃ f, (((c : Thread nD τ).loc cc0_scratch2) ↦{fullShare} f) : sProp 𝕄) := by
  -- one function for the whole buffer: the idle slots' contents on the slots numbered 0, the landed rows elsewhere
  let g : Buf (Elt F) ((c : Thread nD τ).loc cc0_scratch2) := fun z => if (z 1).val = 0 then frs z else rsFull m c z
  have e1 : ∀ (h : Fin 2) (r : Fin 15), rsRPay m c h (off r)
      = (((c : Thread nD τ).loc cc0_scratch2) ↦[slotSet h (off r)]{fullShare} g : sProp 𝕄) := fun h r => by
    unfold rsRPay
    rw [slotPts_eq]
    refine pointsTo_congr fun z hz => ?_
    have hz1 : (z 1).val = (off r).val := (mem_slotSet.mp hz).2
    have : (z 1).val ≠ 0 := by rw [hz1]; simp [off]
    exact (if_neg this).symm
  have e2 : ∀ h : Fin 2, slotPts c h 0 frs
      = (((c : Thread nD τ).loc cc0_scratch2) ↦[slotSet h 0]{fullShare} g : sProp 𝕄) := fun h => by
    rw [slotPts_eq]
    refine pointsTo_congr fun z hz => ?_
    have hz1 : (z 1).val = 0 := (mem_slotSet.mp hz).2
    exact (if_pos hz1).symm
  simp only [e1, e2]
  rw [← bigSep_slots (fun h j => (((c : Thread nD τ).loc cc0_scratch2) ↦[slotSet h j]{fullShare} g : sProp 𝕄))]
  iintro H
  iexists g
  iapply (whole_slots (Ix := Unit) (Val := Elt F) (Name := ℕ) (U := UU) (Lvl := ℕ) (q := fullShare) c g).2
  iexact H

/-! ## What goes out with the barrier units -/

/-- The result's staging buffer: the other devices' rows, copy by copy, and the two own blocks. -/
theorem out_cut (c : Dev nD) (fo : Buf (Elt F) ((c : Thread nD τ).loc cc0_stg2_0)) :
    ((((c : Thread nD τ).loc cc0_stg2_0) ↦{fullShare} fo : sProp 𝕄))
      ⊣⊢ iprop((bigSep Finset.univ fun r : Fin 15 => iprop(outPts c (peer c (off r)) 0 fullShare fo ∗ outPts c (peer c (off r)) 1 fullShare fo))
          ∗ ownOut c 0 fo ∗ ownOut c 1 fo) := by
  have e : (bigSep Finset.univ fun p : Dev nD × Fin 2 => (((c : Thread nD τ).loc cc0_stg2_0) ↦[rowsSet p.1 p.2]{fullShare} fo : sProp 𝕄))
      = iprop((bigSep Finset.univ fun r : Fin 15 => iprop(outPts c (peer c (off r)) 0 fullShare fo ∗ outPts c (peer c (off r)) 1 fullShare fo))
          ∗ ownOut c 0 fo ∗ ownOut c 1 fo) := by
    rw [bigSep_rows (peerE c) (fun s h => (((c : Thread nD τ).loc cc0_stg2_0) ↦[rowsSet s h]{fullShare} fo : sProp 𝕄)),
      ← bigSep_HR (fun h r => outPts c (peer c (off r)) h fullShare fo)]
    simp only [ownOut_eq, outPts_eq, peerE_apply, peer_zero]
  exact (whole_rows_oM (Ix := Unit) (Val := Elt F) (Name := ℕ) (U := UU) (Lvl := ℕ) (q := fullShare) c fo).trans (BiEntails.of_eq e)

/-- The receive buffer: the slots the other devices write, numbered as the receiver of copy r numbers them, and the two idle ones. -/
theorem slot_cut (c : Dev nD) (frs : Buf (Elt F) ((c : Thread nD τ).loc cc0_scratch2)) :
    ((((c : Thread nD τ).loc cc0_scratch2) ↦{fullShare} frs : sProp 𝕄))
      ⊣⊢ iprop((bigSep Finset.univ fun r : Fin 15 => iprop(slotPts c 0 (neg (off r)) frs ∗ slotPts c 1 (neg (off r)) frs))
          ∗ slotPts c 0 0 frs ∗ slotPts c 1 0 frs) := by
  have e : (bigSep Finset.univ fun p : Fin 2 × Fin 16 => (((c : Thread nD τ).loc cc0_scratch2) ↦[slotSet p.1 p.2]{fullShare} frs : sProp 𝕄))
      = iprop((bigSep Finset.univ fun r : Fin 15 => iprop(slotPts c 0 (neg (off r)) frs ∗ slotPts c 1 (neg (off r)) frs))
          ∗ slotPts c 0 0 frs ∗ slotPts c 1 0 frs) := by
    rw [bigSep_slots (fun h j => (((c : Thread nD τ).loc cc0_scratch2) ↦[slotSet h j]{fullShare} frs : sProp 𝕄)),
      bigSep_HR_rev (fun h r => (((c : Thread nD τ).loc cc0_scratch2) ↦[slotSet h (off r)]{fullShare} frs : sProp 𝕄)),
      ← bigSep_HR (fun h r => slotPts c h (neg (off r)) frs)]
    simp only [slotPts_eq, neg_off]
  exact (whole_slots (Ix := Unit) (Val := Elt F) (Name := ℕ) (U := UU) (Lvl := ℕ) (q := fullShare) c frs).trans (BiEntails.of_eq e)

/-- The own receive cells are open: said copy by copy, numbered as the receiver of copy r numbers them. -/
theorem opens_cut (c : Dev nD) : opens (F := F) c ⊢ bigSep Finset.univ fun r : Fin 15 =>
    iprop(reached ER (cel c (rsR 0 (neg (off r)))) 0 ∗ reached ER (cel c (rsR 1 (neg (off r)))) 0
      ∗ reached ER (cel c (agR 0 (neg (off r)))) 0 ∗ reached ER (cel c (agR 1 (neg (off r)))) 0) := by
  have e : (bigSep Finset.univ fun p : HR => iprop(reached ER (cel c (rsR p.1 (off p.2))) 0 ∗ reached ER (cel c (agR p.1 (off p.2))) 0) : sProp 𝕄)
      = bigSep Finset.univ fun r : Fin 15 => iprop((reached ER (cel c (rsR 0 (neg (off r)))) 0 ∗ reached ER (cel c (agR 0 (neg (off r)))) 0)
          ∗ (reached ER (cel c (rsR 1 (neg (off r)))) 0 ∗ reached ER (cel c (agR 1 (neg (off r)))) 0)) := by
    rw [bigSep_HR_rev (fun h r => iprop(reached ER (cel c (rsR h (off r))) 0 ∗ reached ER (cel c (agR h (off r))) 0)),
      ← bigSep_HR (fun h r => iprop(reached ER (cel c (rsR h (neg (off r)))) 0 ∗ reached ER (cel c (agR h (neg (off r)))) 0))]
    simp only [neg_off]
  have h1 : opens (F := F) c ⊢ (bigSep Finset.univ fun p : HR => iprop(reached ER (cel c (rsR p.1 (off p.2))) 0 ∗ reached ER (cel c (agR p.1 (off p.2))) 0) : sProp 𝕄) := by
    have h0 : (bigSep Finset.univ fun p : HR => iprop(
          reached ER (cel c (rsS p.1 (off p.2))) 0 ∗ reached ER (cel c (rsR p.1 (off p.2))) 0
        ∗ reached ER (cel c (agS p.1 (off p.2))) 0 ∗ reached ER (cel c (agR p.1 (off p.2))) 0) : sProp 𝕄)
        ⊢ bigSep Finset.univ fun p : HR => iprop(reached ER (cel c (rsR p.1 (off p.2))) 0 ∗ reached ER (cel c (agR p.1 (off p.2))) 0) :=
      bigSep_mono fun p _ => by
        show (_ : sProp 𝕄) ⊢ _
        iintro ⟨-, HR, -, HA⟩
        isplitl [HR]; · iexact HR
        iexact HA
    unfold opens
    iintro ⟨H, -⟩
    iapply h0
    iexact H
  have h2 : (bigSep Finset.univ fun r : Fin 15 => iprop((reached ER (cel c (rsR 0 (neg (off r)))) 0 ∗ reached ER (cel c (agR 0 (neg (off r)))) 0)
          ∗ (reached ER (cel c (rsR 1 (neg (off r)))) 0 ∗ reached ER (cel c (agR 1 (neg (off r)))) 0)) : sProp 𝕄)
      ⊢ bigSep Finset.univ fun r : Fin 15 =>
        iprop(reached ER (cel c (rsR 0 (neg (off r)))) 0 ∗ reached ER (cel c (rsR 1 (neg (off r)))) 0
          ∗ reached ER (cel c (agR 0 (neg (off r)))) 0 ∗ reached ER (cel c (agR 1 (neg (off r)))) 0) :=
    bigSep_mono fun r _ => by
      show (_ : sProp 𝕄) ⊢ _
      iintro ⟨⟨HR0, HA0⟩, HR1, HA1⟩
      isplitl [HR0]; · iexact HR0
      isplitl [HR1]; · iexact HR1
      isplitl [HA0]; · iexact HA0
      iexact HA1
  exact h1.trans ((Entails.of_eq e).trans h2)

/-- Copy by copy: the two slots, the two row blocks and the four open cells are what the unit to the device of copy r carries. -/
theorem give_each (c : Dev nD) (fo : Buf (Elt F) ((c : Thread nD τ).loc cc0_stg2_0)) (frs : Buf (Elt F) ((c : Thread nD τ).loc cc0_scratch2)) :
    iprop((bigSep Finset.univ fun r : Fin 15 => iprop(outPts c (peer c (off r)) 0 fullShare fo ∗ outPts c (peer c (off r)) 1 fullShare fo))
        ∗ (bigSep Finset.univ fun r : Fin 15 => iprop(slotPts c 0 (neg (off r)) frs ∗ slotPts c 1 (neg (off r)) frs))
        ∗ (bigSep Finset.univ fun r : Fin 15 =>
            iprop(reached ER (cel c (rsR 0 (neg (off r)))) 0 ∗ reached ER (cel c (rsR 1 (neg (off r)))) 0
              ∗ reached ER (cel c (agR 0 (neg (off r)))) 0 ∗ reached ER (cel c (agR 1 (neg (off r)))) 0)))
      ⊢ bigSep Finset.univ fun r : Fin 15 => barGive (F := F) c (off r) := by
  rw [← bigSep_sep', ← bigSep_sep']
  refine bigSep_mono fun r _ => ?_
  unfold barGive
  show (_ : sProp 𝕄) ⊢ _
  iintro ⟨⟨Ho0, Ho1⟩, ⟨Hs0, Hs1⟩, HR0, HR1, HA0, HA1⟩
  isplitl [Hs0]; · iexists frs; iexact Hs0
  isplitl [Hs1]; · iexists frs; iexact Hs1
  isplitl [Ho0]; · iexists fo; iexact Ho0
  isplitl [Ho1]; · iexists fo; iexact Ho1
  isplitl [HR0]; · iexact HR0
  isplitl [HR1]; · iexact HR1
  isplitl [HA0]; · iexact HA0
  iexact HA1

theorem give_split (c : Dev nD) (fo : Buf (Elt F) ((c : Thread nD τ).loc cc0_stg2_0)) (frs : Buf (Elt F) ((c : Thread nD τ).loc cc0_scratch2)) :
    iprop((((c : Thread nD τ).loc cc0_stg2_0) ↦{fullShare} fo) ∗ (((c : Thread nD τ).loc cc0_scratch2) ↦{fullShare} frs) ∗ opens (F := F) c)
      ⊢ iprop((bigSep Finset.univ fun r : Fin 15 => barGive (F := F) c (off r)) ∗ ownOut c 0 fo ∗ ownOut c 1 fo ∗ slotPts c 0 0 frs ∗ slotPts c 1 0 frs) := by
  iintro ⟨Ho, Hs, Hop⟩
  ihave Ho' := (out_cut c fo).1 $$ Ho
  icases Ho' with ⟨Hor, Ho0, Ho1⟩
  ihave Hs' := (slot_cut c frs).1 $$ Hs
  icases Hs' with ⟨Hsr, Hs0, Hs1⟩
  ihave Hrc := (opens_cut (F := F) c) $$ Hop
  isplitl [Hor Hsr Hrc]
  · iapply (give_each c fo frs)
    isplitl [Hor]; · iexact Hor
    isplitl [Hsr]; · iexact Hsr
    iexact Hrc
  isplitl [Ho0]; · iexact Ho0
  isplitl [Ho1]; · iexact Ho1
  isplitl [Hs0]; · iexact Hs0
  iexact Hs1

end Cert.Kernel.Pr
end
-- ==== Proof.Bits.BodyLem.lean ====
/-
  What the body's first stretch leaves in the partial-product buffer: the product of the device's two blocks.
-/
import proofs.«900888_g7700000000000889_dist_matmul_k_i_m768_n768_k384_v7x_i16_bf16_1_alg».proof.Proof.Bits.Reads
import proofs.«900888_g7700000000000889_dist_matmul_k_i_m768_n768_k384_v7x_i16_bf16_1_alg».proof.Proof.Bits.Join
import Idealize.ShloMosaic.Lib.Pipeline.Value

noncomputable section
namespace Cert.Kernel.Pr
open Cert.Kernel Cert.Kernel.Gen Cert.Kernel.Geo Cert.Kernel.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

theorem hz2 : (![0, 0] : Fin 2 → Nat) = fun _ => 0 := funext fun a => by fin_cases a <;> rfl

/-- A load of a whole staging buffer through the rectangle at the origin reads its contents. -/
theorem read_a (c : Dev nD) (f : Buf (Elt F) (aM.view.loc (c : Thread nD τ))) :
    aM.view.readAt (Elt F) (Rect.unit (s := S768x384) ![0, 0] S768x384.size inb_S768x384_S768x384_0_0).toLoadRect f = f :=
  Memref.readAt_unit_zero (Elt F) cc0_stg0_0 hz2 _ f
theorem read_b (c : Dev nD) (f : Buf (Elt F) (bM.view.loc (c : Thread nD τ))) :
    bM.view.readAt (Elt F) (Rect.unit (s := S384x768) ![0, 0] S384x768.size inb_S384x768_S384x768_0_0).toLoadRect f = f :=
  Memref.readAt_unit_zero (Elt F) cc0_stg1_0 hz2 _ f

/-- A load that a whole store covers reads what was stored. -/
theorem readcov_bb (w : S384x768.Idx → Elt F (.bf16)) :
    bbM.view.readCov [(⟨Rect.unit (s := S384x768) ![0, 0] S384x768.size inb_S384x768_S384x768_0_0, w⟩ : View.Piece (Elt F) S384x768 .bf16)]
      (Rect.unit (s := S384x768) ![0, 0] S384x768.size inb_S384x768_S384x768_0_0).toLoadRect = w :=
  View.readCov_unit_zero bbM.view hz2 _ w

/-- The partial-product buffer after its one whole store holds the product of the two blocks. -/
theorem pb_contents (c : Dev nD) (fp : Buf (Elt F) (pbM.view.loc (c : Thread nD τ)))
    (x : Vec F S768x384 .f32) (y : Vec F S384x768 .bf16) (hx : x = aV m c) (hy : y = k0_pay1 (bV m c))
    (h1 : ∀ a, (![0, 0] : Fin 2 → Nat) a + S768x768.size a ≤ S768x768.size a) (h2 : S768x768.ShapeCasts S768x768) :
    pbM.view.writes (Elt F) fp [⟨Rect.unit (s := S768x768) ![0, 0] S768x768.size h1, shapeCast S768x768 (k0_pay2 x y) h2⟩] = pbV m c := by
  subst hx hy
  rw [View.writes_singleton]
  exact Memref.write_access_unit_zero_univ (Elt F) cc0_scratch0 hz2 _ fp _

/-- The own rows of the result buffer after the store of the summed half hold the result there. -/
theorem stored (c : Dev nD) (h : Fin 2) (fo : Buf (Elt F) ((oM.access (ownRect c h)).loc (c : Thread nD τ)))
    (w : FVec F S24x768 .bf16) (hw : w = chunkV m c h) :
    (((oM.access (ownRect c h)).loc (c : Thread nD τ) ↦[(oM.access (ownRect c h)).set]{fullShare} ((oM.access (ownRect c h)).write (Elt F) fo w Finset.univ)) : sProp 𝕄)
      = outPts c c h fullShare (outFull m) := by
  subst hw
  rw [← ownOut_eq c h (outFull m)]
  unfold ownOut
  exact pointsTo_congr (own_store m c h fo)

/-! ## Fifteen, and twice fifteen, things one by one -/

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem bigSep_fin2 (Φ : Fin 2 → sProp 𝕄) : bigSep Finset.univ Φ = iprop(Φ 0 ∗ Φ 1) :=
  bigSep_univ_eq_bigSepL [0, 1] (by decide) (by decide) Φ

theorem bigSep_HR2 (Φ : HR → sProp 𝕄) : bigSep Finset.univ Φ
    = iprop((bigSep Finset.univ fun r : Fin 15 => Φ (0, r)) ∗ (bigSep Finset.univ fun r : Fin 15 => Φ (1, r))) := by
  rw [bigSep_univ_prod, bigSep_fin2]

/-- Thirty things indexed by half and copy number, one by one. -/
theorem bigSep_HR_list (Φ : HR → sProp 𝕄) : bigSep Finset.univ Φ
    = iprop((Φ (0, 0) ∗ Φ (0, 1) ∗ Φ (0, 2) ∗ Φ (0, 3) ∗ Φ (0, 4) ∗ Φ (0, 5) ∗ Φ (0, 6) ∗ Φ (0, 7) ∗ Φ (0, 8) ∗ Φ (0, 9) ∗ Φ (0, 10) ∗ Φ (0, 11) ∗ Φ (0, 12) ∗ Φ (0, 13) ∗ Φ (0, 14)) ∗ (Φ (1, 0) ∗ Φ (1, 1) ∗ Φ (1, 2) ∗ Φ (1, 3) ∗ Φ (1, 4) ∗ Φ (1, 5) ∗ Φ (1, 6) ∗ Φ (1, 7) ∗ Φ (1, 8) ∗ Φ (1, 9) ∗ Φ (1, 10) ∗ Φ (1, 11) ∗ Φ (1, 12) ∗ Φ (1, 13) ∗ Φ (1, 14))) := by
  rw [bigSep_HR2, bigSep_fin15, bigSep_fin15]

/-- What one unit on c's barrier brings, spelt out. -/
def gotOne (c : Dev nD) (j : Fin 16) : sProp 𝕄 :=
  iprop((∃ f, slotPts (peer c j) 0 j f) ∗ (∃ f, slotPts (peer c j) 1 j f)
    ∗ (∃ f, outPts (peer c j) c 0 fullShare f) ∗ (∃ f, outPts (peer c j) c 1 fullShare f)
    ∗ reached ER (cel (peer c j) (rsR 0 j)) 0 ∗ reached ER (cel (peer c j) (rsR 1 j)) 0
    ∗ reached ER (cel (peer c j) (agR 0 j)) 0 ∗ reached ER (cel (peer c j) (agR 1 j)) 0)

/-- The barrier wait's fifteen payloads, one by one. -/
theorem got_list (c : Dev nD) : barGot (F := F) c ⊢ iprop(barPay (F := F) c (off 0) ∗ barPay (F := F) c (off 1) ∗ barPay (F := F) c (off 2) ∗ barPay (F := F) c (off 3) ∗ barPay (F := F) c (off 4) ∗ barPay (F := F) c (off 5) ∗ barPay (F := F) c (off 6) ∗ barPay (F := F) c (off 7) ∗ barPay (F := F) c (off 8) ∗ barPay (F := F) c (off 9) ∗ barPay (F := F) c (off 10) ∗ barPay (F := F) c (off 11) ∗ barPay (F := F) c (off 12) ∗ barPay (F := F) c (off 13) ∗ barPay (F := F) c (off 14)) :=
  (got_split c).trans (Entails.of_eq (bigSep_fin15 _))

/-- The partial product cut into the thirty sources and the two own blocks, one by one. -/
theorem pb_list (c : Dev nD) : ((((c : Thread nD τ).loc cc0_scratch0) ↦{fullShare} (pbV m c) : sProp 𝕄))
    ⊢ iprop(((srcPts m c 0 0 ∗ srcPts m c 1 0 ∗ srcPts m c 2 0 ∗ srcPts m c 3 0 ∗ srcPts m c 4 0 ∗ srcPts m c 5 0 ∗ srcPts m c 6 0 ∗ srcPts m c 7 0 ∗ srcPts m c 8 0 ∗ srcPts m c 9 0 ∗ srcPts m c 10 0 ∗ srcPts m c 11 0 ∗ srcPts m c 12 0 ∗ srcPts m c 13 0 ∗ srcPts m c 14 0) ∗ (srcPts m c 0 1 ∗ srcPts m c 1 1 ∗ srcPts m c 2 1 ∗ srcPts m c 3 1 ∗ srcPts m c 4 1 ∗ srcPts m c 5 1 ∗ srcPts m c 6 1 ∗ srcPts m c 7 1 ∗ srcPts m c 8 1 ∗ srcPts m c 9 1 ∗ srcPts m c 10 1 ∗ srcPts m c 11 1 ∗ srcPts m c 12 1 ∗ srcPts m c 13 1 ∗ srcPts m c 14 1)) ∗ ownPb m c 0 ∗ ownPb m c 1) :=
  (pb_split m c).mp.trans (Entails.of_eq (by rw [bigSep_HR_list]))
theorem pb_unlist (c : Dev nD) : iprop(((srcPts m c 0 0 ∗ srcPts m c 1 0 ∗ srcPts m c 2 0 ∗ srcPts m c 3 0 ∗ srcPts m c 4 0 ∗ srcPts m c 5 0 ∗ srcPts m c 6 0 ∗ srcPts m c 7 0 ∗ srcPts m c 8 0 ∗ srcPts m c 9 0 ∗ srcPts m c 10 0 ∗ srcPts m c 11 0 ∗ srcPts m c 12 0 ∗ srcPts m c 13 0 ∗ srcPts m c 14 0) ∗ (srcPts m c 0 1 ∗ srcPts m c 1 1 ∗ srcPts m c 2 1 ∗ srcPts m c 3 1 ∗ srcPts m c 4 1 ∗ srcPts m c 5 1 ∗ srcPts m c 6 1 ∗ srcPts m c 7 1 ∗ srcPts m c 8 1 ∗ srcPts m c 9 1 ∗ srcPts m c 10 1 ∗ srcPts m c 11 1 ∗ srcPts m c 12 1 ∗ srcPts m c 13 1 ∗ srcPts m c 14 1)) ∗ ownPb m c 0 ∗ ownPb m c 1)
    ⊢ ((((c : Thread nD τ).loc cc0_scratch0) ↦{fullShare} (pbV m c) : sProp 𝕄)) :=
  (Entails.of_eq (by rw [bigSep_HR_list])).trans (pb_split m c).mpr

/-- The own rows of the result cut into the fifteen shares of the copies, one by one, and joined again. -/
theorem shares_list (c : Dev nD) (h : Fin 2) (f : Buf (Elt F) ((rowsV oM c h).view.loc (c : Thread nD τ))) :
    outPts c c h fullShare f ⊢ iprop(outPts c c h (shrF (off 0)) f ∗ outPts c c h (shrF (off 1)) f ∗ outPts c c h (shrF (off 2)) f ∗ outPts c c h (shrF (off 3)) f ∗ outPts c c h (shrF (off 4)) f ∗ outPts c c h (shrF (off 5)) f ∗ outPts c c h (shrF (off 6)) f ∗ outPts c c h (shrF (off 7)) f ∗ outPts c c h (shrF (off 8)) f ∗ outPts c c h (shrF (off 9)) f ∗ outPts c c h (shrF (off 10)) f ∗ outPts c c h (shrF (off 11)) f ∗ outPts c c h (shrF (off 12)) f ∗ outPts c c h (shrF (off 13)) f ∗ outPts c c h (shrF (off 14)) f) :=
  (own_shares c h f).mp.trans (Entails.of_eq (bigSep_fin15 _))
theorem shares_unlist (c : Dev nD) (h : Fin 2) (f : Buf (Elt F) ((rowsV oM c h).view.loc (c : Thread nD τ))) :
    iprop(outPts c c h (shrF (off 0)) f ∗ outPts c c h (shrF (off 1)) f ∗ outPts c c h (shrF (off 2)) f ∗ outPts c c h (shrF (off 3)) f ∗ outPts c c h (shrF (off 4)) f ∗ outPts c c h (shrF (off 5)) f ∗ outPts c c h (shrF (off 6)) f ∗ outPts c c h (shrF (off 7)) f ∗ outPts c c h (shrF (off 8)) f ∗ outPts c c h (shrF (off 9)) f ∗ outPts c c h (shrF (off 10)) f ∗ outPts c c h (shrF (off 11)) f ∗ outPts c c h (shrF (off 12)) f ∗ outPts c c h (shrF (off 13)) f ∗ outPts c c h (shrF (off 14)) f) ⊢ outPts c c h fullShare f :=
  (Entails.of_eq (bigSep_fin15 _).symm).trans (own_shares c h f).mpr

/-- The result's thirty received blocks and the two own ones, all at the result: the whole buffer at the result. -/
theorem out_unlist (c : Dev nD) :
    iprop(((agRPay m c 0 (off 0) ∗ agRPay m c 0 (off 1) ∗ agRPay m c 0 (off 2) ∗ agRPay m c 0 (off 3) ∗ agRPay m c 0 (off 4) ∗ agRPay m c 0 (off 5) ∗ agRPay m c 0 (off 6) ∗ agRPay m c 0 (off 7) ∗ agRPay m c 0 (off 8) ∗ agRPay m c 0 (off 9) ∗ agRPay m c 0 (off 10) ∗ agRPay m c 0 (off 11) ∗ agRPay m c 0 (off 12) ∗ agRPay m c 0 (off 13) ∗ agRPay m c 0 (off 14)) ∗ (agRPay m c 1 (off 0) ∗ agRPay m c 1 (off 1) ∗ agRPay m c 1 (off 2) ∗ agRPay m c 1 (off 3) ∗ agRPay m c 1 (off 4) ∗ agRPay m c 1 (off 5) ∗ agRPay m c 1 (off 6) ∗ agRPay m c 1 (off 7) ∗ agRPay m c 1 (off 8) ∗ agRPay m c 1 (off 9) ∗ agRPay m c 1 (off 10) ∗ agRPay m c 1 (off 11) ∗ agRPay m c 1 (off 12) ∗ agRPay m c 1 (off 13) ∗ agRPay m c 1 (off 14))) ∗ outPts c c 0 fullShare (outFull m) ∗ outPts c c 1 fullShare (outFull m))
      ⊢ ((((c : Thread nD τ).loc cc0_stg2_0) ↦{fullShare} (outFull m) : sProp 𝕄)) :=
  (Entails.of_eq (by rw [bigSep_HR_list])).trans (out_join m c)

/-- The receive buffer's thirty landed slots and the two idle ones: the whole buffer again. -/
theorem rs_unlist (c : Dev nD) (frs : Buf (Elt F) ((c : Thread nD τ).loc cc0_scratch2)) :
    iprop(((rsRPay m c 0 (off 0) ∗ rsRPay m c 0 (off 1) ∗ rsRPay m c 0 (off 2) ∗ rsRPay m c 0 (off 3) ∗ rsRPay m c 0 (off 4) ∗ rsRPay m c 0 (off 5) ∗ rsRPay m c 0 (off 6) ∗ rsRPay m c 0 (off 7) ∗ rsRPay m c 0 (off 8) ∗ rsRPay m c 0 (off 9) ∗ rsRPay m c 0 (off 10) ∗ rsRPay m c 0 (off 11) ∗ rsRPay m c 0 (off 12) ∗ rsRPay m c 0 (off 13) ∗ rsRPay m c 0 (off 14)) ∗ (rsRPay m c 1 (off 0) ∗ rsRPay m c 1 (off 1) ∗ rsRPay m c 1 (off 2) ∗ rsRPay m c 1 (off 3) ∗ rsRPay m c 1 (off 4) ∗ rsRPay m c 1 (off 5) ∗ rsRPay m c 1 (off 6) ∗ rsRPay m c 1 (off 7) ∗ rsRPay m c 1 (off 8) ∗ rsRPay m c 1 (off 9) ∗ rsRPay m c 1 (off 10) ∗ rsRPay m c 1 (off 11) ∗ rsRPay m c 1 (off 12) ∗ rsRPay m c 1 (off 13) ∗ rsRPay m c 1 (off 14))) ∗ slotPts c 0 0 frs ∗ slotPts c 1 0 frs)
      ⊢ (∃ f, (((c : Thread nD τ).loc cc0_scratch2) ↦{fullShare} f) : sProp 𝕄) :=
  (Entails.of_eq (by rw [bigSep_HR_list])).trans (rs_join m c frs)

/-- Every one of the own semaphores at zero, from the hundred and twenty closed cells one by one and the eight idle ones. -/
theorem sems_unlist (c : Dev nD) :
    iprop(idle (F := F) c ∗ ((semVal (cel c (rsS 0 (off 0))) 0 ∗ semVal (cel c (rsR 0 (off 0))) 0 ∗ semVal (cel c (agS 0 (off 0))) 0 ∗ semVal (cel c (agR 0 (off 0))) 0) ∗ (semVal (cel c (rsS 0 (off 1))) 0 ∗ semVal (cel c (rsR 0 (off 1))) 0 ∗ semVal (cel c (agS 0 (off 1))) 0 ∗ semVal (cel c (agR 0 (off 1))) 0) ∗ (semVal (cel c (rsS 0 (off 2))) 0 ∗ semVal (cel c (rsR 0 (off 2))) 0 ∗ semVal (cel c (agS 0 (off 2))) 0 ∗ semVal (cel c (agR 0 (off 2))) 0) ∗ (semVal (cel c (rsS 0 (off 3))) 0 ∗ semVal (cel c (rsR 0 (off 3))) 0 ∗ semVal (cel c (agS 0 (off 3))) 0 ∗ semVal (cel c (agR 0 (off 3))) 0) ∗ (semVal (cel c (rsS 0 (off 4))) 0 ∗ semVal (cel c (rsR 0 (off 4))) 0 ∗ semVal (cel c (agS 0 (off 4))) 0 ∗ semVal (cel c (agR 0 (off 4))) 0) ∗ (semVal (cel c (rsS 0 (off 5))) 0 ∗ semVal (cel c (rsR 0 (off 5))) 0 ∗ semVal (cel c (agS 0 (off 5))) 0 ∗ semVal (cel c (agR 0 (off 5))) 0) ∗ (semVal (cel c (rsS 0 (off 6))) 0 ∗ semVal (cel c (rsR 0 (off 6))) 0 ∗ semVal (cel c (agS 0 (off 6))) 0 ∗ semVal (cel c (agR 0 (off 6))) 0) ∗ (semVal (cel c (rsS 0 (off 7))) 0 ∗ semVal (cel c (rsR 0 (off 7))) 0 ∗ semVal (cel c (agS 0 (off 7))) 0 ∗ semVal (cel c (agR 0 (off 7))) 0) ∗ (semVal (cel c (rsS 0 (off 8))) 0 ∗ semVal (cel c (rsR 0 (off 8))) 0 ∗ semVal (cel c (agS 0 (off 8))) 0 ∗ semVal (cel c (agR 0 (off 8))) 0) ∗ (semVal (cel c (rsS 0 (off 9))) 0 ∗ semVal (cel c (rsR 0 (off 9))) 0 ∗ semVal (cel c (agS 0 (off 9))) 0 ∗ semVal (cel c (agR 0 (off 9))) 0) ∗ (semVal (cel c (rsS 0 (off 10))) 0 ∗ semVal (cel c (rsR 0 (off 10))) 0 ∗ semVal (cel c (agS 0 (off 10))) 0 ∗ semVal (cel c (agR 0 (off 10))) 0) ∗ (semVal (cel c (rsS 0 (off 11))) 0 ∗ semVal (cel c (rsR 0 (off 11))) 0 ∗ semVal (cel c (agS 0 (off 11))) 0 ∗ semVal (cel c (agR 0 (off 11))) 0) ∗ (semVal (cel c (rsS 0 (off 12))) 0 ∗ semVal (cel c (rsR 0 (off 12))) 0 ∗ semVal (cel c (agS 0 (off 12))) 0 ∗ semVal (cel c (agR 0 (off 12))) 0) ∗ (semVal (cel c (rsS 0 (off 13))) 0 ∗ semVal (cel c (rsR 0 (off 13))) 0 ∗ semVal (cel c (agS 0 (off 13))) 0 ∗ semVal (cel c (agR 0 (off 13))) 0) ∗ (semVal (cel c (rsS 0 (off 14))) 0 ∗ semVal (cel c (rsR 0 (off 14))) 0 ∗ semVal (cel c (agS 0 (off 14))) 0 ∗ semVal (cel c (agR 0 (off 14))) 0))
        ∗ ((semVal (cel c (rsS 1 (off 0))) 0 ∗ semVal (cel c (rsR 1 (off 0))) 0 ∗ semVal (cel c (agS 1 (off 0))) 0 ∗ semVal (cel c (agR 1 (off 0))) 0) ∗ (semVal (cel c (rsS 1 (off 1))) 0 ∗ semVal (cel c (rsR 1 (off 1))) 0 ∗ semVal (cel c (agS 1 (off 1))) 0 ∗ semVal (cel c (agR 1 (off 1))) 0) ∗ (semVal (cel c (rsS 1 (off 2))) 0 ∗ semVal (cel c (rsR 1 (off 2))) 0 ∗ semVal (cel c (agS 1 (off 2))) 0 ∗ semVal (cel c (agR 1 (off 2))) 0) ∗ (semVal (cel c (rsS 1 (off 3))) 0 ∗ semVal (cel c (rsR 1 (off 3))) 0 ∗ semVal (cel c (agS 1 (off 3))) 0 ∗ semVal (cel c (agR 1 (off 3))) 0) ∗ (semVal (cel c (rsS 1 (off 4))) 0 ∗ semVal (cel c (rsR 1 (off 4))) 0 ∗ semVal (cel c (agS 1 (off 4))) 0 ∗ semVal (cel c (agR 1 (off 4))) 0) ∗ (semVal (cel c (rsS 1 (off 5))) 0 ∗ semVal (cel c (rsR 1 (off 5))) 0 ∗ semVal (cel c (agS 1 (off 5))) 0 ∗ semVal (cel c (agR 1 (off 5))) 0) ∗ (semVal (cel c (rsS 1 (off 6))) 0 ∗ semVal (cel c (rsR 1 (off 6))) 0 ∗ semVal (cel c (agS 1 (off 6))) 0 ∗ semVal (cel c (agR 1 (off 6))) 0) ∗ (semVal (cel c (rsS 1 (off 7))) 0 ∗ semVal (cel c (rsR 1 (off 7))) 0 ∗ semVal (cel c (agS 1 (off 7))) 0 ∗ semVal (cel c (agR 1 (off 7))) 0) ∗ (semVal (cel c (rsS 1 (off 8))) 0 ∗ semVal (cel c (rsR 1 (off 8))) 0 ∗ semVal (cel c (agS 1 (off 8))) 0 ∗ semVal (cel c (agR 1 (off 8))) 0) ∗ (semVal (cel c (rsS 1 (off 9))) 0 ∗ semVal (cel c (rsR 1 (off 9))) 0 ∗ semVal (cel c (agS 1 (off 9))) 0 ∗ semVal (cel c (agR 1 (off 9))) 0) ∗ (semVal (cel c (rsS 1 (off 10))) 0 ∗ semVal (cel c (rsR 1 (off 10))) 0 ∗ semVal (cel c (agS 1 (off 10))) 0 ∗ semVal (cel c (agR 1 (off 10))) 0) ∗ (semVal (cel c (rsS 1 (off 11))) 0 ∗ semVal (cel c (rsR 1 (off 11))) 0 ∗ semVal (cel c (agS 1 (off 11))) 0 ∗ semVal (cel c (agR 1 (off 11))) 0) ∗ (semVal (cel c (rsS 1 (off 12))) 0 ∗ semVal (cel c (rsR 1 (off 12))) 0 ∗ semVal (cel c (agS 1 (off 12))) 0 ∗ semVal (cel c (agR 1 (off 12))) 0) ∗ (semVal (cel c (rsS 1 (off 13))) 0 ∗ semVal (cel c (rsR 1 (off 13))) 0 ∗ semVal (cel c (agS 1 (off 13))) 0 ∗ semVal (cel c (agR 1 (off 13))) 0) ∗ (semVal (cel c (rsS 1 (off 14))) 0 ∗ semVal (cel c (rsR 1 (off 14))) 0 ∗ semVal (cel c (agS 1 (off 14))) 0 ∗ semVal (cel c (agR 1 (off 14))) 0)))
      ⊢ semsZero (F := F) c := by
  unfold semsZero
  rw [bigSep_HR_list]

end Cert.Kernel.Pr
end
-- ==== Proof.Bits.Owed.lean ====
/-
  What a device still owes, peeled one duty at a time in the order its body pays: each of the three sums of Proto.lean
  loses its first summand when the index moves on by one, and is empty past its last index. A positive entry of one of
  the sums sits on a cell of a TensorCore thread, of the kind the sum is about; so every wait of the body sits at a
  level strictly below everything the device owes at that point: the barrier wait (level 1) below the receive cells of
  the two collectives (levels 2 and 3), a reduce-scatter receive wait (level 2) below the all-gather receive cells
  (level 3), and a wait on a staging or send cell (level 0) below everything a device can owe at all (levels ≥ 1).
-/
import proofs.«900888_g7700000000000889_dist_matmul_k_i_m768_n768_k384_v7x_i16_bf16_1_alg».proof.Proof.Bits.Proto

noncomputable section

namespace Cert.Kernel.Pr

open Cert.Kernel Cert.Kernel.Gen Cert.Kernel.Geo Cert.Kernel.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The index sets: the set from k on is the set from k + 1 on with k put in -/

theorem filter_bar_succ (k : ℕ) (hk : k < 15) :
    Finset.univ.filter (fun r : Fin 15 => k ≤ r.val)
      = insert (⟨k, hk⟩ : Fin 15) (Finset.univ.filter (fun r : Fin 15 => k + 1 ≤ r.val)) := by
  ext r
  simp only [Finset.mem_filter, Finset.mem_univ, true_and, Finset.mem_insert, Fin.ext_iff]
  omega

theorem not_mem_filter_bar (k : ℕ) (hk : k < 15) :
    (⟨k, hk⟩ : Fin 15) ∉ Finset.univ.filter (fun r : Fin 15 => k + 1 ≤ r.val) := by
  rw [Finset.mem_filter]; rintro ⟨-, h⟩; exact absurd h (Nat.not_succ_le_self k)

theorem filter_bar_end : Finset.univ.filter (fun r : Fin 15 => 15 ≤ r.val) = ∅ :=
  Finset.filter_eq_empty_iff.mpr fun r _ h => absurd r.isLt (Nat.not_lt.mpr h)

/-- The copy number 15 h + r of the pair (h, r) is injective, so the pairs from number 15 h + r on are (h, r) and the
    pairs from the next number on. -/
theorem filter_hr_succ (h : Fin 2) (r : Fin 15) :
    Finset.univ.filter (fun p : HR => 15 * h.val + r.val ≤ 15 * p.1.val + p.2.val)
      = insert ((h, r) : HR) (Finset.univ.filter (fun p : HR => 15 * h.val + r.val + 1 ≤ 15 * p.1.val + p.2.val)) := by
  ext ⟨a, b⟩
  simp only [Finset.mem_filter, Finset.mem_univ, true_and, Finset.mem_insert, Prod.mk.injEq, Fin.ext_iff]
  omega

theorem not_mem_filter_hr (h : Fin 2) (r : Fin 15) :
    ((h, r) : HR) ∉ Finset.univ.filter (fun p : HR => 15 * h.val + r.val + 1 ≤ 15 * p.1.val + p.2.val) := by
  rw [Finset.mem_filter]; rintro ⟨-, h'⟩; exact absurd h' (Nat.not_succ_le_self _)

theorem filter_hr_end : Finset.univ.filter (fun p : HR => 30 ≤ 15 * p.1.val + p.2.val) = ∅ :=
  Finset.filter_eq_empty_iff.mpr fun p _ h => by
    have h1 := p.1.isLt; have h2 := p.2.isLt; omega

/-! ## Peeling one duty off a sum -/

theorem owedBar_succ (c : Dev nD) (k : ℕ) (hk : k < 15) :
    owedBar c k = owedBar c (k + 1) + tallyAt (cel (peer c (off ⟨k, hk⟩)) (.reg barS)) () 1 := by
  unfold owedBar
  rw [filter_bar_succ k hk, Finset.sum_insert (not_mem_filter_bar k hk), add_comm]

theorem owedBar_end (c : Dev nD) : owedBar c 15 = 0 := by
  unfold owedBar; rw [filter_bar_end, Finset.sum_empty]

theorem owedRS_succ (c : Dev nD) (h : Fin 2) (r : Fin 15) :
    owedRS c (15 * h.val + r.val) = owedRS c (15 * h.val + r.val + 1) + tallyAt (cel (peer c (off r)) (rsR h (off r))) () NS := by
  unfold owedRS
  rw [filter_hr_succ h r, Finset.sum_insert (not_mem_filter_hr h r), add_comm]

theorem owedRS_end (c : Dev nD) : owedRS c 30 = 0 := by
  unfold owedRS; rw [filter_hr_end, Finset.sum_empty]

theorem owedAG_succ (c : Dev nD) (h : Fin 2) (r : Fin 15) :
    owedAG c (15 * h.val + r.val) = owedAG c (15 * h.val + r.val + 1) + tallyAt (cel (peer c (off r)) (agR h (off r))) () NO := by
  unfold owedAG
  rw [filter_hr_succ h r, Finset.sum_insert (not_mem_filter_hr h r), add_comm]

theorem owedAG_end (c : Dev nD) : owedAG c 30 = 0 := by
  unfold owedAG; rw [filter_hr_end, Finset.sum_empty]

/-- A barrier signal peels the last summand of what is owed at launch; -/
theorem peel_bar (c : Dev nD) (k : ℕ) (hk : k < 15) :
    owedAG c 0 + owedRS c 0 + owedBar c k
      = (owedAG c 0 + owedRS c 0 + owedBar c (k + 1)) + tallyAt (cel (peer c (off ⟨k, hk⟩)) (.reg barS)) () 1 := by
  rw [owedBar_succ c k hk, add_assoc (owedAG c 0 + owedRS c 0)]

/-- a reduce-scatter copy the last summand of what is left once the barrier is paid. -/
theorem peel_rs (c : Dev nD) (h : Fin 2) (r : Fin 15) :
    owedAG c 0 + owedRS c (15 * h.val + r.val)
      = (owedAG c 0 + owedRS c (15 * h.val + r.val + 1)) + tallyAt (cel (peer c (off r)) (rsR h (off r))) () NS := by
  rw [owedRS_succ c h r, add_assoc (owedAG c 0)]

/-! ## Where a sum is positive: on a TensorCore thread's cell of the sum's own kind -/

theorem owedBar_pos_kind {c : Dev nD} {k : ℕ} {g : GSem nD τ sig} {u : Unit} (h : 0 < owedBar c k g u) :
    g.1.2 = .tc ∧ kindOf g.2 = .bar := by
  unfold owedBar at h
  obtain ⟨r, -, hr⟩ := Pipeline.sum_pos_exists h
  obtain ⟨rfl, -⟩ := Pipeline.tallyAt_pos hr
  exact ⟨rfl, kind_bar⟩

theorem owedRS_pos_kind {c : Dev nD} {k : ℕ} {g : GSem nD τ sig} {u : Unit} (h : 0 < owedRS c k g u) :
    g.1.2 = .tc ∧ kindOf g.2 = .rsR := by
  unfold owedRS at h
  obtain ⟨p, -, hp⟩ := Pipeline.sum_pos_exists h
  obtain ⟨rfl, -⟩ := Pipeline.tallyAt_pos hp
  exact ⟨rfl, kind_rsR _ _⟩

theorem owedAG_pos_kind {c : Dev nD} {k : ℕ} {g : GSem nD τ sig} {u : Unit} (h : 0 < owedAG c k g u) :
    g.1.2 = .tc ∧ kindOf g.2 = .agR := by
  unfold owedAG at h
  obtain ⟨p, -, hp⟩ := Pipeline.sum_pos_exists h
  obtain ⟨rfl, -⟩ := Pipeline.tallyAt_pos hp
  exact ⟨rfl, kind_agR _ _⟩

/-- The three together. -/
theorem owed_pos_kind (c : Dev nD) (k : ℕ) (g : GSem nD τ sig) (u : Unit) :
    (0 < owedBar c k g u → g.1.2 = .tc ∧ kindOf g.2 = .bar)
      ∧ (0 < owedRS c k g u → g.1.2 = .tc ∧ kindOf g.2 = .rsR)
      ∧ (0 < owedAG c k g u → g.1.2 = .tc ∧ kindOf g.2 = .agR) :=
  ⟨owedBar_pos_kind, owedRS_pos_kind, owedAG_pos_kind⟩

/-! ## The levels of the kinds -/

theorem mem_L_of_tc {g : GSem nD τ sig} (h : g.1.2 = .tc) (u : Unit) : u ∈ L g := by
  unfold L; rw [if_pos h]; exact Finset.mem_singleton_self _

theorem lv_of_bar {g : GSem nD τ sig} (u : Unit) (h : kindOf g.2 = .bar) : lv g u = 1 := by unfold lv; rw [h]
theorem lv_of_rsR {g : GSem nD τ sig} (u : Unit) (h : kindOf g.2 = .rsR) : lv g u = 2 := by unfold lv; rw [h]
theorem lv_of_agR {g : GSem nD τ sig} (u : Unit) (h : kindOf g.2 = .agR) : lv g u = 3 := by unfold lv; rw [h]

/-- A semaphore of the four arrays is not the barrier. -/
theorem kind_dma_ne_bar (q : DmaSem sig) : kindOf (.dma q) ≠ .bar := by
  dsimp only [kindOf]; split_ifs <;> exact fun h => Kind.noConfusion h

/-- A cell that is neither a barrier nor a receive cell of one of the two collectives sits at level 0. -/
theorem lv_low (g : GSem nD τ sig) (u : Unit) (h1 : kindOf g.2 ≠ .bar) (h2 : kindOf g.2 ≠ .rsR) (h3 : kindOf g.2 ≠ .agR) : lv g u = 0 := by
  unfold lv
  generalize kindOf g.2 = x at h1 h2 h3
  cases x
  · exact absurd rfl h1
  · rfl
  · exact absurd rfl h2
  · rfl
  · exact absurd rfl h3
  · rfl

/-- Everything a device owes at launch sits on a TensorCore thread's cell of level at least 1. -/
theorem O₀_pos {c : Dev nD} {g : GSem nD τ sig} {u : Unit} (h : 0 < O₀ c g u) : g.1.2 = .tc ∧ 1 ≤ lv g u := by
  unfold O₀ at h
  rcases Pipeline.add_pos_cases h with h | h
  · rcases Pipeline.add_pos_cases h with h | h
    · have := owedAG_pos_kind h; exact ⟨this.1, by rw [lv_of_agR u this.2]; decide⟩
    · have := owedRS_pos_kind h; exact ⟨this.1, by rw [lv_of_rsR u this.2]; decide⟩
  · have := owedBar_pos_kind h; exact ⟨this.1, by rw [lv_of_bar u this.2]⟩

/-! ## Every wait sits below what is still owed -/

/-- The barrier wait: still owing every copy's credit, all on cells of level 2 or 3, above the barrier's 1. -/
theorem mayWait_bar (c : Dev nD) :
    (levAts L lv : sProp 𝕄) ⊢ MayWait (c : Thread nD τ) (.reg barS) () (owedAG c 0 + owedRS c 0) :=
  Pipeline.mayWait_of_levAts (mem_L_of_tc rfl ()) fun g u hg => by
    rw [lv_of_bar (g := ((c : Thread nD τ), SemLoc.reg barS)) () kind_bar]
    rcases Pipeline.add_pos_cases hg with h | h
    · have := owedAG_pos_kind h; exact ⟨mem_L_of_tc this.1 u, by rw [lv_of_agR u this.2]; decide⟩
    · have := owedRS_pos_kind h; exact ⟨mem_L_of_tc this.1 u, by rw [lv_of_rsR u this.2]; decide⟩

/-- A reduce-scatter receive wait: still owing all-gather credits only (level 3 above 2). -/
theorem mayWait_rsR (c : Dev nD) (h : Fin 2) (r : Fin 15) (k : ℕ) :
    (levAts L lv : sProp 𝕄) ⊢ MayWait (c : Thread nD τ) (rsR h (off r)) () (owedAG c k) :=
  Pipeline.mayWait_of_levAts (mem_L_of_tc rfl ()) fun g u hg => by
    rw [lv_of_rsR (g := ((c : Thread nD τ), rsR h (off r))) () (kind_rsR h (off r))]
    have := owedAG_pos_kind hg
    exact ⟨mem_L_of_tc this.1 u, by rw [lv_of_agR u this.2]; decide⟩

/-- A staging or send cell, level 0, below everything a device can owe (levels ≥ 1). -/
theorem mayWait_low (c : Dev nD) (q : DmaSem sig) (hq : kindOf (.dma q) ≠ .rsR ∧ kindOf (.dma q) ≠ .agR)
    (O : CellTallies nD τ sig Unit) (hO : O = O₀ c ∨ O = 0) :
    (levAts L lv : sProp 𝕄) ⊢ MayWait (c : Thread nD τ) (.dma q) () O :=
  Pipeline.mayWait_of_levAts (mem_L_of_tc rfl ()) fun g u hg => by
    rw [lv_low ((c : Thread nD τ), SemLoc.dma q) () (kind_dma_ne_bar q) hq.1 hq.2]
    rcases hO with rfl | rfl
    · have := O₀_pos hg; exact ⟨mem_L_of_tc this.1 u, this.2⟩
    · rw [Pi.zero_apply, Finsupp.zero_apply] at hg; exact absurd hg (Nat.lt_irrefl 0)

/-- info: 'Cert.Kernel.Pr.mayWait_low' depends on axioms: [propext, Classical.choice, Quot.sound] -/
#guard_msgs in #print axioms mayWait_low
/-- info: 'Cert.Kernel.Pr.mayWait_bar' depends on axioms: [propext, Classical.choice, Quot.sound] -/
#guard_msgs in #print axioms mayWait_bar
/-- info: 'Cert.Kernel.Pr.mayWait_rsR' depends on axioms: [propext, Classical.choice, Quot.sound] -/
#guard_msgs in #print axioms mayWait_rsR
/-- info: 'Cert.Kernel.Pr.peel_bar' depends on axioms: [propext, Classical.choice, Quot.sound] -/
#guard_msgs in #print axioms peel_bar
/-- info: 'Cert.Kernel.Pr.peel_rs' depends on axioms: [propext, Classical.choice, Quot.sound] -/
#guard_msgs in #print axioms peel_rs

end Cert.Kernel.Pr

end
-- ==== Proof.Bits.BodyLem2.lean ====
/-
  Two step lemmas in the form the body meets them: a store that follows a load directly, and the reduce-scatter's
  receive wait with its landed slot spelt out as the elements it holds.
-/
import proofs.«900888_g7700000000000889_dist_matmul_k_i_m768_n768_k384_v7x_i16_bf16_1_alg».proof.Proof.Bits.BodyLem
import proofs.«900888_g7700000000000889_dist_matmul_k_i_m768_n768_k384_v7x_i16_bf16_1_alg».proof.Proof.Bits.Owed

noncomputable section
namespace Cert.Kernel.Pr
open Cert.Kernel Cert.Kernel.Gen Cert.Kernel.Geo Cert.Kernel.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : GSem nD τ sig → ℕ)

/-- The store of half h's sum into the own rows of the result buffer, met as the first statement of a sequence. -/
theorem wp_own_store_bind (c : Dev nD) (h : Fin 2) {α : Type} {Q : α → sProp 𝕄}
    {w : (ownRect c h).shape.Idx → Elt F (.bf16)} {hx : (oM.access (ownRect c h)).Stores Finset.univ}
    {hm : (Finset.univ : Finset (ownRect c h).shape.Idx) = Finset.univ ∨ ∀ a, (ownRect c h).stride a = 1}
    {k : PUnit → Prog (TpuEff nD τ sig (Elt F) Λ₀ .tc) α}
    (f : Buf (Elt F) ((oM.access (ownRect c h)).loc (c : Thread nD τ))) :
    ((oM.access (ownRect c h)).loc (c : Thread nD τ) ↦[(oM.access (ownRect c h)).set]{fullShare} f)
      ⊢ iprop((((oM.access (ownRect c h)).loc (c : Thread nD τ) ↦[(oM.access (ownRect c h)).set]{fullShare} ((oM.access (ownRect c h)).write (Elt F) f w Finset.univ))
            -∗ wp frame (wpE (defs₀ (F := F)) Variants.none (c : Thread nD τ) none) Set.univ (k ⟨⟩) Q)
          -∗ wp frame (wpE (defs₀ (F := F)) Variants.none (c : Thread nD τ) none) Set.univ
              (Prog.lift (.store oM (ownRect c h) w Finset.univ hx hm) >>= k) Q) := by
  simp only [Prog.lift, Prog.bind_op, Prog.bind_ret]
  exact wp_store Variants.none (c : Thread nD τ) none Set.univ (m := oM) (r := ownRect c h) (Mk := Finset.univ) (View.setOn_subset_set _ _)

/-- The reduce-scatter receive wait with its payload spelt out: the slot's elements at the landed contents. -/
theorem wp_wait_rsR' (c : Dev nD) (h : Fin 2) (r : Fin 15)
    {sv dv : Memref sig .tc .vmem S24x768 .bf16} {hs : sv.view.WordExact} {hd : dv.view.WordExact} (hN : dv.view.dmaCredit = NS)
    {α : Type} {Q : α → sProp 𝕄} {k : PUnit → Prog (TpuEff nD τ sig (Elt F) Λ₀ .tc) α}
    (O : CellTallies nD τ sig Unit) (W : Waits sig Unit) :
    iprop(cellInv ER (Rd m shrF) (K (cel c (rsR h (off r)))) (cel c (rsR h (off r))) ∗ cred (tallyAt (cel c (rsR h (off r))) () NS)
        ∗ owes (c : Thread nD τ) O W ∗ MayWait (c : Thread nD τ) (rsR h (off r)) () O ∗ atPos ER (cel c (rsR h (off r))) 0 ∅ 0)
      ⊢ iprop(((owes (c : Thread nD τ) O (insert (rsR h (off r), ()) W) ∗ atPos ER (cel c (rsR h (off r))) 1 ∅ 0
              ∗ ((slotV h (off r)).view.loc (c : Thread nD τ) ↦[(slotV h (off r)).view.set]{fullShare} rsFull m c))
            -∗ wp frame (wpE (defs₀ (F := F)) Variants.none (c : Thread nD τ) none) Set.univ (k ⟨⟩) Q)
          -∗ wp frame (wpE (defs₀ (F := F)) Variants.none (c : Thread nD τ) none) Set.univ (.op (.waitDma2 (semAt cc0_scratch4 h (off r)) sv dv hs hd) k) Q) :=
  wp_wait_rsR m shrF K c h r hN O W

/-- What is owed, peeled at copy number k of the reduce-scatter (k = 15 h + r, k' = k + 1), the numbers given outright. -/
theorem peel_rs' (c : Dev nD) (h : Fin 2) (r : Fin 15) (k k' : ℕ) (hk : k = 15 * h.val + r.val) (hk' : k' = k + 1) :
    owedAG c 0 + owedRS c k = (owedAG c 0 + owedRS c k') + tallyAt (cel (peer c (off r)) (rsR h (off r))) () NS := by
  subst hk hk'; exact peel_rs c h r
/-- The same for the all-gather, once the reduce-scatter is paid. -/
theorem peel_ag' (c : Dev nD) (h : Fin 2) (r : Fin 15) (k k' : ℕ) (hk : k = 15 * h.val + r.val) (hk' : k' = k + 1) :
    owedAG c k = owedAG c k' + tallyAt (cel (peer c (off r)) (agR h (off r))) () NO := by
  subst hk hk'; exact owedAG_succ c h r

/-- The sum the body forms for a half, over what its sixteen loads read, is that half of the device's rows of the result. -/
theorem acc0_reads (c : Dev nD) :
    acc0 (ownRows m c 0) (fun r => (rsM.access (slotRect 0 (off r))).read (Elt F) (rsFull m c)) = chunkV m c 0 := by
  rw [← (chunk_eq m c).1]; congr 1; funext r; exact slot_read m c 0 r
theorem acc1_reads (c : Dev nD) :
    acc1 (ownRows m c 1) (fun r => (rsM.access (slotRect 1 (off r))).read (Elt F) (rsFull m c)) = chunkV m c 1 := by
  rw [← (chunk_eq m c).2]; congr 1; funext r; exact slot_read m c 1 r

end Cert.Kernel.Pr
end
-- ==== Proof.Bits.BodyDefs.lean ====
/-
  What one device's body is handed and what it hands back, as the stepping of the body states them.
-/
import proofs.«900888_g7700000000000889_dist_matmul_k_i_m768_n768_k384_v7x_i16_bf16_1_alg».proof.Proof.Bits.BodyLem2
import proofs.«900888_g7700000000000889_dist_matmul_k_i_m768_n768_k384_v7x_i16_bf16_1_alg».proof.Proof.Gen.Kernel.Points

noncomputable section
namespace Cert.Kernel.Pr
open Cert.Kernel Cert.Kernel.Gen Cert.Kernel.Geo Cert.Kernel.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 3)).fetch t = true := fetch0_0 t
theorem fetch_1 (t : Fin cfg0.N) : (cfg0.win (1 : Fin 3)).fetch t = true := fetch0_1 t

/-- A staging buffer, whole, at contents X, held through its named view. -/
def stgM {S : Shape} {e : EltTy} (c : Dev nD) (M : Memref sig .tc .vmem S e) (X : Buf (Elt F) (M.view.loc (c : Thread nD τ))) : sProp 𝕄 :=
  iprop(∃ f : Buf (Elt F) (M.view.loc (c : Thread nD τ)), ⌜f = X⌝ ∗ (M.view.loc (c : Thread nD τ) ↦{fullShare} f))

/-- The three scratch buffers at the body's entry, the first two through their named views. -/
def scratchesM (c : Dev nD) : sProp 𝕄 :=
  iprop((∃ f : Buf (Elt F) (pbM.view.loc (c : Thread nD τ)), pbM.view.loc (c : Thread nD τ) ↦{fullShare} f)
    ∗ (∃ f : Buf (Elt F) (bbM.view.loc (c : Thread nD τ)), bbM.view.loc (c : Thread nD τ) ↦{fullShare} f)
    ∗ (∃ f : Buf (Elt F) ((c : Thread nD τ).loc cc0_scratch2), ((c : Thread nD τ).loc cc0_scratch2) ↦{fullShare} f))

variable (K : GSem nD τ sig → ℕ)

/-- What the body starts from, the ghost state at given names. -/
def bodyPre (c : Dev nD) : sProp 𝕄 :=
  iprop((ghost m shrF K c ∗ creds c ∗ idle c ∗ levAts L lv ∗ scratchesM c)
    ∗ (dats m shrF 0 c).owesAt () t₀.castSucc
    ∗ (∃ d, stgM c aM ((dats m shrF 0 c).before (0 : Fin 3) t₀ d))
    ∗ (∃ d, stgM c bM ((dats m shrF 0 c).before (1 : Fin 3) t₀ d))
    ∗ (∃ d f : Buf (Elt F) ((c : Thread nD τ).loc cc0_stg2_0), ⌜f = (dats m shrF 0 c).before (2 : Fin 3) t₀ d⌝ ∗ (((c : Thread nD τ).loc cc0_stg2_0) ↦{fullShare} f)))

/-- What it ends with. -/
def bodyPost (c : Dev nD) : sProp 𝕄 :=
  iprop(Φ₁ c ∗ (dats m shrF 0 c).owesAt () t₀.succ ∗ stgM c aM (aV m c) ∗ stgM c bM (bV m c)
    ∗ (∃ f : Buf (Elt F) ((c : Thread nD τ).loc cc0_stg2_0), ⌜f = outFull m⌝ ∗ (((c : Thread nD τ).loc cc0_stg2_0) ↦{fullShare} f)))

/-- The body as the pipeline calls it at the one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6

/-- One device's body run from its start to its end: the statement the stepping proves. -/
def SoundBody : Prop :=
  ∀ (K : GSem nD τ sig → ℕ) (c : Dev nD) (Kt : PUnit → sProp 𝕄),
    iprop(bodyPre m K c ∗ (bodyPost m c -∗ Kt ⟨⟩))
      ⊢ wp frame (wpE (defs₀ (F := F)) Variants.none (c : Thread nD τ) none) Set.univ (theBody (F := F)) Kt

theorem barPay_unfold (c : Dev nD) (j : Fin 16) : barPay (F := F) c j
    = iprop((∃ f, slotPts (peer c j) 0 j f) ∗ (∃ f, slotPts (peer c j) 1 j f)
    ∗ (∃ f, outPts (peer c j) c 0 fullShare f) ∗ (∃ f, outPts (peer c j) c 1 fullShare f)
    ∗ reached ER (cel (peer c j) (rsR 0 j)) 0 ∗ reached ER (cel (peer c j) (rsR 1 j)) 0
    ∗ reached ER (cel (peer c j) (agR 0 j)) 0 ∗ reached ER (cel (peer c j) (agR 1 j)) 0) := rfl

end Cert.Kernel.Pr
end
-- ==== Proof.Bits.Body.lean ====
/-
  One device's body, stepped from what the launch hands it to what the pipeline's flush needs: the fifteen entry
  signals, the partial product, the barrier wait, the thirty reduce-scatter copies, the two halves summed as their
  pieces land and sent on, the ninety closing waits, and the buffers joined again.
-/
import proofs.«900888_g7700000000000889_dist_matmul_k_i_m768_n768_k384_v7x_i16_bf16_1_alg».proof.Proof.Bits.BodyDefs

noncomputable section
namespace Cert.Kernel.Pr
open Cert.Kernel Cert.Kernel.Gen Cert.Kernel.Geo Cert.Kernel.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
variable (K : GSem nD τ sig → ℕ)

/-! ## One cell's invariant out of the bundle a device holds -/

section Invs
variable (shr : Fin 16 → PosShare TreeShare) (c : Dev nD)

/-- The invariants of c's own four cells of copy p, and of the two receive cells copy p credits on its addressee. -/
def ownInvs (p : HR) : sProp 𝕄 := iprop(
      cellInv ER (Rd m shr) (K (cel c (rsS p.1 (off p.2)))) (cel c (rsS p.1 (off p.2)))
    ∗ cellInv ER (Rd m shr) (K (cel c (rsR p.1 (off p.2)))) (cel c (rsR p.1 (off p.2)))
    ∗ cellInv ER (Rd m shr) (K (cel c (agS p.1 (off p.2)))) (cel c (agS p.1 (off p.2)))
    ∗ cellInv ER (Rd m shr) (K (cel c (agR p.1 (off p.2)))) (cel c (agR p.1 (off p.2))))
def peerInvs (p : HR) : sProp 𝕄 := iprop(
      cellInv ER (Rd m shr) (K (cel (peer c (off p.2)) (rsR p.1 (off p.2)))) (cel (peer c (off p.2)) (rsR p.1 (off p.2)))
    ∗ cellInv ER (Rd m shr) (K (cel (peer c (off p.2)) (agR p.1 (off p.2)))) (cel (peer c (off p.2)) (agR p.1 (off p.2))))
def barInvs (r : Fin 15) : sProp 𝕄 := cellInv ER (Rd m shr) (K (cel (peer c (off r)) (.reg barS))) (cel (peer c (off r)) (.reg barS))

theorem inv_bar : invs m shr K c ⊢ cellInv ER (Rd m shr) (K (cel c (.reg barS))) (cel c (.reg barS)) := by
  unfold invs; iintro ⟨#H, -⟩; iexact H
theorem invs_own : invs m shr K c ⊢ bigSep Finset.univ (ownInvs m K shr c) := by
  unfold invs ownInvs; iintro ⟨-, #H, -⟩; iexact H
theorem invs_pbar : invs m shr K c ⊢ bigSep Finset.univ (barInvs m K shr c) := by
  unfold invs barInvs; iintro ⟨-, -, #H, -⟩; iexact H
theorem invs_peer : invs m shr K c ⊢ bigSep Finset.univ (peerInvs m K shr c) := by
  unfold invs peerInvs; iintro ⟨-, -, -, #H⟩; iexact H

theorem inv_rsS (h : Fin 2) (r : Fin 15) : invs m shr K c ⊢ cellInv ER (Rd m shr) (K (cel c (rsS h (off r)))) (cel c (rsS h (off r))) :=
  ((invs_own m K shr c).trans (bigSep_elim (Finset.mem_univ (h, r)))).trans (by unfold ownInvs; iintro ⟨#H, -⟩; iexact H)
theorem inv_rsR (h : Fin 2) (r : Fin 15) : invs m shr K c ⊢ cellInv ER (Rd m shr) (K (cel c (rsR h (off r)))) (cel c (rsR h (off r))) :=
  ((invs_own m K shr c).trans (bigSep_elim (Finset.mem_univ (h, r)))).trans (by unfold ownInvs; iintro ⟨-, #H, -⟩; iexact H)
theorem inv_agS (h : Fin 2) (r : Fin 15) : invs m shr K c ⊢ cellInv ER (Rd m shr) (K (cel c (agS h (off r)))) (cel c (agS h (off r))) :=
  ((invs_own m K shr c).trans (bigSep_elim (Finset.mem_univ (h, r)))).trans (by unfold ownInvs; iintro ⟨-, -, #H, -⟩; iexact H)
theorem inv_agR (h : Fin 2) (r : Fin 15) : invs m shr K c ⊢ cellInv ER (Rd m shr) (K (cel c (agR h (off r)))) (cel c (agR h (off r))) :=
  ((invs_own m K shr c).trans (bigSep_elim (Finset.mem_univ (h, r)))).trans (by unfold ownInvs; iintro ⟨-, -, -, #H⟩; iexact H)
theorem inv_pbar (r : Fin 15) : invs m shr K c ⊢ cellInv ER (Rd m shr) (K (cel (peer c (off r)) (.reg barS))) (cel (peer c (off r)) (.reg barS)) :=
  (invs_pbar m K shr c).trans (bigSep_elim (Finset.mem_univ r))
theorem inv_prsR (h : Fin 2) (r : Fin 15) : invs m shr K c ⊢ cellInv ER (Rd m shr) (K (cel (peer c (off r)) (rsR h (off r)))) (cel (peer c (off r)) (rsR h (off r))) :=
  ((invs_peer m K shr c).trans (bigSep_elim (Finset.mem_univ (h, r)))).trans (by unfold peerInvs; iintro ⟨#H, -⟩; iexact H)
theorem inv_pagR (h : Fin 2) (r : Fin 15) : invs m shr K c ⊢ cellInv ER (Rd m shr) (K (cel (peer c (off r)) (agR h (off r)))) (cel (peer c (off r)) (agR h (off r))) :=
  ((invs_peer m K shr c).trans (bigSep_elim (Finset.mem_univ (h, r)))).trans (by unfold peerInvs; iintro ⟨-, #H⟩; iexact H)

end Invs

/-- The receive buffer's thirty landed slots, each spelt as the elements it holds, and the two idle ones: the whole buffer again. -/
theorem rs_unlist' (c : Dev nD) (frs : Buf (Elt F) ((c : Thread nD τ).loc cc0_scratch2)) :
    iprop(((((slotV 0 (off 0)).view.loc (c : Thread nD τ) ↦[(slotV 0 (off 0)).view.set]{fullShare} rsFull m c) ∗ ((slotV 0 (off 1)).view.loc (c : Thread nD τ) ↦[(slotV 0 (off 1)).view.set]{fullShare} rsFull m c) ∗ ((slotV 0 (off 2)).view.loc (c : Thread nD τ) ↦[(slotV 0 (off 2)).view.set]{fullShare} rsFull m c) ∗ ((slotV 0 (off 3)).view.loc (c : Thread nD τ) ↦[(slotV 0 (off 3)).view.set]{fullShare} rsFull m c) ∗ ((slotV 0 (off 4)).view.loc (c : Thread nD τ) ↦[(slotV 0 (off 4)).view.set]{fullShare} rsFull m c) ∗ ((slotV 0 (off 5)).view.loc (c : Thread nD τ) ↦[(slotV 0 (off 5)).view.set]{fullShare} rsFull m c) ∗ ((slotV 0 (off 6)).view.loc (c : Thread nD τ) ↦[(slotV 0 (off 6)).view.set]{fullShare} rsFull m c) ∗ ((slotV 0 (off 7)).view.loc (c : Thread nD τ) ↦[(slotV 0 (off 7)).view.set]{fullShare} rsFull m c) ∗ ((slotV 0 (off 8)).view.loc (c : Thread nD τ) ↦[(slotV 0 (off 8)).view.set]{fullShare} rsFull m c) ∗ ((slotV 0 (off 9)).view.loc (c : Thread nD τ) ↦[(slotV 0 (off 9)).view.set]{fullShare} rsFull m c) ∗ ((slotV 0 (off 10)).view.loc (c : Thread nD τ) ↦[(slotV 0 (off 10)).view.set]{fullShare} rsFull m c) ∗ ((slotV 0 (off 11)).view.loc (c : Thread nD τ) ↦[(slotV 0 (off 11)).view.set]{fullShare} rsFull m c) ∗ ((slotV 0 (off 12)).view.loc (c : Thread nD τ) ↦[(slotV 0 (off 12)).view.set]{fullShare} rsFull m c) ∗ ((slotV 0 (off 13)).view.loc (c : Thread nD τ) ↦[(slotV 0 (off 13)).view.set]{fullShare} rsFull m c) ∗ ((slotV 0 (off 14)).view.loc (c : Thread nD τ) ↦[(slotV 0 (off 14)).view.set]{fullShare} rsFull m c)) ∗ (((slotV 1 (off 0)).view.loc (c : Thread nD τ) ↦[(slotV 1 (off 0)).view.set]{fullShare} rsFull m c) ∗ ((slotV 1 (off 1)).view.loc (c : Thread nD τ) ↦[(slotV 1 (off 1)).view.set]{fullShare} rsFull m c) ∗ ((slotV 1 (off 2)).view.loc (c : Thread nD τ) ↦[(slotV 1 (off 2)).view.set]{fullShare} rsFull m c) ∗ ((slotV 1 (off 3)).view.loc (c : Thread nD τ) ↦[(slotV 1 (off 3)).view.set]{fullShare} rsFull m c) ∗ ((slotV 1 (off 4)).view.loc (c : Thread nD τ) ↦[(slotV 1 (off 4)).view.set]{fullShare} rsFull m c) ∗ ((slotV 1 (off 5)).view.loc (c : Thread nD τ) ↦[(slotV 1 (off 5)).view.set]{fullShare} rsFull m c) ∗ ((slotV 1 (off 6)).view.loc (c : Thread nD τ) ↦[(slotV 1 (off 6)).view.set]{fullShare} rsFull m c) ∗ ((slotV 1 (off 7)).view.loc (c : Thread nD τ) ↦[(slotV 1 (off 7)).view.set]{fullShare} rsFull m c) ∗ ((slotV 1 (off 8)).view.loc (c : Thread nD τ) ↦[(slotV 1 (off 8)).view.set]{fullShare} rsFull m c) ∗ ((slotV 1 (off 9)).view.loc (c : Thread nD τ) ↦[(slotV 1 (off 9)).view.set]{fullShare} rsFull m c) ∗ ((slotV 1 (off 10)).view.loc (c : Thread nD τ) ↦[(slotV 1 (off 10)).view.set]{fullShare} rsFull m c) ∗ ((slotV 1 (off 11)).view.loc (c : Thread nD τ) ↦[(slotV 1 (off 11)).view.set]{fullShare} rsFull m c) ∗ ((slotV 1 (off 12)).view.loc (c : Thread nD τ) ↦[(slotV 1 (off 12)).view.set]{fullShare} rsFull m c) ∗ ((slotV 1 (off 13)).view.loc (c : Thread nD τ) ↦[(slotV 1 (off 13)).view.set]{fullShare} rsFull m c) ∗ ((slotV 1 (off 14)).view.loc (c : Thread nD τ) ↦[(slotV 1 (off 14)).view.set]{fullShare} rsFull m c))) ∗ slotPts c 0 0 frs ∗ slotPts c 1 0 frs)
      ⊢ (∃ f, (((c : Thread nD τ).loc cc0_scratch2) ↦{fullShare} f) : sProp 𝕄) :=
  rs_unlist m c frs

/-- The partial product's thirty sources and its two own blocks, these spelt as the elements they hold: the whole buffer again. -/
theorem pb_unlist' (c : Dev nD) :
    iprop(((srcPts m c 0 0 ∗ srcPts m c 1 0 ∗ srcPts m c 2 0 ∗ srcPts m c 3 0 ∗ srcPts m c 4 0 ∗ srcPts m c 5 0 ∗ srcPts m c 6 0 ∗ srcPts m c 7 0 ∗ srcPts m c 8 0 ∗ srcPts m c 9 0 ∗ srcPts m c 10 0 ∗ srcPts m c 11 0 ∗ srcPts m c 12 0 ∗ srcPts m c 13 0 ∗ srcPts m c 14 0) ∗ (srcPts m c 0 1 ∗ srcPts m c 1 1 ∗ srcPts m c 2 1 ∗ srcPts m c 3 1 ∗ srcPts m c 4 1 ∗ srcPts m c 5 1 ∗ srcPts m c 6 1 ∗ srcPts m c 7 1 ∗ srcPts m c 8 1 ∗ srcPts m c 9 1 ∗ srcPts m c 10 1 ∗ srcPts m c 11 1 ∗ srcPts m c 12 1 ∗ srcPts m c 13 1 ∗ srcPts m c 14 1)) ∗ ((pbM.access (ownRect c 0)).loc (c : Thread nD τ) ↦[(pbM.access (ownRect c 0)).set]{fullShare} pbV m c) ∗ ((pbM.access (ownRect c 1)).loc (c : Thread nD τ) ↦[(pbM.access (ownRect c 1)).set]{fullShare} pbV m c))
      ⊢ ((((c : Thread nD τ).loc cc0_scratch0) ↦{fullShare} (pbV m c) : sProp 𝕄)) :=
  pb_unlist m c

set_option hygiene false in
/-- Entry signal number k (to the device 1 + k ahead): peel its unit off what is owed, pay the duty with what it is handed. -/
macro "sig_step " k:num ", " dev:term ", " hT:ident ", " hG:ident ", " hR:ident : tactic => `(tactic| (
  sl_exec_parts
  rw [peel_bar c $k (by decide)]
  iapply (wp_sig m shrF K c (off $k) (by decide) _ $dev _ _) $$ [HO $hT:ident $hG:ident]
  · isplitr; · iapply (inv_pbar m K shrF c $k); all_goals iexact HI
    isplitl [HO]; · iexact HO
    isplitl [$hT]; · iexact $hT
    isplitl [$hG]; · iexact $hG
    iexact $hR
  iintro HO))

set_option hygiene false in
/-- Reduce-scatter copy number r of half h: peel its credit off what is owed; the source block and the addressee's slot go with the copy. -/
macro "rs_send_step " h:num ", " r:num ", " k:num ", " k':num ", " dev:term ", " fd:term ", " hSrc:ident ", " hSlot:ident ", " hTs:ident ", " hOs:ident ", " hTr:ident ", " hRr:ident ", " hCs:ident : tactic => `(tactic| (
  sl_exec_parts
  rw [peel_rs' c $h $r $k $k' (by decide) (by decide)]
  iapply (wp_rs_send m shrF K c $h $r _ $dev $fd _ _) $$ [$hSrc:ident $hSlot:ident HO $hTs:ident $hTr:ident]
  · isplitr; · iapply (inv_rsS m K shrF c $h $r); all_goals iexact HI
    isplitr; · iapply (inv_prsR m K shrF c $h $r); all_goals iexact HI
    isplitl [$hSrc]; · iexact $hSrc
    isplitl [$hSlot]; · iexact $hSlot
    isplitl [HO]; · iexact HO
    isplitl [$hTs]; · iexact $hTs
    isplitr; · iexact $hOs
    isplitl [$hTr]; · iexact $hTr
    iexact $hRr
  iintro Hnew
  icases Hnew with ⟨$hCs:ident, HO⟩))

set_option hygiene false in
/-- The load of c's own rows of half h of its partial product. -/
macro "own_load_step " h:num ", " hOwn:ident : tactic => `(tactic| (
  sl_exec_parts
  try unfold ownPb
  iapply (wp_load_rect Variants.none (c : Thread nD τ) none Set.univ (m := pbM) (r := ownRect c $h) (Finset.Subset.refl _)) $$ $hOwn:ident
  iintro $hOwn:ident
  rw [own_read m c $h]))

set_option hygiene false in
/-- The wait on receive cell (h, 1 + r) of the reduce-scatter: the landed slot comes with it (the next stretch loads it). -/
macro "rs_recv_step " h:num ", " r:num ", " k:num ", " hC:ident ", " hP:ident ", " hPay:ident : tactic => `(tactic| (
  sl_exec_parts
  iapply (wp_wait_rsR' m K c $h $r (by rfl) _ _) $$ [$hC:ident HO $hP:ident]
  · isplitr; · iapply (inv_rsR m K shrF c $h $r); all_goals iexact HI
    isplitl [$hC]; · iexact $hC
    isplitl [HO]; · iexact HO
    isplitr; · iapply (mayWait_rsR c $h $r $k); iexact Hlev
    iexact $hP
  iintro Hnew
  icases Hnew with ⟨HO, $hP:ident, $hPay:ident⟩))

set_option hygiene false in
/-- The store of the summed half h into c's own rows of the result buffer (the body loads those rows first, a value nothing uses). -/
macro "own_store_step " h:num ", " hOut:ident ", " hw:term : tactic => `(tactic| (
  sl_exec_parts
  try unfold ownOut
  iapply (wp_load_rect Variants.none (c : Thread nD τ) none Set.univ (m := oM) (r := ownRect c $h) (Finset.Subset.refl _)) $$ $hOut:ident
  iintro $hOut:ident
  iapply (wp_own_store_bind c $h _) $$ $hOut:ident
  iintro $hOut:ident
  sl_unfold_words
  ihave $hOut:ident := (Entails.of_eq (stored m c $h _ _ $hw)) $$ $hOut:ident))

set_option hygiene false in
/-- All-gather copy number r of half h: its share of the own rows and the addressee's block go with the copy. -/
macro "ag_send_step " h:num ", " r:num ", " k:num ", " k':num ", " dev:term ", " fd:term ", " hSh:ident ", " hQ:ident ", " hTg:ident ", " hUs:ident ", " hTa:ident ", " hRa:ident ", " hCg:ident : tactic => `(tactic| (
  sl_exec_parts
  rw [peel_ag' c $h $r $k $k' (by decide) (by decide)]
  iapply (wp_ag_send m shrF K c $h $r _ $dev (outFull m) (fun _ _ => rfl) $fd _ _) $$ [$hSh:ident $hQ:ident HO $hTg:ident $hTa:ident]
  · isplitr; · iapply (inv_agS m K shrF c $h $r); all_goals iexact HI
    isplitr; · iapply (inv_pagR m K shrF c $h $r); all_goals iexact HI
    isplitl [$hSh]; · iexact $hSh
    isplitl [$hQ]; · iexact $hQ
    isplitl [HO]; · iexact HO
    isplitl [$hTg]; · iexact $hTg
    isplitr; · iexact $hUs
    isplitl [$hTa]; · iexact $hTa
    iexact $hRa
  iintro Hnew
  icases Hnew with ⟨$hCg:ident, HO⟩))

set_option hygiene false in
/-- A closing wait on one of c's cells, owing nothing: the cell's one payload comes back. -/
macro "wait0_step " lem:term ", " inv:term ", " hC:ident ", " hP:ident ", " hPay:ident : tactic => `(tactic| (
  sl_exec_parts
  iapply ($lem) $$ [$hC:ident HO $hP:ident]
  · isplitr; · iapply ($inv); all_goals iexact HI
    isplitl [$hC]; · iexact $hC
    isplitl [HO]; · iexact HO
    iexact $hP
  iintro Hnew
  icases Hnew with ⟨HO, $hP:ident, $hPay:ident⟩))

set_option hygiene false in
/-- A cell whose one round is over is closed: its counter is the device's again, at zero. -/
macro "close_step " g:term ", " inv:term ", " hP:ident ", " hZ:ident : tactic => `(tactic| (
  imod (close_cell m shrF K $g) $$ [$hP:ident] with $hZ:ident
  · isplitr; · iapply ($inv); all_goals iexact HI
    iexact $hP))

set_option maxHeartbeats 16000000 in
set_option maxRecDepth 16000 in
/-- The body, stepped: one rule per cross-device step in program order, the local stretches between them run through. -/
theorem sound_body : SoundBody (F := F) m := by
  intro K c Kt
  unfold bodyPre ghost poss toks creds
  simp only [bigSep_fin15, bigSep_HR2]
  unfold scratchesM stgM theBody
  iintro ⟨⟨⟨⟨#HI, ⟨HatB, HatO0, HatO1⟩, #Hopens, ⟨HtB, HtC0, HtC1⟩⟩,
      ⟨HcB, HcR0, HcR1⟩, Hidle, #Hlev, ⟨%fp, Hp⟩, ⟨%fbb, Hbb⟩, ⟨%frs, Hrs⟩⟩,
    Ho, ⟨%d0, %g0, %hg0, Ha⟩, ⟨%d1, %g1, %hg1, Hb⟩, ⟨%d2, %g2, %hg2, Hout⟩⟩, Hk⟩
  have ha : g0 = aV m c := by rw [hg0]; unfold Dat.before; rw [if_pos (fetch_0 t₀)]; rfl
  have hb : g1 = bV m c := by rw [hg1]; unfold Dat.before; rw [if_pos (fetch_1 t₀)]; rfl
  subst ha hb
  unfold Dat.owesAt Pipeline.owesWithin
  icases Ho with ⟨%W, %hW, HO⟩
  rw [show (dats m shrF 0 c).owed t₀.castSucc = O₀ c from rfl]
  unfold O₀
  -- the result buffer and the receive buffer cut into what each signal hands over
  ihave Hgive := (give_split c g2 frs) $$ [Hout Hrs]
  · isplitl [Hout]; · iexact Hout
    isplitl [Hrs]; · iexact Hrs
    iexact Hopens
  rw [bigSep_fin15]
  icases Hgive with ⟨⟨Hg0, Hg1, Hg2, Hg3, Hg4, Hg5, Hg6, Hg7, Hg8, Hg9, Hg10, Hg11, Hg12, Hg13, Hg14⟩, HoutC0, HoutC1, Hslot00, Hslot10⟩
  unfold opens
  repeat rw [bigSep_HR2]
  repeat rw [bigSep_fin15]
  icases HtB with ⟨Htb0, Htb1, Htb2, Htb3, Htb4, Htb5, Htb6, Htb7, Htb8, Htb9, Htb10, Htb11, Htb12, Htb13, Htb14⟩
  icases Hopens with ⟨⟨HopO0, HopO1⟩, Hrb0, Hrb1, Hrb2, Hrb3, Hrb4, Hrb5, Hrb6, Hrb7, Hrb8, Hrb9, Hrb10, Hrb11, Hrb12, Hrb13, Hrb14⟩
  sig_step 0, (dev1_eq c), Htb0, Hg0, Hrb0
  sig_step 1, (dev2_eq c), Htb1, Hg1, Hrb1
  sig_step 2, (dev3_eq c), Htb2, Hg2, Hrb2
  sig_step 3, (dev4_eq c), Htb3, Hg3, Hrb3
  sig_step 4, (dev5_eq c), Htb4, Hg4, Hrb4
  sig_step 5, (dev6_eq c), Htb5, Hg5, Hrb5
  sig_step 6, (dev7_eq c), Htb6, Hg6, Hrb6
  sig_step 7, (dev8_eq c), Htb7, Hg7, Hrb7
  sig_step 8, (dev9_eq c), Htb8, Hg8, Hrb8
  sig_step 9, (dev10_eq c), Htb9, Hg9, Hrb9
  sig_step 10, (dev11_eq c), Htb10, Hg10, Hrb10
  sig_step 11, (dev12_eq c), Htb11, Hg11, Hrb11
  sig_step 12, (dev13_eq c), Htb12, Hg12, Hrb12
  sig_step 13, (dev14_eq c), Htb13, Hg13, Hrb13
  sig_step 14, (dev15_eq c), Htb14, Hg14, Hrb14
  rw [owedBar_end, add_zero]
  -- the partial product
  sl_exec_parts
  sl_unfold_words
  rw [pb_contents m c _ _ _ (read_a c _) ((readcov_bb _).trans (congrArg k0_pay1 (read_b c _))) _ _]
  -- the barrier wait: every other device's slots and blocks come with its unit
  iapply (wp_wait_bar m shrF K c _ _) $$ [HcB HO HatB]
  · isplitr; · iapply (inv_bar m K shrF c); all_goals iexact HI
    isplitl [HcB]; · iexact HcB
    isplitl [HO]; · iexact HO
    isplitr; · iapply (mayWait_bar c); iexact Hlev
    iexact HatB
  iintro ⟨HO, HatB, -, Hgot⟩
  ihave Hgot := (got_list c) $$ Hgot
  icases Hgot with ⟨G0, G1, G2, G3, G4, G5, G6, G7, G8, G9, G10, G11, G12, G13, G14⟩
  ihave G0 := (Entails.of_eq (barPay_unfold c (off 0))) $$ G0
  icases G0 with ⟨⟨%fs0_0, Hs0_0⟩, ⟨%fs1_0, Hs1_0⟩, ⟨%fq0_0, Hq0_0⟩, ⟨%fq1_0, Hq1_0⟩, #Hrr0_0, #Hrr1_0, #Hra0_0, #Hra1_0⟩
  ihave G1 := (Entails.of_eq (barPay_unfold c (off 1))) $$ G1
  icases G1 with ⟨⟨%fs0_1, Hs0_1⟩, ⟨%fs1_1, Hs1_1⟩, ⟨%fq0_1, Hq0_1⟩, ⟨%fq1_1, Hq1_1⟩, #Hrr0_1, #Hrr1_1, #Hra0_1, #Hra1_1⟩
  ihave G2 := (Entails.of_eq (barPay_unfold c (off 2))) $$ G2
  icases G2 with ⟨⟨%fs0_2, Hs0_2⟩, ⟨%fs1_2, Hs1_2⟩, ⟨%fq0_2, Hq0_2⟩, ⟨%fq1_2, Hq1_2⟩, #Hrr0_2, #Hrr1_2, #Hra0_2, #Hra1_2⟩
  ihave G3 := (Entails.of_eq (barPay_unfold c (off 3))) $$ G3
  icases G3 with ⟨⟨%fs0_3, Hs0_3⟩, ⟨%fs1_3, Hs1_3⟩, ⟨%fq0_3, Hq0_3⟩, ⟨%fq1_3, Hq1_3⟩, #Hrr0_3, #Hrr1_3, #Hra0_3, #Hra1_3⟩
  ihave G4 := (Entails.of_eq (barPay_unfold c (off 4))) $$ G4
  icases G4 with ⟨⟨%fs0_4, Hs0_4⟩, ⟨%fs1_4, Hs1_4⟩, ⟨%fq0_4, Hq0_4⟩, ⟨%fq1_4, Hq1_4⟩, #Hrr0_4, #Hrr1_4, #Hra0_4, #Hra1_4⟩
  ihave G5 := (Entails.of_eq (barPay_unfold c (off 5))) $$ G5
  icases G5 with ⟨⟨%fs0_5, Hs0_5⟩, ⟨%fs1_5, Hs1_5⟩, ⟨%fq0_5, Hq0_5⟩, ⟨%fq1_5, Hq1_5⟩, #Hrr0_5, #Hrr1_5, #Hra0_5, #Hra1_5⟩
  ihave G6 := (Entails.of_eq (barPay_unfold c (off 6))) $$ G6
  icases G6 with ⟨⟨%fs0_6, Hs0_6⟩, ⟨%fs1_6, Hs1_6⟩, ⟨%fq0_6, Hq0_6⟩, ⟨%fq1_6, Hq1_6⟩, #Hrr0_6, #Hrr1_6, #Hra0_6, #Hra1_6⟩
  ihave G7 := (Entails.of_eq (barPay_unfold c (off 7))) $$ G7
  icases G7 with ⟨⟨%fs0_7, Hs0_7⟩, ⟨%fs1_7, Hs1_7⟩, ⟨%fq0_7, Hq0_7⟩, ⟨%fq1_7, Hq1_7⟩, #Hrr0_7, #Hrr1_7, #Hra0_7, #Hra1_7⟩
  ihave G8 := (Entails.of_eq (barPay_unfold c (off 8))) $$ G8
  icases G8 with ⟨⟨%fs0_8, Hs0_8⟩, ⟨%fs1_8, Hs1_8⟩, ⟨%fq0_8, Hq0_8⟩, ⟨%fq1_8, Hq1_8⟩, #Hrr0_8, #Hrr1_8, #Hra0_8, #Hra1_8⟩
  ihave G9 := (Entails.of_eq (barPay_unfold c (off 9))) $$ G9
  icases G9 with ⟨⟨%fs0_9, Hs0_9⟩, ⟨%fs1_9, Hs1_9⟩, ⟨%fq0_9, Hq0_9⟩, ⟨%fq1_9, Hq1_9⟩, #Hrr0_9, #Hrr1_9, #Hra0_9, #Hra1_9⟩
  ihave G10 := (Entails.of_eq (barPay_unfold c (off 10))) $$ G10
  icases G10 with ⟨⟨%fs0_10, Hs0_10⟩, ⟨%fs1_10, Hs1_10⟩, ⟨%fq0_10, Hq0_10⟩, ⟨%fq1_10, Hq1_10⟩, #Hrr0_10, #Hrr1_10, #Hra0_10, #Hra1_10⟩
  ihave G11 := (Entails.of_eq (barPay_unfold c (off 11))) $$ G11
  icases G11 with ⟨⟨%fs0_11, Hs0_11⟩, ⟨%fs1_11, Hs1_11⟩, ⟨%fq0_11, Hq0_11⟩, ⟨%fq1_11, Hq1_11⟩, #Hrr0_11, #Hrr1_11, #Hra0_11, #Hra1_11⟩
  ihave G12 := (Entails.of_eq (barPay_unfold c (off 12))) $$ G12
  icases G12 with ⟨⟨%fs0_12, Hs0_12⟩, ⟨%fs1_12, Hs1_12⟩, ⟨%fq0_12, Hq0_12⟩, ⟨%fq1_12, Hq1_12⟩, #Hrr0_12, #Hrr1_12, #Hra0_12, #Hra1_12⟩
  ihave G13 := (Entails.of_eq (barPay_unfold c (off 13))) $$ G13
  icases G13 with ⟨⟨%fs0_13, Hs0_13⟩, ⟨%fs1_13, Hs1_13⟩, ⟨%fq0_13, Hq0_13⟩, ⟨%fq1_13, Hq1_13⟩, #Hrr0_13, #Hrr1_13, #Hra0_13, #Hra1_13⟩
  ihave G14 := (Entails.of_eq (barPay_unfold c (off 14))) $$ G14
  icases G14 with ⟨⟨%fs0_14, Hs0_14⟩, ⟨%fs1_14, Hs1_14⟩, ⟨%fq0_14, Hq0_14⟩, ⟨%fq1_14, Hq1_14⟩, #Hrr0_14, #Hrr1_14, #Hra0_14, #Hra1_14⟩
  icases HatO0 with ⟨⟨Ps0_0, Pr0_0, Qs0_0, Qr0_0⟩, ⟨Ps0_1, Pr0_1, Qs0_1, Qr0_1⟩, ⟨Ps0_2, Pr0_2, Qs0_2, Qr0_2⟩, ⟨Ps0_3, Pr0_3, Qs0_3, Qr0_3⟩, ⟨Ps0_4, Pr0_4, Qs0_4, Qr0_4⟩, ⟨Ps0_5, Pr0_5, Qs0_5, Qr0_5⟩, ⟨Ps0_6, Pr0_6, Qs0_6, Qr0_6⟩, ⟨Ps0_7, Pr0_7, Qs0_7, Qr0_7⟩, ⟨Ps0_8, Pr0_8, Qs0_8, Qr0_8⟩, ⟨Ps0_9, Pr0_9, Qs0_9, Qr0_9⟩, ⟨Ps0_10, Pr0_10, Qs0_10, Qr0_10⟩, ⟨Ps0_11, Pr0_11, Qs0_11, Qr0_11⟩, ⟨Ps0_12, Pr0_12, Qs0_12, Qr0_12⟩, ⟨Ps0_13, Pr0_13, Qs0_13, Qr0_13⟩, ⟨Ps0_14, Pr0_14, Qs0_14, Qr0_14⟩⟩
  icases HatO1 with ⟨⟨Ps1_0, Pr1_0, Qs1_0, Qr1_0⟩, ⟨Ps1_1, Pr1_1, Qs1_1, Qr1_1⟩, ⟨Ps1_2, Pr1_2, Qs1_2, Qr1_2⟩, ⟨Ps1_3, Pr1_3, Qs1_3, Qr1_3⟩, ⟨Ps1_4, Pr1_4, Qs1_4, Qr1_4⟩, ⟨Ps1_5, Pr1_5, Qs1_5, Qr1_5⟩, ⟨Ps1_6, Pr1_6, Qs1_6, Qr1_6⟩, ⟨Ps1_7, Pr1_7, Qs1_7, Qr1_7⟩, ⟨Ps1_8, Pr1_8, Qs1_8, Qr1_8⟩, ⟨Ps1_9, Pr1_9, Qs1_9, Qr1_9⟩, ⟨Ps1_10, Pr1_10, Qs1_10, Qr1_10⟩, ⟨Ps1_11, Pr1_11, Qs1_11, Qr1_11⟩, ⟨Ps1_12, Pr1_12, Qs1_12, Qr1_12⟩, ⟨Ps1_13, Pr1_13, Qs1_13, Qr1_13⟩, ⟨Ps1_14, Pr1_14, Qs1_14, Qr1_14⟩⟩
  icases HopO0 with ⟨⟨Os0_0, Or0_0, Us0_0, Ur0_0⟩, ⟨Os0_1, Or0_1, Us0_1, Ur0_1⟩, ⟨Os0_2, Or0_2, Us0_2, Ur0_2⟩, ⟨Os0_3, Or0_3, Us0_3, Ur0_3⟩, ⟨Os0_4, Or0_4, Us0_4, Ur0_4⟩, ⟨Os0_5, Or0_5, Us0_5, Ur0_5⟩, ⟨Os0_6, Or0_6, Us0_6, Ur0_6⟩, ⟨Os0_7, Or0_7, Us0_7, Ur0_7⟩, ⟨Os0_8, Or0_8, Us0_8, Ur0_8⟩, ⟨Os0_9, Or0_9, Us0_9, Ur0_9⟩, ⟨Os0_10, Or0_10, Us0_10, Ur0_10⟩, ⟨Os0_11, Or0_11, Us0_11, Ur0_11⟩, ⟨Os0_12, Or0_12, Us0_12, Ur0_12⟩, ⟨Os0_13, Or0_13, Us0_13, Ur0_13⟩, ⟨Os0_14, Or0_14, Us0_14, Ur0_14⟩⟩
  icases HopO1 with ⟨⟨Os1_0, Or1_0, Us1_0, Ur1_0⟩, ⟨Os1_1, Or1_1, Us1_1, Ur1_1⟩, ⟨Os1_2, Or1_2, Us1_2, Ur1_2⟩, ⟨Os1_3, Or1_3, Us1_3, Ur1_3⟩, ⟨Os1_4, Or1_4, Us1_4, Ur1_4⟩, ⟨Os1_5, Or1_5, Us1_5, Ur1_5⟩, ⟨Os1_6, Or1_6, Us1_6, Ur1_6⟩, ⟨Os1_7, Or1_7, Us1_7, Ur1_7⟩, ⟨Os1_8, Or1_8, Us1_8, Ur1_8⟩, ⟨Os1_9, Or1_9, Us1_9, Ur1_9⟩, ⟨Os1_10, Or1_10, Us1_10, Ur1_10⟩, ⟨Os1_11, Or1_11, Us1_11, Ur1_11⟩, ⟨Os1_12, Or1_12, Us1_12, Ur1_12⟩, ⟨Os1_13, Or1_13, Us1_13, Ur1_13⟩, ⟨Os1_14, Or1_14, Us1_14, Ur1_14⟩⟩
  icases HtC0 with ⟨⟨Tr0_0, Ta0_0, Ts0_0, Tg0_0⟩, ⟨Tr0_1, Ta0_1, Ts0_1, Tg0_1⟩, ⟨Tr0_2, Ta0_2, Ts0_2, Tg0_2⟩, ⟨Tr0_3, Ta0_3, Ts0_3, Tg0_3⟩, ⟨Tr0_4, Ta0_4, Ts0_4, Tg0_4⟩, ⟨Tr0_5, Ta0_5, Ts0_5, Tg0_5⟩, ⟨Tr0_6, Ta0_6, Ts0_6, Tg0_6⟩, ⟨Tr0_7, Ta0_7, Ts0_7, Tg0_7⟩, ⟨Tr0_8, Ta0_8, Ts0_8, Tg0_8⟩, ⟨Tr0_9, Ta0_9, Ts0_9, Tg0_9⟩, ⟨Tr0_10, Ta0_10, Ts0_10, Tg0_10⟩, ⟨Tr0_11, Ta0_11, Ts0_11, Tg0_11⟩, ⟨Tr0_12, Ta0_12, Ts0_12, Tg0_12⟩, ⟨Tr0_13, Ta0_13, Ts0_13, Tg0_13⟩, ⟨Tr0_14, Ta0_14, Ts0_14, Tg0_14⟩⟩
  icases HtC1 with ⟨⟨Tr1_0, Ta1_0, Ts1_0, Tg1_0⟩, ⟨Tr1_1, Ta1_1, Ts1_1, Tg1_1⟩, ⟨Tr1_2, Ta1_2, Ts1_2, Tg1_2⟩, ⟨Tr1_3, Ta1_3, Ts1_3, Tg1_3⟩, ⟨Tr1_4, Ta1_4, Ts1_4, Tg1_4⟩, ⟨Tr1_5, Ta1_5, Ts1_5, Tg1_5⟩, ⟨Tr1_6, Ta1_6, Ts1_6, Tg1_6⟩, ⟨Tr1_7, Ta1_7, Ts1_7, Tg1_7⟩, ⟨Tr1_8, Ta1_8, Ts1_8, Tg1_8⟩, ⟨Tr1_9, Ta1_9, Ts1_9, Tg1_9⟩, ⟨Tr1_10, Ta1_10, Ts1_10, Tg1_10⟩, ⟨Tr1_11, Ta1_11, Ts1_11, Tg1_11⟩, ⟨Tr1_12, Ta1_12, Ts1_12, Tg1_12⟩, ⟨Tr1_13, Ta1_13, Ts1_13, Tg1_13⟩, ⟨Tr1_14, Ta1_14, Ts1_14, Tg1_14⟩⟩
  icases HcR0 with ⟨⟨Cr0_0, Ca0_0⟩, ⟨Cr0_1, Ca0_1⟩, ⟨Cr0_2, Ca0_2⟩, ⟨Cr0_3, Ca0_3⟩, ⟨Cr0_4, Ca0_4⟩, ⟨Cr0_5, Ca0_5⟩, ⟨Cr0_6, Ca0_6⟩, ⟨Cr0_7, Ca0_7⟩, ⟨Cr0_8, Ca0_8⟩, ⟨Cr0_9, Ca0_9⟩, ⟨Cr0_10, Ca0_10⟩, ⟨Cr0_11, Ca0_11⟩, ⟨Cr0_12, Ca0_12⟩, ⟨Cr0_13, Ca0_13⟩, ⟨Cr0_14, Ca0_14⟩⟩
  icases HcR1 with ⟨⟨Cr1_0, Ca1_0⟩, ⟨Cr1_1, Ca1_1⟩, ⟨Cr1_2, Ca1_2⟩, ⟨Cr1_3, Ca1_3⟩, ⟨Cr1_4, Ca1_4⟩, ⟨Cr1_5, Ca1_5⟩, ⟨Cr1_6, Ca1_6⟩, ⟨Cr1_7, Ca1_7⟩, ⟨Cr1_8, Ca1_8⟩, ⟨Cr1_9, Ca1_9⟩, ⟨Cr1_10, Ca1_10⟩, ⟨Cr1_11, Ca1_11⟩, ⟨Cr1_12, Ca1_12⟩, ⟨Cr1_13, Ca1_13⟩, ⟨Cr1_14, Ca1_14⟩⟩
  -- the partial product cut into the thirty copies' sources and the own rows
  ihave Hp := (pb_list m c) $$ Hp
  icases Hp with ⟨⟨⟨Src0_0, Src0_1, Src0_2, Src0_3, Src0_4, Src0_5, Src0_6, Src0_7, Src0_8, Src0_9, Src0_10, Src0_11, Src0_12, Src0_13, Src0_14⟩, ⟨Src1_0, Src1_1, Src1_2, Src1_3, Src1_4, Src1_5, Src1_6, Src1_7, Src1_8, Src1_9, Src1_10, Src1_11, Src1_12, Src1_13, Src1_14⟩⟩, HownPb0, HownPb1⟩
  rs_send_step 0, 0, 0, 1, (dev16_eq c), fs0_0, Src0_0, Hs0_0, Ts0_0, Os0_0, Tr0_0, Hrr0_0, Cs0_0
  rs_send_step 0, 1, 1, 2, (dev17_eq c), fs0_1, Src0_1, Hs0_1, Ts0_1, Os0_1, Tr0_1, Hrr0_1, Cs0_1
  rs_send_step 0, 2, 2, 3, (dev18_eq c), fs0_2, Src0_2, Hs0_2, Ts0_2, Os0_2, Tr0_2, Hrr0_2, Cs0_2
  rs_send_step 0, 3, 3, 4, (dev19_eq c), fs0_3, Src0_3, Hs0_3, Ts0_3, Os0_3, Tr0_3, Hrr0_3, Cs0_3
  rs_send_step 0, 4, 4, 5, (dev20_eq c), fs0_4, Src0_4, Hs0_4, Ts0_4, Os0_4, Tr0_4, Hrr0_4, Cs0_4
  rs_send_step 0, 5, 5, 6, (dev21_eq c), fs0_5, Src0_5, Hs0_5, Ts0_5, Os0_5, Tr0_5, Hrr0_5, Cs0_5
  rs_send_step 0, 6, 6, 7, (dev22_eq c), fs0_6, Src0_6, Hs0_6, Ts0_6, Os0_6, Tr0_6, Hrr0_6, Cs0_6
  rs_send_step 0, 7, 7, 8, (dev23_eq c), fs0_7, Src0_7, Hs0_7, Ts0_7, Os0_7, Tr0_7, Hrr0_7, Cs0_7
  rs_send_step 0, 8, 8, 9, (dev24_eq c), fs0_8, Src0_8, Hs0_8, Ts0_8, Os0_8, Tr0_8, Hrr0_8, Cs0_8
  rs_send_step 0, 9, 9, 10, (dev25_eq c), fs0_9, Src0_9, Hs0_9, Ts0_9, Os0_9, Tr0_9, Hrr0_9, Cs0_9
  rs_send_step 0, 10, 10, 11, (dev26_eq c), fs0_10, Src0_10, Hs0_10, Ts0_10, Os0_10, Tr0_10, Hrr0_10, Cs0_10
  rs_send_step 0, 11, 11, 12, (dev27_eq c), fs0_11, Src0_11, Hs0_11, Ts0_11, Os0_11, Tr0_11, Hrr0_11, Cs0_11
  rs_send_step 0, 12, 12, 13, (dev28_eq c), fs0_12, Src0_12, Hs0_12, Ts0_12, Os0_12, Tr0_12, Hrr0_12, Cs0_12
  rs_send_step 0, 13, 13, 14, (dev29_eq c), fs0_13, Src0_13, Hs0_13, Ts0_13, Os0_13, Tr0_13, Hrr0_13, Cs0_13
  rs_send_step 0, 14, 14, 15, (dev30_eq c), fs0_14, Src0_14, Hs0_14, Ts0_14, Os0_14, Tr0_14, Hrr0_14, Cs0_14
  rs_send_step 1, 0, 15, 16, (dev31_eq c), fs1_0, Src1_0, Hs1_0, Ts1_0, Os1_0, Tr1_0, Hrr1_0, Cs1_0
  rs_send_step 1, 1, 16, 17, (dev32_eq c), fs1_1, Src1_1, Hs1_1, Ts1_1, Os1_1, Tr1_1, Hrr1_1, Cs1_1
  rs_send_step 1, 2, 17, 18, (dev33_eq c), fs1_2, Src1_2, Hs1_2, Ts1_2, Os1_2, Tr1_2, Hrr1_2, Cs1_2
  rs_send_step 1, 3, 18, 19, (dev34_eq c), fs1_3, Src1_3, Hs1_3, Ts1_3, Os1_3, Tr1_3, Hrr1_3, Cs1_3
  rs_send_step 1, 4, 19, 20, (dev35_eq c), fs1_4, Src1_4, Hs1_4, Ts1_4, Os1_4, Tr1_4, Hrr1_4, Cs1_4
  rs_send_step 1, 5, 20, 21, (dev36_eq c), fs1_5, Src1_5, Hs1_5, Ts1_5, Os1_5, Tr1_5, Hrr1_5, Cs1_5
  rs_send_step 1, 6, 21, 22, (dev37_eq c), fs1_6, Src1_6, Hs1_6, Ts1_6, Os1_6, Tr1_6, Hrr1_6, Cs1_6
  rs_send_step 1, 7, 22, 23, (dev38_eq c), fs1_7, Src1_7, Hs1_7, Ts1_7, Os1_7, Tr1_7, Hrr1_7, Cs1_7
  rs_send_step 1, 8, 23, 24, (dev39_eq c), fs1_8, Src1_8, Hs1_8, Ts1_8, Os1_8, Tr1_8, Hrr1_8, Cs1_8
  rs_send_step 1, 9, 24, 25, (dev40_eq c), fs1_9, Src1_9, Hs1_9, Ts1_9, Os1_9, Tr1_9, Hrr1_9, Cs1_9
  rs_send_step 1, 10, 25, 26, (dev41_eq c), fs1_10, Src1_10, Hs1_10, Ts1_10, Os1_10, Tr1_10, Hrr1_10, Cs1_10
  rs_send_step 1, 11, 26, 27, (dev42_eq c), fs1_11, Src1_11, Hs1_11, Ts1_11, Os1_11, Tr1_11, Hrr1_11, Cs1_11
  rs_send_step 1, 12, 27, 28, (dev43_eq c), fs1_12, Src1_12, Hs1_12, Ts1_12, Os1_12, Tr1_12, Hrr1_12, Cs1_12
  rs_send_step 1, 13, 28, 29, (dev44_eq c), fs1_13, Src1_13, Hs1_13, Ts1_13, Os1_13, Tr1_13, Hrr1_13, Cs1_13
  rs_send_step 1, 14, 29, 30, (dev45_eq c), fs1_14, Src1_14, Hs1_14, Ts1_14, Os1_14, Tr1_14, Hrr1_14, Cs1_14
  rw [owedRS_end, add_zero]
  -- half 0: the own rows, the fifteen landed pieces, the store, the fifteen copies on
  own_load_step 0, HownPb0
  rs_recv_step 0, 0, 0, Cr0_0, Pr0_0, Ld0_0
  rs_recv_step 0, 1, 0, Cr0_1, Pr0_1, Ld0_1
  rs_recv_step 0, 2, 0, Cr0_2, Pr0_2, Ld0_2
  rs_recv_step 0, 3, 0, Cr0_3, Pr0_3, Ld0_3
  rs_recv_step 0, 4, 0, Cr0_4, Pr0_4, Ld0_4
  rs_recv_step 0, 5, 0, Cr0_5, Pr0_5, Ld0_5
  rs_recv_step 0, 6, 0, Cr0_6, Pr0_6, Ld0_6
  rs_recv_step 0, 7, 0, Cr0_7, Pr0_7, Ld0_7
  rs_recv_step 0, 8, 0, Cr0_8, Pr0_8, Ld0_8
  rs_recv_step 0, 9, 0, Cr0_9, Pr0_9, Ld0_9
  rs_recv_step 0, 10, 0, Cr0_10, Pr0_10, Ld0_10
  rs_recv_step 0, 11, 0, Cr0_11, Pr0_11, Ld0_11
  rs_recv_step 0, 12, 0, Cr0_12, Pr0_12, Ld0_12
  rs_recv_step 0, 13, 0, Cr0_13, Pr0_13, Ld0_13
  rs_recv_step 0, 14, 0, Cr0_14, Pr0_14, Ld0_14
  own_store_step 0, HoutC0, (by exact acc0_reads m c)
  ihave Hsh := (shares_list c 0 _) $$ HoutC0
  icases Hsh with ⟨Sh0_0, Sh0_1, Sh0_2, Sh0_3, Sh0_4, Sh0_5, Sh0_6, Sh0_7, Sh0_8, Sh0_9, Sh0_10, Sh0_11, Sh0_12, Sh0_13, Sh0_14⟩
  ag_send_step 0, 0, 0, 1, (dev46_eq c), fq0_0, Sh0_0, Hq0_0, Tg0_0, Us0_0, Ta0_0, Hra0_0, Cg0_0
  ag_send_step 0, 1, 1, 2, (dev47_eq c), fq0_1, Sh0_1, Hq0_1, Tg0_1, Us0_1, Ta0_1, Hra0_1, Cg0_1
  ag_send_step 0, 2, 2, 3, (dev48_eq c), fq0_2, Sh0_2, Hq0_2, Tg0_2, Us0_2, Ta0_2, Hra0_2, Cg0_2
  ag_send_step 0, 3, 3, 4, (dev49_eq c), fq0_3, Sh0_3, Hq0_3, Tg0_3, Us0_3, Ta0_3, Hra0_3, Cg0_3
  ag_send_step 0, 4, 4, 5, (dev50_eq c), fq0_4, Sh0_4, Hq0_4, Tg0_4, Us0_4, Ta0_4, Hra0_4, Cg0_4
  ag_send_step 0, 5, 5, 6, (dev51_eq c), fq0_5, Sh0_5, Hq0_5, Tg0_5, Us0_5, Ta0_5, Hra0_5, Cg0_5
  ag_send_step 0, 6, 6, 7, (dev52_eq c), fq0_6, Sh0_6, Hq0_6, Tg0_6, Us0_6, Ta0_6, Hra0_6, Cg0_6
  ag_send_step 0, 7, 7, 8, (dev53_eq c), fq0_7, Sh0_7, Hq0_7, Tg0_7, Us0_7, Ta0_7, Hra0_7, Cg0_7
  ag_send_step 0, 8, 8, 9, (dev54_eq c), fq0_8, Sh0_8, Hq0_8, Tg0_8, Us0_8, Ta0_8, Hra0_8, Cg0_8
  ag_send_step 0, 9, 9, 10, (dev55_eq c), fq0_9, Sh0_9, Hq0_9, Tg0_9, Us0_9, Ta0_9, Hra0_9, Cg0_9
  ag_send_step 0, 10, 10, 11, (dev56_eq c), fq0_10, Sh0_10, Hq0_10, Tg0_10, Us0_10, Ta0_10, Hra0_10, Cg0_10
  ag_send_step 0, 11, 11, 12, (dev57_eq c), fq0_11, Sh0_11, Hq0_11, Tg0_11, Us0_11, Ta0_11, Hra0_11, Cg0_11
  ag_send_step 0, 12, 12, 13, (dev58_eq c), fq0_12, Sh0_12, Hq0_12, Tg0_12, Us0_12, Ta0_12, Hra0_12, Cg0_12
  ag_send_step 0, 13, 13, 14, (dev59_eq c), fq0_13, Sh0_13, Hq0_13, Tg0_13, Us0_13, Ta0_13, Hra0_13, Cg0_13
  ag_send_step 0, 14, 14, 15, (dev60_eq c), fq0_14, Sh0_14, Hq0_14, Tg0_14, Us0_14, Ta0_14, Hra0_14, Cg0_14
  -- half 1: the own rows, the fifteen landed pieces, the store, the fifteen copies on
  own_load_step 1, HownPb1
  rs_recv_step 1, 0, 15, Cr1_0, Pr1_0, Ld1_0
  rs_recv_step 1, 1, 15, Cr1_1, Pr1_1, Ld1_1
  rs_recv_step 1, 2, 15, Cr1_2, Pr1_2, Ld1_2
  rs_recv_step 1, 3, 15, Cr1_3, Pr1_3, Ld1_3
  rs_recv_step 1, 4, 15, Cr1_4, Pr1_4, Ld1_4
  rs_recv_step 1, 5, 15, Cr1_5, Pr1_5, Ld1_5
  rs_recv_step 1, 6, 15, Cr1_6, Pr1_6, Ld1_6
  rs_recv_step 1, 7, 15, Cr1_7, Pr1_7, Ld1_7
  rs_recv_step 1, 8, 15, Cr1_8, Pr1_8, Ld1_8
  rs_recv_step 1, 9, 15, Cr1_9, Pr1_9, Ld1_9
  rs_recv_step 1, 10, 15, Cr1_10, Pr1_10, Ld1_10
  rs_recv_step 1, 11, 15, Cr1_11, Pr1_11, Ld1_11
  rs_recv_step 1, 12, 15, Cr1_12, Pr1_12, Ld1_12
  rs_recv_step 1, 13, 15, Cr1_13, Pr1_13, Ld1_13
  rs_recv_step 1, 14, 15, Cr1_14, Pr1_14, Ld1_14
  own_store_step 1, HoutC1, (by exact acc1_reads m c)
  ihave Hsh := (shares_list c 1 _) $$ HoutC1
  icases Hsh with ⟨Sh1_0, Sh1_1, Sh1_2, Sh1_3, Sh1_4, Sh1_5, Sh1_6, Sh1_7, Sh1_8, Sh1_9, Sh1_10, Sh1_11, Sh1_12, Sh1_13, Sh1_14⟩
  ag_send_step 1, 0, 15, 16, (dev61_eq c), fq1_0, Sh1_0, Hq1_0, Tg1_0, Us1_0, Ta1_0, Hra1_0, Cg1_0
  ag_send_step 1, 1, 16, 17, (dev62_eq c), fq1_1, Sh1_1, Hq1_1, Tg1_1, Us1_1, Ta1_1, Hra1_1, Cg1_1
  ag_send_step 1, 2, 17, 18, (dev63_eq c), fq1_2, Sh1_2, Hq1_2, Tg1_2, Us1_2, Ta1_2, Hra1_2, Cg1_2
  ag_send_step 1, 3, 18, 19, (dev64_eq c), fq1_3, Sh1_3, Hq1_3, Tg1_3, Us1_3, Ta1_3, Hra1_3, Cg1_3
  ag_send_step 1, 4, 19, 20, (dev65_eq c), fq1_4, Sh1_4, Hq1_4, Tg1_4, Us1_4, Ta1_4, Hra1_4, Cg1_4
  ag_send_step 1, 5, 20, 21, (dev66_eq c), fq1_5, Sh1_5, Hq1_5, Tg1_5, Us1_5, Ta1_5, Hra1_5, Cg1_5
  ag_send_step 1, 6, 21, 22, (dev67_eq c), fq1_6, Sh1_6, Hq1_6, Tg1_6, Us1_6, Ta1_6, Hra1_6, Cg1_6
  ag_send_step 1, 7, 22, 23, (dev68_eq c), fq1_7, Sh1_7, Hq1_7, Tg1_7, Us1_7, Ta1_7, Hra1_7, Cg1_7
  ag_send_step 1, 8, 23, 24, (dev69_eq c), fq1_8, Sh1_8, Hq1_8, Tg1_8, Us1_8, Ta1_8, Hra1_8, Cg1_8
  ag_send_step 1, 9, 24, 25, (dev70_eq c), fq1_9, Sh1_9, Hq1_9, Tg1_9, Us1_9, Ta1_9, Hra1_9, Cg1_9
  ag_send_step 1, 10, 25, 26, (dev71_eq c), fq1_10, Sh1_10, Hq1_10, Tg1_10, Us1_10, Ta1_10, Hra1_10, Cg1_10
  ag_send_step 1, 11, 26, 27, (dev72_eq c), fq1_11, Sh1_11, Hq1_11, Tg1_11, Us1_11, Ta1_11, Hra1_11, Cg1_11
  ag_send_step 1, 12, 27, 28, (dev73_eq c), fq1_12, Sh1_12, Hq1_12, Tg1_12, Us1_12, Ta1_12, Hra1_12, Cg1_12
  ag_send_step 1, 13, 28, 29, (dev74_eq c), fq1_13, Sh1_13, Hq1_13, Tg1_13, Us1_13, Ta1_13, Hra1_13, Cg1_13
  ag_send_step 1, 14, 29, 30, (dev75_eq c), fq1_14, Sh1_14, Hq1_14, Tg1_14, Us1_14, Ta1_14, Hra1_14, Cg1_14
  rw [owedAG_end]
  -- the closing waits: every received block, then every source back
  wait0_step (wp_wait_agR m shrF K c 0 0 (by rfl) _), (inv_agR m K shrF c 0 0), Ca0_0, Qr0_0, Ag0_0
  wait0_step (wp_wait_agR m shrF K c 0 1 (by rfl) _), (inv_agR m K shrF c 0 1), Ca0_1, Qr0_1, Ag0_1
  wait0_step (wp_wait_agR m shrF K c 0 2 (by rfl) _), (inv_agR m K shrF c 0 2), Ca0_2, Qr0_2, Ag0_2
  wait0_step (wp_wait_agR m shrF K c 0 3 (by rfl) _), (inv_agR m K shrF c 0 3), Ca0_3, Qr0_3, Ag0_3
  wait0_step (wp_wait_agR m shrF K c 0 4 (by rfl) _), (inv_agR m K shrF c 0 4), Ca0_4, Qr0_4, Ag0_4
  wait0_step (wp_wait_agR m shrF K c 0 5 (by rfl) _), (inv_agR m K shrF c 0 5), Ca0_5, Qr0_5, Ag0_5
  wait0_step (wp_wait_agR m shrF K c 0 6 (by rfl) _), (inv_agR m K shrF c 0 6), Ca0_6, Qr0_6, Ag0_6
  wait0_step (wp_wait_agR m shrF K c 0 7 (by rfl) _), (inv_agR m K shrF c 0 7), Ca0_7, Qr0_7, Ag0_7
  wait0_step (wp_wait_agR m shrF K c 0 8 (by rfl) _), (inv_agR m K shrF c 0 8), Ca0_8, Qr0_8, Ag0_8
  wait0_step (wp_wait_agR m shrF K c 0 9 (by rfl) _), (inv_agR m K shrF c 0 9), Ca0_9, Qr0_9, Ag0_9
  wait0_step (wp_wait_agR m shrF K c 0 10 (by rfl) _), (inv_agR m K shrF c 0 10), Ca0_10, Qr0_10, Ag0_10
  wait0_step (wp_wait_agR m shrF K c 0 11 (by rfl) _), (inv_agR m K shrF c 0 11), Ca0_11, Qr0_11, Ag0_11
  wait0_step (wp_wait_agR m shrF K c 0 12 (by rfl) _), (inv_agR m K shrF c 0 12), Ca0_12, Qr0_12, Ag0_12
  wait0_step (wp_wait_agR m shrF K c 0 13 (by rfl) _), (inv_agR m K shrF c 0 13), Ca0_13, Qr0_13, Ag0_13
  wait0_step (wp_wait_agR m shrF K c 0 14 (by rfl) _), (inv_agR m K shrF c 0 14), Ca0_14, Qr0_14, Ag0_14
  wait0_step (wp_wait_agR m shrF K c 1 0 (by rfl) _), (inv_agR m K shrF c 1 0), Ca1_0, Qr1_0, Ag1_0
  wait0_step (wp_wait_agR m shrF K c 1 1 (by rfl) _), (inv_agR m K shrF c 1 1), Ca1_1, Qr1_1, Ag1_1
  wait0_step (wp_wait_agR m shrF K c 1 2 (by rfl) _), (inv_agR m K shrF c 1 2), Ca1_2, Qr1_2, Ag1_2
  wait0_step (wp_wait_agR m shrF K c 1 3 (by rfl) _), (inv_agR m K shrF c 1 3), Ca1_3, Qr1_3, Ag1_3
  wait0_step (wp_wait_agR m shrF K c 1 4 (by rfl) _), (inv_agR m K shrF c 1 4), Ca1_4, Qr1_4, Ag1_4
  wait0_step (wp_wait_agR m shrF K c 1 5 (by rfl) _), (inv_agR m K shrF c 1 5), Ca1_5, Qr1_5, Ag1_5
  wait0_step (wp_wait_agR m shrF K c 1 6 (by rfl) _), (inv_agR m K shrF c 1 6), Ca1_6, Qr1_6, Ag1_6
  wait0_step (wp_wait_agR m shrF K c 1 7 (by rfl) _), (inv_agR m K shrF c 1 7), Ca1_7, Qr1_7, Ag1_7
  wait0_step (wp_wait_agR m shrF K c 1 8 (by rfl) _), (inv_agR m K shrF c 1 8), Ca1_8, Qr1_8, Ag1_8
  wait0_step (wp_wait_agR m shrF K c 1 9 (by rfl) _), (inv_agR m K shrF c 1 9), Ca1_9, Qr1_9, Ag1_9
  wait0_step (wp_wait_agR m shrF K c 1 10 (by rfl) _), (inv_agR m K shrF c 1 10), Ca1_10, Qr1_10, Ag1_10
  wait0_step (wp_wait_agR m shrF K c 1 11 (by rfl) _), (inv_agR m K shrF c 1 11), Ca1_11, Qr1_11, Ag1_11
  wait0_step (wp_wait_agR m shrF K c 1 12 (by rfl) _), (inv_agR m K shrF c 1 12), Ca1_12, Qr1_12, Ag1_12
  wait0_step (wp_wait_agR m shrF K c 1 13 (by rfl) _), (inv_agR m K shrF c 1 13), Ca1_13, Qr1_13, Ag1_13
  wait0_step (wp_wait_agR m shrF K c 1 14 (by rfl) _), (inv_agR m K shrF c 1 14), Ca1_14, Qr1_14, Ag1_14
  wait0_step (wp_wait_rsS m shrF K c 0 0 (by rfl) _), (inv_rsS m K shrF c 0 0), Cs0_0, Ps0_0, Sb0_0
  wait0_step (wp_wait_rsS m shrF K c 0 1 (by rfl) _), (inv_rsS m K shrF c 0 1), Cs0_1, Ps0_1, Sb0_1
  wait0_step (wp_wait_rsS m shrF K c 0 2 (by rfl) _), (inv_rsS m K shrF c 0 2), Cs0_2, Ps0_2, Sb0_2
  wait0_step (wp_wait_rsS m shrF K c 0 3 (by rfl) _), (inv_rsS m K shrF c 0 3), Cs0_3, Ps0_3, Sb0_3
  wait0_step (wp_wait_rsS m shrF K c 0 4 (by rfl) _), (inv_rsS m K shrF c 0 4), Cs0_4, Ps0_4, Sb0_4
  wait0_step (wp_wait_rsS m shrF K c 0 5 (by rfl) _), (inv_rsS m K shrF c 0 5), Cs0_5, Ps0_5, Sb0_5
  wait0_step (wp_wait_rsS m shrF K c 0 6 (by rfl) _), (inv_rsS m K shrF c 0 6), Cs0_6, Ps0_6, Sb0_6
  wait0_step (wp_wait_rsS m shrF K c 0 7 (by rfl) _), (inv_rsS m K shrF c 0 7), Cs0_7, Ps0_7, Sb0_7
  wait0_step (wp_wait_rsS m shrF K c 0 8 (by rfl) _), (inv_rsS m K shrF c 0 8), Cs0_8, Ps0_8, Sb0_8
  wait0_step (wp_wait_rsS m shrF K c 0 9 (by rfl) _), (inv_rsS m K shrF c 0 9), Cs0_9, Ps0_9, Sb0_9
  wait0_step (wp_wait_rsS m shrF K c 0 10 (by rfl) _), (inv_rsS m K shrF c 0 10), Cs0_10, Ps0_10, Sb0_10
  wait0_step (wp_wait_rsS m shrF K c 0 11 (by rfl) _), (inv_rsS m K shrF c 0 11), Cs0_11, Ps0_11, Sb0_11
  wait0_step (wp_wait_rsS m shrF K c 0 12 (by rfl) _), (inv_rsS m K shrF c 0 12), Cs0_12, Ps0_12, Sb0_12
  wait0_step (wp_wait_rsS m shrF K c 0 13 (by rfl) _), (inv_rsS m K shrF c 0 13), Cs0_13, Ps0_13, Sb0_13
  wait0_step (wp_wait_rsS m shrF K c 0 14 (by rfl) _), (inv_rsS m K shrF c 0 14), Cs0_14, Ps0_14, Sb0_14
  wait0_step (wp_wait_rsS m shrF K c 1 0 (by rfl) _), (inv_rsS m K shrF c 1 0), Cs1_0, Ps1_0, Sb1_0
  wait0_step (wp_wait_rsS m shrF K c 1 1 (by rfl) _), (inv_rsS m K shrF c 1 1), Cs1_1, Ps1_1, Sb1_1
  wait0_step (wp_wait_rsS m shrF K c 1 2 (by rfl) _), (inv_rsS m K shrF c 1 2), Cs1_2, Ps1_2, Sb1_2
  wait0_step (wp_wait_rsS m shrF K c 1 3 (by rfl) _), (inv_rsS m K shrF c 1 3), Cs1_3, Ps1_3, Sb1_3
  wait0_step (wp_wait_rsS m shrF K c 1 4 (by rfl) _), (inv_rsS m K shrF c 1 4), Cs1_4, Ps1_4, Sb1_4
  wait0_step (wp_wait_rsS m shrF K c 1 5 (by rfl) _), (inv_rsS m K shrF c 1 5), Cs1_5, Ps1_5, Sb1_5
  wait0_step (wp_wait_rsS m shrF K c 1 6 (by rfl) _), (inv_rsS m K shrF c 1 6), Cs1_6, Ps1_6, Sb1_6
  wait0_step (wp_wait_rsS m shrF K c 1 7 (by rfl) _), (inv_rsS m K shrF c 1 7), Cs1_7, Ps1_7, Sb1_7
  wait0_step (wp_wait_rsS m shrF K c 1 8 (by rfl) _), (inv_rsS m K shrF c 1 8), Cs1_8, Ps1_8, Sb1_8
  wait0_step (wp_wait_rsS m shrF K c 1 9 (by rfl) _), (inv_rsS m K shrF c 1 9), Cs1_9, Ps1_9, Sb1_9
  wait0_step (wp_wait_rsS m shrF K c 1 10 (by rfl) _), (inv_rsS m K shrF c 1 10), Cs1_10, Ps1_10, Sb1_10
  wait0_step (wp_wait_rsS m shrF K c 1 11 (by rfl) _), (inv_rsS m K shrF c 1 11), Cs1_11, Ps1_11, Sb1_11
  wait0_step (wp_wait_rsS m shrF K c 1 12 (by rfl) _), (inv_rsS m K shrF c 1 12), Cs1_12, Ps1_12, Sb1_12
  wait0_step (wp_wait_rsS m shrF K c 1 13 (by rfl) _), (inv_rsS m K shrF c 1 13), Cs1_13, Ps1_13, Sb1_13
  wait0_step (wp_wait_rsS m shrF K c 1 14 (by rfl) _), (inv_rsS m K shrF c 1 14), Cs1_14, Ps1_14, Sb1_14
  wait0_step (wp_wait_agS m shrF K c 0 0 (by rfl) _), (inv_agS m K shrF c 0 0), Cg0_0, Qs0_0, Shb0_0
  wait0_step (wp_wait_agS m shrF K c 0 1 (by rfl) _), (inv_agS m K shrF c 0 1), Cg0_1, Qs0_1, Shb0_1
  wait0_step (wp_wait_agS m shrF K c 0 2 (by rfl) _), (inv_agS m K shrF c 0 2), Cg0_2, Qs0_2, Shb0_2
  wait0_step (wp_wait_agS m shrF K c 0 3 (by rfl) _), (inv_agS m K shrF c 0 3), Cg0_3, Qs0_3, Shb0_3
  wait0_step (wp_wait_agS m shrF K c 0 4 (by rfl) _), (inv_agS m K shrF c 0 4), Cg0_4, Qs0_4, Shb0_4
  wait0_step (wp_wait_agS m shrF K c 0 5 (by rfl) _), (inv_agS m K shrF c 0 5), Cg0_5, Qs0_5, Shb0_5
  wait0_step (wp_wait_agS m shrF K c 0 6 (by rfl) _), (inv_agS m K shrF c 0 6), Cg0_6, Qs0_6, Shb0_6
  wait0_step (wp_wait_agS m shrF K c 0 7 (by rfl) _), (inv_agS m K shrF c 0 7), Cg0_7, Qs0_7, Shb0_7
  wait0_step (wp_wait_agS m shrF K c 0 8 (by rfl) _), (inv_agS m K shrF c 0 8), Cg0_8, Qs0_8, Shb0_8
  wait0_step (wp_wait_agS m shrF K c 0 9 (by rfl) _), (inv_agS m K shrF c 0 9), Cg0_9, Qs0_9, Shb0_9
  wait0_step (wp_wait_agS m shrF K c 0 10 (by rfl) _), (inv_agS m K shrF c 0 10), Cg0_10, Qs0_10, Shb0_10
  wait0_step (wp_wait_agS m shrF K c 0 11 (by rfl) _), (inv_agS m K shrF c 0 11), Cg0_11, Qs0_11, Shb0_11
  wait0_step (wp_wait_agS m shrF K c 0 12 (by rfl) _), (inv_agS m K shrF c 0 12), Cg0_12, Qs0_12, Shb0_12
  wait0_step (wp_wait_agS m shrF K c 0 13 (by rfl) _), (inv_agS m K shrF c 0 13), Cg0_13, Qs0_13, Shb0_13
  wait0_step (wp_wait_agS m shrF K c 0 14 (by rfl) _), (inv_agS m K shrF c 0 14), Cg0_14, Qs0_14, Shb0_14
  wait0_step (wp_wait_agS m shrF K c 1 0 (by rfl) _), (inv_agS m K shrF c 1 0), Cg1_0, Qs1_0, Shb1_0
  wait0_step (wp_wait_agS m shrF K c 1 1 (by rfl) _), (inv_agS m K shrF c 1 1), Cg1_1, Qs1_1, Shb1_1
  wait0_step (wp_wait_agS m shrF K c 1 2 (by rfl) _), (inv_agS m K shrF c 1 2), Cg1_2, Qs1_2, Shb1_2
  wait0_step (wp_wait_agS m shrF K c 1 3 (by rfl) _), (inv_agS m K shrF c 1 3), Cg1_3, Qs1_3, Shb1_3
  wait0_step (wp_wait_agS m shrF K c 1 4 (by rfl) _), (inv_agS m K shrF c 1 4), Cg1_4, Qs1_4, Shb1_4
  wait0_step (wp_wait_agS m shrF K c 1 5 (by rfl) _), (inv_agS m K shrF c 1 5), Cg1_5, Qs1_5, Shb1_5
  wait0_step (wp_wait_agS m shrF K c 1 6 (by rfl) _), (inv_agS m K shrF c 1 6), Cg1_6, Qs1_6, Shb1_6
  wait0_step (wp_wait_agS m shrF K c 1 7 (by rfl) _), (inv_agS m K shrF c 1 7), Cg1_7, Qs1_7, Shb1_7
  wait0_step (wp_wait_agS m shrF K c 1 8 (by rfl) _), (inv_agS m K shrF c 1 8), Cg1_8, Qs1_8, Shb1_8
  wait0_step (wp_wait_agS m shrF K c 1 9 (by rfl) _), (inv_agS m K shrF c 1 9), Cg1_9, Qs1_9, Shb1_9
  wait0_step (wp_wait_agS m shrF K c 1 10 (by rfl) _), (inv_agS m K shrF c 1 10), Cg1_10, Qs1_10, Shb1_10
  wait0_step (wp_wait_agS m shrF K c 1 11 (by rfl) _), (inv_agS m K shrF c 1 11), Cg1_11, Qs1_11, Shb1_11
  wait0_step (wp_wait_agS m shrF K c 1 12 (by rfl) _), (inv_agS m K shrF c 1 12), Cg1_12, Qs1_12, Shb1_12
  wait0_step (wp_wait_agS m shrF K c 1 13 (by rfl) _), (inv_agS m K shrF c 1 13), Cg1_13, Qs1_13, Shb1_13
  wait0_step (wp_wait_agS m shrF K c 1 14 (by rfl) _), (inv_agS m K shrF c 1 14), Cg1_14, Qs1_14, Shb1_14
  -- every used cell's one round is over: closed, its counter back at zero
  close_step (cel c (rsS 0 (off 0))), (inv_rsS m K shrF c 0 0), Ps0_0, Zs0_0
  close_step (cel c (rsR 0 (off 0))), (inv_rsR m K shrF c 0 0), Pr0_0, Zr0_0
  close_step (cel c (agS 0 (off 0))), (inv_agS m K shrF c 0 0), Qs0_0, Zg0_0
  close_step (cel c (agR 0 (off 0))), (inv_agR m K shrF c 0 0), Qr0_0, Za0_0
  close_step (cel c (rsS 0 (off 1))), (inv_rsS m K shrF c 0 1), Ps0_1, Zs0_1
  close_step (cel c (rsR 0 (off 1))), (inv_rsR m K shrF c 0 1), Pr0_1, Zr0_1
  close_step (cel c (agS 0 (off 1))), (inv_agS m K shrF c 0 1), Qs0_1, Zg0_1
  close_step (cel c (agR 0 (off 1))), (inv_agR m K shrF c 0 1), Qr0_1, Za0_1
  close_step (cel c (rsS 0 (off 2))), (inv_rsS m K shrF c 0 2), Ps0_2, Zs0_2
  close_step (cel c (rsR 0 (off 2))), (inv_rsR m K shrF c 0 2), Pr0_2, Zr0_2
  close_step (cel c (agS 0 (off 2))), (inv_agS m K shrF c 0 2), Qs0_2, Zg0_2
  close_step (cel c (agR 0 (off 2))), (inv_agR m K shrF c 0 2), Qr0_2, Za0_2
  close_step (cel c (rsS 0 (off 3))), (inv_rsS m K shrF c 0 3), Ps0_3, Zs0_3
  close_step (cel c (rsR 0 (off 3))), (inv_rsR m K shrF c 0 3), Pr0_3, Zr0_3
  close_step (cel c (agS 0 (off 3))), (inv_agS m K shrF c 0 3), Qs0_3, Zg0_3
  close_step (cel c (agR 0 (off 3))), (inv_agR m K shrF c 0 3), Qr0_3, Za0_3
  close_step (cel c (rsS 0 (off 4))), (inv_rsS m K shrF c 0 4), Ps0_4, Zs0_4
  close_step (cel c (rsR 0 (off 4))), (inv_rsR m K shrF c 0 4), Pr0_4, Zr0_4
  close_step (cel c (agS 0 (off 4))), (inv_agS m K shrF c 0 4), Qs0_4, Zg0_4
  close_step (cel c (agR 0 (off 4))), (inv_agR m K shrF c 0 4), Qr0_4, Za0_4
  close_step (cel c (rsS 0 (off 5))), (inv_rsS m K shrF c 0 5), Ps0_5, Zs0_5
  close_step (cel c (rsR 0 (off 5))), (inv_rsR m K shrF c 0 5), Pr0_5, Zr0_5
  close_step (cel c (agS 0 (off 5))), (inv_agS m K shrF c 0 5), Qs0_5, Zg0_5
  close_step (cel c (agR 0 (off 5))), (inv_agR m K shrF c 0 5), Qr0_5, Za0_5
  close_step (cel c (rsS 0 (off 6))), (inv_rsS m K shrF c 0 6), Ps0_6, Zs0_6
  close_step (cel c (rsR 0 (off 6))), (inv_rsR m K shrF c 0 6), Pr0_6, Zr0_6
  close_step (cel c (agS 0 (off 6))), (inv_agS m K shrF c 0 6), Qs0_6, Zg0_6
  close_step (cel c (agR 0 (off 6))), (inv_agR m K shrF c 0 6), Qr0_6, Za0_6
  close_step (cel c (rsS 0 (off 7))), (inv_rsS m K shrF c 0 7), Ps0_7, Zs0_7
  close_step (cel c (rsR 0 (off 7))), (inv_rsR m K shrF c 0 7), Pr0_7, Zr0_7
  close_step (cel c (agS 0 (off 7))), (inv_agS m K shrF c 0 7), Qs0_7, Zg0_7
  close_step (cel c (agR 0 (off 7))), (inv_agR m K shrF c 0 7), Qr0_7, Za0_7
  close_step (cel c (rsS 0 (off 8))), (inv_rsS m K shrF c 0 8), Ps0_8, Zs0_8
  close_step (cel c (rsR 0 (off 8))), (inv_rsR m K shrF c 0 8), Pr0_8, Zr0_8
  close_step (cel c (agS 0 (off 8))), (inv_agS m K shrF c 0 8), Qs0_8, Zg0_8
  close_step (cel c (agR 0 (off 8))), (inv_agR m K shrF c 0 8), Qr0_8, Za0_8
  close_step (cel c (rsS 0 (off 9))), (inv_rsS m K shrF c 0 9), Ps0_9, Zs0_9
  close_step (cel c (rsR 0 (off 9))), (inv_rsR m K shrF c 0 9), Pr0_9, Zr0_9
  close_step (cel c (agS 0 (off 9))), (inv_agS m K shrF c 0 9), Qs0_9, Zg0_9
  close_step (cel c (agR 0 (off 9))), (inv_agR m K shrF c 0 9), Qr0_9, Za0_9
  close_step (cel c (rsS 0 (off 10))), (inv_rsS m K shrF c 0 10), Ps0_10, Zs0_10
  close_step (cel c (rsR 0 (off 10))), (inv_rsR m K shrF c 0 10), Pr0_10, Zr0_10
  close_step (cel c (agS 0 (off 10))), (inv_agS m K shrF c 0 10), Qs0_10, Zg0_10
  close_step (cel c (agR 0 (off 10))), (inv_agR m K shrF c 0 10), Qr0_10, Za0_10
  close_step (cel c (rsS 0 (off 11))), (inv_rsS m K shrF c 0 11), Ps0_11, Zs0_11
  close_step (cel c (rsR 0 (off 11))), (inv_rsR m K shrF c 0 11), Pr0_11, Zr0_11
  close_step (cel c (agS 0 (off 11))), (inv_agS m K shrF c 0 11), Qs0_11, Zg0_11
  close_step (cel c (agR 0 (off 11))), (inv_agR m K shrF c 0 11), Qr0_11, Za0_11
  close_step (cel c (rsS 0 (off 12))), (inv_rsS m K shrF c 0 12), Ps0_12, Zs0_12
  close_step (cel c (rsR 0 (off 12))), (inv_rsR m K shrF c 0 12), Pr0_12, Zr0_12
  close_step (cel c (agS 0 (off 12))), (inv_agS m K shrF c 0 12), Qs0_12, Zg0_12
  close_step (cel c (agR 0 (off 12))), (inv_agR m K shrF c 0 12), Qr0_12, Za0_12
  close_step (cel c (rsS 0 (off 13))), (inv_rsS m K shrF c 0 13), Ps0_13, Zs0_13
  close_step (cel c (rsR 0 (off 13))), (inv_rsR m K shrF c 0 13), Pr0_13, Zr0_13
  close_step (cel c (agS 0 (off 13))), (inv_agS m K shrF c 0 13), Qs0_13, Zg0_13
  close_step (cel c (agR 0 (off 13))), (inv_agR m K shrF c 0 13), Qr0_13, Za0_13
  close_step (cel c (rsS 0 (off 14))), (inv_rsS m K shrF c 0 14), Ps0_14, Zs0_14
  close_step (cel c (rsR 0 (off 14))), (inv_rsR m K shrF c 0 14), Pr0_14, Zr0_14
  close_step (cel c (agS 0 (off 14))), (inv_agS m K shrF c 0 14), Qs0_14, Zg0_14
  close_step (cel c (agR 0 (off 14))), (inv_agR m K shrF c 0 14), Qr0_14, Za0_14
  close_step (cel c (rsS 1 (off 0))), (inv_rsS m K shrF c 1 0), Ps1_0, Zs1_0
  close_step (cel c (rsR 1 (off 0))), (inv_rsR m K shrF c 1 0), Pr1_0, Zr1_0
  close_step (cel c (agS 1 (off 0))), (inv_agS m K shrF c 1 0), Qs1_0, Zg1_0
  close_step (cel c (agR 1 (off 0))), (inv_agR m K shrF c 1 0), Qr1_0, Za1_0
  close_step (cel c (rsS 1 (off 1))), (inv_rsS m K shrF c 1 1), Ps1_1, Zs1_1
  close_step (cel c (rsR 1 (off 1))), (inv_rsR m K shrF c 1 1), Pr1_1, Zr1_1
  close_step (cel c (agS 1 (off 1))), (inv_agS m K shrF c 1 1), Qs1_1, Zg1_1
  close_step (cel c (agR 1 (off 1))), (inv_agR m K shrF c 1 1), Qr1_1, Za1_1
  close_step (cel c (rsS 1 (off 2))), (inv_rsS m K shrF c 1 2), Ps1_2, Zs1_2
  close_step (cel c (rsR 1 (off 2))), (inv_rsR m K shrF c 1 2), Pr1_2, Zr1_2
  close_step (cel c (agS 1 (off 2))), (inv_agS m K shrF c 1 2), Qs1_2, Zg1_2
  close_step (cel c (agR 1 (off 2))), (inv_agR m K shrF c 1 2), Qr1_2, Za1_2
  close_step (cel c (rsS 1 (off 3))), (inv_rsS m K shrF c 1 3), Ps1_3, Zs1_3
  close_step (cel c (rsR 1 (off 3))), (inv_rsR m K shrF c 1 3), Pr1_3, Zr1_3
  close_step (cel c (agS 1 (off 3))), (inv_agS m K shrF c 1 3), Qs1_3, Zg1_3
  close_step (cel c (agR 1 (off 3))), (inv_agR m K shrF c 1 3), Qr1_3, Za1_3
  close_step (cel c (rsS 1 (off 4))), (inv_rsS m K shrF c 1 4), Ps1_4, Zs1_4
  close_step (cel c (rsR 1 (off 4))), (inv_rsR m K shrF c 1 4), Pr1_4, Zr1_4
  close_step (cel c (agS 1 (off 4))), (inv_agS m K shrF c 1 4), Qs1_4, Zg1_4
  close_step (cel c (agR 1 (off 4))), (inv_agR m K shrF c 1 4), Qr1_4, Za1_4
  close_step (cel c (rsS 1 (off 5))), (inv_rsS m K shrF c 1 5), Ps1_5, Zs1_5
  close_step (cel c (rsR 1 (off 5))), (inv_rsR m K shrF c 1 5), Pr1_5, Zr1_5
  close_step (cel c (agS 1 (off 5))), (inv_agS m K shrF c 1 5), Qs1_5, Zg1_5
  close_step (cel c (agR 1 (off 5))), (inv_agR m K shrF c 1 5), Qr1_5, Za1_5
  close_step (cel c (rsS 1 (off 6))), (inv_rsS m K shrF c 1 6), Ps1_6, Zs1_6
  close_step (cel c (rsR 1 (off 6))), (inv_rsR m K shrF c 1 6), Pr1_6, Zr1_6
  close_step (cel c (agS 1 (off 6))), (inv_agS m K shrF c 1 6), Qs1_6, Zg1_6
  close_step (cel c (agR 1 (off 6))), (inv_agR m K shrF c 1 6), Qr1_6, Za1_6
  close_step (cel c (rsS 1 (off 7))), (inv_rsS m K shrF c 1 7), Ps1_7, Zs1_7
  close_step (cel c (rsR 1 (off 7))), (inv_rsR m K shrF c 1 7), Pr1_7, Zr1_7
  close_step (cel c (agS 1 (off 7))), (inv_agS m K shrF c 1 7), Qs1_7, Zg1_7
  close_step (cel c (agR 1 (off 7))), (inv_agR m K shrF c 1 7), Qr1_7, Za1_7
  close_step (cel c (rsS 1 (off 8))), (inv_rsS m K shrF c 1 8), Ps1_8, Zs1_8
  close_step (cel c (rsR 1 (off 8))), (inv_rsR m K shrF c 1 8), Pr1_8, Zr1_8
  close_step (cel c (agS 1 (off 8))), (inv_agS m K shrF c 1 8), Qs1_8, Zg1_8
  close_step (cel c (agR 1 (off 8))), (inv_agR m K shrF c 1 8), Qr1_8, Za1_8
  close_step (cel c (rsS 1 (off 9))), (inv_rsS m K shrF c 1 9), Ps1_9, Zs1_9
  close_step (cel c (rsR 1 (off 9))), (inv_rsR m K shrF c 1 9), Pr1_9, Zr1_9
  close_step (cel c (agS 1 (off 9))), (inv_agS m K shrF c 1 9), Qs1_9, Zg1_9
  close_step (cel c (agR 1 (off 9))), (inv_agR m K shrF c 1 9), Qr1_9, Za1_9
  close_step (cel c (rsS 1 (off 10))), (inv_rsS m K shrF c 1 10), Ps1_10, Zs1_10
  close_step (cel c (rsR 1 (off 10))), (inv_rsR m K shrF c 1 10), Pr1_10, Zr1_10
  close_step (cel c (agS 1 (off 10))), (inv_agS m K shrF c 1 10), Qs1_10, Zg1_10
  close_step (cel c (agR 1 (off 10))), (inv_agR m K shrF c 1 10), Qr1_10, Za1_10
  close_step (cel c (rsS 1 (off 11))), (inv_rsS m K shrF c 1 11), Ps1_11, Zs1_11
  close_step (cel c (rsR 1 (off 11))), (inv_rsR m K shrF c 1 11), Pr1_11, Zr1_11
  close_step (cel c (agS 1 (off 11))), (inv_agS m K shrF c 1 11), Qs1_11, Zg1_11
  close_step (cel c (agR 1 (off 11))), (inv_agR m K shrF c 1 11), Qr1_11, Za1_11
  close_step (cel c (rsS 1 (off 12))), (inv_rsS m K shrF c 1 12), Ps1_12, Zs1_12
  close_step (cel c (rsR 1 (off 12))), (inv_rsR m K shrF c 1 12), Pr1_12, Zr1_12
  close_step (cel c (agS 1 (off 12))), (inv_agS m K shrF c 1 12), Qs1_12, Zg1_12
  close_step (cel c (agR 1 (off 12))), (inv_agR m K shrF c 1 12), Qr1_12, Za1_12
  close_step (cel c (rsS 1 (off 13))), (inv_rsS m K shrF c 1 13), Ps1_13, Zs1_13
  close_step (cel c (rsR 1 (off 13))), (inv_rsR m K shrF c 1 13), Pr1_13, Zr1_13
  close_step (cel c (agS 1 (off 13))), (inv_agS m K shrF c 1 13), Qs1_13, Zg1_13
  close_step (cel c (agR 1 (off 13))), (inv_agR m K shrF c 1 13), Qr1_13, Za1_13
  close_step (cel c (rsS 1 (off 14))), (inv_rsS m K shrF c 1 14), Ps1_14, Zs1_14
  close_step (cel c (rsR 1 (off 14))), (inv_rsR m K shrF c 1 14), Pr1_14, Zr1_14
  close_step (cel c (agS 1 (off 14))), (inv_agS m K shrF c 1 14), Qs1_14, Zg1_14
  close_step (cel c (agR 1 (off 14))), (inv_agR m K shrF c 1 14), Qr1_14, Za1_14
  -- the buffers joined again
  ihave Hpb := (pb_unlist' m c) $$ [Sb0_0 Sb0_1 Sb0_2 Sb0_3 Sb0_4 Sb0_5 Sb0_6 Sb0_7 Sb0_8 Sb0_9 Sb0_10 Sb0_11 Sb0_12 Sb0_13 Sb0_14 Sb1_0 Sb1_1 Sb1_2 Sb1_3 Sb1_4 Sb1_5 Sb1_6 Sb1_7 Sb1_8 Sb1_9 Sb1_10 Sb1_11 Sb1_12 Sb1_13 Sb1_14 HownPb0 HownPb1]
  · isplitl [Sb0_0 Sb0_1 Sb0_2 Sb0_3 Sb0_4 Sb0_5 Sb0_6 Sb0_7 Sb0_8 Sb0_9 Sb0_10 Sb0_11 Sb0_12 Sb0_13 Sb0_14 Sb1_0 Sb1_1 Sb1_2 Sb1_3 Sb1_4 Sb1_5 Sb1_6 Sb1_7 Sb1_8 Sb1_9 Sb1_10 Sb1_11 Sb1_12 Sb1_13 Sb1_14]
    · isplitl [Sb0_0 Sb0_1 Sb0_2 Sb0_3 Sb0_4 Sb0_5 Sb0_6 Sb0_7 Sb0_8 Sb0_9 Sb0_10 Sb0_11 Sb0_12 Sb0_13 Sb0_14]
      · isplitl [Sb0_0]
        · iexact Sb0_0
        isplitl [Sb0_1]
        · iexact Sb0_1
        isplitl [Sb0_2]
        · iexact Sb0_2
        isplitl [Sb0_3]
        · iexact Sb0_3
        isplitl [Sb0_4]
        · iexact Sb0_4
        isplitl [Sb0_5]
        · iexact Sb0_5
        isplitl [Sb0_6]
        · iexact Sb0_6
        isplitl [Sb0_7]
        · iexact Sb0_7
        isplitl [Sb0_8]
        · iexact Sb0_8
        isplitl [Sb0_9]
        · iexact Sb0_9
        isplitl [Sb0_10]
        · iexact Sb0_10
        isplitl [Sb0_11]
        · iexact Sb0_11
        isplitl [Sb0_12]
        · iexact Sb0_12
        isplitl [Sb0_13]
        · iexact Sb0_13
        iexact Sb0_14
      isplitl [Sb1_0]
      · iexact Sb1_0
      isplitl [Sb1_1]
      · iexact Sb1_1
      isplitl [Sb1_2]
      · iexact Sb1_2
      isplitl [Sb1_3]
      · iexact Sb1_3
      isplitl [Sb1_4]
      · iexact Sb1_4
      isplitl [Sb1_5]
      · iexact Sb1_5
      isplitl [Sb1_6]
      · iexact Sb1_6
      isplitl [Sb1_7]
      · iexact Sb1_7
      isplitl [Sb1_8]
      · iexact Sb1_8
      isplitl [Sb1_9]
      · iexact Sb1_9
      isplitl [Sb1_10]
      · iexact Sb1_10
      isplitl [Sb1_11]
      · iexact Sb1_11
      isplitl [Sb1_12]
      · iexact Sb1_12
      isplitl [Sb1_13]
      · iexact Sb1_13
      iexact Sb1_14
    isplitl [HownPb0]
    · iexact HownPb0
    iexact HownPb1
  ihave Hrsj := (rs_unlist' m c frs) $$ [Ld0_0 Ld0_1 Ld0_2 Ld0_3 Ld0_4 Ld0_5 Ld0_6 Ld0_7 Ld0_8 Ld0_9 Ld0_10 Ld0_11 Ld0_12 Ld0_13 Ld0_14 Ld1_0 Ld1_1 Ld1_2 Ld1_3 Ld1_4 Ld1_5 Ld1_6 Ld1_7 Ld1_8 Ld1_9 Ld1_10 Ld1_11 Ld1_12 Ld1_13 Ld1_14 Hslot00 Hslot10]
  · isplitl [Ld0_0 Ld0_1 Ld0_2 Ld0_3 Ld0_4 Ld0_5 Ld0_6 Ld0_7 Ld0_8 Ld0_9 Ld0_10 Ld0_11 Ld0_12 Ld0_13 Ld0_14 Ld1_0 Ld1_1 Ld1_2 Ld1_3 Ld1_4 Ld1_5 Ld1_6 Ld1_7 Ld1_8 Ld1_9 Ld1_10 Ld1_11 Ld1_12 Ld1_13 Ld1_14]
    · isplitl [Ld0_0 Ld0_1 Ld0_2 Ld0_3 Ld0_4 Ld0_5 Ld0_6 Ld0_7 Ld0_8 Ld0_9 Ld0_10 Ld0_11 Ld0_12 Ld0_13 Ld0_14]
      · isplitl [Ld0_0]
        · iexact Ld0_0
        isplitl [Ld0_1]
        · iexact Ld0_1
        isplitl [Ld0_2]
        · iexact Ld0_2
        isplitl [Ld0_3]
        · iexact Ld0_3
        isplitl [Ld0_4]
        · iexact Ld0_4
        isplitl [Ld0_5]
        · iexact Ld0_5
        isplitl [Ld0_6]
        · iexact Ld0_6
        isplitl [Ld0_7]
        · iexact Ld0_7
        isplitl [Ld0_8]
        · iexact Ld0_8
        isplitl [Ld0_9]
        · iexact Ld0_9
        isplitl [Ld0_10]
        · iexact Ld0_10
        isplitl [Ld0_11]
        · iexact Ld0_11
        isplitl [Ld0_12]
        · iexact Ld0_12
        isplitl [Ld0_13]
        · iexact Ld0_13
        iexact Ld0_14
      isplitl [Ld1_0]
      · iexact Ld1_0
      isplitl [Ld1_1]
      · iexact Ld1_1
      isplitl [Ld1_2]
      · iexact Ld1_2
      isplitl [Ld1_3]
      · iexact Ld1_3
      isplitl [Ld1_4]
      · iexact Ld1_4
      isplitl [Ld1_5]
      · iexact Ld1_5
      isplitl [Ld1_6]
      · iexact Ld1_6
      isplitl [Ld1_7]
      · iexact Ld1_7
      isplitl [Ld1_8]
      · iexact Ld1_8
      isplitl [Ld1_9]
      · iexact Ld1_9
      isplitl [Ld1_10]
      · iexact Ld1_10
      isplitl [Ld1_11]
      · iexact Ld1_11
      isplitl [Ld1_12]
      · iexact Ld1_12
      isplitl [Ld1_13]
      · iexact Ld1_13
      iexact Ld1_14
    isplitl [Hslot00]
    · iexact Hslot00
    iexact Hslot10
  ihave HoutC0 := (shares_unlist c 0 (outFull m)) $$ [Shb0_0 Shb0_1 Shb0_2 Shb0_3 Shb0_4 Shb0_5 Shb0_6 Shb0_7 Shb0_8 Shb0_9 Shb0_10 Shb0_11 Shb0_12 Shb0_13 Shb0_14]
  · isplitl [Shb0_0]
    · iexact Shb0_0
    isplitl [Shb0_1]
    · iexact Shb0_1
    isplitl [Shb0_2]
    · iexact Shb0_2
    isplitl [Shb0_3]
    · iexact Shb0_3
    isplitl [Shb0_4]
    · iexact Shb0_4
    isplitl [Shb0_5]
    · iexact Shb0_5
    isplitl [Shb0_6]
    · iexact Shb0_6
    isplitl [Shb0_7]
    · iexact Shb0_7
    isplitl [Shb0_8]
    · iexact Shb0_8
    isplitl [Shb0_9]
    · iexact Shb0_9
    isplitl [Shb0_10]
    · iexact Shb0_10
    isplitl [Shb0_11]
    · iexact Shb0_11
    isplitl [Shb0_12]
    · iexact Shb0_12
    isplitl [Shb0_13]
    · iexact Shb0_13
    iexact Shb0_14
  ihave HoutC1 := (shares_unlist c 1 (outFull m)) $$ [Shb1_0 Shb1_1 Shb1_2 Shb1_3 Shb1_4 Shb1_5 Shb1_6 Shb1_7 Shb1_8 Shb1_9 Shb1_10 Shb1_11 Shb1_12 Shb1_13 Shb1_14]
  · isplitl [Shb1_0]
    · iexact Shb1_0
    isplitl [Shb1_1]
    · iexact Shb1_1
    isplitl [Shb1_2]
    · iexact Shb1_2
    isplitl [Shb1_3]
    · iexact Shb1_3
    isplitl [Shb1_4]
    · iexact Shb1_4
    isplitl [Shb1_5]
    · iexact Shb1_5
    isplitl [Shb1_6]
    · iexact Shb1_6
    isplitl [Shb1_7]
    · iexact Shb1_7
    isplitl [Shb1_8]
    · iexact Shb1_8
    isplitl [Shb1_9]
    · iexact Shb1_9
    isplitl [Shb1_10]
    · iexact Shb1_10
    isplitl [Shb1_11]
    · iexact Shb1_11
    isplitl [Shb1_12]
    · iexact Shb1_12
    isplitl [Shb1_13]
    · iexact Shb1_13
    iexact Shb1_14
  ihave Hout := (out_unlist m c) $$ [Ag0_0 Ag0_1 Ag0_2 Ag0_3 Ag0_4 Ag0_5 Ag0_6 Ag0_7 Ag0_8 Ag0_9 Ag0_10 Ag0_11 Ag0_12 Ag0_13 Ag0_14 Ag1_0 Ag1_1 Ag1_2 Ag1_3 Ag1_4 Ag1_5 Ag1_6 Ag1_7 Ag1_8 Ag1_9 Ag1_10 Ag1_11 Ag1_12 Ag1_13 Ag1_14 HoutC0 HoutC1]
  · isplitl [Ag0_0 Ag0_1 Ag0_2 Ag0_3 Ag0_4 Ag0_5 Ag0_6 Ag0_7 Ag0_8 Ag0_9 Ag0_10 Ag0_11 Ag0_12 Ag0_13 Ag0_14 Ag1_0 Ag1_1 Ag1_2 Ag1_3 Ag1_4 Ag1_5 Ag1_6 Ag1_7 Ag1_8 Ag1_9 Ag1_10 Ag1_11 Ag1_12 Ag1_13 Ag1_14]
    · isplitl [Ag0_0 Ag0_1 Ag0_2 Ag0_3 Ag0_4 Ag0_5 Ag0_6 Ag0_7 Ag0_8 Ag0_9 Ag0_10 Ag0_11 Ag0_12 Ag0_13 Ag0_14]
      · isplitl [Ag0_0]
        · iexact Ag0_0
        isplitl [Ag0_1]
        · iexact Ag0_1
        isplitl [Ag0_2]
        · iexact Ag0_2
        isplitl [Ag0_3]
        · iexact Ag0_3
        isplitl [Ag0_4]
        · iexact Ag0_4
        isplitl [Ag0_5]
        · iexact Ag0_5
        isplitl [Ag0_6]
        · iexact Ag0_6
        isplitl [Ag0_7]
        · iexact Ag0_7
        isplitl [Ag0_8]
        · iexact Ag0_8
        isplitl [Ag0_9]
        · iexact Ag0_9
        isplitl [Ag0_10]
        · iexact Ag0_10
        isplitl [Ag0_11]
        · iexact Ag0_11
        isplitl [Ag0_12]
        · iexact Ag0_12
        isplitl [Ag0_13]
        · iexact Ag0_13
        iexact Ag0_14
      isplitl [Ag1_0]
      · iexact Ag1_0
      isplitl [Ag1_1]
      · iexact Ag1_1
      isplitl [Ag1_2]
      · iexact Ag1_2
      isplitl [Ag1_3]
      · iexact Ag1_3
      isplitl [Ag1_4]
      · iexact Ag1_4
      isplitl [Ag1_5]
      · iexact Ag1_5
      isplitl [Ag1_6]
      · iexact Ag1_6
      isplitl [Ag1_7]
      · iexact Ag1_7
      isplitl [Ag1_8]
      · iexact Ag1_8
      isplitl [Ag1_9]
      · iexact Ag1_9
      isplitl [Ag1_10]
      · iexact Ag1_10
      isplitl [Ag1_11]
      · iexact Ag1_11
      isplitl [Ag1_12]
      · iexact Ag1_12
      isplitl [Ag1_13]
      · iexact Ag1_13
      iexact Ag1_14
    isplitl [HoutC0]
    · iexact HoutC0
    iexact HoutC1
  ihave Hsems := (sems_unlist c) $$ [Hidle Zs0_0 Zr0_0 Zg0_0 Za0_0 Zs0_1 Zr0_1 Zg0_1 Za0_1 Zs0_2 Zr0_2 Zg0_2 Za0_2 Zs0_3 Zr0_3 Zg0_3 Za0_3 Zs0_4 Zr0_4 Zg0_4 Za0_4 Zs0_5 Zr0_5 Zg0_5 Za0_5 Zs0_6 Zr0_6 Zg0_6 Za0_6 Zs0_7 Zr0_7 Zg0_7 Za0_7 Zs0_8 Zr0_8 Zg0_8 Za0_8 Zs0_9 Zr0_9 Zg0_9 Za0_9 Zs0_10 Zr0_10 Zg0_10 Za0_10 Zs0_11 Zr0_11 Zg0_11 Za0_11 Zs0_12 Zr0_12 Zg0_12 Za0_12 Zs0_13 Zr0_13 Zg0_13 Za0_13 Zs0_14 Zr0_14 Zg0_14 Za0_14 Zs1_0 Zr1_0 Zg1_0 Za1_0 Zs1_1 Zr1_1 Zg1_1 Za1_1 Zs1_2 Zr1_2 Zg1_2 Za1_2 Zs1_3 Zr1_3 Zg1_3 Za1_3 Zs1_4 Zr1_4 Zg1_4 Za1_4 Zs1_5 Zr1_5 Zg1_5 Za1_5 Zs1_6 Zr1_6 Zg1_6 Za1_6 Zs1_7 Zr1_7 Zg1_7 Za1_7 Zs1_8 Zr1_8 Zg1_8 Za1_8 Zs1_9 Zr1_9 Zg1_9 Za1_9 Zs1_10 Zr1_10 Zg1_10 Za1_10 Zs1_11 Zr1_11 Zg1_11 Za1_11 Zs1_12 Zr1_12 Zg1_12 Za1_12 Zs1_13 Zr1_13 Zg1_13 Za1_13 Zs1_14 Zr1_14 Zg1_14 Za1_14]
  · isplitl [Hidle]
    · iexact Hidle
    isplitl [Zs0_0 Zr0_0 Zg0_0 Za0_0 Zs0_1 Zr0_1 Zg0_1 Za0_1 Zs0_2 Zr0_2 Zg0_2 Za0_2 Zs0_3 Zr0_3 Zg0_3 Za0_3 Zs0_4 Zr0_4 Zg0_4 Za0_4 Zs0_5 Zr0_5 Zg0_5 Za0_5 Zs0_6 Zr0_6 Zg0_6 Za0_6 Zs0_7 Zr0_7 Zg0_7 Za0_7 Zs0_8 Zr0_8 Zg0_8 Za0_8 Zs0_9 Zr0_9 Zg0_9 Za0_9 Zs0_10 Zr0_10 Zg0_10 Za0_10 Zs0_11 Zr0_11 Zg0_11 Za0_11 Zs0_12 Zr0_12 Zg0_12 Za0_12 Zs0_13 Zr0_13 Zg0_13 Za0_13 Zs0_14 Zr0_14 Zg0_14 Za0_14]
    · isplitl [Zs0_0 Zr0_0 Zg0_0 Za0_0]
      · isplitl [Zs0_0]
        · iexact Zs0_0
        isplitl [Zr0_0]
        · iexact Zr0_0
        isplitl [Zg0_0]
        · iexact Zg0_0
        iexact Za0_0
      isplitl [Zs0_1 Zr0_1 Zg0_1 Za0_1]
      · isplitl [Zs0_1]
        · iexact Zs0_1
        isplitl [Zr0_1]
        · iexact Zr0_1
        isplitl [Zg0_1]
        · iexact Zg0_1
        iexact Za0_1
      isplitl [Zs0_2 Zr0_2 Zg0_2 Za0_2]
      · isplitl [Zs0_2]
        · iexact Zs0_2
        isplitl [Zr0_2]
        · iexact Zr0_2
        isplitl [Zg0_2]
        · iexact Zg0_2
        iexact Za0_2
      isplitl [Zs0_3 Zr0_3 Zg0_3 Za0_3]
      · isplitl [Zs0_3]
        · iexact Zs0_3
        isplitl [Zr0_3]
        · iexact Zr0_3
        isplitl [Zg0_3]
        · iexact Zg0_3
        iexact Za0_3
      isplitl [Zs0_4 Zr0_4 Zg0_4 Za0_4]
      · isplitl [Zs0_4]
        · iexact Zs0_4
        isplitl [Zr0_4]
        · iexact Zr0_4
        isplitl [Zg0_4]
        · iexact Zg0_4
        iexact Za0_4
      isplitl [Zs0_5 Zr0_5 Zg0_5 Za0_5]
      · isplitl [Zs0_5]
        · iexact Zs0_5
        isplitl [Zr0_5]
        · iexact Zr0_5
        isplitl [Zg0_5]
        · iexact Zg0_5
        iexact Za0_5
      isplitl [Zs0_6 Zr0_6 Zg0_6 Za0_6]
      · isplitl [Zs0_6]
        · iexact Zs0_6
        isplitl [Zr0_6]
        · iexact Zr0_6
        isplitl [Zg0_6]
        · iexact Zg0_6
        iexact Za0_6
      isplitl [Zs0_7 Zr0_7 Zg0_7 Za0_7]
      · isplitl [Zs0_7]
        · iexact Zs0_7
        isplitl [Zr0_7]
        · iexact Zr0_7
        isplitl [Zg0_7]
        · iexact Zg0_7
        iexact Za0_7
      isplitl [Zs0_8 Zr0_8 Zg0_8 Za0_8]
      · isplitl [Zs0_8]
        · iexact Zs0_8
        isplitl [Zr0_8]
        · iexact Zr0_8
        isplitl [Zg0_8]
        · iexact Zg0_8
        iexact Za0_8
      isplitl [Zs0_9 Zr0_9 Zg0_9 Za0_9]
      · isplitl [Zs0_9]
        · iexact Zs0_9
        isplitl [Zr0_9]
        · iexact Zr0_9
        isplitl [Zg0_9]
        · iexact Zg0_9
        iexact Za0_9
      isplitl [Zs0_10 Zr0_10 Zg0_10 Za0_10]
      · isplitl [Zs0_10]
        · iexact Zs0_10
        isplitl [Zr0_10]
        · iexact Zr0_10
        isplitl [Zg0_10]
        · iexact Zg0_10
        iexact Za0_10
      isplitl [Zs0_11 Zr0_11 Zg0_11 Za0_11]
      · isplitl [Zs0_11]
        · iexact Zs0_11
        isplitl [Zr0_11]
        · iexact Zr0_11
        isplitl [Zg0_11]
        · iexact Zg0_11
        iexact Za0_11
      isplitl [Zs0_12 Zr0_12 Zg0_12 Za0_12]
      · isplitl [Zs0_12]
        · iexact Zs0_12
        isplitl [Zr0_12]
        · iexact Zr0_12
        isplitl [Zg0_12]
        · iexact Zg0_12
        iexact Za0_12
      isplitl [Zs0_13 Zr0_13 Zg0_13 Za0_13]
      · isplitl [Zs0_13]
        · iexact Zs0_13
        isplitl [Zr0_13]
        · iexact Zr0_13
        isplitl [Zg0_13]
        · iexact Zg0_13
        iexact Za0_13
      isplitl [Zs0_14]
      · iexact Zs0_14
      isplitl [Zr0_14]
      · iexact Zr0_14
      isplitl [Zg0_14]
      · iexact Zg0_14
      iexact Za0_14
    isplitl [Zs1_0 Zr1_0 Zg1_0 Za1_0]
    · isplitl [Zs1_0]
      · iexact Zs1_0
      isplitl [Zr1_0]
      · iexact Zr1_0
      isplitl [Zg1_0]
      · iexact Zg1_0
      iexact Za1_0
    isplitl [Zs1_1 Zr1_1 Zg1_1 Za1_1]
    · isplitl [Zs1_1]
      · iexact Zs1_1
      isplitl [Zr1_1]
      · iexact Zr1_1
      isplitl [Zg1_1]
      · iexact Zg1_1
      iexact Za1_1
    isplitl [Zs1_2 Zr1_2 Zg1_2 Za1_2]
    · isplitl [Zs1_2]
      · iexact Zs1_2
      isplitl [Zr1_2]
      · iexact Zr1_2
      isplitl [Zg1_2]
      · iexact Zg1_2
      iexact Za1_2
    isplitl [Zs1_3 Zr1_3 Zg1_3 Za1_3]
    · isplitl [Zs1_3]
      · iexact Zs1_3
      isplitl [Zr1_3]
      · iexact Zr1_3
      isplitl [Zg1_3]
      · iexact Zg1_3
      iexact Za1_3
    isplitl [Zs1_4 Zr1_4 Zg1_4 Za1_4]
    · isplitl [Zs1_4]
      · iexact Zs1_4
      isplitl [Zr1_4]
      · iexact Zr1_4
      isplitl [Zg1_4]
      · iexact Zg1_4
      iexact Za1_4
    isplitl [Zs1_5 Zr1_5 Zg1_5 Za1_5]
    · isplitl [Zs1_5]
      · iexact Zs1_5
      isplitl [Zr1_5]
      · iexact Zr1_5
      isplitl [Zg1_5]
      · iexact Zg1_5
      iexact Za1_5
    isplitl [Zs1_6 Zr1_6 Zg1_6 Za1_6]
    · isplitl [Zs1_6]
      · iexact Zs1_6
      isplitl [Zr1_6]
      · iexact Zr1_6
      isplitl [Zg1_6]
      · iexact Zg1_6
      iexact Za1_6
    isplitl [Zs1_7 Zr1_7 Zg1_7 Za1_7]
    · isplitl [Zs1_7]
      · iexact Zs1_7
      isplitl [Zr1_7]
      · iexact Zr1_7
      isplitl [Zg1_7]
      · iexact Zg1_7
      iexact Za1_7
    isplitl [Zs1_8 Zr1_8 Zg1_8 Za1_8]
    · isplitl [Zs1_8]
      · iexact Zs1_8
      isplitl [Zr1_8]
      · iexact Zr1_8
      isplitl [Zg1_8]
      · iexact Zg1_8
      iexact Za1_8
    isplitl [Zs1_9 Zr1_9 Zg1_9 Za1_9]
    · isplitl [Zs1_9]
      · iexact Zs1_9
      isplitl [Zr1_9]
      · iexact Zr1_9
      isplitl [Zg1_9]
      · iexact Zg1_9
      iexact Za1_9
    isplitl [Zs1_10 Zr1_10 Zg1_10 Za1_10]
    · isplitl [Zs1_10]
      · iexact Zs1_10
      isplitl [Zr1_10]
      · iexact Zr1_10
      isplitl [Zg1_10]
      · iexact Zg1_10
      iexact Za1_10
    isplitl [Zs1_11 Zr1_11 Zg1_11 Za1_11]
    · isplitl [Zs1_11]
      · iexact Zs1_11
      isplitl [Zr1_11]
      · iexact Zr1_11
      isplitl [Zg1_11]
      · iexact Zg1_11
      iexact Za1_11
    isplitl [Zs1_12 Zr1_12 Zg1_12 Za1_12]
    · isplitl [Zs1_12]
      · iexact Zs1_12
      isplitl [Zr1_12]
      · iexact Zr1_12
      isplitl [Zg1_12]
      · iexact Zg1_12
      iexact Za1_12
    isplitl [Zs1_13 Zr1_13 Zg1_13 Za1_13]
    · isplitl [Zs1_13]
      · iexact Zs1_13
      isplitl [Zr1_13]
      · iexact Zr1_13
      isplitl [Zg1_13]
      · iexact Zg1_13
      iexact Za1_13
    isplitl [Zs1_14]
    · iexact Zs1_14
    isplitl [Zr1_14]
    · iexact Zr1_14
    isplitl [Zg1_14]
    · iexact Zg1_14
    iexact Za1_14
  -- the body returns; what the pipeline's flush needs is in hand
  sl_step
  iapply Hk
  unfold bodyPost Φ₁ scratches stgM Dat.owesAt Pipeline.owesWithin
  rw [show (dats m shrF 0 c).owed t₀.succ = 0 from rfl]
  isplitl [Hpb Hbb Hrsj Hsems]
  · isplitl [Hpb Hbb Hrsj]
    · isplitl [Hpb]; · iexists _; iexact Hpb
      isplitl [Hbb]; · iexists _; iexact Hbb
      iexact Hrsj
    · iexact Hsems
  isplitl [HO]
  · iexists _
    isplitr
    rotate_left
    · iexact HO
    · ipureintro; exact fun _ _ => Or.inl trivial
  isplitl [Ha]
  · iexists _; isplitr; · (ipureintro; rfl)
    iexact Ha
  isplitl [Hb]
  · iexists _; isplitr; · (ipureintro; rfl)
    iexact Hb
  iexists _; isplitr; · (ipureintro; rfl)
  iexact Hout

end Cert.Kernel.Pr
end
-- ==== Proof.Bits.BodyOb.lean ====
/-
  One device's body, run from what it starts from to what it ends with, is the pipeline's body obligation at the one
  grid point. The three windows' staging buffers are whole buffers, so owning one at given contents is the points-to
  of the whole buffer at those contents; the two input buffers and the first two scratch buffers are the buffers the
  body's named views are views of. What the pipeline hands the body (the launch invariant, what the device owes, the
  three staging buffers as the pipeline left them) is then the body's start, the names of the ghost state chosen;
  and the body's end (the exit invariant, nothing owed, the two inputs as fetched and the result's buffer at the
  whole result) is what the pipeline takes back.
-/
import proofs.«900888_g7700000000000889_dist_matmul_k_i_m768_n768_k384_v7x_i16_bf16_1_alg».proof.Proof.Bits.BodyDefs
import proofs.«900888_g7700000000000889_dist_matmul_k_i_m768_n768_k384_v7x_i16_bf16_1_alg».proof.Proof.Gen.Kernel.Launch
import proofs.«900888_g7700000000000889_dist_matmul_k_i_m768_n768_k384_v7x_i16_bf16_1_alg».proof.Proof.Gen.Kernel.Frame

noncomputable section
namespace Cert.Kernel.Pr
open Cert.Kernel Cert.Kernel.Gen Cert.Kernel.Geo Cert.Kernel.Vals
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Owning a whole buffer at contents X: the points-to of the buffer at X. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the pipeline hands the body at the one point, the staging buffers through the body's named views. -/
def bodyPre' (c : Dev nD) : sProp 𝕄 :=
  iprop((((∃ K, ghost m shrF K c) ∗ creds c ∗ idle c ∗ levAts L lv) ∗ scratchesM c)
    ∗ (dats m shrF 0 c).owesAt () t₀.castSucc
    ∗ (∃ d, stgM c aM ((dats m shrF 0 c).before (0 : Fin 3) t₀ d))
    ∗ (∃ d, stgM c bM ((dats m shrF 0 c).before (1 : Fin 3) t₀ d))
    ∗ (∃ d f : Buf (Elt F) ((c : Thread nD τ).loc cc0_stg2_0), ⌜f = (dats m shrF 0 c).before (2 : Fin 3) t₀ d⌝ ∗ (((c : Thread nD τ).loc cc0_stg2_0) ↦{fullShare} f)))

-- the two spellings of a staging buffer are compared through its extents, 768 rows walked a unit at a time
set_option maxRecDepth 16384 in
/-- The pipeline's body obligation on device c, from the body's run. -/
theorem body_obligation_of (hs : SoundBody (F := F) m) (c : Dev nD) :
    BodyObligation (dats (F := F) m shrF 0 c) (defs₀ (F := F)) Variants.none () Set.univ := fun t => by
  rw [fin_N t]
  rw [bigSep_W0, bigSep_W0]
  simp only [owns_whole_eq]
  show bodyPre' m c ⊢ wp frame (wpE (defs₀ (F := F)) Variants.none (c : Thread nD τ) none) Set.univ (theBody (F := F)) (fun _ => bodyPost m c)
  unfold bodyPre'
  iintro ⟨⟨⟨⟨%K, Hg⟩, Hrest⟩, Hscr⟩, Ho, Hx, Hy, Hout⟩
  iapply (hs K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hy]; · iexact Hy
    iexact Hout
  · iintro H; iexact H

/-- info: 'Cert.Kernel.Pr.body_obligation_of' depends on axioms: [propext, Classical.choice, Quot.sound] -/
#guard_msgs in #print axioms body_obligation_of

end Cert.Kernel.Pr
end
-- ==== Proof.lean ====
/-
  A 768 x 6144 matrix A times a 6144 x 768 matrix B, the contraction cut over a ring of sixteen devices.

  Device u holds block u of each matrix: columns 384u .. 384u+383 of A (768 x 384) and rows 384u .. 384u+383 of B
  (384 x 768). It forms the partial product P_u = A_u B_u, a 768 x 768 matrix. The 768 rows of the result are cut
  into sixteen chunks of 48 rows, chunk d belonging to device d, each chunk in two halves of 24 rows. Device u
  sends, to the device j places ahead of it on the ring (j = 1 .. 15), the rows of P_u that lie in that device's
  chunk; device d adds, to its own rows of P_d, the fifteen pieces it receives, the piece in slot j coming from the
  device j places behind it. What d forms for its chunk is therefore the sum over all sixteen devices u of the rows
  of P_u in chunk d, the terms taken in an order rotated by d. It then sends each finished half of its chunk to
  every other device, so that every device ends holding all 768 rows: the whole of the sum of the sixteen partial
  products.

  At the ideal values (floats are extended reals, the arithmetic exact, the changes of format between 32-bit and
  16-bit floats the identity) addition is commutative and associative. So sixteen terms added in rotated order are
  their sum (Spec.rot_sum), and a sum over sixteen runs of 384 consecutive contracted positions is the sum over
  all 6144 of them (Spec.sum_split): the sum over u of A_u B_u is A B, entry by entry, which is what the reference
  computes on the whole matrices (Value.outFull_eq on the kernel's side, Ref.run_ref on the reference's). Nothing
  else about the extended reals is used; in particular not that the inputs are finite.

  Why every execution ends with that result, in whatever order the devices' steps are taken. Before its first copy
  into another device's memory a device has heard from every other device: each signals each of the other
  fifteen once on entry and waits for its own fifteen. Each receive slot, and each half-chunk of the result on a
  device other than its owner, is written by exactly one copy and read only after the wait on that copy's receive
  semaphore; the source of a copy is not stored to while the copy is pending; and a device waits only on a
  semaphore whose level lies strictly below everything the device still owes the others: the send semaphores and
  the pipeline's own staging semaphores at level 0, where nothing a device owes another ever sits, the entry
  semaphore at level 1, the receive semaphores of the reduction at level 2, those of the spreading at level 3
  (Owed). The run so obtained names each device's result as a pure
  term of the launch memory and leaves both arguments as they were (Launch.run_main, from one device's body run at
  a symbolic place on the ring, Body.sound_body, handed to the pipeline by BodyOb.body_obligation_of).

  The five conjuncts. The run is proved once, for any float instance. Read at the machine's words it gives the
  kernel's frame; read at the extended reals it gives the idealized kernel's frame, each with the value dropped;
  the reference's frame is its own run with the value dropped. The idealized kernel is the kernel's own text read
  at the ideal values, no operation rewritten, so there is nothing to preserve. The algebraic conjunct is the
  ideal run on both sides with the common value the product A B.
-/
import proofs.«900888_g7700000000000889_dist_matmul_k_i_m768_n768_k384_v7x_i16_bf16_1_alg».proof.Defs
import proofs.«900888_g7700000000000889_dist_matmul_k_i_m768_n768_k384_v7x_i16_bf16_1_alg».proof.Proof.Gen.Kernel
import proofs.«900888_g7700000000000889_dist_matmul_k_i_m768_n768_k384_v7x_i16_bf16_1_alg».proof.Proof.Gen.Kernel.Skeleton
import proofs.«900888_g7700000000000889_dist_matmul_k_i_m768_n768_k384_v7x_i16_bf16_1_alg».proof.Proof.Gen.Kernel.Launch
import proofs.«900888_g7700000000000889_dist_matmul_k_i_m768_n768_k384_v7x_i16_bf16_1_alg».proof.Proof.Gen.Kernel.Points
import proofs.«900888_g7700000000000889_dist_matmul_k_i_m768_n768_k384_v7x_i16_bf16_1_alg».proof.Proof.Gen.Kernel.Frame
import proofs.«900888_g7700000000000889_dist_matmul_k_i_m768_n768_k384_v7x_i16_bf16_1_alg».proof.Proof.Gen.KernelIdeal
import proofs.«900888_g7700000000000889_dist_matmul_k_i_m768_n768_k384_v7x_i16_bf16_1_alg».proof.Proof.Gen.KernelIdeal.Skeleton
import proofs.«900888_g7700000000000889_dist_matmul_k_i_m768_n768_k384_v7x_i16_bf16_1_alg».proof.Proof.Gen.KernelIdeal.Launch
import proofs.«900888_g7700000000000889_dist_matmul_k_i_m768_n768_k384_v7x_i16_bf16_1_alg».proof.Proof.Gen.KernelIdeal.Points
import proofs.«900888_g7700000000000889_dist_matmul_k_i_m768_n768_k384_v7x_i16_bf16_1_alg».proof.Proof.Gen.KernelIdeal.Frame
import proofs.«900888_g7700000000000889_dist_matmul_k_i_m768_n768_k384_v7x_i16_bf16_1_alg».proof.Proof.Gen.ReferenceIdeal
import proofs.«900888_g7700000000000889_dist_matmul_k_i_m768_n768_k384_v7x_i16_bf16_1_alg».proof.Proof.Gen.Pre_finite_inputs_Kernel
import proofs.«900888_g7700000000000889_dist_matmul_k_i_m768_n768_k384_v7x_i16_bf16_1_alg».proof.Proof.Gen.Pre_finite_inputs_ReferenceIdeal
import proofs.«900888_g7700000000000889_dist_matmul_k_i_m768_n768_k384_v7x_i16_bf16_1_alg».proof.Proof.Asm
import proofs.«900888_g7700000000000889_dist_matmul_k_i_m768_n768_k384_v7x_i16_bf16_1_alg».proof.Proof.Body
import proofs.«900888_g7700000000000889_dist_matmul_k_i_m768_n768_k384_v7x_i16_bf16_1_alg».proof.Proof.BodyOb
import proofs.«900888_g7700000000000889_dist_matmul_k_i_m768_n768_k384_v7x_i16_bf16_1_alg».proof.Proof.Bits.Body
import proofs.«900888_g7700000000000889_dist_matmul_k_i_m768_n768_k384_v7x_i16_bf16_1_alg».proof.Proof.Bits.BodyOb
import Idealize.ShloMosaic.Adequacy
import Idealize.ShloMosaic.Init

noncomputable section

namespace Cert.Proof

open Idealize.ShloMosaic Idealize.SL.Sem

/-- The kernel as printed, at the machine's words: it runs to the end and its arguments end unchanged. -/
theorem frame_Kernel : Cert.frame_Kernel :=
  Asm.frame_p_of fun m c => Cert.Kernel.Pr.body_obligation_of m (Cert.Kernel.Pr.sound_body m) c

/-- The kernel read at the ideal values: it runs to the end and its arguments end unchanged. -/
theorem frame_KernelIdeal : Cert.frame_KernelIdeal :=
  Asm.frame_pi_of fun m c => Cert.KernelIdeal.Pr.body_obligation_of m (Cert.KernelIdeal.Pr.sound_body m) c

/-- At the ideal values, each device holding its blocks of A and B: every device and the reference end with A B. -/
theorem algebraic : Cert.algebraic_KernelIdeal_ReferenceIdeal :=
  Asm.algebraic_of fun m c => Cert.KernelIdeal.Pr.body_obligation_of m (Cert.KernelIdeal.Pr.sound_body m) c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, Cert.Proof.Ref.frame_ri, trivial, algebraic⟩

end Cert.Proof

end
